-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v93_0)) (v1 : (c : Dev Cert.KernelIdeal.nD) → Buf (Elt Ideal) ((c.tc : Thread Cert.KernelIdeal.nD Cert.KernelIdeal.τ).loc Cert.KernelIdeal.main_v93_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93_0) = v0 c
          ∧ r.2.mem ((c.tc : Thread Cert.KernelIdeal.nD Cert.KernelIdeal.τ).loc Cert.KernelIdeal.main_v93_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v181) = v0 c
          ∧ r.2.mem ((c.tc : Thread Cert.ReferenceIdeal.nD Cert.ReferenceIdeal.τ).loc Cert.ReferenceIdeal.main_v170) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000x1 : Shape := ⟨2, ![1600000, 1]⟩
abbrev S2x1600000 : Shape := ⟨2, ![2, 1600000]⟩
abbrev S1x1 : Shape := ⟨2, ![1, 1]⟩
abbrev S1 : Shape := ⟨1, ![1]⟩
abbrev S128x64 : Shape := ⟨2, ![128, 64]⟩
abbrev S64 : Shape := ⟨1, ![64]⟩
abbrev S3x64x64 : Shape := ⟨3, ![3, 64, 64]⟩
abbrev S3x64 : Shape := ⟨2, ![3, 64]⟩
abbrev S64x32 : Shape := ⟨2, ![64, 32]⟩
abbrev S32 : Shape := ⟨1, ![32]⟩
abbrev S32x1 : Shape := ⟨2, ![32, 1]⟩
abbrev S32x4 : Shape := ⟨2, ![32, 4]⟩
abbrev S4 : Shape := ⟨1, ![4]⟩
abbrev S_ : Shape := ⟨0, ![]⟩
abbrev S1x1600000 : Shape := ⟨2, ![1, 1600000]⟩
abbrev S1600000 : Shape := ⟨1, ![1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x1 : S_.BroadcastsInDim S1600000x1 (![] : Fin 0 → Fin S1600000x1.rank)
  reducesTo_S1600000x1_S_d0_1 : S1600000x1.ReducesTo [0, 1] S_
  bcast_S_S1x1 : S_.BroadcastsInDim S1x1 (![] : Fin 0 → Fin S1x1.rank)
  reducesTo_S1x1_S_d0_1 : S1x1.ReducesTo [0, 1] S_
  bcast_S_S1 : S_.BroadcastsInDim S1 (![] : Fin 0 → Fin S1.rank)
  reducesTo_S1_S_d0 : S1.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S32x4 : S_.BroadcastsInDim S32x4 (![] : Fin 0 → Fin S32x4.rank)
  reducesTo_S32x4_S_d0_1 : S32x4.ReducesTo [0, 1] S_
  bcast_S_S4 : S_.BroadcastsInDim S4 (![] : Fin 0 → Fin S4.rank)
  reducesTo_S4_S_d0 : S4.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part5 {F : FTy → Type} [FloatOps F] (main_v78 : IVec S_ 1) (main_v82 : IVec S1600000 1) (main_v84 : IVec S1600000 32) (main_v85 : IVec S1600000 32) : IVec S_ 1 :=
  let main_v86 : IVec S1600000 1 := cmpi .slt main_v84 main_v85
  let main_v87 : IVec S1600000 1 := andi main_v82 main_v86
  let main_c_32 : IVec S_ 1 := constantI S_ 1 1#1
  let main_v88 : IVec S_ 1 := (fun x v => Host.reduce IntOp.andi x v reducesTo_S1600000_S_d0 h_S_) main_v87 main_c_32
  let main_v89 : IVec S_ 1 := andi main_v78 main_v88
  main_v89

def fn_part4 {F : FTy → Type} [FloatOps F] (main_arg2 : IVec S2x1600000 32) (main_arg15 : FVec F S32x4 .f32) (main_arg16 : FVec F S4 .f32) (main_v63 : IVec S_ 1) (main_v67 : IVec S_ 1) : IVec S_ 1 :=
  let main_v68 : IVec S_ 1 := andi main_v63 main_v67
  let main_v69 : FVec F S32x4 .f32 := Host.absf main_arg15
  let main_cst_26 : FVec F S_ .f32 := constant S_ .f32 0x7F800000#32
  let main_v70 : FVec F S32x4 .f32 := broadcastInDim S32x4 ![] bcast_S_S32x4 main_cst_26
  let main_v71 : IVec S32x4 1 := cmpf .olt main_v69 main_v70
  let main_c_27 : IVec S_ 1 := constantI S_ 1 1#1
  let main_v72 : IVec S_ 1 := (fun x v => Host.reduce IntOp.andi x v reducesTo_S32x4_S_d0_1 h_S_) main_v71 main_c_27
  let main_v73 : IVec S_ 1 := andi main_v68 main_v72
  let main_v74 : FVec F S4 .f32 := Host.absf main_arg16
  let main_cst_28 : FVec F S_ .f32 := constant S_ .f32 0x7F800000#32
  let main_v75 : FVec F S4 .f32 := broadcastInDim S4 ![] bcast_S_S4 main_cst_28
  let main_v76 : IVec S4 1 := cmpf .olt main_v74 main_v75
  let main_c_29 : IVec S_ 1 := constantI S_ 1 1#1
  let main_v77 : IVec S_ 1 := (fun x v => Host.reduce IntOp.andi x v reducesTo_S4_S_d0 h_S_) main_v76 main_c_29
  let main_v78 : IVec S_ 1 := andi main_v73 main_v77
  let main_v79 : IVec S1x1600000 32 := (extractStridedSlice S1x1600000 ![0, 0] · slices_S2x1600000_S1x1600000_0_0) main_arg2
  let main_v80 : IVec S1600000 32 := shapeCast S1600000 main_v79 shapeCasts_S1x1600000_S1600000
  let main_c_30 : IVec S_ 32 := constantI S_ 32 0#32
  let main_v81 : IVec S1600000 32 := broadcastInDim S1600000 ![] bcast_S_S1600000 main_c_30
  let main_v82 : IVec S1600000 1 := cmpi .sge main_v80 main_v81
  let main_v83 : IVec S1x1600000 32 := (extractStridedSlice S1x1600000 ![0, 0] · slices_S2x1600000_S1x1600000_0_0) main_arg2
  let main_v84 : IVec S1600000 32 := shapeCast S1600000 main_v83 shapeCasts_S1x1600000_S1600000
  let main_c_31 : IVec S_ 32 := constantI S_ 32 100000#32
  let main_v85 : IVec S1600000 32 := broadcastInDim S1600000 ![] bcast_S_S1600000 main_c_31
  fn_part5 (F := F) main_v78 main_v82 main_v84 main_v85

def fn_part3 {F : FTy → Type} [FloatOps F] (main_arg2 : IVec S2x1600000 32) (main_arg12 : FVec F S1 .f32) (main_arg13 : FVec F S64x32 .f32) (main_arg14 : FVec F S32 .f32) (main_arg15 : FVec F S32x4 .f32) (main_arg16 : FVec F S4 .f32) (main_v48 : IVec S_ 1) (main_v49 : FVec F S32x1 .f32) (main_v50 : FVec F S32x1 .f32) : IVec S_ 1 :=
  let main_v51 : IVec S32x1 1 := cmpf .olt main_v49 main_v50
  let main_c_19 : IVec S_ 1 := constantI S_ 1 1#1
  let main_v52 : IVec S_ 1 := (fun x v => Host.reduce IntOp.andi x v reducesTo_S32x1_S_d0_1 h_S_) main_v51 main_c_19
  let main_v53 : IVec S_ 1 := andi main_v48 main_v52
  let main_v54 : FVec F S1 .f32 := Host.absf main_arg12
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  let main_v59 : FVec F S64x32 .f32 := Host.absf main_arg13
  let main_cst_22 : FVec F S_ .f32 := constant S_ .f32 0x7F800000#32
  let main_v60 : FVec F S64x32 .f32 := broadcastInDim S64x32 ![] bcast_S_S64x32 main_cst_22
  let main_v61 : IVec S64x32 1 := cmpf .olt main_v59 main_v60
  let main_c_23 : IVec S_ 1 := constantI S_ 1 1#1
  let main_v62 : IVec S_ 1 := (fun x v => Host.reduce IntOp.andi x v reducesTo_S64x32_S_d0_1 h_S_) main_v61 main_c_23
  let main_v63 : IVec S_ 1 := andi main_v58 main_v62
  let main_v64 : FVec F S32 .f32 := Host.absf main_arg14
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_arg2 main_arg15 main_arg16 main_v63 main_v67

def fn_part2 {F : FTy → Type} [FloatOps F] (main_arg2 : IVec S2x1600000 32) (main_arg8 : FVec F S3x64 .f32) (main_arg9 : FVec F S64x32 .f32) (main_arg10 : FVec F S32 .f32) (main_arg11 : FVec F S32x1 .f32) (main_arg12 : FVec F S1 .f32) (main_arg13 : FVec F S64x32 .f32) (main_arg14 : FVec F S32 .f32) (main_arg15 : FVec F S32x4 .f32) (main_arg16 : FVec F S4 .f32) (main_v33 : IVec S_ 1) : IVec S_ 1 :=
  let main_v34 : FVec F S3x64 .f32 := Host.absf main_arg8
  let main_cst_12 : FVec F S_ .f32 := constant S_ .f32 0x7F800000#32
  let main_v35 : FVec F S3x64 .f32 := broadcastInDim S3x64 ![] bcast_S_S3x64 main_cst_12
  let main_v36 : IVec S3x64 1 := cmpf .olt main_v34 main_v35
  let main_c_13 : IVec S_ 1 := constantI S_ 1 1#1
  let main_v37 : IVec S_ 1 := (fun x v => Host.reduce IntOp.andi x v reducesTo_S3x64_S_d0_1 h_S_) main_v36 main_c_13
  let main_v38 : IVec S_ 1 := andi main_v33 main_v37
  let main_v39 : FVec F S64x32 .f32 := Host.absf main_arg9
  let main_cst_14 : FVec F S_ .f32 := constant S_ .f32 0x7F800000#32
  let main_v40 : FVec F S64x32 .f32 := broadcastInDim S64x32 ![] bcast_S_S64x32 main_cst_14
  let main_v41 : IVec S64x32 1 := cmpf .olt main_v39 main_v40
  let main_c_15 : IVec S_ 1 := constantI S_ 1 1#1
  let main_v42 : IVec S_ 1 := (fun x v => Host.reduce IntOp.andi x v reducesTo_S64x32_S_d0_1 h_S_) main_v41 main_c_15
  let main_v43 : IVec S_ 1 := andi main_v38 main_v42
  let main_v44 : FVec F S32 .f32 := Host.absf main_arg10
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32x1 .f32 := Host.absf main_arg11
  let main_cst_18 : FVec F S_ .f32 := constant S_ .f32 0x7F800000#32
  let main_v50 : FVec F S32x1 .f32 := broadcastInDim S32x1 ![] bcast_S_S32x1 main_cst_18
  fn_part3 (F := F) main_arg2 main_arg12 main_arg13 main_arg14 main_arg15 main_arg16 main_v48 main_v49 main_v50

def fn_part1 {F : FTy → Type} [FloatOps F] (main_arg2 : IVec S2x1600000 32) (main_arg5 : FVec F S128x64 .f32) (main_arg6 : FVec F S64 .f32) (main_arg7 : FVec F S3x64x64 .f32) (main_arg8 : FVec F S3x64 .f32) (main_arg9 : FVec F S64x32 .f32) (main_arg10 : FVec F S32 .f32) (main_arg11 : FVec F S32x1 .f32) (main_arg12 : FVec F S1 .f32) (main_arg13 : FVec F S64x32 .f32) (main_arg14 : FVec F S32 .f32) (main_arg15 : FVec F S32x4 .f32) (main_arg16 : FVec F S4 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S3x64x64 .f32 := Host.absf main_arg7
  let main_cst_10 : FVec F S_ .f32 := constant S_ .f32 0x7F800000#32
  let main_v30 : FVec F S3x64x64 .f32 := broadcastInDim S3x64x64 ![] bcast_S_S3x64x64 main_cst_10
  let main_v31 : IVec S3x64x64 1 := cmpf .olt main_v29 main_v30
  let main_c_11 : IVec S_ 1 := constantI S_ 1 1#1
  let main_v32 : IVec S_ 1 := (fun x v => Host.reduce IntOp.andi x v reducesTo_S3x64x64_S_d0_1_2 h_S_) main_v31 main_c_11
  let main_v33 : IVec S_ 1 := andi main_v28 main_v32
  fn_part2 (F := F) main_arg2 main_arg8 main_arg9 main_arg10 main_arg11 main_arg12 main_arg13 main_arg14 main_arg15 main_arg16 main_v33

def fn {F : FTy → Type} [FloatOps F] (main_arg0 : FVec F S100000x128 .f32) (main_arg1 : FVec F S1600000x1 .f32) (main_arg2 : IVec S2x1600000 32) (main_arg3 : FVec F S1x1 .f32) (main_arg4 : FVec F S1 .f32) (main_arg5 : FVec F S128x64 .f32) (main_arg6 : FVec F S64 .f32) (main_arg7 : FVec F S3x64x64 .f32) (main_arg8 : FVec F S3x64 .f32) (main_arg9 : FVec F S64x32 .f32) (main_arg10 : FVec F S32 .f32) (main_arg11 : FVec F S32x1 .f32) (main_arg12 : FVec F S1 .f32) (main_arg13 : FVec F S64x32 .f32) (main_arg14 : FVec F S32 .f32) (main_arg15 : FVec F S32x4 .f32) (main_arg16 : FVec F S4 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x1 .f32 := Host.absf main_arg1
  let main_cst_0 : FVec F S_ .f32 := constant S_ .f32 0x7F800000#32
  let main_v5 : FVec F S1600000x1 .f32 := broadcastInDim S1600000x1 ![] bcast_S_S1600000x1 main_cst_0
  let main_v6 : IVec S1600000x1 1 := cmpf .olt main_v4 main_v5
  let main_c_1 : IVec S_ 1 := constantI S_ 1 1#1
  let main_v7 : IVec S_ 1 := (fun x v => Host.reduce IntOp.andi x v reducesTo_S1600000x1_S_d0_1 h_S_) main_v6 main_c_1
  let main_v8 : IVec S_ 1 := andi main_v3 main_v7
  let main_v9 : FVec F S1x1 .f32 := Host.absf main_arg3
  let main_cst_2 : FVec F S_ .f32 := constant S_ .f32 0x7F800000#32
  let main_v10 : FVec F S1x1 .f32 := broadcastInDim S1x1 ![] bcast_S_S1x1 main_cst_2
  let main_v11 : IVec S1x1 1 := cmpf .olt main_v9 main_v10
  let main_c_3 : IVec S_ 1 := constantI S_ 1 1#1
  let main_v12 : IVec S_ 1 := (fun x v => Host.reduce IntOp.andi x v reducesTo_S1x1_S_d0_1 h_S_) main_v11 main_c_3
  let main_v13 : IVec S_ 1 := andi main_v8 main_v12
  let main_v14 : FVec F S1 .f32 := Host.absf main_arg4
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg2 main_arg5 main_arg6 main_arg7 main_arg8 main_arg9 main_arg10 main_arg11 main_arg12 main_arg13 main_arg14 main_arg15 main_arg16 main_v13 main_v16
-- ==== Kernel.lean ====
abbrev S100000x128 : Shape := ⟨2, ![100000, 128]⟩
abbrev S1600000x1 : Shape := ⟨2, ![1600000, 1]⟩
abbrev S2x1600000 : Shape := ⟨2, ![2, 1600000]⟩
abbrev S1x1 : Shape := ⟨2, ![1, 1]⟩
abbrev S1 : Shape := ⟨1, ![1]⟩
abbrev S128x64 : Shape := ⟨2, ![128, 64]⟩
abbrev S64 : Shape := ⟨1, ![64]⟩
abbrev S3x64x64 : Shape := ⟨3, ![3, 64, 64]⟩
abbrev S3x64 : Shape := ⟨2, ![3, 64]⟩
abbrev S64x32 : Shape := ⟨2, ![64, 32]⟩
abbrev S32 : Shape := ⟨1, ![32]⟩
abbrev S32x1 : Shape := ⟨2, ![32, 1]⟩
abbrev S32x4 : Shape := ⟨2, ![32, 4]⟩
abbrev S4 : Shape := ⟨1, ![4]⟩
abbrev S1x1600000 : Shape := ⟨2, ![1, 1600000]⟩
abbrev S1600000 : Shape := ⟨1, ![1600000]⟩
abbrev S1x64 : Shape := ⟨2, ![1, 64]⟩
abbrev S100000x64 : Shape := ⟨2, ![100000, 64]⟩
abbrev S10000x128 : Shape := ⟨2, ![10000, 128]⟩
abbrev S10000x64 : Shape := ⟨2, ![10000, 64]⟩
abbrev S_ : Shape := ⟨0, ![]⟩
abbrev S100000 : Shape := ⟨1, ![100000]⟩
abbrev S1x64x64 : Shape := ⟨3, ![1, 64, 64]⟩
abbrev S64x64 : Shape := ⟨2, ![64, 64]⟩
abbrev S1600000x64 : Shape := ⟨2, ![1600000, 64]⟩
abbrev S100000x1 : Shape := ⟨2, ![100000, 1]⟩
abbrev S10000x1 : Shape := ⟨2, ![10000, 1]⟩
abbrev S10000 : Shape := ⟨1, ![10000]⟩
abbrev S1x32 : Shape := ⟨2, ![1, 32]⟩
abbrev S1x4 : Shape := ⟨2, ![1, 4]⟩
abbrev S100000x4 : Shape := ⟨2, ![100000, 4]⟩
abbrev S10000x4 : Shape := ⟨2, ![10000, 4]⟩
abbrev S10000x32 : Shape := ⟨2, ![10000, 32]⟩

abbrev nBuf : Space → Nat
  | .hbm => 195
  | .vmem => 71
  | .smem => 0
  | _ => 0

abbrev hbmTy0_0 (i : Nat) : BufTy := match i % 128 with
  | 0 => ⟨S100000x128, .f32⟩
  | 1 => ⟨S1600000x1, .f32⟩
  | 2 => ⟨S2x1600000, .i32⟩
  | 3 => ⟨S1x1, .f32⟩
  | 4 => ⟨S1, .f32⟩
  | 5 => ⟨S128x64, .f32⟩
  | 6 => ⟨S64, .f32⟩
  | 7 => ⟨S3x64x64, .f32⟩
  | 8 => ⟨S3x64, .f32⟩
  | 9 => ⟨S64x32, .f32⟩
  | 10 => ⟨S32, .f32⟩
  | 11 => ⟨S32x1, .f32⟩
  | 12 => ⟨S1, .f32⟩
  | 13 => ⟨S64x32, .f32⟩
  | 14 => ⟨S32, .f32⟩
  | 15 => ⟨S32x4, .f32⟩
  | 16 => ⟨S4, .f32⟩
  | 17 => ⟨S1x1600000, .i32⟩
  | 18 => ⟨S1600000, .i32⟩
  | 19 => ⟨S1x1600000, .i32⟩
  | 20 => ⟨S1600000, .i32⟩
  | 21 => ⟨S1x64, .f32⟩
  | 22 => ⟨S100000x64, .f32⟩
  | 23 => ⟨S1600000x1, .f32⟩
  | 24 => ⟨S1x1, .f32⟩
  | 25 => ⟨S1600000x1, .f32⟩
  | 26 => ⟨S1600000x1, .f32⟩
  | 27 => ⟨S1600000, .f32⟩
  | 28 => ⟨S_, .f32⟩
  | 29 => ⟨S100000, .f32⟩
  | 30 => ⟨S1600000x1, .i32⟩
  | 31 => ⟨S100000, .f32⟩
  | 32 => ⟨S_, .f32⟩
  | 33 => ⟨S100000, .f32⟩
  | 34 => ⟨S100000, .f32⟩
  | 35 => ⟨S_, .f32⟩
  | 36 => ⟨S100000, .f32⟩
  | 37 => ⟨S100000, .i1⟩
  | 38 => ⟨S100000, .f32⟩
  | 39 => ⟨S_, .f32⟩
  | 40 => ⟨S_, .f32⟩
  | 41 => ⟨S100000, .f32⟩
  | 42 => ⟨S100000, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000, .f32⟩
  | 52 => ⟨S1600000, .f32⟩
  | 53 => ⟨S_, .i32⟩
  | 54 => ⟨S1600000, .i32⟩
  | 55 => ⟨S1600000, .i1⟩
  | 56 => ⟨S_, .i32⟩
  | 57 => ⟨S1600000, .i32⟩
  | 58 => ⟨S1600000, .i32⟩
  | 59 => ⟨S1600000, .i32⟩
  | 60 => ⟨S1600000x1, .i32⟩
  | 61 => ⟨S1600000, .f32⟩
  | 62 => ⟨S1600000, .f32⟩
  | 63 => ⟨S100000, .f32⟩
  | 64 => ⟨S1x64x64, .f32⟩
  | 65 => ⟨S64x64, .f32⟩
  | 66 => ⟨S_, .f32⟩
  | 67 => ⟨S64, .f32⟩
  | 68 => ⟨S1x64, .f32⟩
  | 69 => ⟨S100000x64, .f32⟩
  | 70 => ⟨S_, .i32⟩
  | 71 => ⟨S1600000, .i32⟩
  | 72 => ⟨S1600000, .i1⟩
  | 73 => ⟨S_, .i32⟩
  | 74 => ⟨S1600000, .i32⟩
  | 75 => ⟨S1600000, .i32⟩
  | 76 => ⟨S1600000, .i32⟩
  | 77 => ⟨S1600000x1, .i32⟩
  | 78 => ⟨S1, .i32⟩
  | 79 => ⟨S_, .i32⟩
  | 80 => ⟨S1600000x1, .i32⟩
  | 81 => ⟨S1600000x1, .i1⟩
  | 82 => ⟨S1x1, .i32⟩
  | 83 => ⟨S1600000x1, .i32⟩
  | 84 => ⟨S1600000x1, .i1⟩
  | 85 => ⟨S1600000x1, .i1⟩
  | 86 => ⟨S_, .i1⟩
  | 87 => ⟨S1600000, .i1⟩
  | 88 => ⟨S1600000x64, .f32⟩
  | 89 => ⟨S1600000x64, .i1⟩
  | 90 => ⟨S_, .f32⟩
  | 91 => ⟨S1600000x64, .f32⟩
  | 92 => ⟨S1600000x64, .f32⟩
  | 93 => ⟨S1600000x1, .f32⟩
  | 94 => ⟨S1600000x64, .f32⟩
  | 95 => ⟨S1600000x64, .f32⟩
  | 96 => ⟨S_, .f32⟩
  | 97 => ⟨S100000x64, .f32⟩
  | 98 => ⟨S1600000x1, .i32⟩
  | 99 => ⟨S100000x64, .f32⟩
  | 100 => ⟨S_, .f32⟩
  | 101 => ⟨S100000x64, .f32⟩
  | 102 => ⟨S1x64, .f32⟩
  | 103 => ⟨S64, .f32⟩
  | 104 => ⟨S1x64, .f32⟩
  | 105 => ⟨S100000x1, .f32⟩
  | 106 => ⟨S100000x64, .f32⟩
  | 107 => ⟨S1x64x64, .f32⟩
  | 108 => ⟨S64x64, .f32⟩
  | 109 => ⟨S_, .f32⟩
  | 110 => ⟨S64, .f32⟩
  | 111 => ⟨S1x64, .f32⟩
  | 112 => ⟨S100000x64, .f32⟩
  | 113 => ⟨S_, .i32⟩
  | 114 => ⟨S1600000, .i32⟩
  | 115 => ⟨S1600000, .i1⟩
  | 116 => ⟨S_, .i32⟩
  | 117 => ⟨S1600000, .i32⟩
  | 118 => ⟨S1600000, .i32⟩
  | 119 => ⟨S1600000, .i32⟩
  | 120 => ⟨S1600000x1, .i32⟩
  | 121 => ⟨S1, .i32⟩
  | 122 => ⟨S_, .i32⟩
  | 123 => ⟨S1600000x1, .i32⟩
  | 124 => ⟨S1600000x1, .i1⟩
  | 125 => ⟨S1x1, .i32⟩
  | 126 => ⟨S1600000x1, .i32⟩
  | 127 => ⟨S1600000x1, .i1⟩
  | _ => ⟨S100000x128, .f32⟩

abbrev hbmTy0_1 (i : Nat) : BufTy := match i % 128 with
  | 0 => ⟨S1600000x1, .i1⟩
  | 1 => ⟨S_, .i1⟩
  | 2 => ⟨S1600000, .i1⟩
  | 3 => ⟨S1600000x64, .f32⟩
  | 4 => ⟨S1600000x64, .i1⟩
  | 5 => ⟨S_, .f32⟩
  | 6 => ⟨S1600000x64, .f32⟩
  | 7 => ⟨S1600000x64, .f32⟩
  | 8 => ⟨S1600000x1, .f32⟩
  | 9 => ⟨S1600000x64, .f32⟩
  | 10 => ⟨S1600000x64, .f32⟩
  | 11 => ⟨S_, .f32⟩
  | 12 => ⟨S100000x64, .f32⟩
  | 13 => ⟨S1600000x1, .i32⟩
  | 14 => ⟨S100000x64, .f32⟩
  | 15 => ⟨S1x64, .f32⟩
  | 16 => ⟨S64, .f32⟩
  | 17 => ⟨S1x64, .f32⟩
  | 18 => ⟨S100000x1, .f32⟩
  | 19 => ⟨S100000x64, .f32⟩
  | 20 => ⟨S1x64x64, .f32⟩
  | 21 => ⟨S64x64, .f32⟩
  | 22 => ⟨S_, .f32⟩
  | 23 => ⟨S64, .f32⟩
  | 24 => ⟨S1x64, .f32⟩
  | 25 => ⟨S100000x64, .f32⟩
  | 26 => ⟨S_, .i32⟩
  | 27 => ⟨S1600000, .i32⟩
  | 28 => ⟨S1600000, .i1⟩
  | 29 => ⟨S_, .i32⟩
  | 30 => ⟨S1600000, .i32⟩
  | 31 => ⟨S1600000, .i32⟩
  | 32 => ⟨S1600000, .i32⟩
  | 33 => ⟨S1600000x1, .i32⟩
  | 34 => ⟨S1, .i32⟩
  | 35 => ⟨S_, .i32⟩
  | 36 => ⟨S1600000x1, .i32⟩
  | 37 => ⟨S1600000x1, .i1⟩
  | 38 => ⟨S1x1, .i32⟩
  | 39 => ⟨S1600000x1, .i32⟩
  | 40 => ⟨S1600000x1, .i1⟩
  | 41 => ⟨S1600000x1, .i1⟩
  | 42 => ⟨S_, .i1⟩
  | 43 => ⟨S1600000, .i1⟩
  | 44 => ⟨S1600000x64, .f32⟩
  | 45 => ⟨S1600000x64, .i1⟩
  | 46 => ⟨S_, .f32⟩
  | 47 => ⟨S1600000x64, .f32⟩
  | 48 => ⟨S1600000x64, .f32⟩
  | 49 => ⟨S1600000x1, .f32⟩
  | 50 => ⟨S1600000x64, .f32⟩
  | 51 => ⟨S1600000x64, .f32⟩
  | 52 => ⟨S_, .f32⟩
  | 53 => ⟨S100000x64, .f32⟩
  | 54 => ⟨S1600000x1, .i32⟩
  | 55 => ⟨S100000x64, .f32⟩
  | 56 => ⟨S1x64, .f32⟩
  | 57 => ⟨S64, .f32⟩
  | 58 => ⟨S1x64, .f32⟩
  | 59 => ⟨S100000x1, .f32⟩
  | 60 => ⟨S100000x64, .f32⟩
  | 61 => ⟨S1x32, .f32⟩
  | 62 => ⟨S1x1, .f32⟩
  | 63 => ⟨S1x32, .f32⟩
  | 64 => ⟨S1x4, .f32⟩
  | 65 => ⟨S100000x4, .f32⟩
  | 66 => ⟨S100000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S64x64, .f32⟩
  | .local _ .vmem, ⟨9, _⟩ => ⟨S1x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x1, .f32⟩
  | .local _ .vmem, ⟨17, _⟩ => ⟨S10000x1, .f32⟩
  | .local _ .vmem, ⟨18, _⟩ => ⟨S1x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S10000x64, .f32⟩
  | .local _ .vmem, ⟨25, _⟩ => ⟨S64x64, .f32⟩
  | .local _ .vmem, ⟨26, _⟩ => ⟨S1x64, .f32⟩
  | .local _ .vmem, ⟨27, _⟩ => ⟨S10000x64, .f32⟩
  | .local _ .vmem, ⟨28, _⟩ => ⟨S10000x64, .f32⟩
  | .local _ .vmem, ⟨29, _⟩ => ⟨S10000x64, .f32⟩
  | .local _ .vmem, ⟨30, _⟩ => ⟨S10000x64, .f32⟩
  | .local _ .vmem, ⟨31, _⟩ => ⟨S10000x64, .f32⟩
  | .local _ .vmem, ⟨32, _⟩ => ⟨S10000x64, .f32⟩
  | .local _ .vmem, ⟨33, _⟩ => ⟨S10000x1, .f32⟩
  | .local _ .vmem, ⟨34, _⟩ => ⟨S10000x1, .f32⟩
  | .local _ .vmem, ⟨35, _⟩ => ⟨S1x64, .f32⟩
  | .local _ .vmem, ⟨36, _⟩ => ⟨S10000x64, .f32⟩
  | .local _ .vmem, ⟨37, _⟩ => ⟨S10000x64, .f32⟩
  | .local _ .vmem, ⟨38, _⟩ => ⟨S10000x64, .f32⟩
  | .local _ .vmem, ⟨39, _⟩ => ⟨S10000x64, .f32⟩
  | .local _ .vmem, ⟨40, _⟩ => ⟨S10000x64, .f32⟩
  | .local _ .vmem, ⟨41, _⟩ => ⟨S10000x64, .f32⟩
  | .local _ .vmem, ⟨42, _⟩ => ⟨S64x64, .f32⟩
  | .local _ .vmem, ⟨43, _⟩ => ⟨S1x64, .f32⟩
  | .local _ .vmem, ⟨44, _⟩ => ⟨S10000x64, .f32⟩
  | .local _ .vmem, ⟨45, _⟩ => ⟨S10000x64, .f32⟩
  | .local _ .vmem, ⟨46, _⟩ => ⟨S10000x64, .f32⟩
  | .local _ .vmem, ⟨47, _⟩ => ⟨S10000x64, .f32⟩
  | .local _ .vmem, ⟨48, _⟩ => ⟨S10000x64, .f32⟩
  | .local _ .vmem, ⟨49, _⟩ => ⟨S10000x64, .f32⟩
  | .local _ .vmem, ⟨50, _⟩ => ⟨S10000x1, .f32⟩
  | .local _ .vmem, ⟨51, _⟩ => ⟨S10000x1, .f32⟩
  | .local _ .vmem, ⟨52, _⟩ => ⟨S1x64, .f32⟩
  | .local _ .vmem, ⟨53, _⟩ => ⟨S10000x64, .f32⟩
  | .local _ .vmem, ⟨54, _⟩ => ⟨S10000x64, .f32⟩
  | .local _ .vmem, ⟨55, _⟩ => ⟨S10000x64, .f32⟩
  | .local _ .vmem, ⟨56, _⟩ => ⟨S10000x64, .f32⟩
  | .local _ .vmem, ⟨57, _⟩ => ⟨S10000x64, .f32⟩
  | .local _ .vmem, ⟨58, _⟩ => ⟨S10000x64, .f32⟩
  | .local _ .vmem, ⟨59, _⟩ => ⟨S64x32, .f32⟩
  | .local _ .vmem, ⟨60, _⟩ => ⟨S1x32, .f32⟩
  | .local _ .vmem, ⟨61, _⟩ => ⟨S32x1, .f32⟩
  | .local _ .vmem, ⟨62, _⟩ => ⟨S1x1, .f32⟩
  | .local _ .vmem, ⟨63, _⟩ => ⟨S64x32, .f32⟩
  | .local _ .vmem, ⟨64, _⟩ => ⟨S1x32, .f32⟩
  | .local _ .vmem, ⟨65, _⟩ => ⟨S32x4, .f32⟩
  | .local _ .vmem, ⟨66, _⟩ => ⟨S1x4, .f32⟩
  | .local _ .vmem, ⟨67, _⟩ => ⟨S10000x4, .f32⟩
  | .local _ .vmem, ⟨68, _⟩ => ⟨S10000x4, .f32⟩
  | .local _ .vmem, ⟨69, _⟩ => ⟨S10000x1, .f32⟩
  | .local _ .vmem, ⟨70, _⟩ => ⟨S10000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | _, _ => false

abbrev semScoped : Fin 0 → Bool
  | ⟨_, h⟩ => absurd h (Nat.not_lt_zero _)

abbrev dmaSemScoped : Fin 71 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | _ => false

abbrev sig : RefSig :=
  ofTc nBuf bufTy 0 71 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_0 : Ref sig .tc := ⟨.hbm, 32, rfl⟩
abbrev main_v14 : Ref sig .tc := ⟨.hbm, 33, rfl⟩
abbrev main_v15 : Ref sig .tc := ⟨.hbm, 34, rfl⟩
abbrev main_cst_1 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_2 : Ref sig .tc := ⟨.hbm, 39, rfl⟩
abbrev main_call0_v0 : Ref sig .tc := ⟨.hbm, 40, rfl⟩
abbrev main_call0_v1 : Ref sig .tc := ⟨.hbm, 41, rfl⟩
abbrev main_v19 : Ref sig .tc := ⟨.hbm, 42, rfl⟩
abbrev main_c : Ref sig .tc := ⟨.hbm, 43, rfl⟩
abbrev main_v20 : Ref sig .tc := ⟨.hbm, 44, rfl⟩
abbrev main_v21 : Ref sig .tc := ⟨.hbm, 45, rfl⟩
abbrev main_c_3 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_c_4 : Ref sig .tc := ⟨.hbm, 53, rfl⟩
abbrev main_v28 : Ref sig .tc := ⟨.hbm, 54, rfl⟩
abbrev main_v29 : Ref sig .tc := ⟨.hbm, 55, rfl⟩
abbrev main_c_5 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_6 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_call1_c : Ref sig .tc := ⟨.hbm, 70, rfl⟩
abbrev main_call1_v0 : Ref sig .tc := ⟨.hbm, 71, rfl⟩
abbrev main_call1_v1 : Ref sig .tc := ⟨.hbm, 72, rfl⟩
abbrev main_call1_c_0 : Ref sig .tc := ⟨.hbm, 73, rfl⟩
abbrev main_call1_v2 : Ref sig .tc := ⟨.hbm, 74, rfl⟩
abbrev main_call1_v3 : Ref sig .tc := ⟨.hbm, 75, rfl⟩
abbrev main_call1_v4 : Ref sig .tc := ⟨.hbm, 76, rfl⟩
abbrev main_call1_v5 : Ref sig .tc := ⟨.hbm, 77, rfl⟩
abbrev main_call1_c_1 : Ref sig .tc := ⟨.hbm, 78, rfl⟩
abbrev main_call1_c_2 : Ref sig .tc := ⟨.hbm, 79, rfl⟩
abbrev main_call1_v6 : Ref sig .tc := ⟨.hbm, 80, rfl⟩
abbrev main_call1_v7 : Ref sig .tc := ⟨.hbm, 81, rfl⟩
abbrev main_call1_v8 : Ref sig .tc := ⟨.hbm, 82, rfl⟩
abbrev main_call1_v9 : Ref sig .tc := ⟨.hbm, 83, rfl⟩
abbrev main_call1_v10 : Ref sig .tc := ⟨.hbm, 84, rfl⟩
abbrev main_call1_v11 : Ref sig .tc := ⟨.hbm, 85, rfl⟩
abbrev main_call1_c_3 : Ref sig .tc := ⟨.hbm, 86, rfl⟩
abbrev main_call1_v12 : Ref sig .tc := ⟨.hbm, 87, rfl⟩
abbrev main_call1_v13 : Ref sig .tc := ⟨.hbm, 88, rfl⟩
abbrev main_call1_v14 : Ref sig .tc := ⟨.hbm, 89, rfl⟩
abbrev main_call1_cst : Ref sig .tc := ⟨.hbm, 90, rfl⟩
abbrev main_call1_v15 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_cst_7 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_cst_8 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_cst_9 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_call2_c : Ref sig .tc := ⟨.hbm, 113, rfl⟩
abbrev main_call2_v0 : Ref sig .tc := ⟨.hbm, 114, rfl⟩
abbrev main_call2_v1 : Ref sig .tc := ⟨.hbm, 115, rfl⟩
abbrev main_call2_c_0 : Ref sig .tc := ⟨.hbm, 116, rfl⟩
abbrev main_call2_v2 : Ref sig .tc := ⟨.hbm, 117, rfl⟩
abbrev main_call2_v3 : Ref sig .tc := ⟨.hbm, 118, rfl⟩
abbrev main_call2_v4 : Ref sig .tc := ⟨.hbm, 119, rfl⟩
abbrev main_call2_v5 : Ref sig .tc := ⟨.hbm, 120, rfl⟩
abbrev main_call2_c_1 : Ref sig .tc := ⟨.hbm, 121, rfl⟩
abbrev main_call2_c_2 : Ref sig .tc := ⟨.hbm, 122, rfl⟩
abbrev main_call2_v6 : Ref sig .tc := ⟨.hbm, 123, rfl⟩
abbrev main_call2_v7 : Ref sig .tc := ⟨.hbm, 124, rfl⟩
abbrev main_call2_v8 : Ref sig .tc := ⟨.hbm, 125, rfl⟩
abbrev main_call2_v9 : Ref sig .tc := ⟨.hbm, 126, rfl⟩
abbrev main_call2_v10 : Ref sig .tc := ⟨.hbm, 127, rfl⟩
abbrev main_call2_v11 : Ref sig .tc := ⟨.hbm, 128, rfl⟩
abbrev main_call2_c_3 : Ref sig .tc := ⟨.hbm, 129, rfl⟩
abbrev main_call2_v12 : Ref sig .tc := ⟨.hbm, 130, rfl⟩
abbrev main_call2_v13 : Ref sig .tc := ⟨.hbm, 131, rfl⟩
abbrev main_call2_v14 : Ref sig .tc := ⟨.hbm, 132, rfl⟩
abbrev main_call2_cst : Ref sig .tc := ⟨.hbm, 133, rfl⟩
abbrev main_call2_v15 : Ref sig .tc := ⟨.hbm, 134, rfl⟩
abbrev main_v60 : Ref sig .tc := ⟨.hbm, 135, rfl⟩
abbrev main_v61 : Ref sig .tc := ⟨.hbm, 136, rfl⟩
abbrev main_v62 : Ref sig .tc := ⟨.hbm, 137, rfl⟩
abbrev main_v63 : Ref sig .tc := ⟨.hbm, 138, rfl⟩
abbrev main_cst_10 : Ref sig .tc := ⟨.hbm, 139, rfl⟩
abbrev main_v64 : Ref sig .tc := ⟨.hbm, 140, rfl⟩
abbrev main_v65 : Ref sig .tc := ⟨.hbm, 141, rfl⟩
abbrev main_v66 : Ref sig .tc := ⟨.hbm, 142, rfl⟩
abbrev main_v67 : Ref sig .tc := ⟨.hbm, 143, rfl⟩
abbrev main_v68 : Ref sig .tc := ⟨.hbm, 144, rfl⟩
abbrev main_v69 : Ref sig .tc := ⟨.hbm, 145, rfl⟩
abbrev main_v70 : Ref sig .tc := ⟨.hbm, 146, rfl⟩
abbrev main_v71 : Ref sig .tc := ⟨.hbm, 147, rfl⟩
abbrev main_v72 : Ref sig .tc := ⟨.hbm, 148, rfl⟩
abbrev main_v73 : Ref sig .tc := ⟨.hbm, 149, rfl⟩
abbrev main_cst_11 : Ref sig .tc := ⟨.hbm, 150, rfl⟩
abbrev main_v74 : Ref sig .tc := ⟨.hbm, 151, rfl⟩
abbrev main_v75 : Ref sig .tc := ⟨.hbm, 152, rfl⟩
abbrev main_v76 : Ref sig .tc := ⟨.hbm, 153, rfl⟩
abbrev main_call3_c : Ref sig .tc := ⟨.hbm, 154, rfl⟩
abbrev main_call3_v0 : Ref sig .tc := ⟨.hbm, 155, rfl⟩
abbrev main_call3_v1 : Ref sig .tc := ⟨.hbm, 156, rfl⟩
abbrev main_call3_c_0 : Ref sig .tc := ⟨.hbm, 157, rfl⟩
abbrev main_call3_v2 : Ref sig .tc := ⟨.hbm, 158, rfl⟩
abbrev main_call3_v3 : Ref sig .tc := ⟨.hbm, 159, rfl⟩
abbrev main_call3_v4 : Ref sig .tc := ⟨.hbm, 160, rfl⟩
abbrev main_call3_v5 : Ref sig .tc := ⟨.hbm, 161, rfl⟩
abbrev main_call3_c_1 : Ref sig .tc := ⟨.hbm, 162, rfl⟩
abbrev main_call3_c_2 : Ref sig .tc := ⟨.hbm, 163, rfl⟩
abbrev main_call3_v6 : Ref sig .tc := ⟨.hbm, 164, rfl⟩
abbrev main_call3_v7 : Ref sig .tc := ⟨.hbm, 165, rfl⟩
abbrev main_call3_v8 : Ref sig .tc := ⟨.hbm, 166, rfl⟩
abbrev main_call3_v9 : Ref sig .tc := ⟨.hbm, 167, rfl⟩
abbrev main_call3_v10 : Ref sig .tc := ⟨.hbm, 168, rfl⟩
abbrev main_call3_v11 : Ref sig .tc := ⟨.hbm, 169, rfl⟩
abbrev main_call3_c_3 : Ref sig .tc := ⟨.hbm, 170, rfl⟩
abbrev main_call3_v12 : Ref sig .tc := ⟨.hbm, 171, rfl⟩
abbrev main_call3_v13 : Ref sig .tc := ⟨.hbm, 172, rfl⟩
abbrev main_call3_v14 : Ref sig .tc := ⟨.hbm, 173, rfl⟩
abbrev main_call3_cst : Ref sig .tc := ⟨.hbm, 174, rfl⟩
abbrev main_call3_v15 : Ref sig .tc := ⟨.hbm, 175, rfl⟩
abbrev main_v77 : Ref sig .tc := ⟨.hbm, 176, rfl⟩
abbrev main_v78 : Ref sig .tc := ⟨.hbm, 177, rfl⟩
abbrev main_v79 : Ref sig .tc := ⟨.hbm, 178, rfl⟩
abbrev main_v80 : Ref sig .tc := ⟨.hbm, 179, rfl⟩
abbrev main_cst_12 : Ref sig .tc := ⟨.hbm, 180, rfl⟩
abbrev main_v81 : Ref sig .tc := ⟨.hbm, 181, rfl⟩
abbrev main_v82 : Ref sig .tc := ⟨.hbm, 182, rfl⟩
abbrev main_v83 : Ref sig .tc := ⟨.hbm, 183, rfl⟩
abbrev main_v84 : Ref sig .tc := ⟨.hbm, 184, rfl⟩
abbrev main_v85 : Ref sig .tc := ⟨.hbm, 185, rfl⟩
abbrev main_v86 : Ref sig .tc := ⟨.hbm, 186, rfl⟩
abbrev main_v87 : Ref sig .tc := ⟨.hbm, 187, rfl⟩
abbrev main_v88 : Ref sig .tc := ⟨.hbm, 188, rfl⟩
abbrev main_v89 : Ref sig .tc := ⟨.hbm, 189, rfl⟩
abbrev main_v90 : Ref sig .tc := ⟨.hbm, 190, rfl⟩
abbrev main_v91 : Ref sig .tc := ⟨.hbm, 191, rfl⟩
abbrev main_v92 : Ref sig .tc := ⟨.hbm, 192, rfl⟩
abbrev main_v93_0 : Ref sig .tc := ⟨.hbm, 193, rfl⟩
abbrev main_v93_1 : Ref sig .tc := ⟨.hbm, 194, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc2_stg5_0 : Ref sig .tc := ⟨.vmem, 21, rfl⟩
abbrev cc2_stg5_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg3_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg1_1 : Ref sig .tc := ⟨.vmem, 32, rfl⟩
abbrev cc4_stg2_0 : Ref sig .tc := ⟨.vmem, 33, rfl⟩
abbrev cc4_stg2_1 : Ref sig .tc := ⟨.vmem, 34, rfl⟩
abbrev cc4_stg3_0 : Ref sig .tc := ⟨.vmem, 35, rfl⟩
abbrev cc4_stg4_0 : Ref sig .tc := ⟨.vmem, 36, rfl⟩
abbrev cc4_stg4_1 : Ref sig .tc := ⟨.vmem, 37, rfl⟩
abbrev cc4_stg5_0 : Ref sig .tc := ⟨.vmem, 38, rfl⟩
abbrev cc4_stg5_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg2_0 : Ref sig .tc := ⟨.vmem, 43, rfl⟩
abbrev cc5_stg3_0 : Ref sig .tc := ⟨.vmem, 44, rfl⟩
abbrev cc5_stg3_1 : Ref sig .tc := ⟨.vmem, 45, rfl⟩
abbrev cc6_stg0_0 : Ref sig .tc := ⟨.vmem, 46, rfl⟩
abbrev cc6_stg0_1 : Ref sig .tc := ⟨.vmem, 47, rfl⟩
abbrev cc6_stg1_0 : Ref sig .tc := ⟨.vmem, 48, rfl⟩
abbrev cc6_stg1_1 : Ref sig .tc := ⟨.vmem, 49, rfl⟩
abbrev cc6_stg2_0 : Ref sig .tc := ⟨.vmem, 50, rfl⟩
abbrev cc6_stg2_1 : Ref sig .tc := ⟨.vmem, 51, rfl⟩
abbrev cc6_stg3_0 : Ref sig .tc := ⟨.vmem, 52, rfl⟩
abbrev cc6_stg4_0 : Ref sig .tc := ⟨.vmem, 53, rfl⟩
abbrev cc6_stg4_1 : Ref sig .tc := ⟨.vmem, 54, rfl⟩
abbrev cc6_stg5_0 : Ref sig .tc := ⟨.vmem, 55, rfl⟩
abbrev cc6_stg5_1 : Ref sig .tc := ⟨.vmem, 56, rfl⟩
abbrev cc7_stg0_0 : Ref sig .tc := ⟨.vmem, 57, rfl⟩
abbrev cc7_stg0_1 : Ref sig .tc := ⟨.vmem, 58, rfl⟩
abbrev cc7_stg1_0 : Ref sig .tc := ⟨.vmem, 59, rfl⟩
abbrev cc7_stg2_0 : Ref sig .tc := ⟨.vmem, 60, rfl⟩
abbrev cc7_stg3_0 : Ref sig .tc := ⟨.vmem, 61, rfl⟩
abbrev cc7_stg4_0 : Ref sig .tc := ⟨.vmem, 62, rfl⟩
abbrev cc7_stg5_0 : Ref sig .tc := ⟨.vmem, 63, rfl⟩
abbrev cc7_stg6_0 : Ref sig .tc := ⟨.vmem, 64, rfl⟩
abbrev cc7_stg7_0 : Ref sig .tc := ⟨.vmem, 65, rfl⟩
abbrev cc7_stg8_0 : Ref sig .tc := ⟨.vmem, 66, rfl⟩
abbrev cc7_stg9_0 : Ref sig .tc := ⟨.vmem, 67, rfl⟩
abbrev cc7_stg9_1 : Ref sig .tc := ⟨.vmem, 68, rfl⟩
abbrev cc7_stg10_0 : Ref sig .tc := ⟨.vmem, 69, rfl⟩
abbrev cc7_stg10_1 : Ref sig .tc := ⟨.vmem, 70, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem4_1 : DmaSem sig := 20
abbrev cc2_sem5_0 : DmaSem sig := 21
abbrev cc2_sem5_1 : DmaSem sig := 22
abbrev cc3_sem0_0 : DmaSem sig := 23
abbrev cc3_sem0_1 : DmaSem sig := 24
abbrev cc3_sem1_0 : DmaSem sig := 25
abbrev cc3_sem2_0 : DmaSem sig := 26
abbrev cc3_sem3_0 : DmaSem sig := 27
abbrev cc3_sem3_1 : DmaSem sig := 28
abbrev cc4_sem0_0 : DmaSem sig := 29
abbrev cc4_sem0_1 : DmaSem sig := 30
abbrev cc4_sem1_0 : DmaSem sig := 31
abbrev cc4_sem1_1 : DmaSem sig := 32
abbrev cc4_sem2_0 : DmaSem sig := 33
abbrev cc4_sem2_1 : DmaSem sig := 34
abbrev cc4_sem3_0 : DmaSem sig := 35
abbrev cc4_sem4_0 : DmaSem sig := 36
abbrev cc4_sem4_1 : DmaSem sig := 37
abbrev cc4_sem5_0 : DmaSem sig := 38
abbrev cc4_sem5_1 : DmaSem sig := 39
abbrev cc5_sem0_0 : DmaSem sig := 40
abbrev cc5_sem0_1 : DmaSem sig := 41
abbrev cc5_sem1_0 : DmaSem sig := 42
abbrev cc5_sem2_0 : DmaSem sig := 43
abbrev cc5_sem3_0 : DmaSem sig := 44
abbrev cc5_sem3_1 : DmaSem sig := 45
abbrev cc6_sem0_0 : DmaSem sig := 46
abbrev cc6_sem0_1 : DmaSem sig := 47
abbrev cc6_sem1_0 : DmaSem sig := 48
abbrev cc6_sem1_1 : DmaSem sig := 49
abbrev cc6_sem2_0 : DmaSem sig := 50
abbrev cc6_sem2_1 : DmaSem sig := 51
abbrev cc6_sem3_0 : DmaSem sig := 52
abbrev cc6_sem4_0 : DmaSem sig := 53
abbrev cc6_sem4_1 : DmaSem sig := 54
abbrev cc6_sem5_0 : DmaSem sig := 55
abbrev cc6_sem5_1 : DmaSem sig := 56
abbrev cc7_sem0_0 : DmaSem sig := 57
abbrev cc7_sem0_1 : DmaSem sig := 58
abbrev cc7_sem1_0 : DmaSem sig := 59
abbrev cc7_sem2_0 : DmaSem sig := 60
abbrev cc7_sem3_0 : DmaSem sig := 61
abbrev cc7_sem4_0 : DmaSem sig := 62
abbrev cc7_sem5_0 : DmaSem sig := 63
abbrev cc7_sem6_0 : DmaSem sig := 64
abbrev cc7_sem7_0 : DmaSem sig := 65
abbrev cc7_sem8_0 : DmaSem sig := 66
abbrev cc7_sem9_0 : DmaSem sig := 67
abbrev cc7_sem9_1 : DmaSem sig := 68
abbrev cc7_sem10_0 : DmaSem sig := 69
abbrev cc7_sem10_1 : DmaSem sig := 70

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S10000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S10000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S10000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S10000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S10000x64 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 2 → Memref sig .tc .vmem S10000x64 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_8 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_9 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_10 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S64x32 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x32 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S32x1 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x1 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S64x32 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x32 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S32x4 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev stage7_8 : Fin 1 → Memref sig .tc .vmem S1x4 .f32 := fun | 0 => Memref.whole cc7_stg8_0 | ⟨_ + 1, h⟩ => absurd h (Nat.not_lt.2 (Nat.le_add_left _ _))
abbrev sem7_8 : Fin 1 → DmaSem sig := fun | 0 => cc7_sem8_0 | ⟨_ + 1, h⟩ => absurd h (Nat.not_lt.2 (Nat.le_add_left _ _))
abbrev reads7_8 : Fin grid7.rank → Bool := ![false]

abbrev stage7_9 : Fin 2 → Memref sig .tc .vmem S10000x4 .f32 := fun | 0 => Memref.whole cc7_stg9_0 | 1 => Memref.whole cc7_stg9_1 | ⟨_ + 2, h⟩ => absurd h (Nat.not_lt.2 (Nat.le_add_left _ _))
abbrev sem7_9 : Fin 2 → DmaSem sig := fun | 0 => cc7_sem9_0 | 1 => cc7_sem9_1 | ⟨_ + 2, h⟩ => absurd h (Nat.not_lt.2 (Nat.le_add_left _ _))
abbrev reads7_9 : Fin grid7.rank → Bool := ![true]

abbrev stage7_10 : Fin 2 → Memref sig .tc .vmem S10000x1 .f32 := fun | 0 => Memref.whole cc7_stg10_0 | 1 => Memref.whole cc7_stg10_1 | ⟨_ + 2, h⟩ => absurd h (Nat.not_lt.2 (Nat.le_add_left _ _))
abbrev sem7_10 : Fin 2 → DmaSem sig := fun | 0 => cc7_sem10_0 | 1 => cc7_sem10_1 | ⟨_ + 2, h⟩ => absurd h (Nat.not_lt.2 (Nat.le_add_left _ _))
abbrev reads7_10 : Fin grid7.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  shapeCasts_S1600000x1_S1600000 : S1600000x1.ShapeCasts S1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  slices_S3x64x64_S1x64x64_0_0_0 : S3x64x64.Slices ![0, 0, 0] S1x64x64
  shapeCasts_S1x64x64_S64x64 : S1x64x64.ShapeCasts S64x64
  bcast_S_S64 : S_.BroadcastsInDim S64 (![] : Fin 0 → Fin S64.rank)
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S_S1600000x1 : S_.BroadcastsInDim S1600000x1 (![] : Fin 0 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  slices_S3x64_S1x64_0_0 : S3x64.Slices ![0, 0] S1x64
  shapeCasts_S1x64_S64 : S1x64.ShapeCasts S64
  shapeCasts_S100000_S100000x1 : S100000.ShapeCasts S100000x1
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  reduces_S10000x64_S10000 : S10000x64.Reduces [1] S10000
  shapeCasts_S10000_S10000x1 : S10000.ShapeCasts S10000x1
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  shapeCasts_S32_S1x32 : S32.ShapeCasts S1x32
  shapeCasts_S1_S1x1 : S1.ShapeCasts S1x1
  shapeCasts_S4_S1x4 : S4.ShapeCasts S1x4
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S32x4_S32x4_0_0 : ∀ a, (![0, 0] : Fin 2 → Nat) a + S32x4.size a ≤ S32x4.size a
  h_S32x4 : 0 < S32x4.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S10000x4 : S1x4.Broadcasts S10000x4
  inb_S10000x4_S10000x4_0_0 : ∀ a, (![0, 0] : Fin 2 → Nat) a + S10000x4.size a ≤ S10000x4.size a
  h_S10000x4 : 0 < S10000x4.numel
  dot_S10000x128_S128x64_S10000x64_1_0_0_1_n_n_wf : DotDims.WF S10000x128 S128x64 S10000x64 [1] [0] [0] [1] [] []
  dot_S1600000x1_S1x1_S1600000x1_1_0_0_1_n_n_wf : DotDims.WF S1600000x1 S1x1 S1600000x1 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S10000x64_S64x64_S10000x64_1_0_0_1_n_n_wf : DotDims.WF S10000x64 S64x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x32_S10000x32_1_0_0_1_n_n_wf : DotDims.WF S10000x64 S64x32 S10000x32 [1] [0] [0] [1] [] []
  dot_S10000x32_S32x1_S10000x1_1_0_0_1_n_n_wf : DotDims.WF S10000x32 S32x1 S10000x1 [1] [0] [0] [1] [] []
  dot_S10000x32_S32x4_S10000x4_1_0_0_1_n_n_wf : DotDims.WF S10000x32 S32x4 S10000x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x1.size a ≤ S100000x1.size a
  hwx2_2 : ∀ i : grid2.Coords, EltTy.bits .f32 = 32 ∨ (Rect.block (s := S100000x1) S10000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x64.size a ≤ S100000x64.size a
  hwx2_4 : ∀ i : grid2.Coords, EltTy.bits .f32 = 32 ∨ (Rect.block (s := S100000x64) S10000x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S100000x64.size a
  hwx2_5 : ∀ i : grid2.Coords, EltTy.bits .f32 = 32 ∨ (Rect.block (s := S100000x64) S10000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x64.size a ≤ S100000x64.size a
  hwx3_3 : ∀ i : grid3.Coords, EltTy.bits .f32 = 32 ∨ (Rect.block (s := S100000x64) S10000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x64.size a ≤ S100000x64.size a
  hwx4_1 : ∀ i : grid4.Coords, EltTy.bits .f32 = 32 ∨ (Rect.block (s := S100000x64) S10000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x1.size a ≤ S100000x1.size a
  hwx4_2 : ∀ i : grid4.Coords, EltTy.bits .f32 = 32 ∨ (Rect.block (s := S100000x1) S10000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S10000x64.size a ≤ S100000x64.size a
  hwx4_4 : ∀ i : grid4.Coords, EltTy.bits .f32 = 32 ∨ (Rect.block (s := S100000x64) S10000x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S10000x64.size a ≤ S100000x64.size a
  hwx4_5 : ∀ i : grid4.Coords, EltTy.bits .f32 = 32 ∨ (Rect.block (s := S100000x64) S10000x64.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x64.size a ≤ S64x64.size a
  hwx5_1 : ∀ i : grid5.Coords, EltTy.bits .f32 = 32 ∨ (Rect.block (s := S64x64) S64x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S10000x64.size a ≤ S100000x64.size a
  hwx5_3 : ∀ i : grid5.Coords, EltTy.bits .f32 = 32 ∨ (Rect.block (s := S100000x64) S10000x64.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S100000x64.size a
  hwx6_0 : ∀ i : grid6.Coords, EltTy.bits .f32 = 32 ∨ (Rect.block (s := S100000x64) S10000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10000x64.size a ≤ S100000x64.size a
  hwx6_1 : ∀ i : grid6.Coords, EltTy.bits .f32 = 32 ∨ (Rect.block (s := S100000x64) S10000x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x1.size a ≤ S100000x1.size a
  hwx6_2 : ∀ i : grid6.Coords, EltTy.bits .f32 = 32 ∨ (Rect.block (s := S100000x1) S10000x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S10000x64.size a ≤ S100000x64.size a
  hwx6_4 : ∀ i : grid6.Coords, EltTy.bits .f32 = 32 ∨ (Rect.block (s := S100000x64) S10000x64.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S10000x64.size a ≤ S100000x64.size a
  hwx6_5 : ∀ i : grid6.Coords, EltTy.bits .f32 = 32 ∨ (Rect.block (s := S100000x64) S10000x64.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x64.size a ≤ S100000x64.size a
  hwx7_0 : ∀ i : grid7.Coords, EltTy.bits .f32 = 32 ∨ (Rect.block (s := S100000x64) S10000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x32.size a ≤ S64x32.size a
  hwx7_1 : ∀ i : grid7.Coords, EltTy.bits .f32 = 32 ∨ (Rect.block (s := S64x32) S64x32.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x32.size a ≤ S1x32.size a
  hwx7_2 : ∀ i : grid7.Coords, EltTy.bits .f32 = 32 ∨ (Rect.block (s := S1x32) S1x32.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S32x1.size a ≤ S32x1.size a
  hwx7_3 : ∀ i : grid7.Coords, EltTy.bits .f32 = 32 ∨ (Rect.block (s := S32x1) S32x1.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x1.size a ≤ S1x1.size a
  hwx7_4 : ∀ i : grid7.Coords, EltTy.bits .f32 = 32 ∨ (Rect.block (s := S1x1) S1x1.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S64x32.size a ≤ S64x32.size a
  hwx7_5 : ∀ i : grid7.Coords, EltTy.bits .f32 = 32 ∨ (Rect.block (s := S64x32) S64x32.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x32.size a ≤ S1x32.size a
  hwx7_6 : ∀ i : grid7.Coords, EltTy.bits .f32 = 32 ∨ (Rect.block (s := S1x32) S1x32.size (cc7_transform_6 i) (hinb7_6 i)).WholeWords (EltTy.packing .f32)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S32x4.size a ≤ S32x4.size a
  hwx7_7 : ∀ i : grid7.Coords, EltTy.bits .f32 = 32 ∨ (Rect.block (s := S32x4) S32x4.size (cc7_transform_7 i) (hinb7_7 i)).WholeWords (EltTy.packing .f32)
  hstage7_8 : ∀ j, (stage7_8 j).IsWhole
  nbuf7_8 : grid7.bufCount reads7_8 true = 1
  hreads7_8 : ∀ i i' : grid7.Coords, (∀ a, reads7_8 a = true → i a = i' a) → cc7_transform_8 i = cc7_transform_8 i'
  hinb7_8 : ∀ (i : grid7.Coords) a, (cc7_transform_8 i a + 1) * S1x4.size a ≤ S1x4.size a
  hwx7_8 : ∀ i : grid7.Coords, EltTy.bits .f32 = 32 ∨ (Rect.block (s := S1x4) S1x4.size (cc7_transform_8 i) (hinb7_8 i)).WholeWords (EltTy.packing .f32)
  hstage7_9 : ∀ j, (stage7_9 j).IsWhole
  nbuf7_9 : grid7.bufCount reads7_9 false = 2
  hreads7_9 : ∀ i i' : grid7.Coords, (∀ a, reads7_9 a = true → i a = i' a) → cc7_transform_9 i = cc7_transform_9 i'
  hinb7_9 : ∀ (i : grid7.Coords) a, (cc7_transform_9 i a + 1) * S10000x4.size a ≤ S100000x4.size a
  hwx7_9 : ∀ i : grid7.Coords, EltTy.bits .f32 = 32 ∨ (Rect.block (s := S100000x4) S10000x4.size (cc7_transform_9 i) (hinb7_9 i)).WholeWords (EltTy.packing .f32)
  hstage7_10 : ∀ j, (stage7_10 j).IsWhole
  nbuf7_10 : grid7.bufCount reads7_10 false = 2
  hreads7_10 : ∀ i i' : grid7.Coords, (∀ a, reads7_10 a = true → i a = i' a) → cc7_transform_10 i = cc7_transform_10 i'
  hinb7_10 : ∀ (i : grid7.Coords) a, (cc7_transform_10 i a + 1) * S10000x1.size a ≤ S100000x1.size a
  hwx7_10 : ∀ i : grid7.Coords, EltTy.bits .f32 = 32 ∨ (Rect.block (s := S100000x1) S10000x1.size (cc7_transform_10 i) (hinb7_10 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S1600000x1_S1x1_S1600000x1_1_0_0_1_n_n : DotDims S1600000x1 S1x1 S1600000x1 where
  lhsContracting := [1]
  rhsContracting := [0]
  lhsNonContracting := [0]
  rhsNonContracting := [1]
  lhsBatch := []
  rhsBatch := []
  wf := dot_S1600000x1_S1x1_S1600000x1_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def dot_S10000x32_S32x1_S10000x1_1_0_0_1_n_n : DotDims S10000x32 S32x1 S10000x1 where
  lhsContracting := [1]
  rhsContracting := [0]
  lhsNonContracting := [0]
  rhsNonContracting := [1]
  lhsBatch := []
  rhsBatch := []
  wf := dot_S10000x32_S32x1_S10000x1_1_0_0_1_n_n_wf
def dot_S10000x32_S32x4_S10000x4_1_0_0_1_n_n : DotDims S10000x32 S32x4 S10000x4 where
  lhsContracting := [1]
  rhsContracting := [0]
  lhsNonContracting := [0]
  rhsNonContracting := [1]
  lhsBatch := []
  rhsBatch := []
  wf := dot_S10000x32_S32x4_S10000x4_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v40) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v48) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v53) S10000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v52) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v49) S10000x64.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v54) S10000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v54) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v56) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v58) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v59) S10000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v66) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v59) S10000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v70) S10000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v69) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v54) S10000x64.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v71) S10000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v71) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v73) S64x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v75) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v76) S10000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v83) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v76) S10000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v87) S10000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v86) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v71) S10000x64.size cc6_transform_4 reads6_4 false false 2 stage6_4 sem6_4
    hrank6 hreads6_4 hinb6_4 nbuf6_4 (Memref.isWhole_whole _) hwx6_4 hstage6_4

abbrev win6_5 : Pipeline.Window sig grid6 :=
  Pipeline.Window.ofSpec (Memref.whole main_v88) S10000x64.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v88) S10000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg9) S64x32.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v89) S1x32.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_arg11) S32x1.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v90) S1x1.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_arg13) S64x32.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v91) S1x32.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_arg15) S32x4.size cc7_transform_7 reads7_7 false true 1 stage7_7 sem7_7
    hrank7 hreads7_7 hinb7_7 nbuf7_7 (Memref.isWhole_whole _) hwx7_7 hstage7_7

abbrev win7_8 : Pipeline.Window sig grid7 :=
  Pipeline.Window.ofSpec (Memref.whole main_v92) S1x4.size cc7_transform_8 reads7_8 false true 1 stage7_8 sem7_8
    hrank7 hreads7_8 hinb7_8 nbuf7_8 (Memref.isWhole_whole _) hwx7_8 hstage7_8

abbrev win7_9 : Pipeline.Window sig grid7 :=
  Pipeline.Window.ofSpec (Memref.whole main_v93_0) S10000x4.size cc7_transform_9 reads7_9 true false 2 stage7_9 sem7_9
    hrank7 hreads7_9 hinb7_9 nbuf7_9 (Memref.isWhole_whole _) hwx7_9 hstage7_9

abbrev win7_10 : Pipeline.Window sig grid7 :=
  Pipeline.Window.ofSpec (Memref.whole main_v93_1) S10000x1.size cc7_transform_10 reads7_10 true false 2 stage7_10 sem7_10
    hrank7 hreads7_10 hinb7_10 nbuf7_10 (Memref.isWhole_whole _) hwx7_10 hstage7_10

abbrev win7 : Fin 11 → Pipeline.Window sig grid7 := fun | 0 => win7_0 | 1 => win7_1 | 2 => win7_2 | 3 => win7_3 | 4 => win7_4 | 5 => win7_5 | 6 => win7_6 | 7 => win7_7 | 8 => win7_8 | 9 => win7_9 | 10 => win7_10 | ⟨_ + 11, h⟩ => absurd h (Nat.not_lt.2 (Nat.le_add_left _ _))
abbrev spec7 : Fin 11 → Pipeline.WinSpec sig grid7.rank := fun w => (win7 w).toWinSpec

class Facts : Prop extends Facts₀ where

variable [Facts]
-- ==== ReferenceIdeal.lean ====
abbrev S100000x128 : Shape := ⟨2, ![100000, 128]⟩
abbrev S1600000x1 : Shape := ⟨2, ![1600000, 1]⟩
abbrev S2x1600000 : Shape := ⟨2, ![2, 1600000]⟩
abbrev S1x1 : Shape := ⟨2, ![1, 1]⟩
abbrev S1 : Shape := ⟨1, ![1]⟩
abbrev S128x64 : Shape := ⟨2, ![128, 64]⟩
abbrev S64 : Shape := ⟨1, ![64]⟩
abbrev S3x64x64 : Shape := ⟨3, ![3, 64, 64]⟩
abbrev S3x64 : Shape := ⟨2, ![3, 64]⟩
abbrev S64x32 : Shape := ⟨2, ![64, 32]⟩
abbrev S32 : Shape := ⟨1, ![32]⟩
abbrev S32x1 : Shape := ⟨2, ![32, 1]⟩
abbrev S32x4 : Shape := ⟨2, ![32, 4]⟩
abbrev S4 : Shape := ⟨1, ![4]⟩
abbrev S1x1600000 : Shape := ⟨2, ![1, 1600000]⟩
abbrev S1600000 : Shape := ⟨1, ![1600000]⟩
abbrev S100000x64 : Shape := ⟨2, ![100000, 64]⟩
abbrev S1x64 : Shape := ⟨2, ![1, 64]⟩
abbrev S_ : Shape := ⟨0, ![]⟩
abbrev S100000 : Shape := ⟨1, ![100000]⟩
abbrev S1x64x64 : Shape := ⟨3, ![1, 64, 64]⟩
abbrev S64x64 : Shape := ⟨2, ![64, 64]⟩
abbrev S1600000x64 : Shape := ⟨2, ![1600000, 64]⟩
abbrev S100000x1 : Shape := ⟨2, ![100000, 1]⟩
abbrev S100000x32 : Shape := ⟨2, ![100000, 32]⟩
abbrev S1x32 : Shape := ⟨2, ![1, 32]⟩
abbrev S100000x4 : Shape := ⟨2, ![100000, 4]⟩
abbrev S1x4 : Shape := ⟨2, ![1, 4]⟩

abbrev nBuf : Space → Nat
  | .hbm => 310
  | .vmem => 0
  | .smem => 0
  | _ => 0

abbrev hbmTy0_0 (i : Nat) : BufTy := match i % 128 with
  | 0 => ⟨S100000x128, .f32⟩
  | 1 => ⟨S1600000x1, .f32⟩
  | 2 => ⟨S2x1600000, .i32⟩
  | 3 => ⟨S1x1, .f32⟩
  | 4 => ⟨S1, .f32⟩
  | 5 => ⟨S128x64, .f32⟩
  | 6 => ⟨S64, .f32⟩
  | 7 => ⟨S3x64x64, .f32⟩
  | 8 => ⟨S3x64, .f32⟩
  | 9 => ⟨S64x32, .f32⟩
  | 10 => ⟨S32, .f32⟩
  | 11 => ⟨S32x1, .f32⟩
  | 12 => ⟨S1, .f32⟩
  | 13 => ⟨S64x32, .f32⟩
  | 14 => ⟨S32, .f32⟩
  | 15 => ⟨S32x4, .f32⟩
  | 16 => ⟨S4, .f32⟩
  | 17 => ⟨S1x1600000, .i32⟩
  | 18 => ⟨S1600000, .i32⟩
  | 19 => ⟨S1x1600000, .i32⟩
  | 20 => ⟨S1600000, .i32⟩
  | 21 => ⟨S100000x64, .f32⟩
  | 22 => ⟨S1x64, .f32⟩
  | 23 => ⟨S100000x64, .f32⟩
  | 24 => ⟨S100000x64, .f32⟩
  | 25 => ⟨S_, .f32⟩
  | 26 => ⟨S100000x64, .f32⟩
  | 27 => ⟨S100000x64, .f32⟩
  | 28 => ⟨S1600000x1, .f32⟩
  | 29 => ⟨S1x1, .f32⟩
  | 30 => ⟨S1600000x1, .f32⟩
  | 31 => ⟨S1600000x1, .f32⟩
  | 32 => ⟨S1600000, .f32⟩
  | 33 => ⟨S_, .f32⟩
  | 34 => ⟨S100000, .f32⟩
  | 35 => ⟨S1600000x1, .i32⟩
  | 36 => ⟨S100000, .f32⟩
  | 37 => ⟨S_, .f32⟩
  | 38 => ⟨S100000, .f32⟩
  | 39 => ⟨S100000, .f32⟩
  | 40 => ⟨S_, .f32⟩
  | 41 => ⟨S100000, .f32⟩
  | 42 => ⟨S100000, .i1⟩
  | 43 => ⟨S100000, .f32⟩
  | 44 => ⟨S_, .f32⟩
  | 45 => ⟨S_, .f32⟩
  | 46 => ⟨S100000, .f32⟩
  | 47 => ⟨S100000, .f32⟩
  | 48 => ⟨S_, .i32⟩
  | 49 => ⟨S1600000, .i32⟩
  | 50 => ⟨S1600000, .i1⟩
  | 51 => ⟨S_, .i32⟩
  | 52 => ⟨S1600000, .i32⟩
  | 53 => ⟨S1600000, .i32⟩
  | 54 => ⟨S1600000, .i32⟩
  | 55 => ⟨S1600000x1, .i32⟩
  | 56 => ⟨S1600000, .f32⟩
  | 57 => ⟨S1600000, .f32⟩
  | 58 => ⟨S_, .i32⟩
  | 59 => ⟨S1600000, .i32⟩
  | 60 => ⟨S1600000, .i1⟩
  | 61 => ⟨S_, .i32⟩
  | 62 => ⟨S1600000, .i32⟩
  | 63 => ⟨S1600000, .i32⟩
  | 64 => ⟨S1600000, .i32⟩
  | 65 => ⟨S1600000x1, .i32⟩
  | 66 => ⟨S1600000, .f32⟩
  | 67 => ⟨S1600000, .f32⟩
  | 68 => ⟨S100000, .f32⟩
  | 69 => ⟨S1x64x64, .f32⟩
  | 70 => ⟨S64x64, .f32⟩
  | 71 => ⟨S100000x64, .f32⟩
  | 72 => ⟨S_, .i32⟩
  | 73 => ⟨S1600000, .i32⟩
  | 74 => ⟨S1600000, .i1⟩
  | 75 => ⟨S_, .i32⟩
  | 76 => ⟨S1600000, .i32⟩
  | 77 => ⟨S1600000, .i32⟩
  | 78 => ⟨S1600000, .i32⟩
  | 79 => ⟨S1600000x1, .i32⟩
  | 80 => ⟨S1600000x64, .f32⟩
  | 81 => ⟨S1600000x1, .f32⟩
  | 82 => ⟨S1600000x64, .f32⟩
  | 83 => ⟨S1600000x64, .f32⟩
  | 84 => ⟨S_, .f32⟩
  | 85 => ⟨S100000x64, .f32⟩
  | 86 => ⟨S1600000x1, .i32⟩
  | 87 => ⟨S100000x64, .f32⟩
  | 88 => ⟨S100000x1, .f32⟩
  | 89 => ⟨S100000x64, .f32⟩
  | 90 => ⟨S100000x64, .f32⟩
  | 91 => ⟨S100000x64, .f32⟩
  | 92 => ⟨S1x64, .f32⟩
  | 93 => ⟨S64, .f32⟩
  | 94 => ⟨S1x64, .f32⟩
  | 95 => ⟨S100000x64, .f32⟩
  | 96 => ⟨S100000x64, .f32⟩
  | 97 => ⟨S_, .f32⟩
  | 98 => ⟨S100000, .f32⟩
  | 99 => ⟨S100000x1, .f32⟩
  | 100 => ⟨S_, .f32⟩
  | 101 => ⟨S100000x1, .f32⟩
  | 102 => ⟨S100000x1, .f32⟩
  | 103 => ⟨S_, .i32⟩
  | 104 => ⟨S_, .f32⟩
  | 105 => ⟨S100000, .f32⟩
  | 106 => ⟨S100000x1, .f32⟩
  | 107 => ⟨S_, .f32⟩
  | 108 => ⟨S100000x1, .f32⟩
  | 109 => ⟨S100000x1, .f32⟩
  | 110 => ⟨S100000x64, .f32⟩
  | 111 => ⟨S100000x64, .f32⟩
  | 112 => ⟨S100000x64, .f32⟩
  | 113 => ⟨S_, .f32⟩
  | 114 => ⟨S_, .f32⟩
  | 115 => ⟨S_, .f32⟩
  | 116 => ⟨S_, .f32⟩
  | 117 => ⟨S100000, .f32⟩
  | 118 => ⟨S100000x1, .f32⟩
  | 119 => ⟨S100000x1, .f32⟩
  | 120 => ⟨S100000x1, .f32⟩
  | 121 => ⟨S_, .f32⟩
  | 122 => ⟨S_, .i1⟩
  | 123 => ⟨S_, .f32⟩
  | 124 => ⟨S_, .f32⟩
  | 125 => ⟨S100000x1, .f32⟩
  | 126 => ⟨S100000x1, .f32⟩
  | 127 => ⟨S100000x64, .f32⟩
  | _ => ⟨S100000x128, .f32⟩

abbrev hbmTy0_1 (i : Nat) : BufTy := match i % 128 with
  | 0 => ⟨S100000x64, .f32⟩
  | 1 => ⟨S_, .f32⟩
  | 2 => ⟨S100000x1, .f32⟩
  | 3 => ⟨S100000x1, .f32⟩
  | 4 => ⟨S100000x1, .f32⟩
  | 5 => ⟨S100000x64, .f32⟩
  | 6 => ⟨S100000x64, .f32⟩
  | 7 => ⟨S_, .f32⟩
  | 8 => ⟨S100000x64, .f32⟩
  | 9 => ⟨S100000x64, .f32⟩
  | 10 => ⟨S1x64x64, .f32⟩
  | 11 => ⟨S64x64, .f32⟩
  | 12 => ⟨S100000x64, .f32⟩
  | 13 => ⟨S_, .i32⟩
  | 14 => ⟨S1600000, .i32⟩
  | 15 => ⟨S1600000, .i1⟩
  | 16 => ⟨S_, .i32⟩
  | 17 => ⟨S1600000, .i32⟩
  | 18 => ⟨S1600000, .i32⟩
  | 19 => ⟨S1600000, .i32⟩
  | 20 => ⟨S1600000x1, .i32⟩
  | 21 => ⟨S1600000x64, .f32⟩
  | 22 => ⟨S1600000x1, .f32⟩
  | 23 => ⟨S1600000x64, .f32⟩
  | 24 => ⟨S1600000x64, .f32⟩
  | 25 => ⟨S_, .f32⟩
  | 26 => ⟨S100000x64, .f32⟩
  | 27 => ⟨S1600000x1, .i32⟩
  | 28 => ⟨S100000x64, .f32⟩
  | 29 => ⟨S100000x1, .f32⟩
  | 30 => ⟨S100000x64, .f32⟩
  | 31 => ⟨S100000x64, .f32⟩
  | 32 => ⟨S100000x64, .f32⟩
  | 33 => ⟨S1x64, .f32⟩
  | 34 => ⟨S64, .f32⟩
  | 35 => ⟨S1x64, .f32⟩
  | 36 => ⟨S100000x64, .f32⟩
  | 37 => ⟨S100000x64, .f32⟩
  | 38 => ⟨S_, .f32⟩
  | 39 => ⟨S100000, .f32⟩
  | 40 => ⟨S100000x1, .f32⟩
  | 41 => ⟨S_, .f32⟩
  | 42 => ⟨S100000x1, .f32⟩
  | 43 => ⟨S100000x1, .f32⟩
  | 44 => ⟨S_, .i32⟩
  | 45 => ⟨S_, .f32⟩
  | 46 => ⟨S100000, .f32⟩
  | 47 => ⟨S100000x1, .f32⟩
  | 48 => ⟨S_, .f32⟩
  | 49 => ⟨S100000x1, .f32⟩
  | 50 => ⟨S100000x1, .f32⟩
  | 51 => ⟨S100000x64, .f32⟩
  | 52 => ⟨S100000x64, .f32⟩
  | 53 => ⟨S100000x64, .f32⟩
  | 54 => ⟨S_, .f32⟩
  | 55 => ⟨S_, .f32⟩
  | 56 => ⟨S_, .f32⟩
  | 57 => ⟨S_, .f32⟩
  | 58 => ⟨S100000, .f32⟩
  | 59 => ⟨S100000x1, .f32⟩
  | 60 => ⟨S100000x1, .f32⟩
  | 61 => ⟨S100000x1, .f32⟩
  | 62 => ⟨S_, .f32⟩
  | 63 => ⟨S_, .i1⟩
  | 64 => ⟨S_, .f32⟩
  | 65 => ⟨S_, .f32⟩
  | 66 => ⟨S100000x1, .f32⟩
  | 67 => ⟨S100000x1, .f32⟩
  | 68 => ⟨S100000x64, .f32⟩
  | 69 => ⟨S100000x64, .f32⟩
  | 70 => ⟨S_, .f32⟩
  | 71 => ⟨S100000x1, .f32⟩
  | 72 => ⟨S100000x1, .f32⟩
  | 73 => ⟨S100000x1, .f32⟩
  | 74 => ⟨S100000x64, .f32⟩
  | 75 => ⟨S100000x64, .f32⟩
  | 76 => ⟨S_, .f32⟩
  | 77 => ⟨S100000x64, .f32⟩
  | 78 => ⟨S100000x64, .f32⟩
  | 79 => ⟨S100000x64, .f32⟩
  | 80 => ⟨S1x64x64, .f32⟩
  | 81 => ⟨S64x64, .f32⟩
  | 82 => ⟨S100000x64, .f32⟩
  | 83 => ⟨S_, .i32⟩
  | 84 => ⟨S1600000, .i32⟩
  | 85 => ⟨S1600000, .i1⟩
  | 86 => ⟨S_, .i32⟩
  | 87 => ⟨S1600000, .i32⟩
  | 88 => ⟨S1600000, .i32⟩
  | 89 => ⟨S1600000, .i32⟩
  | 90 => ⟨S1600000x1, .i32⟩
  | 91 => ⟨S1600000x64, .f32⟩
  | 92 => ⟨S1600000x1, .f32⟩
  | 93 => ⟨S1600000x64, .f32⟩
  | 94 => ⟨S1600000x64, .f32⟩
  | 95 => ⟨S_, .f32⟩
  | 96 => ⟨S100000x64, .f32⟩
  | 97 => ⟨S1600000x1, .i32⟩
  | 98 => ⟨S100000x64, .f32⟩
  | 99 => ⟨S100000x1, .f32⟩
  | 100 => ⟨S100000x64, .f32⟩
  | 101 => ⟨S100000x64, .f32⟩
  | 102 => ⟨S100000x64, .f32⟩
  | 103 => ⟨S1x64, .f32⟩
  | 104 => ⟨S64, .f32⟩
  | 105 => ⟨S1x64, .f32⟩
  | 106 => ⟨S100000x64, .f32⟩
  | 107 => ⟨S100000x64, .f32⟩
  | 108 => ⟨S_, .f32⟩
  | 109 => ⟨S100000, .f32⟩
  | 110 => ⟨S100000x1, .f32⟩
  | 111 => ⟨S_, .f32⟩
  | 112 => ⟨S100000x1, .f32⟩
  | 113 => ⟨S100000x1, .f32⟩
  | 114 => ⟨S_, .i32⟩
  | 115 => ⟨S_, .f32⟩
  | 116 => ⟨S100000, .f32⟩
  | 117 => ⟨S100000x1, .f32⟩
  | 118 => ⟨S_, .f32⟩
  | 119 => ⟨S100000x1, .f32⟩
  | 120 => ⟨S100000x1, .f32⟩
  | 121 => ⟨S100000x64, .f32⟩
  | 122 => ⟨S100000x64, .f32⟩
  | 123 => ⟨S100000x64, .f32⟩
  | 124 => ⟨S_, .f32⟩
  | 125 => ⟨S_, .f32⟩
  | 126 => ⟨S_, .f32⟩
  | 127 => ⟨S_, .f32⟩
  | _ => ⟨S100000x128, .f32⟩

abbrev hbmTy0_2 (i : Nat) : BufTy := match i % 128 with
  | 0 => ⟨S100000, .f32⟩
  | 1 => ⟨S100000x1, .f32⟩
  | 2 => ⟨S100000x1, .f32⟩
  | 3 => ⟨S100000x1, .f32⟩
  | 4 => ⟨S_, .f32⟩
  | 5 => ⟨S_, .i1⟩
  | 6 => ⟨S_, .f32⟩
  | 7 => ⟨S_, .f32⟩
  | 8 => ⟨S100000x1, .f32⟩
  | 9 => ⟨S100000x1, .f32⟩
  | 10 => ⟨S100000x64, .f32⟩
  | 11 => ⟨S100000x64, .f32⟩
  | 12 => ⟨S_, .f32⟩
  | 13 => ⟨S100000x1, .f32⟩
  | 14 => ⟨S100000x1, .f32⟩
  | 15 => ⟨S100000x1, .f32⟩
  | 16 => ⟨S100000x64, .f32⟩
  | 17 => ⟨S100000x64, .f32⟩
  | 18 => ⟨S_, .f32⟩
  | 19 => ⟨S100000x64, .f32⟩
  | 20 => ⟨S100000x64, .f32⟩
  | 21 => ⟨S100000x64, .f32⟩
  | 22 => ⟨S100000x32, .f32⟩
  | 23 => ⟨S1x32, .f32⟩
  | 24 => ⟨S100000x32, .f32⟩
  | 25 => ⟨S100000x32, .f32⟩
  | 26 => ⟨S_, .f32⟩
  | 27 => ⟨S100000x32, .f32⟩
  | 28 => ⟨S100000x32, .f32⟩
  | 29 => ⟨S100000x1, .f32⟩
  | 30 => ⟨S1x1, .f32⟩
  | 31 => ⟨S100000x1, .f32⟩
  | 32 => ⟨S100000x1, .f32⟩
  | 33 => ⟨S100000x1, .f32⟩
  | 34 => ⟨S100000x1, .f32⟩
  | 35 => ⟨S_, .f32⟩
  | 36 => ⟨S100000x1, .f32⟩
  | 37 => ⟨S100000x1, .f32⟩
  | 38 => ⟨S_, .f32⟩
  | 39 => ⟨S100000x1, .f32⟩
  | 40 => ⟨S100000x1, .f32⟩
  | 41 => ⟨S100000x64, .f32⟩
  | 42 => ⟨S100000x64, .f32⟩
  | 43 => ⟨S100000x32, .f32⟩
  | 44 => ⟨S1x32, .f32⟩
  | 45 => ⟨S100000x32, .f32⟩
  | 46 => ⟨S100000x32, .f32⟩
  | 47 => ⟨S_, .f32⟩
  | 48 => ⟨S100000x32, .f32⟩
  | 49 => ⟨S100000x32, .f32⟩
  | 50 => ⟨S100000x4, .f32⟩
  | 51 => ⟨S1x4, .f32⟩
  | 52 => ⟨S100000x4, .f32⟩
  | 53 => ⟨S100000x4, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_call0_cst : Ref sig .tc := ⟨.hbm, 25, rfl⟩
abbrev main_call0_v0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_0 : Ref sig .tc := ⟨.hbm, 37, rfl⟩
abbrev main_v17 : Ref sig .tc := ⟨.hbm, 38, rfl⟩
abbrev main_v18 : Ref sig .tc := ⟨.hbm, 39, rfl⟩
abbrev main_cst_1 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_2 : Ref sig .tc := ⟨.hbm, 44, rfl⟩
abbrev main_call1_v0 : Ref sig .tc := ⟨.hbm, 45, rfl⟩
abbrev main_call1_v1 : Ref sig .tc := ⟨.hbm, 46, rfl⟩
abbrev main_v22 : Ref sig .tc := ⟨.hbm, 47, rfl⟩
abbrev main_c : Ref sig .tc := ⟨.hbm, 48, rfl⟩
abbrev main_v23 : Ref sig .tc := ⟨.hbm, 49, rfl⟩
abbrev main_v24 : Ref sig .tc := ⟨.hbm, 50, rfl⟩
abbrev main_c_3 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_c_4 : Ref sig .tc := ⟨.hbm, 58, rfl⟩
abbrev main_v31 : Ref sig .tc := ⟨.hbm, 59, rfl⟩
abbrev main_v32 : Ref sig .tc := ⟨.hbm, 60, rfl⟩
abbrev main_c_5 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_c_6 : Ref sig .tc := ⟨.hbm, 72, rfl⟩
abbrev main_v43 : Ref sig .tc := ⟨.hbm, 73, rfl⟩
abbrev main_v44 : Ref sig .tc := ⟨.hbm, 74, rfl⟩
abbrev main_c_7 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_8 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_9 : Ref sig .tc := ⟨.hbm, 97, rfl⟩
abbrev main_v65 : Ref sig .tc := ⟨.hbm, 98, rfl⟩
abbrev main_v66 : Ref sig .tc := ⟨.hbm, 99, rfl⟩
abbrev main_cst_10 : Ref sig .tc := ⟨.hbm, 100, rfl⟩
abbrev main_v67 : Ref sig .tc := ⟨.hbm, 101, rfl⟩
abbrev main_v68 : Ref sig .tc := ⟨.hbm, 102, rfl⟩
abbrev main_c_11 : Ref sig .tc := ⟨.hbm, 103, rfl⟩
abbrev main_call2_cst : Ref sig .tc := ⟨.hbm, 104, rfl⟩
abbrev main_call2_v0 : Ref sig .tc := ⟨.hbm, 105, rfl⟩
abbrev main_call2_v1 : Ref sig .tc := ⟨.hbm, 106, rfl⟩
abbrev main_call2_cst_0 : Ref sig .tc := ⟨.hbm, 107, rfl⟩
abbrev main_call2_v2 : Ref sig .tc := ⟨.hbm, 108, rfl⟩
abbrev main_call2_v3 : Ref sig .tc := ⟨.hbm, 109, rfl⟩
abbrev main_call2_v4 : Ref sig .tc := ⟨.hbm, 110, rfl⟩
abbrev main_call2_v5 : Ref sig .tc := ⟨.hbm, 111, rfl⟩
abbrev main_call2_v6 : Ref sig .tc := ⟨.hbm, 112, rfl⟩
abbrev main_call2_v7 : Ref sig .tc := ⟨.hbm, 113, rfl⟩
abbrev main_call2_cst_1 : Ref sig .tc := ⟨.hbm, 114, rfl⟩
abbrev main_call2_v8 : Ref sig .tc := ⟨.hbm, 115, rfl⟩
abbrev main_call2_cst_2 : Ref sig .tc := ⟨.hbm, 116, rfl⟩
abbrev main_call2_v9 : Ref sig .tc := ⟨.hbm, 117, rfl⟩
abbrev main_call2_v10 : Ref sig .tc := ⟨.hbm, 118, rfl⟩
abbrev main_call2_v11 : Ref sig .tc := ⟨.hbm, 119, rfl⟩
abbrev main_call2_v12 : Ref sig .tc := ⟨.hbm, 120, rfl⟩
abbrev main_call2_cst_3 : Ref sig .tc := ⟨.hbm, 121, rfl⟩
abbrev main_call2_v13 : Ref sig .tc := ⟨.hbm, 122, rfl⟩
abbrev main_call2_cst_4 : Ref sig .tc := ⟨.hbm, 123, rfl⟩
abbrev main_call2_call0_v0 : Ref sig .tc := ⟨.hbm, 124, rfl⟩
abbrev main_call2_call0_v1 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_cst_12 : Ref sig .tc := ⟨.hbm, 129, rfl⟩
abbrev main_v72 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_call3_cst : Ref sig .tc := ⟨.hbm, 135, rfl⟩
abbrev main_call3_v0 : Ref sig .tc := ⟨.hbm, 136, rfl⟩
abbrev main_v77 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩
abbrev main_c_13 : Ref sig .tc := ⟨.hbm, 141, rfl⟩
abbrev main_v81 : Ref sig .tc := ⟨.hbm, 142, rfl⟩
abbrev main_v82 : Ref sig .tc := ⟨.hbm, 143, rfl⟩
abbrev main_c_14 : Ref sig .tc := ⟨.hbm, 144, rfl⟩
abbrev main_v83 : Ref sig .tc := ⟨.hbm, 145, rfl⟩
abbrev main_v84 : Ref sig .tc := ⟨.hbm, 146, rfl⟩
abbrev main_v85 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_cst_15 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_v101 : Ref sig .tc := ⟨.hbm, 164, rfl⟩
abbrev main_v102 : Ref sig .tc := ⟨.hbm, 165, rfl⟩
abbrev main_cst_16 : Ref sig .tc := ⟨.hbm, 166, rfl⟩
abbrev main_v103 : Ref sig .tc := ⟨.hbm, 167, rfl⟩
abbrev main_v104 : Ref sig .tc := ⟨.hbm, 168, rfl⟩
abbrev main_cst_17 : Ref sig .tc := ⟨.hbm, 169, rfl⟩
abbrev main_v105 : Ref sig .tc := ⟨.hbm, 170, rfl⟩
abbrev main_v106 : Ref sig .tc := ⟨.hbm, 171, rfl⟩
abbrev main_c_18 : Ref sig .tc := ⟨.hbm, 172, rfl⟩
abbrev main_call4_cst : Ref sig .tc := ⟨.hbm, 173, rfl⟩
abbrev main_call4_v0 : Ref sig .tc := ⟨.hbm, 174, rfl⟩
abbrev main_call4_v1 : Ref sig .tc := ⟨.hbm, 175, rfl⟩
abbrev main_call4_cst_0 : Ref sig .tc := ⟨.hbm, 176, rfl⟩
abbrev main_call4_v2 : Ref sig .tc := ⟨.hbm, 177, rfl⟩
abbrev main_call4_v3 : Ref sig .tc := ⟨.hbm, 178, rfl⟩
abbrev main_call4_v4 : Ref sig .tc := ⟨.hbm, 179, rfl⟩
abbrev main_call4_v5 : Ref sig .tc := ⟨.hbm, 180, rfl⟩
abbrev main_call4_v6 : Ref sig .tc := ⟨.hbm, 181, rfl⟩
abbrev main_call4_v7 : Ref sig .tc := ⟨.hbm, 182, rfl⟩
abbrev main_call4_cst_1 : Ref sig .tc := ⟨.hbm, 183, rfl⟩
abbrev main_call4_v8 : Ref sig .tc := ⟨.hbm, 184, rfl⟩
abbrev main_call4_cst_2 : Ref sig .tc := ⟨.hbm, 185, rfl⟩
abbrev main_call4_v9 : Ref sig .tc := ⟨.hbm, 186, rfl⟩
abbrev main_call4_v10 : Ref sig .tc := ⟨.hbm, 187, rfl⟩
abbrev main_call4_v11 : Ref sig .tc := ⟨.hbm, 188, rfl⟩
abbrev main_call4_v12 : Ref sig .tc := ⟨.hbm, 189, rfl⟩
abbrev main_call4_cst_3 : Ref sig .tc := ⟨.hbm, 190, rfl⟩
abbrev main_call4_v13 : Ref sig .tc := ⟨.hbm, 191, rfl⟩
abbrev main_call4_cst_4 : Ref sig .tc := ⟨.hbm, 192, rfl⟩
abbrev main_call4_call0_v0 : Ref sig .tc := ⟨.hbm, 193, rfl⟩
abbrev main_call4_call0_v1 : Ref sig .tc := ⟨.hbm, 194, rfl⟩
abbrev main_v107 : Ref sig .tc := ⟨.hbm, 195, rfl⟩
abbrev main_v108 : Ref sig .tc := ⟨.hbm, 196, rfl⟩
abbrev main_v109 : Ref sig .tc := ⟨.hbm, 197, rfl⟩
abbrev main_cst_19 : Ref sig .tc := ⟨.hbm, 198, rfl⟩
abbrev main_v110 : Ref sig .tc := ⟨.hbm, 199, rfl⟩
abbrev main_v111 : Ref sig .tc := ⟨.hbm, 200, rfl⟩
abbrev main_v112 : Ref sig .tc := ⟨.hbm, 201, rfl⟩
abbrev main_v113 : Ref sig .tc := ⟨.hbm, 202, rfl⟩
abbrev main_v114 : Ref sig .tc := ⟨.hbm, 203, rfl⟩
abbrev main_call5_cst : Ref sig .tc := ⟨.hbm, 204, rfl⟩
abbrev main_call5_v0 : Ref sig .tc := ⟨.hbm, 205, rfl⟩
abbrev main_v115 : Ref sig .tc := ⟨.hbm, 206, rfl⟩
abbrev main_v116 : Ref sig .tc := ⟨.hbm, 207, rfl⟩
abbrev main_v117 : Ref sig .tc := ⟨.hbm, 208, rfl⟩
abbrev main_v118 : Ref sig .tc := ⟨.hbm, 209, rfl⟩
abbrev main_v119 : Ref sig .tc := ⟨.hbm, 210, rfl⟩
abbrev main_c_20 : Ref sig .tc := ⟨.hbm, 211, rfl⟩
abbrev main_v120 : Ref sig .tc := ⟨.hbm, 212, rfl⟩
abbrev main_v121 : Ref sig .tc := ⟨.hbm, 213, rfl⟩
abbrev main_c_21 : Ref sig .tc := ⟨.hbm, 214, rfl⟩
abbrev main_v122 : Ref sig .tc := ⟨.hbm, 215, rfl⟩
abbrev main_v123 : Ref sig .tc := ⟨.hbm, 216, rfl⟩
abbrev main_v124 : Ref sig .tc := ⟨.hbm, 217, rfl⟩
abbrev main_v125 : Ref sig .tc := ⟨.hbm, 218, rfl⟩
abbrev main_v126 : Ref sig .tc := ⟨.hbm, 219, rfl⟩
abbrev main_v127 : Ref sig .tc := ⟨.hbm, 220, rfl⟩
abbrev main_v128 : Ref sig .tc := ⟨.hbm, 221, rfl⟩
abbrev main_v129 : Ref sig .tc := ⟨.hbm, 222, rfl⟩
abbrev main_cst_22 : Ref sig .tc := ⟨.hbm, 223, rfl⟩
abbrev main_v130 : Ref sig .tc := ⟨.hbm, 224, rfl⟩
abbrev main_v131 : Ref sig .tc := ⟨.hbm, 225, rfl⟩
abbrev main_v132 : Ref sig .tc := ⟨.hbm, 226, rfl⟩
abbrev main_v133 : Ref sig .tc := ⟨.hbm, 227, rfl⟩
abbrev main_v134 : Ref sig .tc := ⟨.hbm, 228, rfl⟩
abbrev main_v135 : Ref sig .tc := ⟨.hbm, 229, rfl⟩
abbrev main_v136 : Ref sig .tc := ⟨.hbm, 230, rfl⟩
abbrev main_v137 : Ref sig .tc := ⟨.hbm, 231, rfl⟩
abbrev main_v138 : Ref sig .tc := ⟨.hbm, 232, rfl⟩
abbrev main_v139 : Ref sig .tc := ⟨.hbm, 233, rfl⟩
abbrev main_v140 : Ref sig .tc := ⟨.hbm, 234, rfl⟩
abbrev main_v141 : Ref sig .tc := ⟨.hbm, 235, rfl⟩
abbrev main_cst_23 : Ref sig .tc := ⟨.hbm, 236, rfl⟩
abbrev main_v142 : Ref sig .tc := ⟨.hbm, 237, rfl⟩
abbrev main_v143 : Ref sig .tc := ⟨.hbm, 238, rfl⟩
abbrev main_cst_24 : Ref sig .tc := ⟨.hbm, 239, rfl⟩
abbrev main_v144 : Ref sig .tc := ⟨.hbm, 240, rfl⟩
abbrev main_v145 : Ref sig .tc := ⟨.hbm, 241, rfl⟩
abbrev main_c_25 : Ref sig .tc := ⟨.hbm, 242, rfl⟩
abbrev main_call6_cst : Ref sig .tc := ⟨.hbm, 243, rfl⟩
abbrev main_call6_v0 : Ref sig .tc := ⟨.hbm, 244, rfl⟩
abbrev main_call6_v1 : Ref sig .tc := ⟨.hbm, 245, rfl⟩
abbrev main_call6_cst_0 : Ref sig .tc := ⟨.hbm, 246, rfl⟩
abbrev main_call6_v2 : Ref sig .tc := ⟨.hbm, 247, rfl⟩
abbrev main_call6_v3 : Ref sig .tc := ⟨.hbm, 248, rfl⟩
abbrev main_call6_v4 : Ref sig .tc := ⟨.hbm, 249, rfl⟩
abbrev main_call6_v5 : Ref sig .tc := ⟨.hbm, 250, rfl⟩
abbrev main_call6_v6 : Ref sig .tc := ⟨.hbm, 251, rfl⟩
abbrev main_call6_v7 : Ref sig .tc := ⟨.hbm, 252, rfl⟩
abbrev main_call6_cst_1 : Ref sig .tc := ⟨.hbm, 253, rfl⟩
abbrev main_call6_v8 : Ref sig .tc := ⟨.hbm, 254, rfl⟩
abbrev main_call6_cst_2 : Ref sig .tc := ⟨.hbm, 255, rfl⟩
abbrev main_call6_v9 : Ref sig .tc := ⟨.hbm, 256, rfl⟩
abbrev main_call6_v10 : Ref sig .tc := ⟨.hbm, 257, rfl⟩
abbrev main_call6_v11 : Ref sig .tc := ⟨.hbm, 258, rfl⟩
abbrev main_call6_v12 : Ref sig .tc := ⟨.hbm, 259, rfl⟩
abbrev main_call6_cst_3 : Ref sig .tc := ⟨.hbm, 260, rfl⟩
abbrev main_call6_v13 : Ref sig .tc := ⟨.hbm, 261, rfl⟩
abbrev main_call6_cst_4 : Ref sig .tc := ⟨.hbm, 262, rfl⟩
abbrev main_call6_call0_v0 : Ref sig .tc := ⟨.hbm, 263, rfl⟩
abbrev main_call6_call0_v1 : Ref sig .tc := ⟨.hbm, 264, rfl⟩
abbrev main_v146 : Ref sig .tc := ⟨.hbm, 265, rfl⟩
abbrev main_v147 : Ref sig .tc := ⟨.hbm, 266, rfl⟩
abbrev main_v148 : Ref sig .tc := ⟨.hbm, 267, rfl⟩
abbrev main_cst_26 : Ref sig .tc := ⟨.hbm, 268, rfl⟩
abbrev main_v149 : Ref sig .tc := ⟨.hbm, 269, rfl⟩
abbrev main_v150 : Ref sig .tc := ⟨.hbm, 270, rfl⟩
abbrev main_v151 : Ref sig .tc := ⟨.hbm, 271, rfl⟩
abbrev main_v152 : Ref sig .tc := ⟨.hbm, 272, rfl⟩
abbrev main_v153 : Ref sig .tc := ⟨.hbm, 273, rfl⟩
abbrev main_call7_cst : Ref sig .tc := ⟨.hbm, 274, rfl⟩
abbrev main_call7_v0 : Ref sig .tc := ⟨.hbm, 275, rfl⟩
abbrev main_v154 : Ref sig .tc := ⟨.hbm, 276, rfl⟩
abbrev main_v155 : Ref sig .tc := ⟨.hbm, 277, rfl⟩
abbrev main_v156 : Ref sig .tc := ⟨.hbm, 278, rfl⟩
abbrev main_v157 : Ref sig .tc := ⟨.hbm, 279, rfl⟩
abbrev main_v158 : Ref sig .tc := ⟨.hbm, 280, rfl⟩
abbrev main_v159 : Ref sig .tc := ⟨.hbm, 281, rfl⟩
abbrev main_call8_cst : Ref sig .tc := ⟨.hbm, 282, rfl⟩
abbrev main_call8_v0 : Ref sig .tc := ⟨.hbm, 283, rfl⟩
abbrev main_v160 : Ref sig .tc := ⟨.hbm, 284, rfl⟩
abbrev main_v161 : Ref sig .tc := ⟨.hbm, 285, rfl⟩
abbrev main_v162 : Ref sig .tc := ⟨.hbm, 286, rfl⟩
abbrev main_v163 : Ref sig .tc := ⟨.hbm, 287, rfl⟩
abbrev main_v164 : Ref sig .tc := ⟨.hbm, 288, rfl⟩
abbrev main_v165 : Ref sig .tc := ⟨.hbm, 289, rfl⟩
abbrev main_v166 : Ref sig .tc := ⟨.hbm, 290, rfl⟩
abbrev main_cst_27 : Ref sig .tc := ⟨.hbm, 291, rfl⟩
abbrev main_v167 : Ref sig .tc := ⟨.hbm, 292, rfl⟩
abbrev main_v168 : Ref sig .tc := ⟨.hbm, 293, rfl⟩
abbrev main_cst_28 : Ref sig .tc := ⟨.hbm, 294, rfl⟩
abbrev main_v169 : Ref sig .tc := ⟨.hbm, 295, rfl⟩
abbrev main_v170 : Ref sig .tc := ⟨.hbm, 296, rfl⟩
abbrev main_v171 : Ref sig .tc := ⟨.hbm, 297, rfl⟩
abbrev main_v172 : Ref sig .tc := ⟨.hbm, 298, rfl⟩
abbrev main_v173 : Ref sig .tc := ⟨.hbm, 299, rfl⟩
abbrev main_v174 : Ref sig .tc := ⟨.hbm, 300, rfl⟩
abbrev main_v175 : Ref sig .tc := ⟨.hbm, 301, rfl⟩
abbrev main_v176 : Ref sig .tc := ⟨.hbm, 302, rfl⟩
abbrev main_call9_cst : Ref sig .tc := ⟨.hbm, 303, rfl⟩
abbrev main_call9_v0 : Ref sig .tc := ⟨.hbm, 304, rfl⟩
abbrev main_v177 : Ref sig .tc := ⟨.hbm, 305, rfl⟩
abbrev main_v178 : Ref sig .tc := ⟨.hbm, 306, rfl⟩
abbrev main_v179 : Ref sig .tc := ⟨.hbm, 307, rfl⟩
abbrev main_v180 : Ref sig .tc := ⟨.hbm, 308, rfl⟩
abbrev main_v181 : Ref sig .tc := ⟨.hbm, 309, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  shapeCasts_S1600000x1_S1600000 : S1600000x1.ShapeCasts S1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  slices_S3x64x64_S1x64x64_0_0_0 : S3x64x64.Slices ![0, 0, 0] S1x64x64
  shapeCasts_S1x64x64_S64x64 : S1x64x64.ShapeCasts S64x64
  bcast_S1600000x1_S1600000x64_0_1 : S1600000x1.BroadcastsInDim S1600000x64 (![0, 1] : Fin 2 → Fin S1600000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  slices_S3x64_S1x64_0_0 : S3x64.Slices ![0, 0] S1x64
  shapeCasts_S1x64_S64 : S1x64.ShapeCasts S64
  reducesTo_S100000x64_S100000_d1 : S100000x64.ReducesTo [1] S100000
  h_S_ : 0 < S_.numel
  bcast_S_S100000x1 : S_.BroadcastsInDim S100000x1 (![] : Fin 0 → Fin S100000x1.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S1x1_S100000x1_0_1 : S1x1.BroadcastsInDim S100000x1 (![0, 1] : Fin 2 → Fin S100000x1.rank)
  bcast_S4_S1x4_1 : S4.BroadcastsInDim S1x4 (![1] : Fin 1 → Fin S1x4.rank)
  bcast_S1x4_S100000x4_0_1 : S1x4.BroadcastsInDim S100000x4 (![0, 1] : Fin 2 → Fin S100000x4.rank)
  dot_S100000x128_S128x64_S100000x64_1_0_0_1_n_n_wf : DotDims.WF S100000x128 S128x64 S100000x64 [1] [0] [0] [1] [] []
  dot_S1600000x1_S1x1_S1600000x1_1_0_0_1_n_n_wf : DotDims.WF S1600000x1 S1x1 S1600000x1 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x32_S100000x32_1_0_0_1_n_n_wf : DotDims.WF S100000x64 S64x32 S100000x32 [1] [0] [0] [1] [] []
  dot_S100000x32_S32x1_S100000x1_1_0_0_1_n_n_wf : DotDims.WF S100000x32 S32x1 S100000x1 [1] [0] [0] [1] [] []
  dot_S100000x32_S32x4_S100000x4_1_0_0_1_n_n_wf : DotDims.WF S100000x32 S32x4 S100000x4 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S1600000x1_S1x1_S1600000x1_1_0_0_1_n_n : DotDims S1600000x1 S1x1 S1600000x1 where
  lhsContracting := [1]
  rhsContracting := [0]
  lhsNonContracting := [0]
  rhsNonContracting := [1]
  lhsBatch := []
  rhsBatch := []
  wf := dot_S1600000x1_S1x1_S1600000x1_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf
def dot_S100000x32_S32x4_S100000x4_1_0_0_1_n_n : DotDims S100000x32 S32x4 S100000x4 where
  lhsContracting := [1]
  rhsContracting := [0]
  lhsNonContracting := [0]
  rhsNonContracting := [1]
  lhsBatch := []
  rhsBatch := []
  wf := dot_S100000x32_S32x4_S100000x4_1_0_0_1_n_n_wf

class Facts : Prop extends Facts₀ where

variable [Facts]
-- ==== Proof.Spec.lean ====
/-
  The mathematics both programs compute, stage by stage, on the extended reals.

  A graph with N = 100000 nodes and E = 1600000 directed edges (src e → dst e). Node features x (N×128) are projected
  to 64 channels, h0 = max (x·W_in + b_in) 0. Each edge has the weight ew e = edge_attr e · We + be; a node's degree is
  deg n = 1 + Σ_{dst e = n} ew e, its inverse root dinv n = (deg n)^(-1/2) where deg n > 0 and 0 elsewhere; an edge's
  normalised weight is nrm e = dinv (src e) · ew e · dinv (dst e) and a node's self weight sn n = dinv n · dinv n.
  Three layers follow: hw = h·W_g[k]; agg n = Σ_{dst e = n} hw (src e) · nrm e; out = agg + hw · sn + b_g[k];
  the row-wise normalisation y = (out - mean out) · (var out + ε)^(-1/2) with mean and var over the 64 channels and the
  divisor 64; h' = max y 0, plus the layer's input from the second layer on. The head is a gate
  attn = logistic (max (h·Wa1 + ba1) 0 · Wa2 + ba2) and logits = max ((h · attn)·Wc1 + bc1) 0 · Wc2 + bc2.

  Every stage is written with the operations of the host reference, so that the reference's run meets these terms
  as they stand; the blocked kernels meet them index by index.
-/
import proofs.«403540_j78005196030173_1_alg».proof.ReferenceIdeal
import Idealize.ShloMosaic.PureOps.Ideal

noncomputable section

namespace Cert.Spec

open Idealize.ShloMosaic Cert.ReferenceIdeal

variable [hR : Cert.ReferenceIdeal.Facts]
open Cert.ReferenceIdeal.Facts₀ Cert.ReferenceIdeal.Facts

/-- A float array of shape `S` on the extended reals. -/
abbrev TF (S : Shape) := FVec Ideal S .f32
/-- A 32-bit integer array of shape `S`. -/
abbrev TI (S : Shape) := IVec S 32
/-- A truth-value array of shape `S`. -/
abbrev TB (S : Shape) := IVec S 1

/-! ## The edge list -/

/-- Row `0` of the edge list: each edge's source node. -/
def fSrc (ei : TI S2x1600000) : TI S1600000 :=
  shapeCast S1600000 (extractStridedSlice S1x1600000 ![0, 0] ei slices_S2x1600000_S1x1600000_0_0) shapeCasts_S1x1600000_S1600000
/-- Row `1` of the edge list: each edge's destination node. -/
def fDst (ei : TI S2x1600000) : TI S1600000 :=
  shapeCast S1600000 (extractStridedSlice S1x1600000 ![1, 0] ei slices_S2x1600000_S1x1600000_1_0) shapeCasts_S1x1600000_S1600000

/-- A node index with Python's wrap-around: a negative `i` reads as `i + 100000`. -/
def fWrap (i : TI S1600000) : TI S1600000 :=
  select (cmpi .slt i (broadcastInDim S1600000 ![] bcast_S_S1600000 (constantI S_ 32 0#32)))
    (addi i (broadcastInDim S1600000 ![] bcast_S_S1600000 (constantI S_ 32 100000#32))) i

/-! ## Edge weights, degrees, normalisation -/

/-- The edge weights `edge_attr · We + be`, one per edge. -/
def fEw (ea : TF S1600000x1) (We : TF S1x1) (be : TF S1) : TF S1600000 :=
  shapeCast S1600000 (addf (Host.dotGeneral dot_S1600000x1_S1x1_S1600000x1_1_0_0_1_n_n none ea We)
    (broadcastInDim S1600000x1 ![0, 1] bcast_S1x1_S1600000x1_0_1 (broadcastInDim S1x1 ![1] bcast_S1_S1x1_1 be))) shapeCasts_S1600000x1_S1600000

/-- The degree with the unit self loop: `1 + Σ_{dst e = n} ew e`. -/
def fDeg (dst : TI S1600000) (ew : TF S1600000) : TF S100000 :=
  addf (Host.scatterAdd scatter_S100000_S1600000x1_S1600000_n_0_0_1
      (broadcastInDim S100000 ![] bcast_S_S100000 (constant (F := Ideal) S_ .f32 0x00000000#32))
      (broadcastInDim S1600000x1 ![0] bcast_S1600000_S1600000x1_0 dst) ew)
    (broadcastInDim S100000 ![] bcast_S_S100000 (constant (F := Ideal) S_ .f32 0x3F800000#32))

/-- `deg^(-1/2)` where the degree is positive, `0` elsewhere. -/
def fDinv (deg : TF S100000) : TF S100000 :=
  select (cmpf .ogt deg (broadcastInDim S100000 ![] bcast_S_S100000 (constant (F := Ideal) S_ .f32 0x00000000#32)))
    (Host.rsqrt deg) (broadcastInDim S100000 ![] bcast_S_S100000 (constant (F := Ideal) S_ .f32 0x00000000#32))

/-- A per-node vector read at each edge's (wrapped) node. -/
def fAt (v : TF S100000) (i : TI S1600000) : TF S1600000 :=
  Host.gather gather_S100000_S1600000x1_S1600000_n_0_n_n_0_1_1 v (broadcastInDim S1600000x1 ![0] bcast_S1600000_S1600000x1_0 (fWrap i))

/-- The symmetric normalisation of an edge: `dinv (src e) · ew e · dinv (dst e)`. -/
def fNrm (src dst : TI S1600000) (ew : TF S1600000) (dinv : TF S100000) : TF S1600000 :=
  mulf (mulf (fAt dinv src) ew) (fAt dinv dst)

/-- The self-loop weight `dinv n · dinv n`. -/
def fSn (dinv : TF S100000) : TF S100000 := mulf dinv dinv

/-! ## The dense stages -/

/-- A row vector `b` of 64 channels added to every node's row. -/
def fRow64 (b2 : TF S1x64) : TF S100000x64 := broadcastInDim S100000x64 ![0, 1] bcast_S1x64_S100000x64_0_1 b2
/-- A vector of 64 channels as a row. -/
def fAsRow64 (b : TF S64) : TF S1x64 := broadcastInDim S1x64 ![1] bcast_S64_S1x64_1 b
/-- A per-node scalar as a column. -/
def fAsCol (v : TF S100000) : TF S100000x1 := broadcastInDim S100000x1 ![0] bcast_S100000_S100000x1_0 v
/-- A per-node column spread over the 64 channels. -/
def fCol64 (v : TF S100000x1) : TF S100000x64 := broadcastInDim S100000x64 ![0, 1] bcast_S100000x1_S100000x64_0_1 v
/-- The zero array of node rows. -/
def fZero64 : TF S100000x64 := broadcastInDim S100000x64 ![] bcast_S_S100000x64 (constant (F := Ideal) S_ .f32 0x00000000#32)
/-- The positive part, entry by entry. -/
def fRelu64 (v : TF S100000x64) : TF S100000x64 := maximumf v fZero64

/-- The input projection `max (x·W + b) 0`, the bias given as a row. -/
def fH0 (x : TF S100000x128) (W : TF S128x64) (b2 : TF S1x64) : TF S100000x64 :=
  fRelu64 (addf (Host.dotGeneral dot_S100000x128_S128x64_S100000x64_1_0_0_1_n_n none x W) (fRow64 b2))

/-- Slice `k` of the three layer matrices. -/
def fWg0 (Wg : TF S3x64x64) : TF S64x64 := shapeCast S64x64 (extractStridedSlice S1x64x64 ![0, 0, 0] Wg slices_S3x64x64_S1x64x64_0_0_0) shapeCasts_S1x64x64_S64x64
def fWg1 (Wg : TF S3x64x64) : TF S64x64 := shapeCast S64x64 (extractStridedSlice S1x64x64 ![1, 0, 0] Wg slices_S3x64x64_S1x64x64_1_0_0) shapeCasts_S1x64x64_S64x64
def fWg2 (Wg : TF S3x64x64) : TF S64x64 := shapeCast S64x64 (extractStridedSlice S1x64x64 ![2, 0, 0] Wg slices_S3x64x64_S1x64x64_2_0_0) shapeCasts_S1x64x64_S64x64
/-- Row `k` of the three layer biases. -/
def fBg0 (bg : TF S3x64) : TF S64 := shapeCast S64 (extractStridedSlice S1x64 ![0, 0] bg slices_S3x64_S1x64_0_0) shapeCasts_S1x64_S64
def fBg1 (bg : TF S3x64) : TF S64 := shapeCast S64 (extractStridedSlice S1x64 ![1, 0] bg slices_S3x64_S1x64_1_0) shapeCasts_S1x64_S64
def fBg2 (bg : TF S3x64) : TF S64 := shapeCast S64 (extractStridedSlice S1x64 ![2, 0] bg slices_S3x64_S1x64_2_0) shapeCasts_S1x64_S64

/-- A layer's linear map `h·W`. -/
def fHw (h : TF S100000x64) (W : TF S64x64) : TF S100000x64 :=
  Host.dotGeneral dot_S100000x64_S64x64_S100000x64_1_0_0_1_n_n none h W

/-- The rows of `hw` read at each edge's (wrapped) source node. -/
def fRows (hw : TF S100000x64) (src : TI S1600000) : TF S1600000x64 :=
  Host.gather gather_S100000x64_S1600000x1_S1600000x64_1_0_n_n_0_1_164 hw (broadcastInDim S1600000x1 ![0] bcast_S1600000_S1600000x1_0 (fWrap src))

/-- The aggregation: the edge rows, each scaled by its edge's weight, summed into their destination nodes. -/
def fAggOf (rows : TF S1600000x64) (nrm : TF S1600000) (dst : TI S1600000) : TF S100000x64 :=
  Host.scatterAdd scatter_S100000x64_S1600000x1_S1600000x64_1_0_0_1 fZero64
    (broadcastInDim S1600000x1 ![0] bcast_S1600000_S1600000x1_0 dst)
    (mulf rows (broadcastInDim S1600000x64 ![0, 1] bcast_S1600000x1_S1600000x64_0_1 (broadcastInDim S1600000x1 ![0] bcast_S1600000_S1600000x1_0 nrm)))

/-- `agg + hw · sn + b`, the self weight given as a column and the bias as a row. -/
def fOut (agg hw : TF S100000x64) (sn2 : TF S100000x1) (b2 : TF S1x64) : TF S100000x64 :=
  addf (addf agg (mulf hw (fCol64 sn2))) (fRow64 b2)

/-- The sum of a node's 64 channels. -/
def fSum64 (v : TF S100000x64) : TF S100000 :=
  Host.reduceAdd v (constant (F := Ideal) S_ .f32 0x00000000#32) reducesTo_S100000x64_S100000_d1 h_S_
/-- The constant column `64`. -/
def fC64 : TF S100000x1 := broadcastInDim S100000x1 ![] bcast_S_S100000x1 (constant (F := Ideal) S_ .f32 0x42800000#32)
/-- The mean of a node's 64 channels, as a column. -/
def fMean (v : TF S100000x64) : TF S100000x1 := Host.divf (fAsCol (fSum64 v)) fC64

/-- The divisor of the variance as the reference computes it: `64 - ddof` with `ddof = 0`. -/
def fNdof : TF S_ := subf (constant (F := Ideal) S_ .f32 0x42800000#32) (sitofp .f32 (constantI S_ 32 0#32 : TI S_))

/-- The variance of a node's 64 channels, as a column: the mean square of the centred row, guarded by the test that the
    divisor is positive. -/
def fVar (v : TF S100000x64) : TF S100000x1 :=
  select (broadcastInDim S100000x1 ![] bcast_S_S100000x1 (cmpf .ogt fNdof (constant (F := Ideal) S_ .f32 0x00000000#32)))
    (Host.divf (fAsCol (fSum64 (mulf (subf v (fCol64 (fMean v))) (subf v (fCol64 (fMean v))))))
      (broadcastInDim S100000x1 ![] bcast_S_S100000x1 fNdof))
    (broadcastInDim S100000x1 ![] bcast_S_S100000x1 (constant (F := Ideal) S_ .f32 0x7FC00000#32))

/-- The normalised row, positive part: `max ((v - mean v) · (var v + ε)^(-1/2)) 0`. -/
def fLn (v : TF S100000x64) : TF S100000x64 :=
  fRelu64 (mulf (subf v (fCol64 (fMean v)))
    (fCol64 (Host.rsqrt (addf (fVar v) (broadcastInDim S100000x1 ![] bcast_S_S100000x1 (constant (F := Ideal) S_ .f32 0x3727C5AC#32))))))

/-! ## The head -/

def fRow32 (b2 : TF S1x32) : TF S100000x32 := broadcastInDim S100000x32 ![0, 1] bcast_S1x32_S100000x32_0_1 b2
def fAsRow32 (b : TF S32) : TF S1x32 := broadcastInDim S1x32 ![1] bcast_S32_S1x32_1 b
def fAsRow1 (b : TF S1) : TF S1x1 := broadcastInDim S1x1 ![1] bcast_S1_S1x1_1 b
def fAsRow4 (b : TF S4) : TF S1x4 := broadcastInDim S1x4 ![1] bcast_S4_S1x4_1 b
def fRelu32 (v : TF S100000x32) : TF S100000x32 :=
  maximumf v (broadcastInDim S100000x32 ![] bcast_S_S100000x32 (constant (F := Ideal) S_ .f32 0x00000000#32))
/-- The constant column `1`. -/
def fOne : TF S100000x1 := broadcastInDim S100000x1 ![] bcast_S_S100000x1 (constant (F := Ideal) S_ .f32 0x3F800000#32)

/-- The gate: `1 / (1 + exp (-(max (h·Wa1 + ba1) 0 · Wa2 + ba2)))`, the biases given as rows. -/
def fAttn (h : TF S100000x64) (Wa1 : TF S64x32) (ba1 : TF S1x32) (Wa2 : TF S32x1) (ba2 : TF S1x1) : TF S100000x1 :=
  Host.divf fOne (addf fOne (Host.exp (Host.negf
    (addf (Host.dotGeneral dot_S100000x32_S32x1_S100000x1_1_0_0_1_n_n none
        (fRelu32 (addf (Host.dotGeneral dot_S100000x64_S64x32_S100000x32_1_0_0_1_n_n none h Wa1) (fRow32 ba1))) Wa2)
      (broadcastInDim S100000x1 ![0, 1] bcast_S1x1_S100000x1_0_1 ba2)))))

/-- The classifier on the gated features: `max ((h · attn)·Wc1 + bc1) 0 · Wc2 + bc2`, the biases given as rows. -/
def fLogits (h : TF S100000x64) (attn : TF S100000x1) (Wc1 : TF S64x32) (bc1 : TF S1x32) (Wc2 : TF S32x4) (bc2 : TF S1x4) : TF S100000x4 :=
  addf (Host.dotGeneral dot_S100000x32_S32x4_S100000x4_1_0_0_1_n_n none
      (fRelu32 (addf (Host.dotGeneral dot_S100000x64_S64x32_S100000x32_1_0_0_1_n_n none (mulf h (fCol64 attn)) Wc1) (fRow32 bc1))) Wc2)
    (broadcastInDim S100000x4 ![0, 1] bcast_S1x4_S100000x4_0_1 bc2)

/-! ## The whole network, from the seventeen inputs -/

/-- The inputs, in the order of the entry point's parameters. -/
structure Inputs where
  x : TF S100000x128
  ea : TF S1600000x1
  ei : TI S2x1600000
  We : TF S1x1
  be : TF S1
  Win : TF S128x64
  bin : TF S64
  Wg : TF S3x64x64
  bg : TF S3x64
  Wa1 : TF S64x32
  ba1 : TF S32
  Wa2 : TF S32x1
  ba2 : TF S1
  Wc1 : TF S64x32
  bc1 : TF S32
  Wc2 : TF S32x4
  bc2 : TF S4

variable (I : Inputs)

def vSrc : TI S1600000 := fSrc I.ei
def vDst : TI S1600000 := fDst I.ei
def vEw : TF S1600000 := fEw I.ea I.We I.be
def vDinv : TF S100000 := fDinv (fDeg (vDst I) (vEw I))
def vNrm : TF S1600000 := fNrm (vSrc I) (vDst I) (vEw I) (vDinv I)
def vSn : TF S100000 := fSn (vDinv I)
def vH0 : TF S100000x64 := fH0 I.x I.Win (fAsRow64 I.bin)
/-- A layer's pre-normalisation value from its input `h`, its matrix and its bias. -/
def vOutOf (h : TF S100000x64) (W : TF S64x64) (b : TF S64) : TF S100000x64 :=
  fOut (fAggOf (fRows (fHw h W) (vSrc I)) (vNrm I) (vDst I)) (fHw h W) (fAsCol (vSn I)) (fAsRow64 b)
def vH1 : TF S100000x64 := fLn (vOutOf I (vH0 I) (fWg0 I.Wg) (fBg0 I.bg))
def vH2 : TF S100000x64 := addf (fLn (vOutOf I (vH1 I) (fWg1 I.Wg) (fBg1 I.bg))) (vH1 I)
def vH3 : TF S100000x64 := addf (fLn (vOutOf I (vH2 I) (fWg2 I.Wg) (fBg2 I.bg))) (vH2 I)
def vAttn : TF S100000x1 := fAttn (vH3 I) I.Wa1 (fAsRow32 I.ba1) I.Wa2 (fAsRow1 I.ba2)
def vLogits : TF S100000x4 := fLogits (vH3 I) (vAttn I) I.Wc1 (fAsRow32 I.bc1) I.Wc2 (fAsRow4 I.bc2)

end Cert.Spec

end
-- ==== Proof.KLive.lean ====
/-
  What the kernel program's buffers hold where each layer begins, as the network's named values (Spec.lean) of the inputs:
  the invariants its run is read through, region by region. A layer begins at the entry of its linear map's region with
  its input features, its matrix and a zero bias row in place, the edge data and the later arguments carried along.
-/
import proofs.«403540_j78005196030173_1_alg».proof.Proof.Gen.KernelIdeal.Frame
import proofs.«403540_j78005196030173_1_alg».proof.Proof.Gen.ReferenceIdeal
import proofs.«403540_j78005196030173_1_alg».proof.Proof.Spec

noncomputable section

namespace Cert.KLive

open Idealize.ShloMosaic Idealize.ShloMosaic.TcCoe Idealize.SL.Sem Cert.KernelIdeal Cert.KernelIdeal.Gen Cert.Spec

/-- The contents of the kernel program's TensorCore buffers, on the extended reals. -/
abbrev Val := Valuation τ sig (Elt Ideal)
/-- A reference of the program as a device buffer. -/
abbrev r (b : Ref sig .tc) : DevRef τ sig := Proc.devRef .tc b

/-- The inputs a launch memory holds in core `c`'s argument buffers. -/
def inputsOf (m : (ℓ : Loc nD τ sig) → Buf (Elt Ideal) ℓ) (c : Dev nD) : Inputs where
  x := m ((c : Thread nD τ).loc main_arg0)
  ea := m ((c : Thread nD τ).loc main_arg1)
  ei := m ((c : Thread nD τ).loc main_arg2)
  We := m ((c : Thread nD τ).loc main_arg3)
  be := m ((c : Thread nD τ).loc main_arg4)
  Win := m ((c : Thread nD τ).loc main_arg5)
  bin := m ((c : Thread nD τ).loc main_arg6)
  Wg := m ((c : Thread nD τ).loc main_arg7)
  bg := m ((c : Thread nD τ).loc main_arg8)
  Wa1 := m ((c : Thread nD τ).loc main_arg9)
  ba1 := m ((c : Thread nD τ).loc main_arg10)
  Wa2 := m ((c : Thread nD τ).loc main_arg11)
  ba2 := m ((c : Thread nD τ).loc main_arg12)
  Wc1 := m ((c : Thread nD τ).loc main_arg13)
  bc1 := m ((c : Thread nD τ).loc main_arg14)
  Wc2 := m ((c : Thread nD τ).loc main_arg15)
  bc2 := m ((c : Thread nD τ).loc main_arg16)

/-- Every edge's source is a node: `0 ≤ src e < 100000` as a signed word. -/
def InRange (src : TI S1600000) : Prop := ∀ e, (0 : Int) ≤ (src e).toInt ∧ (src e).toInt < 100000

/-- The arguments the layers and the head still read hold the inputs `I`. -/
def Args (V : Val) (I : Inputs) : Prop :=
  V (r main_arg7) = I.Wg ∧ V (r main_arg8) = I.bg ∧ V (r main_arg9) = I.Wa1 ∧ V (r main_arg10) = I.ba1
  ∧ V (r main_arg11) = I.Wa2 ∧ V (r main_arg12) = I.ba2 ∧ V (r main_arg13) = I.Wc1 ∧ V (r main_arg14) = I.bc1
  ∧ V (r main_arg15) = I.Wc2 ∧ V (r main_arg16) = I.bc2

/-- The edge data every layer reads: sources, destinations, the edges' and the nodes' normalisations. -/
def Edges (V : Val) (I : Inputs) : Prop :=
  V (r main_v1) = vSrc I ∧ V (r main_v3) = vDst I ∧ V (r main_v35) = vNrm I ∧ V (r main_v36) = vSn I

/-- A bias row of zeros. -/
def ZeroRow (b : TF S1x64) : Prop := ∀ i, b i = 0

/-- Where the first layer begins (region 1's entry): the projected features, the first matrix, a zero row. -/
def E1 (V : Val) (I : Inputs) : Prop :=
  Args V I ∧ Edges V I ∧ V (r main_v5) = vH0 I ∧ V (r main_v38) = fWg0 I.Wg ∧ ZeroRow (V (r main_v40))
/-- Where the second layer begins (region 3's entry). -/
def E3 (V : Val) (I : Inputs) : Prop :=
  Args V I ∧ Edges V I ∧ V (r main_v54) = vH1 I ∧ V (r main_v56) = fWg1 I.Wg ∧ ZeroRow (V (r main_v58))
/-- Where the third layer begins (region 5's entry). -/
def E5 (V : Val) (I : Inputs) : Prop :=
  Args V I ∧ Edges V I ∧ V (r main_v71) = vH2 I ∧ V (r main_v73) = fWg2 I.Wg ∧ ZeroRow (V (r main_v75))

end Cert.KLive

end
-- ==== Proof.KAffine.lean ====
/-
  The four dense regions `y = x·W + b` (the first with the positive part): each grid point computes ten thousand node rows
  from its block of x, the whole matrix and the bias row, and the ten blocks tile the array; so the array a region leaves
  is the host's product of the whole arrays plus the broadcast row, index by index.
-/
import proofs.«403540_j78005196030173_1_alg».proof.Proof.Gen.KernelIdeal.Frame
import proofs.«403540_j78005196030173_1_alg».proof.Proof.Gen.ReferenceIdeal
import proofs.«403540_j78005196030173_1_alg».proof.Proof.Spec
import proofs.«403540_j78005196030173_1_alg».proof.Proof.KLive
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KAffine

open Idealize.ShloMosaic Idealize.ShloMosaic.TcCoe Idealize.SL.Sem Cert.KernelIdeal Cert.KernelIdeal.Gen
open Idealize.ShloMosaic.ValueIdx
open scoped BigOperators

/-- The TensorCore's buffer contents when a region is entered. -/
abbrev Entry := (c : Dev nD) → (b : Ref sig .tc) → Buf (Elt Ideal) ((c : Thread nD τ).loc b)

/-! ## The two products' index maps -/

/-- The block product's dimension numbers (rows × channels times channels × channels). -/
abbrev DK := Cert.KernelIdeal.dot_S10000x64_S64x64_S10000x64_1_0_0_1_n_n
/-- The host product's dimension numbers. -/
abbrev DH := Cert.ReferenceIdeal.dot_S100000x64_S64x64_S100000x64_1_0_0_1_n_n

theorem lhsK_0 (j : S10000x64.Idx) (k : DK.contr.Idx) : (DK.lhsIdx j k 0 : ℕ) = j 0 := by
  simp [DotDims.lhsIdx, DK, Cert.KernelIdeal.dot_S10000x64_S64x64_S10000x64_1_0_0_1_n_n]; rfl
theorem lhsK_1 (j : S10000x64.Idx) (k : DK.contr.Idx) : (DK.lhsIdx j k 1 : ℕ) = k ⟨0, by decide⟩ :=
  DK.lhsIdx_val_of_single (cl := 1) rfl j k
theorem rhsK_0 (j : S10000x64.Idx) (k : DK.contr.Idx) : (DK.rhsIdx j k 0 : ℕ) = k ⟨0, by decide⟩ :=
  DK.rhsIdx_val_of_single (cr := 0) rfl j k
theorem rhsK_1 (j : S10000x64.Idx) (k : DK.contr.Idx) : (DK.rhsIdx j k 1 : ℕ) = j 1 := by
  simp [DotDims.rhsIdx, DK, Cert.KernelIdeal.dot_S10000x64_S64x64_S10000x64_1_0_0_1_n_n]; rfl

theorem lhsH_0 (j : Cert.ReferenceIdeal.S100000x64.Idx) (k : DH.contr.Idx) : (DH.lhsIdx j k 0 : ℕ) = j 0 := by
  simp [DotDims.lhsIdx, DH, Cert.ReferenceIdeal.dot_S100000x64_S64x64_S100000x64_1_0_0_1_n_n]; rfl
theorem lhsH_1 (j : Cert.ReferenceIdeal.S100000x64.Idx) (k : DH.contr.Idx) : (DH.lhsIdx j k 1 : ℕ) = k ⟨0, by decide⟩ :=
  DH.lhsIdx_val_of_single (cl := 1) rfl j k
theorem rhsH_0 (j : Cert.ReferenceIdeal.S100000x64.Idx) (k : DH.contr.Idx) : (DH.rhsIdx j k 0 : ℕ) = k ⟨0, by decide⟩ :=
  DH.rhsIdx_val_of_single (cr := 0) rfl j k
theorem rhsH_1 (j : Cert.ReferenceIdeal.S100000x64.Idx) (k : DH.contr.Idx) : (DH.rhsIdx j k 1 : ℕ) = j 1 := by
  simp [DotDims.rhsIdx, DH, Cert.ReferenceIdeal.dot_S100000x64_S64x64_S100000x64_1_0_0_1_n_n]; rfl

/-- The host's product `h·W` at node `p`, channel `q`: the sum over the 64 input channels. -/
theorem fHw_apply (h : Spec.TF Cert.ReferenceIdeal.S100000x64) (W : Spec.TF Cert.ReferenceIdeal.S64x64) (p : Fin 100000) (q : Fin 64) :
    Spec.fHw h W (ix2 p q) = ∑ k : Fin 64, h (ix2 p k) * W (ix2 k q) := by
  unfold Spec.fHw
  simp only [Host.dotGeneral]
  rw [Ideal.dotGeneral_apply, ← Equiv.sum_comp (contrEquiv1 DH 64 rfl rfl).symm]
  refine Finset.sum_congr rfl fun k _ => ?_
  congr 2
  · refine Shape.idx_ext₂ ?_ ?_
    · exact lhsH_0 _ _
    · exact (lhsH_1 _ _).trans (contrEquiv1_symm_val DH 64 rfl rfl k)
  · refine Shape.idx_ext₂ ?_ ?_
    · exact (rhsH_0 _ _).trans (contrEquiv1_symm_val DH 64 rfl rfl k)
    · exact rhsH_1 _ _

/-- A block's product plus the bias row, at row `p` of the block and channel `q`. -/
theorem pay1_apply (x0 : Vec Ideal S10000x64 .f32) (x1 : Vec Ideal S64x64 .f32) (x2 : Vec Ideal S1x64 .f32) (p : Fin 10000) (q : Fin 64) :
    k1_pay1 x0 x1 x2 (ix2 p q) = (∑ k : Fin 64, x0 (ix2 p k) * x1 (ix2 k q)) + x2 (ix2 (0 : Fin 1) q) := by
  unfold k1_pay1
  simp only [shapeCast_self]
  rw [addf_apply]
  simp only [matmul]
  rw [Ideal.matmul_constant_zero_apply, ← Equiv.sum_comp (contrEquiv1 DK 64 rfl rfl).symm]
  congr 1
  · refine Finset.sum_congr rfl fun k _ => ?_
    congr 2
    · refine Shape.idx_ext₂ ?_ ?_
      · exact lhsK_0 _ _
      · exact (lhsK_1 _ _).trans (contrEquiv1_symm_val DK 64 rfl rfl k)
    · refine Shape.idx_ext₂ ?_ ?_
      · exact (rhsK_0 _ _).trans (contrEquiv1_symm_val DK 64 rfl rfl k)
      · exact rhsK_1 _ _
  · refine broadcastTo_apply _ _ _ _ (fun a => ?_)
    match a with
    | ⟨0, _⟩ => rfl
    | ⟨1, _⟩ => rfl

/-- The zero offsets of a whole block's load or store. -/
theorem hz : (![0, 0] : Fin 2 → Nat) = fun _ => 0 := funext fun a => by fin_cases a <;> rfl

/-! ## Region 0 -/

/-- The input projection's block product (rows × 128 features times 128 × 64). -/
abbrev DK0 := Cert.KernelIdeal.dot_S10000x128_S128x64_S10000x64_1_0_0_1_n_n
/-- The host's input projection. -/
abbrev DH0 := Cert.ReferenceIdeal.dot_S100000x128_S128x64_S100000x64_1_0_0_1_n_n

theorem lhsK0_0 (j : S10000x64.Idx) (k : DK0.contr.Idx) : (DK0.lhsIdx j k 0 : ℕ) = j 0 := by
  simp [DotDims.lhsIdx, DK0, Cert.KernelIdeal.dot_S10000x128_S128x64_S10000x64_1_0_0_1_n_n]; rfl
theorem lhsK0_1 (j : S10000x64.Idx) (k : DK0.contr.Idx) : (DK0.lhsIdx j k 1 : ℕ) = k ⟨0, by decide⟩ :=
  DK0.lhsIdx_val_of_single (cl := 1) rfl j k
theorem rhsK0_0 (j : S10000x64.Idx) (k : DK0.contr.Idx) : (DK0.rhsIdx j k 0 : ℕ) = k ⟨0, by decide⟩ :=
  DK0.rhsIdx_val_of_single (cr := 0) rfl j k
theorem rhsK0_1 (j : S10000x64.Idx) (k : DK0.contr.Idx) : (DK0.rhsIdx j k 1 : ℕ) = j 1 := by
  simp [DotDims.rhsIdx, DK0, Cert.KernelIdeal.dot_S10000x128_S128x64_S10000x64_1_0_0_1_n_n]; rfl

theorem lhsH0_0 (j : Cert.ReferenceIdeal.S100000x64.Idx) (k : DH0.contr.Idx) : (DH0.lhsIdx j k 0 : ℕ) = j 0 := by
  simp [DotDims.lhsIdx, DH0, Cert.ReferenceIdeal.dot_S100000x128_S128x64_S100000x64_1_0_0_1_n_n]; rfl
theorem lhsH0_1 (j : Cert.ReferenceIdeal.S100000x64.Idx) (k : DH0.contr.Idx) : (DH0.lhsIdx j k 1 : ℕ) = k ⟨0, by decide⟩ :=
  DH0.lhsIdx_val_of_single (cl := 1) rfl j k
theorem rhsH0_0 (j : Cert.ReferenceIdeal.S100000x64.Idx) (k : DH0.contr.Idx) : (DH0.rhsIdx j k 0 : ℕ) = k ⟨0, by decide⟩ :=
  DH0.rhsIdx_val_of_single (cr := 0) rfl j k
theorem rhsH0_1 (j : Cert.ReferenceIdeal.S100000x64.Idx) (k : DH0.contr.Idx) : (DH0.rhsIdx j k 1 : ℕ) = j 1 := by
  simp [DotDims.rhsIdx, DH0, Cert.ReferenceIdeal.dot_S100000x128_S128x64_S100000x64_1_0_0_1_n_n]; rfl

/-- The host's `max (x·W + b) 0` at node `p`, channel `q`: the sum over the 128 features plus the row's entry, against
    the zero word's value. -/
theorem fH0_apply (x : Spec.TF Cert.ReferenceIdeal.S100000x128) (W : Spec.TF Cert.ReferenceIdeal.S128x64) (b2 : Spec.TF Cert.ReferenceIdeal.S1x64)
    (p : Fin 100000) (q : Fin 64) :
    Spec.fH0 x W b2 (ix2 p q)
      = max ((∑ k : Fin 128, x (ix2 p k) * W (ix2 k q)) + b2 (ix2 (0 : Fin 1) q)) (Ideal.ofBits .f32 0x00000000#32) := by
  unfold Spec.fH0 Spec.fRelu64 Spec.fZero64 Spec.fRow64
  rw [maximumf_apply, addf_apply]
  simp only [Host.dotGeneral]
  rw [Ideal.dotGeneral_apply, ← Equiv.sum_comp (contrEquiv1 DH0 128 rfl rfl).symm]
  refine congrArg₂ max (congrArg₂ (· + ·) ?_ ?_) ?_
  · refine Finset.sum_congr rfl fun k _ => ?_
    congr 2
    · refine Shape.idx_ext₂ ?_ ?_
      · exact lhsH0_0 _ _
      · exact (lhsH0_1 _ _).trans (contrEquiv1_symm_val DH0 128 rfl rfl k)
    · refine Shape.idx_ext₂ ?_ ?_
      · exact (rhsH0_0 _ _).trans (contrEquiv1_symm_val DH0 128 rfl rfl k)
      · exact rhsH0_1 _ _
  · refine broadcastInDim_apply _ _ _ _ _ (fun a => ?_)
    match a with
    | ⟨0, _⟩ => rfl
    | ⟨1, _⟩ => rfl
  · exact broadcastInDim_apply _ _ _ _ ix0 (fun a => a.elim0)

/-- The block's `max (x·W + b) 0` at row `p` of the block and channel `q`. -/
theorem pay0_apply (x0 : Vec Ideal S10000x128 .f32) (x1 : Vec Ideal S128x64 .f32) (x2 : Vec Ideal S1x64 .f32) (p : Fin 10000) (q : Fin 64) :
    k0_pay1 x0 x1 x2 (ix2 p q)
      = max ((∑ k : Fin 128, x0 (ix2 p k) * x1 (ix2 k q)) + x2 (ix2 (0 : Fin 1) q)) (Ideal.ofBits .f32 0x00000000#32) := by
  unfold k0_pay1
  simp only [shapeCast_self]
  rw [maximumf_apply, addf_apply]
  simp only [matmul]
  rw [Ideal.matmul_constant_zero_apply, ← Equiv.sum_comp (contrEquiv1 DK0 128 rfl rfl).symm]
  refine congrArg₂ max (congrArg₂ (· + ·) ?_ ?_) rfl
  · refine Finset.sum_congr rfl fun k _ => ?_
    congr 2
    · refine Shape.idx_ext₂ ?_ ?_
      · exact lhsK0_0 _ _
      · exact (lhsK0_1 _ _).trans (contrEquiv1_symm_val DK0 128 rfl rfl k)
    · refine Shape.idx_ext₂ ?_ ?_
      · exact (rhsK0_0 _ _).trans (contrEquiv1_symm_val DK0 128 rfl rfl k)
      · exact rhsK0_1 _ _
  · refine broadcastTo_apply _ _ _ _ (fun a => ?_)
    match a with
    | ⟨0, _⟩ => rfl
    | ⟨1, _⟩ => rfl

/-- Region 0's index maps over the ten points: the input and result blocks move down the rows, the matrix and the
    bias row stay. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Region 0's arrays (node features, matrix, bias row) and their blocks at a point. -/
abbrev xArr0 (V : Entry) (c : Dev nD) : Vec Ideal S100000x128 .f32 := V c main_arg0
abbrev wArr0 (V : Entry) (c : Dev nD) : Vec Ideal S128x64 .f32 := V c main_arg5
abbrev bArr0 (V : Entry) (c : Dev nD) : Vec Ideal S1x64 .f32 := V c main_v4
abbrev xBlk0 (V : Entry) (c : Dev nD) (t : Fin cfg0.N) : Vec Ideal S10000x128 .f32 := iblk0 V c 0 t
abbrev wBlk0 (V : Entry) (c : Dev nD) (t : Fin cfg0.N) : Vec Ideal S128x64 .f32 := iblk0 V c 1 t
abbrev bBlk0 (V : Entry) (c : Dev nD) (t : Fin cfg0.N) : Vec Ideal S1x64 .f32 := iblk0 V c 2 t

/-- Point `t`'s input block is rows `10000·t …` of the node features. -/
theorem xBlk0_apply (V : Entry) (c : Dev nD) (t : Fin cfg0.N) (p : Fin 10000) (k : Fin 128) (P : Fin 100000)
    (hP : P.val = 10000 * t.val + p.val) : xBlk0 V c t (ix2 p k) = xArr0 V c (ix2 P k) := by
  obtain ⟨e0, e1, -⟩ := idx0 t
  show V c main_arg0 (((cfg0.win 0).blk t).view.emb (ix2 p k)) = V c main_arg0 (ix2 P k)
  congr 1
  funext a; apply Fin.ext
  match a with
  | ⟨0, _⟩ => show win0_0.index t (0 : Fin 2) * 10000 + 1 * p.val = P.val; omega
  | ⟨1, _⟩ => show win0_0.index t (1 : Fin 2) * 128 + 1 * k.val = k.val; omega

/-- Every point's matrix block is the matrix. -/
theorem wBlk0_apply (V : Entry) (c : Dev nD) (t : Fin cfg0.N) (k : Fin 128) (q : Fin 64) : wBlk0 V c t (ix2 k q) = wArr0 V c (ix2 k q) := by
  obtain ⟨-, -, e0, e1, -⟩ := idx0 t
  show V c main_arg5 (((cfg0.win 1).blk t).view.emb (ix2 k q)) = V c main_arg5 (ix2 k q)
  congr 1
  funext a; apply Fin.ext
  match a with
  | ⟨0, _⟩ => show win0_1.index t (0 : Fin 2) * 128 + 1 * k.val = k.val; omega
  | ⟨1, _⟩ => show win0_1.index t (1 : Fin 2) * 64 + 1 * q.val = q.val; omega

/-- Every point's bias block is the bias row. -/
theorem bBlk0_apply (V : Entry) (c : Dev nD) (t : Fin cfg0.N) (q : Fin 64) : bBlk0 V c t (ix2 (0 : Fin 1) q) = bArr0 V c (ix2 (0 : Fin 1) q) := by
  obtain ⟨-, -, -, -, e0, e1, -⟩ := idx0 t
  show V c main_v4 (((cfg0.win 2).blk t).view.emb (ix2 (0 : Fin 1) q)) = V c main_v4 (ix2 (0 : Fin 1) q)
  congr 1
  funext a; apply Fin.ext
  match a with
  | ⟨0, _⟩ => show win0_2.index t (0 : Fin 2) * 1 + 1 * 0 = 0; omega
  | ⟨1, _⟩ => show win0_2.index t (1 : Fin 2) * 64 + 1 * q.val = q.val; omega

/-- What point `t` writes back is block `t` of the host's projection of the whole arrays. -/
theorem flushed0 (V : Entry) (c : Dev nD) (t : Fin cfg0.N) :
    (dat0 (F := Ideal) V c).flushed 3 t
      = ((cfg0.win 3).blk t).view.read (Elt Ideal) (Spec.fH0 (V c main_arg0) (V c main_arg5) (V c main_v4)) := by
  show (cfg0.win 3).cut (grid0.coords t) ((dat0 V c).after 3 t) = _
  rw [after0_3]
  unfold out0_3
  rw [View.canon_unit_zero hz]
  simp only [View.ld_unit_zero (S := S10000x128) hz, View.ld_unit_zero (S := S128x64) hz, View.ld_unit_zero (S := S1x64) hz]
  funext j
  obtain ⟨p, q, rfl⟩ : ∃ (p : Fin 10000) (q : Fin 64), j = ix2 p q := ⟨j 0, j 1, eq_ix2 j⟩
  have hN : cfg0.N = 10 := N_0
  have ht : t.val < 10 := hN ▸ t.isLt
  obtain ⟨-, -, -, -, -, -, e0, e1⟩ := idx0 t
  have hE : ((cfg0.win 3).blk t).view.emb (ix2 p q) = ix2 (⟨10000 * t.val + p.val, by omega⟩ : Fin 100000) q := by
    funext a; apply Fin.ext
    match a with
    | ⟨0, _⟩ => show win0_3.index t (0 : Fin 2) * 10000 + 1 * p.val = 10000 * t.val + p.val; omega
    | ⟨1, _⟩ => show win0_3.index t (1 : Fin 2) * 64 + 1 * q.val = q.val; omega
  show k0_pay1 (xBlk0 V c t) (wBlk0 V c t) (bBlk0 V c t) (ix2 p q)
    = Spec.fH0 (V c main_arg0) (V c main_arg5) (V c main_v4) (((cfg0.win 3).blk t).view.emb (ix2 p q))
  rw [hE, pay0_apply, fH0_apply, bBlk0_apply]
  refine congrArg₂ max (congrArg₂ (· + ·) ?_ rfl) rfl
  refine Finset.sum_congr rfl fun k _ => ?_
  rw [xBlk0_apply V c t p k ⟨10000 * t.val + p.val, by omega⟩ rfl, wBlk0_apply]

/-- An index of the result is in point `t`'s block iff each coordinate is in the block's range on its axis. -/
theorem mem_blk0 (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v5).slice (win0_3.rect t)).set ↔ _
  rw [View.set_slice_whole, Rect.mem_set_unit]
  exact Iff.rfl

/-- Row `r` of the result is in the block of point `r / 10000`. -/
theorem cover0 (i : S100000x64.Idx) : ∃ t : Fin cfg0.N, (cfg0.win 3).flush t = true ∧ i ∈ ((cfg0.win 3).blk t).view.set := by
  have hN : cfg0.N = 10 := N_0
  have h0 : (i 0).val < 100000 := (i 0).isLt
  have h1 : (i 1).val < 64 := (i 1).isLt
  refine ⟨⟨(i 0).val / 10000, by omega⟩, flush0_3 _, ?_⟩
  rw [mem_blk0]
  obtain ⟨-, -, -, -, -, -, e0, e1⟩ := idx0 ⟨(i 0).val / 10000, by omega⟩
  intro a
  match a with
  | ⟨0, _⟩ => show win0_3.index _ (0 : Fin 2) * 10000 ≤ (i 0).val ∧ (i 0).val < win0_3.index _ (0 : Fin 2) * 10000 + 10000; rw [e0]; show (i 0).val / 10000 * 10000 ≤ (i 0).val ∧ (i 0).val < (i 0).val / 10000 * 10000 + 10000; omega
  | ⟨1, _⟩ => show win0_3.index _ (1 : Fin 2) * 64 ≤ (i 1).val ∧ (i 1).val < win0_3.index _ (1 : Fin 2) * 64 + 64; rw [e1]; omega

/-- Region 0 leaves `max (x·W_in + b) 0`. -/
theorem region0_value (V : Entry) (c : Dev nD) :
    (dat0 (F := Ideal) V c).arrAt 3 cfg0.N = Spec.fH0 (V c main_arg0) (V c main_arg5) (V c main_v4) :=
  (dat0 (F := Ideal) V c).arrAt_eq_of_cover 3 (Spec.fH0 (V c main_arg0) (V c main_arg5) (V c main_v4)) (fun t _ => flushed0 V c t) cover0

/-! ## Region 1 -/

/-- Region 1's index maps over the ten points: the feature and result blocks move down the rows, the matrix and the
    bias row stay. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Region 1's arrays (features, matrix, bias row) and their blocks at a point. -/
abbrev hArr1 (V : Entry) (c : Dev nD) : Vec Ideal S100000x64 .f32 := V c main_v5
abbrev wArr1 (V : Entry) (c : Dev nD) : Vec Ideal S64x64 .f32 := V c main_v38
abbrev bArr1 (V : Entry) (c : Dev nD) : Vec Ideal S1x64 .f32 := V c main_v40
abbrev hBlk1 (V : Entry) (c : Dev nD) (t : Fin cfg1.N) : Vec Ideal S10000x64 .f32 := iblk1 V c 0 t
abbrev wBlk1 (V : Entry) (c : Dev nD) (t : Fin cfg1.N) : Vec Ideal S64x64 .f32 := iblk1 V c 1 t
abbrev bBlk1 (V : Entry) (c : Dev nD) (t : Fin cfg1.N) : Vec Ideal S1x64 .f32 := iblk1 V c 2 t

/-- Point `t`'s feature block is rows `10000·t …` of the features. -/
theorem hBlk1_apply (V : Entry) (c : Dev nD) (t : Fin cfg1.N) (p : Fin 10000) (k : Fin 64) (P : Fin 100000)
    (hP : P.val = 10000 * t.val + p.val) : hBlk1 V c t (ix2 p k) = hArr1 V c (ix2 P k) := by
  obtain ⟨e0, e1, -⟩ := idx1 t
  show V c main_v5 (((cfg1.win 0).blk t).view.emb (ix2 p k)) = V c main_v5 (ix2 P k)
  congr 1
  funext a; apply Fin.ext
  match a with
  | ⟨0, _⟩ => show win1_0.index t (0 : Fin 2) * 10000 + 1 * p.val = P.val; omega
  | ⟨1, _⟩ => show win1_0.index t (1 : Fin 2) * 64 + 1 * k.val = k.val; omega

/-- Every point's matrix block is the matrix. -/
theorem wBlk1_apply (V : Entry) (c : Dev nD) (t : Fin cfg1.N) (k q : Fin 64) : wBlk1 V c t (ix2 k q) = wArr1 V c (ix2 k q) := by
  obtain ⟨-, -, e0, e1, -⟩ := idx1 t
  show V c main_v38 (((cfg1.win 1).blk t).view.emb (ix2 k q)) = V c main_v38 (ix2 k q)
  congr 1
  funext a; apply Fin.ext
  match a with
  | ⟨0, _⟩ => show win1_1.index t (0 : Fin 2) * 64 + 1 * k.val = k.val; omega
  | ⟨1, _⟩ => show win1_1.index t (1 : Fin 2) * 64 + 1 * q.val = q.val; omega

/-- Every point's bias block is the bias row. -/
theorem bBlk1_apply (V : Entry) (c : Dev nD) (t : Fin cfg1.N) (q : Fin 64) : bBlk1 V c t (ix2 (0 : Fin 1) q) = bArr1 V c (ix2 (0 : Fin 1) q) := by
  obtain ⟨-, -, -, -, e0, e1, -⟩ := idx1 t
  show V c main_v40 (((cfg1.win 2).blk t).view.emb (ix2 (0 : Fin 1) q)) = V c main_v40 (ix2 (0 : Fin 1) q)
  congr 1
  funext a; apply Fin.ext
  match a with
  | ⟨0, _⟩ => show win1_2.index t (0 : Fin 2) * 1 + 1 * 0 = 0; omega
  | ⟨1, _⟩ => show win1_2.index t (1 : Fin 2) * 64 + 1 * q.val = q.val; omega

/-- What point `t` writes back is block `t` of the host's product of the whole arrays: the zero bias row adds nothing. -/
theorem flushed1 (V : Entry) (c : Dev nD) (hb : KLive.ZeroRow (V c main_v40)) (t : Fin cfg1.N) :
    (dat1 (F := Ideal) V c).flushed 3 t = ((cfg1.win 3).blk t).view.read (Elt Ideal) (Spec.fHw (V c main_v5) (V c main_v38)) := by
  show (cfg1.win 3).cut (grid1.coords t) ((dat1 V c).after 3 t) = _
  rw [after1_3]
  unfold out1_3
  rw [View.canon_unit_zero hz]
  simp only [View.ld_unit_zero (S := S10000x64) hz, View.ld_unit_zero (S := S64x64) hz, View.ld_unit_zero (S := S1x64) hz]
  funext j
  obtain ⟨p, q, rfl⟩ : ∃ (p : Fin 10000) (q : Fin 64), j = ix2 p q := ⟨j 0, j 1, eq_ix2 j⟩
  have hN : cfg1.N = 10 := N_1
  have ht : t.val < 10 := hN ▸ t.isLt
  obtain ⟨-, -, -, -, -, -, e0, e1⟩ := idx1 t
  have hE : ((cfg1.win 3).blk t).view.emb (ix2 p q) = ix2 (⟨10000 * t.val + p.val, by omega⟩ : Fin 100000) q := by
    funext a; apply Fin.ext
    match a with
    | ⟨0, _⟩ => show win1_3.index t (0 : Fin 2) * 10000 + 1 * p.val = 10000 * t.val + p.val; omega
    | ⟨1, _⟩ => show win1_3.index t (1 : Fin 2) * 64 + 1 * q.val = q.val; omega
  show k1_pay1 (hBlk1 V c t) (wBlk1 V c t) (bBlk1 V c t) (ix2 p q)
    = Spec.fHw (V c main_v5) (V c main_v38) (((cfg1.win 3).blk t).view.emb (ix2 p q))
  rw [hE, pay1_apply, fHw_apply, bBlk1_apply]
  rw [show bArr1 V c (ix2 (0 : Fin 1) q) = 0 from hb _, add_zero]
  refine Finset.sum_congr rfl fun k _ => ?_
  rw [hBlk1_apply V c t p k ⟨10000 * t.val + p.val, by omega⟩ rfl, wBlk1_apply]

/-- An index of the result is in point `t`'s block iff each coordinate is in the block's range on its axis. -/
theorem mem_blk1 (t : Fin cfg1.N) (i : S100000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v41).slice (win1_3.rect t)).set ↔ _
  rw [View.set_slice_whole, Rect.mem_set_unit]
  exact Iff.rfl

/-- Row `r` of the result is in the block of point `r / 10000`. -/
theorem cover1 (i : S100000x64.Idx) : ∃ t : Fin cfg1.N, (cfg1.win 3).flush t = true ∧ i ∈ ((cfg1.win 3).blk t).view.set := by
  have hN : cfg1.N = 10 := N_1
  have h0 : (i 0).val < 100000 := (i 0).isLt
  have h1 : (i 1).val < 64 := (i 1).isLt
  refine ⟨⟨(i 0).val / 10000, by omega⟩, flush1_3 _, ?_⟩
  rw [mem_blk1]
  obtain ⟨-, -, -, -, -, -, e0, e1⟩ := idx1 ⟨(i 0).val / 10000, by omega⟩
  intro a
  match a with
  | ⟨0, _⟩ => show win1_3.index _ (0 : Fin 2) * 10000 ≤ (i 0).val ∧ (i 0).val < win1_3.index _ (0 : Fin 2) * 10000 + 10000; rw [e0]; show (i 0).val / 10000 * 10000 ≤ (i 0).val ∧ (i 0).val < (i 0).val / 10000 * 10000 + 10000; omega
  | ⟨1, _⟩ => show win1_3.index _ (1 : Fin 2) * 64 ≤ (i 1).val ∧ (i 1).val < win1_3.index _ (1 : Fin 2) * 64 + 64; rw [e1]; omega

/-- Region 1 leaves `h·W` when its bias row is zero. -/
theorem region1_value (V : Entry) (c : Dev nD) (hb : KLive.ZeroRow (V c main_v40)) :
    (dat1 (F := Ideal) V c).arrAt 3 cfg1.N = Spec.fHw (V c main_v5) (V c main_v38) :=
  (dat1 (F := Ideal) V c).arrAt_eq_of_cover 3 (Spec.fHw (V c main_v5) (V c main_v38)) (fun t _ => flushed1 V c hb t) cover1

/-- Region 3's block product plus the bias row, at row `p` of the block and channel `q`. -/
theorem pay3_apply (x0 : Vec Ideal S10000x64 .f32) (x1 : Vec Ideal S64x64 .f32) (x2 : Vec Ideal S1x64 .f32) (p : Fin 10000) (q : Fin 64) :
    k3_pay1 x0 x1 x2 (ix2 p q) = (∑ k : Fin 64, x0 (ix2 p k) * x1 (ix2 k q)) + x2 (ix2 (0 : Fin 1) q) := by
  unfold k3_pay1
  simp only [shapeCast_self]
  rw [addf_apply]
  simp only [matmul]
  rw [Ideal.matmul_constant_zero_apply, ← Equiv.sum_comp (contrEquiv1 DK 64 rfl rfl).symm]
  congr 1
  · refine Finset.sum_congr rfl fun k _ => ?_
    congr 2
    · refine Shape.idx_ext₂ ?_ ?_
      · exact lhsK_0 _ _
      · exact (lhsK_1 _ _).trans (contrEquiv1_symm_val DK 64 rfl rfl k)
    · refine Shape.idx_ext₂ ?_ ?_
      · exact (rhsK_0 _ _).trans (contrEquiv1_symm_val DK 64 rfl rfl k)
      · exact rhsK_1 _ _
  · refine broadcastTo_apply _ _ _ _ (fun a => ?_)
    match a with
    | ⟨0, _⟩ => rfl
    | ⟨1, _⟩ => rfl

/-! ## Region 3 -/

/-- Region 3's index maps over the ten points: the feature and result blocks move down the rows, the matrix and the
    bias row stay. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Region 3's arrays (features, matrix, bias row) and their blocks at a point. -/
abbrev hArr3 (V : Entry) (c : Dev nD) : Vec Ideal S100000x64 .f32 := V c main_v54
abbrev wArr3 (V : Entry) (c : Dev nD) : Vec Ideal S64x64 .f32 := V c main_v56
abbrev bArr3 (V : Entry) (c : Dev nD) : Vec Ideal S1x64 .f32 := V c main_v58
abbrev hBlk3 (V : Entry) (c : Dev nD) (t : Fin cfg3.N) : Vec Ideal S10000x64 .f32 := iblk3 V c 0 t
abbrev wBlk3 (V : Entry) (c : Dev nD) (t : Fin cfg3.N) : Vec Ideal S64x64 .f32 := iblk3 V c 1 t
abbrev bBlk3 (V : Entry) (c : Dev nD) (t : Fin cfg3.N) : Vec Ideal S1x64 .f32 := iblk3 V c 2 t

/-- Point `t`'s feature block is rows `10000·t …` of the features. -/
theorem hBlk3_apply (V : Entry) (c : Dev nD) (t : Fin cfg3.N) (p : Fin 10000) (k : Fin 64) (P : Fin 100000)
    (hP : P.val = 10000 * t.val + p.val) : hBlk3 V c t (ix2 p k) = hArr3 V c (ix2 P k) := by
  obtain ⟨e0, e1, -⟩ := idx3 t
  show V c main_v54 (((cfg3.win 0).blk t).view.emb (ix2 p k)) = V c main_v54 (ix2 P k)
  congr 1
  funext a; apply Fin.ext
  match a with
  | ⟨0, _⟩ => show win3_0.index t (0 : Fin 2) * 10000 + 1 * p.val = P.val; omega
  | ⟨1, _⟩ => show win3_0.index t (1 : Fin 2) * 64 + 1 * k.val = k.val; omega

/-- Every point's matrix block is the matrix. -/
theorem wBlk3_apply (V : Entry) (c : Dev nD) (t : Fin cfg3.N) (k q : Fin 64) : wBlk3 V c t (ix2 k q) = wArr3 V c (ix2 k q) := by
  obtain ⟨-, -, e0, e1, -⟩ := idx3 t
  show V c main_v56 (((cfg3.win 1).blk t).view.emb (ix2 k q)) = V c main_v56 (ix2 k q)
  congr 1
  funext a; apply Fin.ext
  match a with
  | ⟨0, _⟩ => show win3_1.index t (0 : Fin 2) * 64 + 1 * k.val = k.val; omega
  | ⟨1, _⟩ => show win3_1.index t (1 : Fin 2) * 64 + 1 * q.val = q.val; omega

/-- Every point's bias block is the bias row. -/
theorem bBlk3_apply (V : Entry) (c : Dev nD) (t : Fin cfg3.N) (q : Fin 64) : bBlk3 V c t (ix2 (0 : Fin 1) q) = bArr3 V c (ix2 (0 : Fin 1) q) := by
  obtain ⟨-, -, -, -, e0, e1, -⟩ := idx3 t
  show V c main_v58 (((cfg3.win 2).blk t).view.emb (ix2 (0 : Fin 1) q)) = V c main_v58 (ix2 (0 : Fin 1) q)
  congr 1
  funext a; apply Fin.ext
  match a with
  | ⟨0, _⟩ => show win3_2.index t (0 : Fin 2) * 1 + 1 * 0 = 0; omega
  | ⟨1, _⟩ => show win3_2.index t (1 : Fin 2) * 64 + 1 * q.val = q.val; omega

/-- What point `t` writes back is block `t` of the host's product of the whole arrays: the zero bias row adds nothing. -/
theorem flushed3 (V : Entry) (c : Dev nD) (hb : KLive.ZeroRow (V c main_v58)) (t : Fin cfg3.N) :
    (dat3 (F := Ideal) V c).flushed 3 t = ((cfg3.win 3).blk t).view.read (Elt Ideal) (Spec.fHw (V c main_v54) (V c main_v56)) := by
  show (cfg3.win 3).cut (grid3.coords t) ((dat3 V c).after 3 t) = _
  rw [after3_3]
  unfold out3_3
  rw [View.canon_unit_zero hz]
  simp only [View.ld_unit_zero (S := S10000x64) hz, View.ld_unit_zero (S := S64x64) hz, View.ld_unit_zero (S := S1x64) hz]
  funext j
  obtain ⟨p, q, rfl⟩ : ∃ (p : Fin 10000) (q : Fin 64), j = ix2 p q := ⟨j 0, j 1, eq_ix2 j⟩
  have hN : cfg3.N = 10 := N_3
  have ht : t.val < 10 := hN ▸ t.isLt
  obtain ⟨-, -, -, -, -, -, e0, e1⟩ := idx3 t
  have hE : ((cfg3.win 3).blk t).view.emb (ix2 p q) = ix2 (⟨10000 * t.val + p.val, by omega⟩ : Fin 100000) q := by
    funext a; apply Fin.ext
    match a with
    | ⟨0, _⟩ => show win3_3.index t (0 : Fin 2) * 10000 + 1 * p.val = 10000 * t.val + p.val; omega
    | ⟨1, _⟩ => show win3_3.index t (1 : Fin 2) * 64 + 1 * q.val = q.val; omega
  show k3_pay1 (hBlk3 V c t) (wBlk3 V c t) (bBlk3 V c t) (ix2 p q)
    = Spec.fHw (V c main_v54) (V c main_v56) (((cfg3.win 3).blk t).view.emb (ix2 p q))
  rw [hE, pay3_apply, fHw_apply, bBlk3_apply]
  rw [show bArr3 V c (ix2 (0 : Fin 1) q) = 0 from hb _, add_zero]
  refine Finset.sum_congr rfl fun k _ => ?_
  rw [hBlk3_apply V c t p k ⟨10000 * t.val + p.val, by omega⟩ rfl, wBlk3_apply]

/-- An index of the result is in point `t`'s block iff each coordinate is in the block's range on its axis. -/
theorem mem_blk3 (t : Fin cfg3.N) (i : S100000x64.Idx) :
    i ∈ ((cfg3.win 3).blk t).view.set ↔ ∀ a : Fin 2, win3_3.index t a * S10000x64.size a ≤ (i a).val ∧ (i a).val < win3_3.index t a * S10000x64.size a + S10000x64.size a := by
  show i ∈ ((View.whole main_v59).slice (win3_3.rect t)).set ↔ _
  rw [View.set_slice_whole, Rect.mem_set_unit]
  exact Iff.rfl

/-- Row `r` of the result is in the block of point `r / 10000`. -/
theorem cover3 (i : S100000x64.Idx) : ∃ t : Fin cfg3.N, (cfg3.win 3).flush t = true ∧ i ∈ ((cfg3.win 3).blk t).view.set := by
  have hN : cfg3.N = 10 := N_3
  have h0 : (i 0).val < 100000 := (i 0).isLt
  have h1 : (i 1).val < 64 := (i 1).isLt
  refine ⟨⟨(i 0).val / 10000, by omega⟩, flush3_3 _, ?_⟩
  rw [mem_blk3]
  obtain ⟨-, -, -, -, -, -, e0, e1⟩ := idx3 ⟨(i 0).val / 10000, by omega⟩
  intro a
  match a with
  | ⟨0, _⟩ => show win3_3.index _ (0 : Fin 2) * 10000 ≤ (i 0).val ∧ (i 0).val < win3_3.index _ (0 : Fin 2) * 10000 + 10000; rw [e0]; show (i 0).val / 10000 * 10000 ≤ (i 0).val ∧ (i 0).val < (i 0).val / 10000 * 10000 + 10000; omega
  | ⟨1, _⟩ => show win3_3.index _ (1 : Fin 2) * 64 ≤ (i 1).val ∧ (i 1).val < win3_3.index _ (1 : Fin 2) * 64 + 64; rw [e1]; omega

/-- Region 3 leaves `h·W` when its bias row is zero. -/
theorem region3_value (V : Entry) (c : Dev nD) (hb : KLive.ZeroRow (V c main_v58)) :
    (dat3 (F := Ideal) V c).arrAt 3 cfg3.N = Spec.fHw (V c main_v54) (V c main_v56) :=
  (dat3 (F := Ideal) V c).arrAt_eq_of_cover 3 (Spec.fHw (V c main_v54) (V c main_v56)) (fun t _ => flushed3 V c hb t) cover3

/-- Region 5's block product plus the bias row, at row `p` of the block and channel `q`. -/
theorem pay5_apply (x0 : Vec Ideal S10000x64 .f32) (x1 : Vec Ideal S64x64 .f32) (x2 : Vec Ideal S1x64 .f32) (p : Fin 10000) (q : Fin 64) :
    k5_pay1 x0 x1 x2 (ix2 p q) = (∑ k : Fin 64, x0 (ix2 p k) * x1 (ix2 k q)) + x2 (ix2 (0 : Fin 1) q) := by
  unfold k5_pay1
  simp only [shapeCast_self]
  rw [addf_apply]
  simp only [matmul]
  rw [Ideal.matmul_constant_zero_apply, ← Equiv.sum_comp (contrEquiv1 DK 64 rfl rfl).symm]
  congr 1
  · refine Finset.sum_congr rfl fun k _ => ?_
    congr 2
    · refine Shape.idx_ext₂ ?_ ?_
      · exact lhsK_0 _ _
      · exact (lhsK_1 _ _).trans (contrEquiv1_symm_val DK 64 rfl rfl k)
    · refine Shape.idx_ext₂ ?_ ?_
      · exact (rhsK_0 _ _).trans (contrEquiv1_symm_val DK 64 rfl rfl k)
      · exact rhsK_1 _ _
  · refine broadcastTo_apply _ _ _ _ (fun a => ?_)
    match a with
    | ⟨0, _⟩ => rfl
    | ⟨1, _⟩ => rfl

/-! ## Region 5 -/

/-- Region 5's index maps over the ten points: the feature and result blocks move down the rows, the matrix and the
    bias row stay. -/
theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- Region 5's arrays (features, matrix, bias row) and their blocks at a point. -/
abbrev hArr5 (V : Entry) (c : Dev nD) : Vec Ideal S100000x64 .f32 := V c main_v71
abbrev wArr5 (V : Entry) (c : Dev nD) : Vec Ideal S64x64 .f32 := V c main_v73
abbrev bArr5 (V : Entry) (c : Dev nD) : Vec Ideal S1x64 .f32 := V c main_v75
abbrev hBlk5 (V : Entry) (c : Dev nD) (t : Fin cfg5.N) : Vec Ideal S10000x64 .f32 := iblk5 V c 0 t
abbrev wBlk5 (V : Entry) (c : Dev nD) (t : Fin cfg5.N) : Vec Ideal S64x64 .f32 := iblk5 V c 1 t
abbrev bBlk5 (V : Entry) (c : Dev nD) (t : Fin cfg5.N) : Vec Ideal S1x64 .f32 := iblk5 V c 2 t

/-- Point `t`'s feature block is rows `10000·t …` of the features. -/
theorem hBlk5_apply (V : Entry) (c : Dev nD) (t : Fin cfg5.N) (p : Fin 10000) (k : Fin 64) (P : Fin 100000)
    (hP : P.val = 10000 * t.val + p.val) : hBlk5 V c t (ix2 p k) = hArr5 V c (ix2 P k) := by
  obtain ⟨e0, e1, -⟩ := idx5 t
  show V c main_v71 (((cfg5.win 0).blk t).view.emb (ix2 p k)) = V c main_v71 (ix2 P k)
  congr 1
  funext a; apply Fin.ext
  match a with
  | ⟨0, _⟩ => show win5_0.index t (0 : Fin 2) * 10000 + 1 * p.val = P.val; omega
  | ⟨1, _⟩ => show win5_0.index t (1 : Fin 2) * 64 + 1 * k.val = k.val; omega

/-- Every point's matrix block is the matrix. -/
theorem wBlk5_apply (V : Entry) (c : Dev nD) (t : Fin cfg5.N) (k q : Fin 64) : wBlk5 V c t (ix2 k q) = wArr5 V c (ix2 k q) := by
  obtain ⟨-, -, e0, e1, -⟩ := idx5 t
  show V c main_v73 (((cfg5.win 1).blk t).view.emb (ix2 k q)) = V c main_v73 (ix2 k q)
  congr 1
  funext a; apply Fin.ext
  match a with
  | ⟨0, _⟩ => show win5_1.index t (0 : Fin 2) * 64 + 1 * k.val = k.val; omega
  | ⟨1, _⟩ => show win5_1.index t (1 : Fin 2) * 64 + 1 * q.val = q.val; omega

/-- Every point's bias block is the bias row. -/
theorem bBlk5_apply (V : Entry) (c : Dev nD) (t : Fin cfg5.N) (q : Fin 64) : bBlk5 V c t (ix2 (0 : Fin 1) q) = bArr5 V c (ix2 (0 : Fin 1) q) := by
  obtain ⟨-, -, -, -, e0, e1, -⟩ := idx5 t
  show V c main_v75 (((cfg5.win 2).blk t).view.emb (ix2 (0 : Fin 1) q)) = V c main_v75 (ix2 (0 : Fin 1) q)
  congr 1
  funext a; apply Fin.ext
  match a with
  | ⟨0, _⟩ => show win5_2.index t (0 : Fin 2) * 1 + 1 * 0 = 0; omega
  | ⟨1, _⟩ => show win5_2.index t (1 : Fin 2) * 64 + 1 * q.val = q.val; omega

/-- What point `t` writes back is block `t` of the host's product of the whole arrays: the zero bias row adds nothing. -/
theorem flushed5 (V : Entry) (c : Dev nD) (hb : KLive.ZeroRow (V c main_v75)) (t : Fin cfg5.N) :
    (dat5 (F := Ideal) V c).flushed 3 t = ((cfg5.win 3).blk t).view.read (Elt Ideal) (Spec.fHw (V c main_v71) (V c main_v73)) := by
  show (cfg5.win 3).cut (grid5.coords t) ((dat5 V c).after 3 t) = _
  rw [after5_3]
  unfold out5_3
  rw [View.canon_unit_zero hz]
  simp only [View.ld_unit_zero (S := S10000x64) hz, View.ld_unit_zero (S := S64x64) hz, View.ld_unit_zero (S := S1x64) hz]
  funext j
  obtain ⟨p, q, rfl⟩ : ∃ (p : Fin 10000) (q : Fin 64), j = ix2 p q := ⟨j 0, j 1, eq_ix2 j⟩
  have hN : cfg5.N = 10 := N_5
  have ht : t.val < 10 := hN ▸ t.isLt
  obtain ⟨-, -, -, -, -, -, e0, e1⟩ := idx5 t
  have hE : ((cfg5.win 3).blk t).view.emb (ix2 p q) = ix2 (⟨10000 * t.val + p.val, by omega⟩ : Fin 100000) q := by
    funext a; apply Fin.ext
    match a with
    | ⟨0, _⟩ => show win5_3.index t (0 : Fin 2) * 10000 + 1 * p.val = 10000 * t.val + p.val; omega
    | ⟨1, _⟩ => show win5_3.index t (1 : Fin 2) * 64 + 1 * q.val = q.val; omega
  show k5_pay1 (hBlk5 V c t) (wBlk5 V c t) (bBlk5 V c t) (ix2 p q)
    = Spec.fHw (V c main_v71) (V c main_v73) (((cfg5.win 3).blk t).view.emb (ix2 p q))
  rw [hE, pay5_apply, fHw_apply, bBlk5_apply]
  rw [show bArr5 V c (ix2 (0 : Fin 1) q) = 0 from hb _, add_zero]
  refine Finset.sum_congr rfl fun k _ => ?_
  rw [hBlk5_apply V c t p k ⟨10000 * t.val + p.val, by omega⟩ rfl, wBlk5_apply]

/-- An index of the result is in point `t`'s block iff each coordinate is in the block's range on its axis. -/
theorem mem_blk5 (t : Fin cfg5.N) (i : S100000x64.Idx) :
    i ∈ ((cfg5.win 3).blk t).view.set ↔ ∀ a : Fin 2, win5_3.index t a * S10000x64.size a ≤ (i a).val ∧ (i a).val < win5_3.index t a * S10000x64.size a + S10000x64.size a := by
  show i ∈ ((View.whole main_v76).slice (win5_3.rect t)).set ↔ _
  rw [View.set_slice_whole, Rect.mem_set_unit]
  exact Iff.rfl

/-- Row `r` of the result is in the block of point `r / 10000`. -/
theorem cover5 (i : S100000x64.Idx) : ∃ t : Fin cfg5.N, (cfg5.win 3).flush t = true ∧ i ∈ ((cfg5.win 3).blk t).view.set := by
  have hN : cfg5.N = 10 := N_5
  have h0 : (i 0).val < 100000 := (i 0).isLt
  have h1 : (i 1).val < 64 := (i 1).isLt
  refine ⟨⟨(i 0).val / 10000, by omega⟩, flush5_3 _, ?_⟩
  rw [mem_blk5]
  obtain ⟨-, -, -, -, -, -, e0, e1⟩ := idx5 ⟨(i 0).val / 10000, by omega⟩
  intro a
  match a with
  | ⟨0, _⟩ => show win5_3.index _ (0 : Fin 2) * 10000 ≤ (i 0).val ∧ (i 0).val < win5_3.index _ (0 : Fin 2) * 10000 + 10000; rw [e0]; show (i 0).val / 10000 * 10000 ≤ (i 0).val ∧ (i 0).val < (i 0).val / 10000 * 10000 + 10000; omega
  | ⟨1, _⟩ => show win5_3.index _ (1 : Fin 2) * 64 ≤ (i 1).val ∧ (i 1).val < win5_3.index _ (1 : Fin 2) * 64 + 64; rw [e1]; omega

/-- Region 5 leaves `h·W` when its bias row is zero. -/
theorem region5_value (V : Entry) (c : Dev nD) (hb : KLive.ZeroRow (V c main_v75)) :
    (dat5 (F := Ideal) V c).arrAt 3 cfg5.N = Spec.fHw (V c main_v71) (V c main_v73) :=
  (dat5 (F := Ideal) V c).arrAt_eq_of_cover 3 (Spec.fHw (V c main_v71) (V c main_v73)) (fun t _ => flushed5 V c hb t) cover5

end Cert.KAffine

end
-- ==== Proof.Layout.lean ====
/-
  A reshape that only adds a unit axis is the broadcast along the other axis: a vector of n channels as a 1×n row, a
  per-node vector as an N×1 column. The kernel program reshapes where the reference broadcasts; entry by entry the two agree.
-/
import proofs.«403540_j78005196030173_1_alg».proof.Proof.Spec
import proofs.«403540_j78005196030173_1_alg».proof.Proof.Gen.ReferenceIdeal
import Idealize.ShloMosaic.Lib.Pipeline.Value
import Idealize.ShloMosaic.Lib.ValueIdx
import Idealize.ShloMosaic.Lib.ValueLayout

noncomputable section

namespace Cert.Layout

open Idealize.ShloMosaic Cert.ReferenceIdeal Cert.Spec

/-- 64 channels as a row. -/
theorem row64 (b : TF S64) (h : S64.ShapeCasts S1x64) : shapeCast S1x64 b h = fAsRow64 b := by
  funext j
  rw [ValueIdx.eq_ix2 j]
  refine (ValueIdx.shapeCast_a_1a_apply b h (j 0) (j 1)).trans (Eq.symm ?_)
  refine broadcastInDim_apply _ _ b _ _ (fun a => ?_)
  match a with
  | ⟨0, _⟩ =>
    show (j 1).val = if (64 : Nat) = 1 then 0 else (j 1).val
    rw [if_neg (by decide)]
/-- 32 channels as a row. -/
theorem row32 (b : TF S32) (h : S32.ShapeCasts S1x32) : shapeCast S1x32 b h = fAsRow32 b := by
  funext j
  rw [ValueIdx.eq_ix2 j]
  refine (ValueIdx.shapeCast_a_1a_apply b h (j 0) (j 1)).trans (Eq.symm ?_)
  refine broadcastInDim_apply _ _ b _ _ (fun a => ?_)
  match a with
  | ⟨0, _⟩ =>
    show (j 1).val = if (32 : Nat) = 1 then 0 else (j 1).val
    rw [if_neg (by decide)]
/-- One channel as a row. -/
theorem row1 (b : TF S1) (h : S1.ShapeCasts S1x1) : shapeCast S1x1 b h = fAsRow1 b := by
  funext j
  rw [ValueIdx.eq_ix2 j]
  refine (ValueIdx.shapeCast_a_1a_apply b h (j 0) (j 1)).trans (Eq.symm ?_)
  refine broadcastInDim_apply _ _ b _ _ (fun a => ?_)
  match a with
  | ⟨0, _⟩ =>
    have hj : (j 1).val < 1 := (j 1).isLt
    show (j 1).val = if (1 : Nat) = 1 then 0 else _
    rw [if_pos rfl]; omega
/-- 4 channels as a row. -/
theorem row4 (b : TF S4) (h : S4.ShapeCasts S1x4) : shapeCast S1x4 b h = fAsRow4 b := by
  funext j
  rw [ValueIdx.eq_ix2 j]
  refine (ValueIdx.shapeCast_a_1a_apply b h (j 0) (j 1)).trans (Eq.symm ?_)
  refine broadcastInDim_apply _ _ b _ _ (fun a => ?_)
  match a with
  | ⟨0, _⟩ =>
    show (j 1).val = if (4 : Nat) = 1 then 0 else (j 1).val
    rw [if_neg (by decide)]
/-- A per-node vector as a column. -/
theorem col (v : TF S100000) (h : S100000.ShapeCasts S100000x1) : shapeCast S100000x1 v h = fAsCol v := by
  funext j
  have hj : (j 1).val < 1 := (j 1).isLt
  refine (shapeCast_apply v h j (ValueIdx.ix1 (j 0)) ?_).trans (Eq.symm ?_)
  · rw [Shape.rowMajor_val_one, Shape.rowMajor_val_two]
    show (j 0).val = (j 0).val * 1 + (j 1).val
    omega
  · refine broadcastInDim_apply _ _ v _ _ (fun a => ?_)
    match a with
    | ⟨0, _⟩ =>
      show (j 0).val = if (100000 : Nat) = 1 then 0 else (j 0).val
      rw [if_neg (by decide)]
/-- The row of 64 zeros: the constant 0 broadcast over the channels, as a row, is 0 at every entry. -/
theorem zero_row (hb : S_.BroadcastsInDim S64 (![] : Fin 0 → Fin S64.rank)) (h : S64.ShapeCasts S1x64) (i : S1x64.Idx) :
    shapeCast S1x64 (broadcastInDim S64 ![] hb (constant (F := Ideal) S_ .f32 0x00000000#32)) h i = 0 := by
  show Ideal.ofBits .f32 0x00000000#32 = 0
  simp [Ideal.ofBits, Ideal.ieee]

end Cert.Layout

end
-- ==== Proof.KEntry1.lean ====
/-
  From the launch to the first layer: the host slices the edge list and reshapes the input bias, region 0 projects the
  features, the host computes the edge weights, the degrees by a scatter-add, their inverse roots, the two normalisations
  by gathers, and slices the first layer's matrix beside a zero bias row. At region 1's entry the buffers hold the named
  values of the launch's inputs.
-/
import proofs.«403540_j78005196030173_1_alg».proof.Proof.KLive
import proofs.«403540_j78005196030173_1_alg».proof.Proof.KAffine
import proofs.«403540_j78005196030173_1_alg».proof.Proof.Layout
import Idealize.ShloMosaic.Lib.Pipeline.Value
import Idealize.ShloMosaic.Lib.ValueIdx
import Idealize.ShloMosaic.Lib.ValueLayout

set_option maxRecDepth 16384

noncomputable section

namespace Cert.KEntry1

open Idealize.ShloMosaic Idealize.ShloMosaic.TcCoe Idealize.SL.Sem Idealize.ShloMosaic.StableHlo Cert.KernelIdeal Cert.KernelIdeal.Gen Cert.KLive

variable (m : (ℓ : Loc nD τ sig) → Buf (Elt Ideal) ℓ) (ρ : Dev nD → PrngReg)

/-! ## What each host stretch leaves untouched -/

/-- The slices of the edge list and the bias row are the only buffers the first stretch writes. -/
theorem keep0 (V : Val) (b : Ref sig .tc) (hb : b ∉ [main_v0, main_v1, main_v2, main_v3, main_v4]) :
    StableHlo.after (hostOps0 (F := Ideal)) V (r b) = V (r b) :=
  StableHlo.after_of_forall_not_mem (b := Proc.devRef .tc b) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals (intro h; exact hb (by rw [Proc.devRef_injective _ h]; decide))))

theorem keep1 (V : Val) (b : Ref sig .tc)
    (hb : b ∉ [main_v6, main_v7, main_v8, main_v9, main_v10, main_cst, main_v11, main_v12, main_v13, main_cst_0, main_v14,
      main_v15, main_cst_1, main_v16, main_v17, main_v18, main_cst_2]) :
    StableHlo.after (hostOps1 (F := Ideal)) V (r b) = V (r b) :=
  StableHlo.after_of_forall_not_mem (b := Proc.devRef .tc b) _ _ (List.forall_iff_forall_mem.mp (by
    simp only [hostOps1, List.Forall, StableHlo.nullary_writes, StableHlo.unary_writes, StableHlo.binary_writes,
      StableHlo.ternary_writes, StableHlo.reshape_writes, Finset.mem_singleton]
    repeat' apply And.intro
    all_goals (intro h; exact hb (by rw [Proc.devRef_injective _ h]; decide))))

theorem keep11 (V : Val) (b : Ref sig .tc) (hb : b ∉ [main_call0_v0, main_call0_v1, main_v19]) :
    StableHlo.after (hostOps1_1 (F := Ideal)) V (r b) = V (r b) :=
  StableHlo.after_of_forall_not_mem (b := Proc.devRef .tc b) _ _ (List.forall_iff_forall_mem.mp (by
    simp only [hostOps1_1, List.Forall, StableHlo.nullary_writes, StableHlo.unary_writes, StableHlo.binary_writes,
      StableHlo.ternary_writes, StableHlo.reshape_writes, Finset.mem_singleton]
    repeat' apply And.intro
    all_goals (intro h; exact hb (by rw [Proc.devRef_injective _ h]; decide))))

theorem keep12 (V : Val) (b : Ref sig .tc)
    (hb : b ∉ [main_c, main_v20, main_v21, main_c_3, main_v22, main_v23, main_v24, main_v25, main_v26, main_v27, main_c_4,
      main_v28, main_v29, main_c_5, main_v30, main_v31, main_v32, main_v33, main_v34, main_v35, main_v36, main_v37, main_v38,
      main_cst_6, main_v39, main_v40]) :
    StableHlo.after (hostOps1_2 (F := Ideal)) V (r b) = V (r b) :=
  StableHlo.after_of_forall_not_mem (b := Proc.devRef .tc b) _ _ (List.forall_iff_forall_mem.mp (by
    simp only [hostOps1_2, List.Forall, StableHlo.nullary_writes, StableHlo.unary_writes, StableHlo.binary_writes,
      StableHlo.ternary_writes, StableHlo.reshape_writes, Finset.mem_singleton]
    repeat' apply And.intro
    all_goals (intro h; exact hb (by rw [Proc.devRef_injective _ h]; decide))))

/-! ## What each host stretch computes, over any entry contents -/

theorem s0_v1 (V : Val) : StableHlo.after (hostOps0 (F := Ideal)) V (r main_v1) = Spec.fSrc (V (r main_arg2)) := by
  after_results
  rfl
theorem s0_v3 (V : Val) : StableHlo.after (hostOps0 (F := Ideal)) V (r main_v3) = Spec.fDst (V (r main_arg2)) := by
  after_results
  rfl
theorem s0_v4 (V : Val) : StableHlo.after (hostOps0 (F := Ideal)) V (r main_v4) = Spec.fAsRow64 (V (r main_arg6)) := by
  after_results
  exact Cert.Layout.row64 _ _

theorem s1_v10 (V : Val) : StableHlo.after (hostOps1 (F := Ideal)) V (r main_v10)
    = Spec.fEw (V (r main_arg1)) (V (r main_arg3)) (V (r main_arg4)) := by
  after_results
  rfl
theorem s1_v15 (V : Val) : StableHlo.after (hostOps1 (F := Ideal)) V (r main_v15)
    = Spec.fDeg (V (r main_v3)) (Spec.fEw (V (r main_arg1)) (V (r main_arg3)) (V (r main_arg4))) := by
  after_results
  rfl
theorem s1_v17 (V : Val) : StableHlo.after (hostOps1 (F := Ideal)) V (r main_v17)
    = cmpf .ogt (Spec.fDeg (V (r main_v3)) (Spec.fEw (V (r main_arg1)) (V (r main_arg3)) (V (r main_arg4))))
        (broadcastInDim S100000 ![] bcast_S_S100000 (constant (F := Ideal) S_ .f32 0x00000000#32)) := by
  after_results
  rfl
theorem s1_v18 (V : Val) : StableHlo.after (hostOps1 (F := Ideal)) V (r main_v18)
    = Host.rsqrt (Spec.fDeg (V (r main_v3)) (Spec.fEw (V (r main_arg1)) (V (r main_arg3)) (V (r main_arg4)))) := by
  after_results
  rfl
theorem s1_cst2 (V : Val) : StableHlo.after (hostOps1 (F := Ideal)) V (r main_cst_2) = constant (F := Ideal) S_ .f32 0x00000000#32 := by
  after_results

theorem s11_v19 (V : Val) : StableHlo.after (hostOps1_1 (F := Ideal)) V (r main_v19)
    = select (V (r main_v17)) (V (r main_v18)) (broadcastInDim S100000 ![] bcast_S_S100000 (V (r main_cst_2))) := by
  after_results
  rfl

theorem s12_v35 (V : Val) : StableHlo.after (hostOps1_2 (F := Ideal)) V (r main_v35)
    = Spec.fNrm (V (r main_v1)) (V (r main_v3)) (V (r main_v10)) (V (r main_v19)) := by
  after_results_simp
  rfl
theorem s12_v36 (V : Val) : StableHlo.after (hostOps1_2 (F := Ideal)) V (r main_v36) = Spec.fSn (V (r main_v19)) := by
  after_results_simp
  rfl
theorem s12_v38 (V : Val) : StableHlo.after (hostOps1_2 (F := Ideal)) V (r main_v38) = Spec.fWg0 (V (r main_arg7)) := by
  after_results_simp
  rfl
theorem s12_v40 (V : Val) : ZeroRow (StableHlo.after (hostOps1_2 (F := Ideal)) V (r main_v40)) := by
  after_results_simp
  intro i
  exact Cert.Layout.zero_row _ _ i

/-! ## The run from the launch to the first layer -/

/-- The buffers each stretch writes. -/
abbrev wr0 : List (Ref sig .tc) := [main_v0, main_v1, main_v2, main_v3, main_v4]
abbrev wr1 : List (Ref sig .tc) := [main_v6, main_v7, main_v8, main_v9, main_v10, main_cst, main_v11, main_v12, main_v13,
  main_cst_0, main_v14, main_v15, main_cst_1, main_v16, main_v17, main_v18, main_cst_2]
abbrev wr11 : List (Ref sig .tc) := [main_call0_v0, main_call0_v1, main_v19]
abbrev wr12 : List (Ref sig .tc) := [main_c, main_v20, main_v21, main_c_3, main_v22, main_v23, main_v24, main_v25, main_v26,
  main_v27, main_c_4, main_v28, main_v29, main_c_5, main_v30, main_v31, main_v32, main_v33, main_v34, main_v35, main_v36, main_v37,
  main_v38, main_cst_6, main_v39, main_v40]

section Run

variable (c : Dev nD)

/-- A buffer neither the first stretch nor region 0 writes holds at region 0's exit what the launch memory held. -/
theorem W2_of_launch (b : Ref sig .tc) (h0 : b ∉ wr0 := by decide) (h2 : ∀ w, Pipeline.arrRef spec0 w ≠ b := by decide) :
    W2 m ρ c (r b) = W0 m ρ c (r b) :=
  (W2_of_ne m ρ c b h2).trans (keep0 _ b h0)
theorem W2_of_W1 (b : Ref sig .tc) (h2 : ∀ w, Pipeline.arrRef spec0 w ≠ b := by decide) :
    W2 m ρ c (r b) = W1 m ρ c (r b) :=
  W2_of_ne m ρ c b h2
theorem W4_of_W2 (b : Ref sig .tc) (h1 : b ∉ wr1 := by decide) (h11 : b ∉ wr11 := by decide) :
    W4 m ρ c (r b) = W2 m ρ c (r b) :=
  (keep11 _ b h11).trans (keep1 _ b h1)
theorem W5_of_W2 (b : Ref sig .tc) (h1 : b ∉ wr1 := by decide) (h11 : b ∉ wr11 := by decide) (h12 : b ∉ wr12 := by decide) :
    W5 m ρ c (r b) = W2 m ρ c (r b) :=
  (keep12 _ b h12).trans (W4_of_W2 m ρ c b h1 h11)
/-- A buffer nothing writes before the first layer holds there what the launch memory held. -/
theorem W5_of_launch (b : Ref sig .tc) (h0 : b ∉ wr0 := by decide) (h2 : ∀ w, Pipeline.arrRef spec0 w ≠ b := by decide)
    (h1 : b ∉ wr1 := by decide) (h11 : b ∉ wr11 := by decide) (h12 : b ∉ wr12 := by decide) :
    W5 m ρ c (r b) = W0 m ρ c (r b) :=
  (W5_of_W2 m ρ c b h1 h11 h12).trans (W2_of_launch m ρ c b h0 h2)

/-- The ten later arguments reach the first layer as launched. -/
theorem args5 : Args (W5 m ρ c) (inputsOf m c) :=
  ⟨W5_of_launch m ρ c main_arg7, W5_of_launch m ρ c main_arg8, W5_of_launch m ρ c main_arg9, W5_of_launch m ρ c main_arg10,
    W5_of_launch m ρ c main_arg11, W5_of_launch m ρ c main_arg12, W5_of_launch m ρ c main_arg13, W5_of_launch m ρ c main_arg14,
    W5_of_launch m ρ c main_arg15, W5_of_launch m ρ c main_arg16⟩

/-- The sources and the destinations: the two rows of the edge list, from region 0's exit on. -/
theorem src2 : W2 m ρ c (r main_v1) = Spec.vSrc (inputsOf m c) := (W2_of_W1 m ρ c main_v1).trans (s0_v1 _)
theorem dst2 : W2 m ρ c (r main_v3) = Spec.vDst (inputsOf m c) := (W2_of_W1 m ρ c main_v3).trans (s0_v3 _)

/-- The edge weights. -/
theorem ew3 : W3 m ρ c (r main_v10) = Spec.vEw (inputsOf m c) :=
  (s1_v10 _).trans (by
    rw [W2_of_launch m ρ c main_arg1, W2_of_launch m ρ c main_arg3, W2_of_launch m ρ c main_arg4]; rfl)

/-- The degree's sign test, its inverse root and the zero beside them. -/
theorem pos3 : W3 m ρ c (r main_v17)
    = cmpf .ogt (Spec.fDeg (Spec.vDst (inputsOf m c)) (Spec.vEw (inputsOf m c)))
        (broadcastInDim S100000 ![] bcast_S_S100000 (constant (F := Ideal) S_ .f32 0x00000000#32)) :=
  (s1_v17 _).trans (by
    rw [W2_of_launch m ρ c main_arg1, W2_of_launch m ρ c main_arg3, W2_of_launch m ρ c main_arg4, dst2]; rfl)
theorem rsq3 : W3 m ρ c (r main_v18) = Host.rsqrt (Spec.fDeg (Spec.vDst (inputsOf m c)) (Spec.vEw (inputsOf m c))) :=
  (s1_v18 _).trans (by
    rw [W2_of_launch m ρ c main_arg1, W2_of_launch m ρ c main_arg3, W2_of_launch m ρ c main_arg4, dst2]; rfl)

theorem zero3 : W3 m ρ c (r main_cst_2) = constant (F := Ideal) S_ .f32 0x00000000#32 := s1_cst2 _

/-- The inverse root of the degree where it is positive. -/
theorem dinv4 : W4 m ρ c (r main_v19) = Spec.vDinv (inputsOf m c) :=
  (s11_v19 _).trans (by rw [pos3, rsq3, zero3]; rfl)

theorem src4 : W4 m ρ c (r main_v1) = Spec.vSrc (inputsOf m c) := (W4_of_W2 m ρ c main_v1).trans (src2 m ρ c)
theorem dst4 : W4 m ρ c (r main_v3) = Spec.vDst (inputsOf m c) := (W4_of_W2 m ρ c main_v3).trans (dst2 m ρ c)
theorem ew4 : W4 m ρ c (r main_v10) = Spec.vEw (inputsOf m c) := (keep11 _ main_v10 (by decide)).trans (ew3 m ρ c)

/-- The edge data at the first layer. -/
theorem edges5 : Edges (W5 m ρ c) (inputsOf m c) :=
  ⟨(W5_of_W2 m ρ c main_v1).trans (src2 m ρ c), (W5_of_W2 m ρ c main_v3).trans (dst2 m ρ c),
    (s12_v35 _).trans (by rw [src4, dst4, ew4, dinv4]; rfl),
    (s12_v36 _).trans (by rw [dinv4]; rfl)⟩

/-- Region 0 leaves the projected features of the launch's inputs. -/
theorem h0_2 : W2 m ρ c (r main_v5) = Spec.vH0 (inputsOf m c) :=
  (W2_arr m ρ c 3).trans ((Cert.KAffine.region0_value (V1 m ρ) c).trans (by
    show Spec.fH0 (StableHlo.after hostOps0 (W0 m ρ c) (r main_arg0)) (StableHlo.after hostOps0 (W0 m ρ c) (r main_arg5))
      (StableHlo.after hostOps0 (W0 m ρ c) (r main_v4)) = _
    rw [keep0 _ main_arg0 (by decide), keep0 _ main_arg5 (by decide), s0_v4]; rfl))

end Run

/-- Where the first layer begins, the buffers hold the network's values of the launch memory's inputs. -/
theorem entry1 (c : Dev nD) : E1 (W5 (F := Ideal) m ρ c) (inputsOf m c) :=
  ⟨args5 m ρ c, edges5 m ρ c, (W5_of_W2 m ρ c main_v5).trans (h0_2 m ρ c),
    (s12_v38 _).trans (by rw [W4_of_W2 m ρ c main_arg7, W2_of_launch m ρ c main_arg7]; rfl),
    s12_v40 _⟩

end Cert.KEntry1

end
-- ==== Proof.KCombine.lean ====
/-
  The three combining regions: out = agg + hw · sn + b, the row-wise normalisation over the 64 channels (the kernel
  multiplies the sums by 1/64 where the host divides by 64: one value on the extended reals), the positive part, and from
  the second layer on the layer's input added. Each grid point works on ten thousand whole node rows, so a row's mean and
  variance never cross a block.
-/
import proofs.«403540_j78005196030173_1_alg».proof.Proof.Gen.KernelIdeal.Frame
import proofs.«403540_j78005196030173_1_alg».proof.Proof.Gen.ReferenceIdeal
import proofs.«403540_j78005196030173_1_alg».proof.Proof.Spec
import proofs.«403540_j78005196030173_1_alg».proof.Proof.KLive
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KCombine

open Idealize.ShloMosaic Idealize.ShloMosaic.TcCoe Idealize.SL.Sem Cert.KernelIdeal Cert.KernelIdeal.Gen
open Idealize.ShloMosaic.ValueIdx

/-- The TensorCore's buffer contents when a region is entered. -/
abbrev Entry := (c : Dev nD) → (b : Ref sig .tc) → Buf (Elt Ideal) ((c : Thread nD τ).loc b)

/-! ## Layout operations read at an index given by its coordinates -/

section Layout
variable {α : Type}

/-- A vector of `a` entries spread as a column reads, at `(p, u)`, its entry `p`. -/
theorem col_of_vec_apply {a : ℕ} (x : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- A column spread over `b` channels reads, at `(p, q)`, the column's entry `p`. -/
theorem spread_col_apply {a b : ℕ} (x : (⟨2, ![a, 1]⟩ : Shape).Idx → α)
    (h : (⟨2, ![a, 1]⟩ : Shape).BroadcastsInDim ⟨2, ![a, b]⟩ (![0, 1] : Fin 2 → Fin 2)) (p : Fin a) (q : Fin b) :
    broadcastInDim ⟨2, ![a, b]⟩ ![0, 1] h x (ix2 p q) = x (ix2 p (0 : Fin 1)) := by
  refine broadcastInDim_apply _ h x (ix2 p q) (ix2 p (0 : Fin 1)) fun ax => ?_
  match ax with
  | ⟨0, _⟩ =>
    show p.val = if a = 1 then 0 else p.val
    split
    · have := p.isLt; omega
    · rfl
  | ⟨1, _⟩ => rfl

/-- A row spread over `a` nodes reads, at `(p, q)`, the row's entry `q`. -/
theorem spread_row_apply {a b : ℕ} (x : (⟨2, ![1, b]⟩ : Shape).Idx → α)
    (h : (⟨2, ![1, b]⟩ : Shape).BroadcastsInDim ⟨2, ![a, b]⟩ (![0, 1] : Fin 2 → Fin 2)) (p : Fin a) (q : Fin b) :
    broadcastInDim ⟨2, ![a, b]⟩ ![0, 1] h x (ix2 p q) = x (ix2 (0 : Fin 1) q) := by
  refine broadcastInDim_apply _ h x (ix2 p q) (ix2 (0 : Fin 1) q) fun ax => ?_
  match ax with
  | ⟨0, _⟩ => rfl
  | ⟨1, _⟩ =>
    show q.val = if b = 1 then 0 else q.val
    split
    · have := q.isLt; omega
    · rfl

/-- A scalar spread over any shape reads the scalar everywhere. -/
theorem spread_scalar_apply {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply _ h x j ix0 fun ax => ax.elim0

/-- The kernel's spelling of the column spread over `b` lanes. -/
theorem lanes_of_col_apply {a b : ℕ} (x : (⟨2, ![a, 1]⟩ : Shape).Idx → α)
    (h : (⟨2, ![a, 1]⟩ : Shape).Broadcasts ⟨2, ![a, b]⟩) (p : Fin a) (q : Fin b) :
    broadcastTo ⟨2, ![a, b]⟩ x h (ix2 p q) = x (ix2 p (0 : Fin 1)) := by
  refine broadcastTo_apply x h (ix2 p q) (ix2 p (0 : Fin 1)) fun ax => ?_
  match ax with
  | ⟨0, _⟩ =>
    show p.val = if a = 1 then 0 else p.val
    split
    · have := p.isLt; omega
    · rfl
  | ⟨1, _⟩ => rfl

/-- A vector of `a` entries cast to a column reads, at `(p, u)`, its entry `p`. -/
theorem col_cast_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The index a sum over the channels visits: row `p`, channel `k`. -/
theorem lift_row {a b : ℕ} (h : (⟨2, ![a, b]⟩ : Shape).Reduces [1] ⟨1, ![a]⟩) (p : Fin a) (k : Fin b) :
    h.lift (ix1 p) k = ix2 p k := by
  funext c; apply Fin.ext
  match c with
  | ⟨0, _⟩ => rfl
  | ⟨1, _⟩ => rfl

end Layout

/-! ## The constants of the normalisation, as extended reals -/

/-- The word `0x42800000` is `64`. -/
theorem word_64 : Ideal.ofBits .f32 0x42800000#32 = ((64 : ℝ) : EReal) := by
  simp [Ideal.ofBits, Ideal.ieee, -EReal.coe_mul]; norm_num

/-- The word `0x3C800000` is `1/64`. -/
theorem word_inv64 : Ideal.ofBits .f32 0x3C800000#32 = ((1 / 64 : ℝ) : EReal) := by
  simp [Ideal.ofBits, Ideal.ieee, -EReal.coe_mul]; norm_num

/-- Dividing by `64` is multiplying by the word `0x3C800000`, at the infinities too. -/
theorem div_64 (x : EReal) : Ideal.div x (Ideal.ofBits .f32 0x42800000#32) = x * Ideal.ofBits .f32 0x3C800000#32 := by
  rw [word_64, word_inv64]; exact Ideal.div_coe (by norm_num) x

/-- The normalised positive part of one row `f` of 64 channels, at channel `q`: the mean and the variance taken
    with the factor `1/64`. -/
def lnRow (f : Fin 64 → EReal) (q : Fin 64) : EReal :=
  max ((f q - (∑ k, f k) * Ideal.ofBits .f32 0x3C800000#32)
      * Ideal.rsqrt ((∑ k, (f k - (∑ k, f k) * Ideal.ofBits .f32 0x3C800000#32) * (f k - (∑ k, f k) * Ideal.ofBits .f32 0x3C800000#32))
          * Ideal.ofBits .f32 0x3C800000#32 + Ideal.ofBits .f32 0x3727C5AC#32)) 0

/-! ## The reference's normalisation read at an index -/

section SpecSide
open Cert.Spec

/-- The sum of a node's 64 channels, from the host's reduction. -/
theorem fSum64_apply (v : TF Cert.ReferenceIdeal.S100000x64) (p : Fin 100000) :
    fSum64 v (ix1 p) = ∑ k : Fin 64, v (ix2 p k) := by
  have hr : (⟨2, ![100000, 64]⟩ : Shape).Reduces [1] ⟨1, ![100000]⟩ := by decide
  show Ideal.hostReduceAdd _ v (Ideal.ofBits .f32 0x00000000#32) (ix1 p) = _
  rw [Ideal.hostReduceAdd_single _ hr, Ideal.ofBits_zero_f32, zero_add]
  exact Finset.sum_congr rfl fun k _ => congrArg v (lift_row hr p k)

/-- The mean column: the sum of the channels times `1/64`. -/
theorem fMean_apply (v : TF Cert.ReferenceIdeal.S100000x64) (p : Fin 100000) (u : Fin 1) :
    fMean v (ix2 p u) = (∑ k : Fin 64, v (ix2 p k)) * Ideal.ofBits .f32 0x3C800000#32 := by
  show Ideal.div (fAsCol (fSum64 v) (ix2 p u)) (fC64 (ix2 p u)) = _
  rw [show fAsCol (fSum64 v) (ix2 p u) = fSum64 v (ix1 p) from col_of_vec_apply _ _ p u,
    show fC64 (ix2 p u) = Ideal.ofBits .f32 0x42800000#32 from spread_scalar_apply _ _ _,
    fSum64_apply, div_64]

/-- The variance's divisor `64 - 0` is `64`. -/
theorem fNdof_apply : fNdof ix0 = Ideal.ofBits .f32 0x42800000#32 := by
  show Ideal.ofBits .f32 0x42800000#32 - (((0#32 : BitVec 32).toInt : ℝ) : EReal) = _
  simp

/-- The variance column: the divisor is positive, so the guarded value is the mean square of the centred row. -/
theorem fVar_apply (v : TF Cert.ReferenceIdeal.S100000x64) (p : Fin 100000) (u : Fin 1) :
    fVar v (ix2 p u)
      = (∑ k : Fin 64, (v (ix2 p k) - (∑ k : Fin 64, v (ix2 p k)) * Ideal.ofBits .f32 0x3C800000#32)
          * (v (ix2 p k) - (∑ k : Fin 64, v (ix2 p k)) * Ideal.ofBits .f32 0x3C800000#32)) * Ideal.ofBits .f32 0x3C800000#32 := by
  have hpos : (0 : EReal) < ((64 : ℝ) : EReal) := EReal.coe_pos.mpr (by norm_num)
  have hc : Ideal.cmp .ogt (fNdof ix0) (Ideal.ofBits .f32 0x00000000#32) = 1#1 := by
    rw [fNdof_apply, word_64, Ideal.ofBits_zero_f32]
    simp [Ideal.cmp, hpos]
  unfold fVar
  rw [select_apply]
  rw [spread_scalar_apply (t := Cert.ReferenceIdeal.S100000x1) (cmpf .ogt fNdof (constant (F := Ideal) Cert.ReferenceIdeal.S_ .f32 0x00000000#32)),
    show cmpf .ogt fNdof (constant (F := Ideal) Cert.ReferenceIdeal.S_ .f32 0x00000000#32) ix0 = 1#1 from hc, select_one]
  show Ideal.div (fAsCol (fSum64 _) (ix2 p u)) (broadcastInDim _ _ _ fNdof (ix2 p u)) = _
  rw [spread_scalar_apply (t := Cert.ReferenceIdeal.S100000x1) fNdof,
    show ∀ w : TF Cert.ReferenceIdeal.S100000, fAsCol w (ix2 p u) = w (ix1 p) from fun w => col_of_vec_apply _ _ p u,
    fNdof_apply, fSum64_apply, div_64]
  refine congrArg (· * _) (Finset.sum_congr rfl fun k _ => ?_)
  have hk : subf v (fCol64 (fMean v)) (ix2 p k) = v (ix2 p k) - (∑ k : Fin 64, v (ix2 p k)) * Ideal.ofBits .f32 0x3C800000#32 := by
    rw [subf_apply, show fCol64 (fMean v) (ix2 p k) = fMean v (ix2 p (0 : Fin 1)) from spread_col_apply _ _ p k, fMean_apply]
  rw [mulf_apply, hk]

/-- The reference's normalised positive part at `(p, q)` is `lnRow` of row `p`. -/
theorem fLn_apply (v : TF Cert.ReferenceIdeal.S100000x64) (p : Fin 100000) (q : Fin 64) :
    fLn v (ix2 p q) = lnRow (fun k => v (ix2 p k)) q := by
  unfold fLn fRelu64 lnRow
  rw [maximumf_apply, mulf_apply, subf_apply,
    show fCol64 (fMean v) (ix2 p q) = fMean v (ix2 p (0 : Fin 1)) from spread_col_apply _ _ p q, fMean_apply,
    show ∀ w : TF Cert.ReferenceIdeal.S100000x1, fCol64 w (ix2 p q) = w (ix2 p (0 : Fin 1)) from fun w => spread_col_apply _ _ p q]
  show max (_ * Ideal.rsqrt (fVar v (ix2 p (0 : Fin 1)) + broadcastInDim _ _ _ _ (ix2 p (0 : Fin 1)))) (fZero64 (ix2 p q)) = _
  rw [fVar_apply, spread_scalar_apply, show fZero64 (ix2 p q) = (0 : EReal) from
    (spread_scalar_apply _ _ _).trans Ideal.ofBits_zero_f32]
  rfl

/-- `agg + hw · sn + b` at `(p, q)`. -/
theorem fOut_apply (agg hw : TF Cert.ReferenceIdeal.S100000x64) (sn2 : TF Cert.ReferenceIdeal.S100000x1) (b2 : TF Cert.ReferenceIdeal.S1x64)
    (p : Fin 100000) (q : Fin 64) :
    fOut agg hw sn2 b2 (ix2 p q) = agg (ix2 p q) + hw (ix2 p q) * sn2 (ix2 p (0 : Fin 1)) + b2 (ix2 (0 : Fin 1) q) := by
  unfold fOut
  rw [addf_apply, addf_apply, mulf_apply,
    show fCol64 sn2 (ix2 p q) = sn2 (ix2 p (0 : Fin 1)) from spread_col_apply _ _ p q,
    show fRow64 b2 (ix2 p q) = b2 (ix2 (0 : Fin 1) q) from spread_row_apply _ _ p q]

end SpecSide

/-! ## The kernel's payload read at an index -/

section KernelSide

/-- An inverse square root at an index is the inverse square root of the entry. -/
theorem rsqrt_apply {s : Shape} {φ : FTy} (a : FVec Ideal s φ) (i : s.Idx) : rsqrt a i = Ideal.rsqrt (a i) := rfl

/-- The kernel's sum over the 64 lanes of row `r`. -/
theorem laneSum_apply (v : FVec Ideal S10000x64 .f32) (h : S10000x64.Reduces [1] S10000) (hφ : FKind.Formats .f32)
    (hacc : (0x00000000#32 : BitVec 32) = FKind.add.neutral .f32 hφ) (r : Fin 10000) :
    multiReduction .add [1] S10000 v 0x00000000#32 h hφ hacc (ix1 r) = ∑ k : Fin 64, v (ix2 r k) := by
  rw [Ideal.multiReduction_add_single]
  exact Finset.sum_congr rfl fun k _ => congrArg v (lift_row h r k)

/-- The kernel's column "lane sum times a constant", at row `r`. -/
theorem laneMean_apply (v : FVec Ideal S10000x64 .f32) (c : EReal) (h : S10000x64.Reduces [1] S10000) (hφ : FKind.Formats .f32)
    (hacc : (0x00000000#32 : BitVec 32) = FKind.add.neutral .f32 hφ) (hc : S10000.ShapeCasts S10000x1) (u : Fin 1) (r : Fin 10000) :
    mulf (shapeCast S10000x1 (multiReduction .add [1] S10000 v 0x00000000#32 h hφ hacc) hc) (broadcast S10000x1 (c : Ideal .f32)) (ix2 r u)
      = (∑ k : Fin 64, v (ix2 r k)) * c := by
  rw [mulf_apply, col_cast_apply, laneSum_apply, broadcast_apply]

/-- The kernel's centred block: each entry less its row's lane sum times the constant. -/
theorem centred_apply (w : FVec Ideal S10000x64 .f32) (c : EReal) (h : S10000x64.Reduces [1] S10000) (hφ : FKind.Formats .f32)
    (hacc : (0x00000000#32 : BitVec 32) = FKind.add.neutral .f32 hφ) (hc : S10000.ShapeCasts S10000x1)
    (hb : S10000x1.Broadcasts S10000x64) (r : Fin 10000) (k : Fin 64) :
    subf w (broadcastTo S10000x64 (mulf (shapeCast S10000x1 (multiReduction .add [1] S10000 w 0x00000000#32 h hφ hacc) hc)
        (broadcast S10000x1 (c : Ideal .f32))) hb) (ix2 r k)
      = w (ix2 r k) - (∑ k : Fin 64, w (ix2 r k)) * c := by
  rw [subf_apply, lanes_of_col_apply, laneMean_apply]

/-- The kernel's column "lane sum of the squared centred block, times the constant", at row `r`. -/
theorem laneVar_apply (w : FVec Ideal S10000x64 .f32) (c : EReal) (h : S10000x64.Reduces [1] S10000) (hφ : FKind.Formats .f32)
    (hacc : (0x00000000#32 : BitVec 32) = FKind.add.neutral .f32 hφ) (hc : S10000.ShapeCasts S10000x1)
    (hb : S10000x1.Broadcasts S10000x64) (u : Fin 1) (r : Fin 10000) :
    mulf (shapeCast S10000x1 (multiReduction .add [1] S10000
        (mulf (subf w (broadcastTo S10000x64 (mulf (shapeCast S10000x1 (multiReduction .add [1] S10000 w 0x00000000#32 h hφ hacc) hc)
            (broadcast S10000x1 (c : Ideal .f32))) hb))
          (subf w (broadcastTo S10000x64 (mulf (shapeCast S10000x1 (multiReduction .add [1] S10000 w 0x00000000#32 h hφ hacc) hc)
            (broadcast S10000x1 (c : Ideal .f32))) hb)))
        0x00000000#32 h hφ hacc) hc) (broadcast S10000x1 (c : Ideal .f32)) (ix2 r u)
      = (∑ k : Fin 64, (w (ix2 r k) - (∑ k : Fin 64, w (ix2 r k)) * c) * (w (ix2 r k) - (∑ k : Fin 64, w (ix2 r k)) * c)) * c := by
  rw [laneMean_apply]
  exact congrArg (· * c) (Finset.sum_congr rfl fun k _ => by rw [mulf_apply, centred_apply])

set_option backward.isDefEq.respectTransparency.types false in
/-- The payload of the combining regions at row `r`, channel `q`: `lnRow` of the row of `v0 + v2 · v4 + v9`. -/
theorem pay_apply (v0 v2 : FVec Ideal S10000x64 .f32) (v4 : FVec Ideal S10000x1 .f32) (v9 : FVec Ideal S1x64 .f32)
    (r : Fin 10000) (q : Fin 64) :
    k2_pay1 (F := Ideal) v0 v2 v4 v9 (ix2 r q)
      = lnRow (fun k => v0 (ix2 r k) + v2 (ix2 r k) * v4 (ix2 r (0 : Fin 1)) + v9 (ix2 (0 : Fin 1) k)) q := by
  have hout : ∀ k : Fin 64, addf (addf v0 (mulf v2 (broadcastTo S10000x64 v4 broadcasts_S10000x1_S10000x64)))
      (broadcastTo S10000x64 v9 broadcasts_S1x64_S10000x64) (ix2 r k)
        = v0 (ix2 r k) + v2 (ix2 r k) * v4 (ix2 r (0 : Fin 1)) + v9 (ix2 (0 : Fin 1) k) := fun k => by
    rw [addf_apply, addf_apply, mulf_apply, lanes_of_col_apply, broadcastTo_1b_ab_apply]
  rw [show (fun k => v0 (ix2 r k) + v2 (ix2 r k) * v4 (ix2 r (0 : Fin 1)) + v9 (ix2 (0 : Fin 1) k))
      = fun k => addf (addf v0 (mulf v2 (broadcastTo S10000x64 v4 broadcasts_S10000x1_S10000x64)))
        (broadcastTo S10000x64 v9 broadcasts_S1x64_S10000x64) (ix2 r k) from funext fun k => (hout k).symm]
  unfold k2_pay1
  simp only [shapeCast_self]
  generalize addf (addf v0 (mulf v2 (broadcastTo S10000x64 v4 broadcasts_S10000x1_S10000x64)))
    (broadcastTo S10000x64 v9 broadcasts_S1x64_S10000x64) = w
  unfold lnRow
  rw [maximumf_apply, mulf_apply, centred_apply, lanes_of_col_apply, rsqrt_apply, addf_apply, laneVar_apply,
    broadcast_apply, broadcast_apply]
  simp only [Ideal.ofBits_def, Ideal.ofBits_zero_f32]

end KernelSide

/-- The zero offsets of a whole-block access, however spelt. -/
theorem hz : (![0, 0] : Fin 2 → Nat) = fun _ => 0 := funext fun a => by fin_cases a <;> rfl

/-! ## Region 2: the blocks, the write-back, the cover -/

section Region2

/-- The block index of every window at every point: the row-blocked windows move with the point, the bias row stays. -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

/-- The four operand blocks of point `t`, at their literal types. -/
abbrev aggB2 (V : Entry) (c : Dev nD) (t : Fin cfg2.N) : FVec Ideal S10000x64 .f32 := iblk2 V c 0 t
abbrev hwB2 (V : Entry) (c : Dev nD) (t : Fin cfg2.N) : FVec Ideal S10000x64 .f32 := iblk2 V c 1 t
abbrev snB2 (V : Entry) (c : Dev nD) (t : Fin cfg2.N) : FVec Ideal S10000x1 .f32 := iblk2 V c 2 t
abbrev bB2 (V : Entry) (c : Dev nD) (t : Fin cfg2.N) : FVec Ideal S1x64 .f32 := iblk2 V c 3 t

/-- Row `r` of point `t`'s aggregate block is row `10000·t + r` of the array. -/
theorem aggB2_apply (V : Entry) (c : Dev nD) (t : Fin cfg2.N) (r : Fin 10000) (q : Fin 64) (p : Fin 100000)
    (hp : p.val = 10000 * t.val + r.val) :
    aggB2 V c t (ix2 r q) = (V c main_v48 : FVec Ideal S100000x64 .f32) (ix2 p q) := by
  obtain ⟨h0, h1, -⟩ := idx2 t
  unfold aggB2 iblk2
  rw [View.read_apply]
  show V c main_v48 _ = V c main_v48 _
  congr 1
  funext a
  apply Fin.ext
  match a with
  | ⟨0, _⟩ => show win2_0.index t (0 : Fin 2) * 10000 + 1 * r.val = p.val; rw [h0, hp]; omega
  | ⟨1, _⟩ => show win2_0.index t (1 : Fin 2) * 64 + 1 * q.val = q.val; rw [h1]; omega

/-- The same for the linear map's block. -/
theorem hwB2_apply (V : Entry) (c : Dev nD) (t : Fin cfg2.N) (r : Fin 10000) (q : Fin 64) (p : Fin 100000)
    (hp : p.val = 10000 * t.val + r.val) :
    hwB2 V c t (ix2 r q) = (V c main_v41 : FVec Ideal S100000x64 .f32) (ix2 p q) := by
  obtain ⟨-, -, h0, h1, -⟩ := idx2 t
  unfold hwB2 iblk2
  rw [View.read_apply]
  show V c main_v41 _ = V c main_v41 _
  congr 1
  funext a
  apply Fin.ext
  match a with
  | ⟨0, _⟩ => show win2_1.index t (0 : Fin 2) * 10000 + 1 * r.val = p.val; rw [h0, hp]; omega
  | ⟨1, _⟩ => show win2_1.index t (1 : Fin 2) * 64 + 1 * q.val = q.val; rw [h1]; omega

/-- Entry `r` of point `t`'s self-weight block is entry `10000·t + r` of the column. -/
theorem snB2_apply (V : Entry) (c : Dev nD) (t : Fin cfg2.N) (r : Fin 10000) (u : Fin 1) (p : Fin 100000)
    (hp : p.val = 10000 * t.val + r.val) :
    snB2 V c t (ix2 r u) = (V c main_v53 : FVec Ideal S100000x1 .f32) (ix2 p u) := by
  obtain ⟨-, -, -, -, h0, h1, -⟩ := idx2 t
  unfold snB2 iblk2
  rw [View.read_apply]
  show V c main_v53 _ = V c main_v53 _
  congr 1
  funext a
  apply Fin.ext
  match a with
  | ⟨0, _⟩ => show win2_2.index t (0 : Fin 2) * 10000 + 1 * r.val = p.val; rw [h0, hp]; omega
  | ⟨1, _⟩ => show win2_2.index t (1 : Fin 2) * 1 + 1 * u.val = u.val; rw [h1]; omega

/-- The bias block is the whole bias row at every point. -/
theorem bB2_apply (V : Entry) (c : Dev nD) (t : Fin cfg2.N) (u : Fin 1) (q : Fin 64) :
    bB2 V c t (ix2 u q) = (V c main_v52 : FVec Ideal S1x64 .f32) (ix2 u q) := by
  obtain ⟨-, -, -, -, -, -, h0, h1, -⟩ := idx2 t
  unfold bB2 iblk2
  rw [View.read_apply]
  show V c main_v52 _ = V c main_v52 _
  congr 1
  funext a
  apply Fin.ext
  match a with
  | ⟨0, _⟩ => show win2_3.index t (0 : Fin 2) * 1 + 1 * u.val = u.val; rw [h0]; omega
  | ⟨1, _⟩ => show win2_3.index t (1 : Fin 2) * 64 + 1 * q.val = q.val; rw [h1]; omega

/-- The array the region leaves, as one function of the entry arrays. -/
abbrev G2 (V : Entry) (c : Dev nD) : Spec.TF Cert.ReferenceIdeal.S100000x64 :=
  Spec.fLn (Spec.fOut (V c main_v48) (V c main_v41) (V c main_v53) (V c main_v52))

/-- What point `t` writes back is block `t` of that array: rows `10000·t … 10000·t + 9999`, each normalised within itself. -/
theorem flushed2_eq (V : Entry) (c : Dev nD) (t : Fin cfg2.N) :
    (dat2 (F := Ideal) V c).flushed 5 t = ((cfg2.win 5).blk t).view.read (Elt Ideal) (G2 V c) := by
  show (cfg2.win 5).cut (grid2.coords t) ((dat2 V c).after 5 t) = _
  rw [after2_5]
  unfold out2_5
  rw [View.canon_unit_zero hz]
  simp only [View.ld_unit_zero (S := S10000x64) hz, View.ld_unit_zero (S := S10000x1) hz, View.ld_unit_zero (S := S1x64) hz]
  have ht : t.val < 10 := lt_of_lt_of_eq t.isLt N_2
  obtain ⟨-, -, -, -, -, -, -, -, -, -, h50, h51⟩ := idx2 t
  funext j
  obtain ⟨r, q, rfl⟩ : ∃ (r : Fin 10000) (q : Fin 64), j = ix2 r q := ⟨j 0, j 1, eq_ix2 j⟩
  have hp : 10000 * t.val + r.val < 100000 := by omega
  have hemb : ((cfg2.win 5).blk t).view.emb (ix2 r q) = ix2 (⟨10000 * t.val + r.val, hp⟩ : Fin 100000) q := by
    funext a
    apply Fin.ext
    match a with
    | ⟨0, _⟩ => show win2_5.index t (0 : Fin 2) * 10000 + 1 * r.val = 10000 * t.val + r.val; rw [h50]; omega
    | ⟨1, _⟩ => show win2_5.index t (1 : Fin 2) * 64 + 1 * q.val = q.val; rw [h51]; omega
  show k2_pay1 (F := Ideal) (aggB2 V c t) (hwB2 V c t) (snB2 V c t) (bB2 V c t) (ix2 r q)
    = G2 V c (((cfg2.win 5).blk t).view.emb (ix2 r q))
  rw [hemb]
  unfold G2
  rw [fLn_apply, pay_apply]
  refine congrArg (lnRow · q) (funext fun k => ?_)
  rw [fOut_apply, aggB2_apply V c t r k ⟨_, hp⟩ rfl, hwB2_apply V c t r k ⟨_, hp⟩ rfl, snB2_apply V c t r 0 ⟨_, hp⟩ rfl, bB2_apply]

/-- A node row `i` lies in point `t`'s block iff its coordinates are in the block's ranges. -/
theorem mem_blk2 (t : Fin cfg2.N) (i : S100000x64.Idx) :
    i ∈ ((cfg2.win 5).blk t).view.set ↔ ∀ a : Fin 2, win2_5.index t a * S10000x64.size a ≤ (i a).val
      ∧ (i a).val < win2_5.index t a * S10000x64.size a + S10000x64.size a := by
  show i ∈ ((View.whole main_v54).slice (win2_5.rect t)).set ↔ _
  rw [View.set_slice_whole, Rect.mem_set_unit]
  exact Iff.rfl

/-- Every node row is in some point's block: row `n` in point `n / 10000`. -/
theorem cover2 (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  have hN : cfg2.N = 10 := N_2
  refine ⟨⟨(i 0).val / 10000, by omega⟩, flush2_5 _, ?_⟩
  obtain ⟨-, -, -, -, -, -, -, -, -, -, h50, h51⟩ := idx2 ⟨(i 0).val / 10000, by omega⟩
  rw [mem_blk2]
  intro a
  match a with
  | ⟨0, _⟩ =>
    show win2_5.index _ (0 : Fin 2) * 10000 ≤ (i 0).val ∧ (i 0).val < win2_5.index _ (0 : Fin 2) * 10000 + 10000
    rw [h50]; show (i 0).val / 10000 * 10000 ≤ (i 0).val ∧ (i 0).val < (i 0).val / 10000 * 10000 + 10000; omega
  | ⟨1, _⟩ =>
    show win2_5.index _ (1 : Fin 2) * 64 ≤ (i 1).val ∧ (i 1).val < win2_5.index _ (1 : Fin 2) * 64 + 64
    rw [h51]; omega

end Region2

/-- Region 4's payload at row `r`, channel `q`: the same normalised row, plus the entry of the layer's input block. -/
theorem payR4_apply (v0 v2 : FVec Ideal S10000x64 .f32) (v4 : FVec Ideal S10000x1 .f32) (v9 : FVec Ideal S1x64 .f32)
    (v31 : FVec Ideal S10000x64 .f32) (r : Fin 10000) (q : Fin 64) :
    k4_pay1 (F := Ideal) v0 v2 v4 v9 v31 (ix2 r q)
      = lnRow (fun k => v0 (ix2 r k) + v2 (ix2 r k) * v4 (ix2 r (0 : Fin 1)) + v9 (ix2 (0 : Fin 1) k)) q + v31 (ix2 r q) := by
  have e : k4_pay1 (F := Ideal) v0 v2 v4 v9 v31
      = addf (k2_pay1 (F := Ideal) v0 v2 v4 v9) (shapeCast S10000x64 v31 shapeCasts_S10000x64_S10000x64) := rfl
  rw [e, addf_apply, pay_apply, shapeCast_self]

/-! ## Region 4: the blocks, the write-back, the cover -/

section Region4

/-- The block index of every window at every point: the row-blocked windows move with the point, the bias row stays. -/
theorem idx4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0
    ∧ win4_5.index t (0 : Fin 2) = t.val ∧ win4_5.index t (1 : Fin 2) = 0 :=
  (by decide +kernel : ∀ t : Fin grid4.N, _)

/-- The four operand blocks of point `t`, at their literal types. -/
abbrev aggB4 (V : Entry) (c : Dev nD) (t : Fin cfg4.N) : FVec Ideal S10000x64 .f32 := iblk4 V c 0 t
abbrev hwB4 (V : Entry) (c : Dev nD) (t : Fin cfg4.N) : FVec Ideal S10000x64 .f32 := iblk4 V c 1 t
abbrev snB4 (V : Entry) (c : Dev nD) (t : Fin cfg4.N) : FVec Ideal S10000x1 .f32 := iblk4 V c 2 t
abbrev bB4 (V : Entry) (c : Dev nD) (t : Fin cfg4.N) : FVec Ideal S1x64 .f32 := iblk4 V c 3 t
abbrev resB4 (V : Entry) (c : Dev nD) (t : Fin cfg4.N) : FVec Ideal S10000x64 .f32 := iblk4 V c 4 t

/-- Row `r` of point `t`'s aggregate block is row `10000·t + r` of the array. -/
theorem aggB4_apply (V : Entry) (c : Dev nD) (t : Fin cfg4.N) (r : Fin 10000) (q : Fin 64) (p : Fin 100000)
    (hp : p.val = 10000 * t.val + r.val) :
    aggB4 V c t (ix2 r q) = (V c main_v66 : FVec Ideal S100000x64 .f32) (ix2 p q) := by
  obtain ⟨h0, h1, -⟩ := idx4 t
  unfold aggB4 iblk4
  rw [View.read_apply]
  show V c main_v66 _ = V c main_v66 _
  congr 1
  funext a
  apply Fin.ext
  match a with
  | ⟨0, _⟩ => show win4_0.index t (0 : Fin 2) * 10000 + 1 * r.val = p.val; rw [h0, hp]; omega
  | ⟨1, _⟩ => show win4_0.index t (1 : Fin 2) * 64 + 1 * q.val = q.val; rw [h1]; omega

/-- The same for the linear map's block. -/
theorem hwB4_apply (V : Entry) (c : Dev nD) (t : Fin cfg4.N) (r : Fin 10000) (q : Fin 64) (p : Fin 100000)
    (hp : p.val = 10000 * t.val + r.val) :
    hwB4 V c t (ix2 r q) = (V c main_v59 : FVec Ideal S100000x64 .f32) (ix2 p q) := by
  obtain ⟨-, -, h0, h1, -⟩ := idx4 t
  unfold hwB4 iblk4
  rw [View.read_apply]
  show V c main_v59 _ = V c main_v59 _
  congr 1
  funext a
  apply Fin.ext
  match a with
  | ⟨0, _⟩ => show win4_1.index t (0 : Fin 2) * 10000 + 1 * r.val = p.val; rw [h0, hp]; omega
  | ⟨1, _⟩ => show win4_1.index t (1 : Fin 2) * 64 + 1 * q.val = q.val; rw [h1]; omega

/-- Entry `r` of point `t`'s self-weight block is entry `10000·t + r` of the column. -/
theorem snB4_apply (V : Entry) (c : Dev nD) (t : Fin cfg4.N) (r : Fin 10000) (u : Fin 1) (p : Fin 100000)
    (hp : p.val = 10000 * t.val + r.val) :
    snB4 V c t (ix2 r u) = (V c main_v70 : FVec Ideal S100000x1 .f32) (ix2 p u) := by
  obtain ⟨-, -, -, -, h0, h1, -⟩ := idx4 t
  unfold snB4 iblk4
  rw [View.read_apply]
  show V c main_v70 _ = V c main_v70 _
  congr 1
  funext a
  apply Fin.ext
  match a with
  | ⟨0, _⟩ => show win4_2.index t (0 : Fin 2) * 10000 + 1 * r.val = p.val; rw [h0, hp]; omega
  | ⟨1, _⟩ => show win4_2.index t (1 : Fin 2) * 1 + 1 * u.val = u.val; rw [h1]; omega

/-- The bias block is the whole bias row at every point. -/
theorem bB4_apply (V : Entry) (c : Dev nD) (t : Fin cfg4.N) (u : Fin 1) (q : Fin 64) :
    bB4 V c t (ix2 u q) = (V c main_v69 : FVec Ideal S1x64 .f32) (ix2 u q) := by
  obtain ⟨-, -, -, -, -, -, h0, h1, -⟩ := idx4 t
  unfold bB4 iblk4
  rw [View.read_apply]
  show V c main_v69 _ = V c main_v69 _
  congr 1
  funext a
  apply Fin.ext
  match a with
  | ⟨0, _⟩ => show win4_3.index t (0 : Fin 2) * 1 + 1 * u.val = u.val; rw [h0]; omega
  | ⟨1, _⟩ => show win4_3.index t (1 : Fin 2) * 64 + 1 * q.val = q.val; rw [h1]; omega

/-- Row `r` of point `t`'s block of the layer's input is row `10000·t + r` of that array. -/
theorem resB4_apply (V : Entry) (c : Dev nD) (t : Fin cfg4.N) (r : Fin 10000) (q : Fin 64) (p : Fin 100000)
    (hp : p.val = 10000 * t.val + r.val) :
    resB4 V c t (ix2 r q) = (V c main_v54 : FVec Ideal S100000x64 .f32) (ix2 p q) := by
  obtain ⟨-, -, -, -, -, -, -, -, h0, h1, -⟩ := idx4 t
  unfold resB4 iblk4
  rw [View.read_apply]
  show V c main_v54 _ = V c main_v54 _
  congr 1
  funext a
  apply Fin.ext
  match a with
  | ⟨0, _⟩ => show win4_4.index t (0 : Fin 2) * 10000 + 1 * r.val = p.val; rw [h0, hp]; omega
  | ⟨1, _⟩ => show win4_4.index t (1 : Fin 2) * 64 + 1 * q.val = q.val; rw [h1]; omega

/-- The array the region leaves, as one function of the entry arrays. -/
abbrev G4 (V : Entry) (c : Dev nD) : Spec.TF Cert.ReferenceIdeal.S100000x64 :=
  addf (Spec.fLn (Spec.fOut (V c main_v66) (V c main_v59) (V c main_v70) (V c main_v69))) (V c main_v54 : Spec.TF S100000x64)

/-- What point `t` writes back is block `t` of that array: rows `10000·t … 10000·t + 9999`, each normalised within itself. -/
theorem flushed4_eq (V : Entry) (c : Dev nD) (t : Fin cfg4.N) :
    (dat4 (F := Ideal) V c).flushed 5 t = ((cfg4.win 5).blk t).view.read (Elt Ideal) (G4 V c) := by
  show (cfg4.win 5).cut (grid4.coords t) ((dat4 V c).after 5 t) = _
  rw [after4_5]
  unfold out4_5
  rw [View.canon_unit_zero hz]
  simp only [View.ld_unit_zero (S := S10000x64) hz, View.ld_unit_zero (S := S10000x1) hz, View.ld_unit_zero (S := S1x64) hz]
  have ht : t.val < 10 := lt_of_lt_of_eq t.isLt N_4
  obtain ⟨-, -, -, -, -, -, -, -, -, -, h50, h51⟩ := idx4 t
  funext j
  obtain ⟨r, q, rfl⟩ : ∃ (r : Fin 10000) (q : Fin 64), j = ix2 r q := ⟨j 0, j 1, eq_ix2 j⟩
  have hp : 10000 * t.val + r.val < 100000 := by omega
  have hemb : ((cfg4.win 5).blk t).view.emb (ix2 r q) = ix2 (⟨10000 * t.val + r.val, hp⟩ : Fin 100000) q := by
    funext a
    apply Fin.ext
    match a with
    | ⟨0, _⟩ => show win4_5.index t (0 : Fin 2) * 10000 + 1 * r.val = 10000 * t.val + r.val; rw [h50]; omega
    | ⟨1, _⟩ => show win4_5.index t (1 : Fin 2) * 64 + 1 * q.val = q.val; rw [h51]; omega
  show k4_pay1 (F := Ideal) (aggB4 V c t) (hwB4 V c t) (snB4 V c t) (bB4 V c t) (resB4 V c t) (ix2 r q)
    = G4 V c (((cfg4.win 5).blk t).view.emb (ix2 r q))
  rw [hemb]
  unfold G4
  rw [addf_apply, fLn_apply, payR4_apply]
  refine congrArg₂ (· + ·) (congrArg (lnRow · q) (funext fun k => ?_)) (resB4_apply V c t r q ⟨_, hp⟩ rfl)
  rw [fOut_apply, aggB4_apply V c t r k ⟨_, hp⟩ rfl, hwB4_apply V c t r k ⟨_, hp⟩ rfl, snB4_apply V c t r 0 ⟨_, hp⟩ rfl, bB4_apply]

/-- A node row `i` lies in point `t`'s block iff its coordinates are in the block's ranges. -/
theorem mem_blk4 (t : Fin cfg4.N) (i : S100000x64.Idx) :
    i ∈ ((cfg4.win 5).blk t).view.set ↔ ∀ a : Fin 2, win4_5.index t a * S10000x64.size a ≤ (i a).val
      ∧ (i a).val < win4_5.index t a * S10000x64.size a + S10000x64.size a := by
  show i ∈ ((View.whole main_v71).slice (win4_5.rect t)).set ↔ _
  rw [View.set_slice_whole, Rect.mem_set_unit]
  exact Iff.rfl

/-- Every node row is in some point's block: row `n` in point `n / 10000`. -/
theorem cover4 (i : S100000x64.Idx) :
    ∃ t : Fin cfg4.N, (cfg4.win 5).flush t = true ∧ i ∈ ((cfg4.win 5).blk t).view.set := by
  have hi0 : (i 0).val < 100000 := (i 0).isLt
  have hi1 : (i 1).val < 64 := (i 1).isLt
  have hN : cfg4.N = 10 := N_4
  refine ⟨⟨(i 0).val / 10000, by omega⟩, flush4_5 _, ?_⟩
  obtain ⟨-, -, -, -, -, -, -, -, -, -, h50, h51⟩ := idx4 ⟨(i 0).val / 10000, by omega⟩
  rw [mem_blk4]
  intro a
  match a with
  | ⟨0, _⟩ =>
    show win4_5.index _ (0 : Fin 2) * 10000 ≤ (i 0).val ∧ (i 0).val < win4_5.index _ (0 : Fin 2) * 10000 + 10000
    rw [h50]; show (i 0).val / 10000 * 10000 ≤ (i 0).val ∧ (i 0).val < (i 0).val / 10000 * 10000 + 10000; omega
  | ⟨1, _⟩ =>
    show win4_5.index _ (1 : Fin 2) * 64 ≤ (i 1).val ∧ (i 1).val < win4_5.index _ (1 : Fin 2) * 64 + 64
    rw [h51]; omega

end Region4

/-- Region 6's payload at row `r`, channel `q`: the same normalised row, plus the entry of the layer's input block. -/
theorem payR6_apply (v0 v2 : FVec Ideal S10000x64 .f32) (v4 : FVec Ideal S10000x1 .f32) (v9 : FVec Ideal S1x64 .f32)
    (v31 : FVec Ideal S10000x64 .f32) (r : Fin 10000) (q : Fin 64) :
    k6_pay1 (F := Ideal) v0 v2 v4 v9 v31 (ix2 r q)
      = lnRow (fun k => v0 (ix2 r k) + v2 (ix2 r k) * v4 (ix2 r (0 : Fin 1)) + v9 (ix2 (0 : Fin 1) k)) q + v31 (ix2 r q) := by
  have e : k6_pay1 (F := Ideal) v0 v2 v4 v9 v31
      = addf (k2_pay1 (F := Ideal) v0 v2 v4 v9) (shapeCast S10000x64 v31 shapeCasts_S10000x64_S10000x64) := rfl
  rw [e, addf_apply, pay_apply, shapeCast_self]

/-! ## Region 6: the blocks, the write-back, the cover -/

section Region6

/-- The block index of every window at every point: the row-blocked windows move with the point, the bias row stays. -/
theorem idx6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0
    ∧ win6_5.index t (0 : Fin 2) = t.val ∧ win6_5.index t (1 : Fin 2) = 0 :=
  (by decide +kernel : ∀ t : Fin grid6.N, _)

/-- The four operand blocks of point `t`, at their literal types. -/
abbrev aggB6 (V : Entry) (c : Dev nD) (t : Fin cfg6.N) : FVec Ideal S10000x64 .f32 := iblk6 V c 0 t
abbrev hwB6 (V : Entry) (c : Dev nD) (t : Fin cfg6.N) : FVec Ideal S10000x64 .f32 := iblk6 V c 1 t
abbrev snB6 (V : Entry) (c : Dev nD) (t : Fin cfg6.N) : FVec Ideal S10000x1 .f32 := iblk6 V c 2 t
abbrev bB6 (V : Entry) (c : Dev nD) (t : Fin cfg6.N) : FVec Ideal S1x64 .f32 := iblk6 V c 3 t
abbrev resB6 (V : Entry) (c : Dev nD) (t : Fin cfg6.N) : FVec Ideal S10000x64 .f32 := iblk6 V c 4 t

/-- Row `r` of point `t`'s aggregate block is row `10000·t + r` of the array. -/
theorem aggB6_apply (V : Entry) (c : Dev nD) (t : Fin cfg6.N) (r : Fin 10000) (q : Fin 64) (p : Fin 100000)
    (hp : p.val = 10000 * t.val + r.val) :
    aggB6 V c t (ix2 r q) = (V c main_v83 : FVec Ideal S100000x64 .f32) (ix2 p q) := by
  obtain ⟨h0, h1, -⟩ := idx6 t
  unfold aggB6 iblk6
  rw [View.read_apply]
  show V c main_v83 _ = V c main_v83 _
  congr 1
  funext a
  apply Fin.ext
  match a with
  | ⟨0, _⟩ => show win6_0.index t (0 : Fin 2) * 10000 + 1 * r.val = p.val; rw [h0, hp]; omega
  | ⟨1, _⟩ => show win6_0.index t (1 : Fin 2) * 64 + 1 * q.val = q.val; rw [h1]; omega

/-- The same for the linear map's block. -/
theorem hwB6_apply (V : Entry) (c : Dev nD) (t : Fin cfg6.N) (r : Fin 10000) (q : Fin 64) (p : Fin 100000)
    (hp : p.val = 10000 * t.val + r.val) :
    hwB6 V c t (ix2 r q) = (V c main_v76 : FVec Ideal S100000x64 .f32) (ix2 p q) := by
  obtain ⟨-, -, h0, h1, -⟩ := idx6 t
  unfold hwB6 iblk6
  rw [View.read_apply]
  show V c main_v76 _ = V c main_v76 _
  congr 1
  funext a
  apply Fin.ext
  match a with
  | ⟨0, _⟩ => show win6_1.index t (0 : Fin 2) * 10000 + 1 * r.val = p.val; rw [h0, hp]; omega
  | ⟨1, _⟩ => show win6_1.index t (1 : Fin 2) * 64 + 1 * q.val = q.val; rw [h1]; omega

/-- Entry `r` of point `t`'s self-weight block is entry `10000·t + r` of the column. -/
theorem snB6_apply (V : Entry) (c : Dev nD) (t : Fin cfg6.N) (r : Fin 10000) (u : Fin 1) (p : Fin 100000)
    (hp : p.val = 10000 * t.val + r.val) :
    snB6 V c t (ix2 r u) = (V c main_v87 : FVec Ideal S100000x1 .f32) (ix2 p u) := by
  obtain ⟨-, -, -, -, h0, h1, -⟩ := idx6 t
  unfold snB6 iblk6
  rw [View.read_apply]
  show V c main_v87 _ = V c main_v87 _
  congr 1
  funext a
  apply Fin.ext
  match a with
  | ⟨0, _⟩ => show win6_2.index t (0 : Fin 2) * 10000 + 1 * r.val = p.val; rw [h0, hp]; omega
  | ⟨1, _⟩ => show win6_2.index t (1 : Fin 2) * 1 + 1 * u.val = u.val; rw [h1]; omega

/-- The bias block is the whole bias row at every point. -/
theorem bB6_apply (V : Entry) (c : Dev nD) (t : Fin cfg6.N) (u : Fin 1) (q : Fin 64) :
    bB6 V c t (ix2 u q) = (V c main_v86 : FVec Ideal S1x64 .f32) (ix2 u q) := by
  obtain ⟨-, -, -, -, -, -, h0, h1, -⟩ := idx6 t
  unfold bB6 iblk6
  rw [View.read_apply]
  show V c main_v86 _ = V c main_v86 _
  congr 1
  funext a
  apply Fin.ext
  match a with
  | ⟨0, _⟩ => show win6_3.index t (0 : Fin 2) * 1 + 1 * u.val = u.val; rw [h0]; omega
  | ⟨1, _⟩ => show win6_3.index t (1 : Fin 2) * 64 + 1 * q.val = q.val; rw [h1]; omega

/-- Row `r` of point `t`'s block of the layer's input is row `10000·t + r` of that array. -/
theorem resB6_apply (V : Entry) (c : Dev nD) (t : Fin cfg6.N) (r : Fin 10000) (q : Fin 64) (p : Fin 100000)
    (hp : p.val = 10000 * t.val + r.val) :
    resB6 V c t (ix2 r q) = (V c main_v71 : FVec Ideal S100000x64 .f32) (ix2 p q) := by
  obtain ⟨-, -, -, -, -, -, -, -, h0, h1, -⟩ := idx6 t
  unfold resB6 iblk6
  rw [View.read_apply]
  show V c main_v71 _ = V c main_v71 _
  congr 1
  funext a
  apply Fin.ext
  match a with
  | ⟨0, _⟩ => show win6_4.index t (0 : Fin 2) * 10000 + 1 * r.val = p.val; rw [h0, hp]; omega
  | ⟨1, _⟩ => show win6_4.index t (1 : Fin 2) * 64 + 1 * q.val = q.val; rw [h1]; omega

/-- The array the region leaves, as one function of the entry arrays. -/
abbrev G6 (V : Entry) (c : Dev nD) : Spec.TF Cert.ReferenceIdeal.S100000x64 :=
  addf (Spec.fLn (Spec.fOut (V c main_v83) (V c main_v76) (V c main_v87) (V c main_v86))) (V c main_v71 : Spec.TF S100000x64)

/-- What point `t` writes back is block `t` of that array: rows `10000·t … 10000·t + 9999`, each normalised within itself. -/
theorem flushed6_eq (V : Entry) (c : Dev nD) (t : Fin cfg6.N) :
    (dat6 (F := Ideal) V c).flushed 5 t = ((cfg6.win 5).blk t).view.read (Elt Ideal) (G6 V c) := by
  show (cfg6.win 5).cut (grid6.coords t) ((dat6 V c).after 5 t) = _
  rw [after6_5]
  unfold out6_5
  rw [View.canon_unit_zero hz]
  simp only [View.ld_unit_zero (S := S10000x64) hz, View.ld_unit_zero (S := S10000x1) hz, View.ld_unit_zero (S := S1x64) hz]
  have ht : t.val < 10 := lt_of_lt_of_eq t.isLt N_6
  obtain ⟨-, -, -, -, -, -, -, -, -, -, h50, h51⟩ := idx6 t
  funext j
  obtain ⟨r, q, rfl⟩ : ∃ (r : Fin 10000) (q : Fin 64), j = ix2 r q := ⟨j 0, j 1, eq_ix2 j⟩
  have hp : 10000 * t.val + r.val < 100000 := by omega
  have hemb : ((cfg6.win 5).blk t).view.emb (ix2 r q) = ix2 (⟨10000 * t.val + r.val, hp⟩ : Fin 100000) q := by
    funext a
    apply Fin.ext
    match a with
    | ⟨0, _⟩ => show win6_5.index t (0 : Fin 2) * 10000 + 1 * r.val = 10000 * t.val + r.val; rw [h50]; omega
    | ⟨1, _⟩ => show win6_5.index t (1 : Fin 2) * 64 + 1 * q.val = q.val; rw [h51]; omega
  show k6_pay1 (F := Ideal) (aggB6 V c t) (hwB6 V c t) (snB6 V c t) (bB6 V c t) (resB6 V c t) (ix2 r q)
    = G6 V c (((cfg6.win 5).blk t).view.emb (ix2 r q))
  rw [hemb]
  unfold G6
  rw [addf_apply, fLn_apply, payR6_apply]
  refine congrArg₂ (· + ·) (congrArg (lnRow · q) (funext fun k => ?_)) (resB6_apply V c t r q ⟨_, hp⟩ rfl)
  rw [fOut_apply, aggB6_apply V c t r k ⟨_, hp⟩ rfl, hwB6_apply V c t r k ⟨_, hp⟩ rfl, snB6_apply V c t r 0 ⟨_, hp⟩ rfl, bB6_apply]

/-- A node row `i` lies in point `t`'s block iff its coordinates are in the block's ranges. -/
theorem mem_blk6 (t : Fin cfg6.N) (i : S100000x64.Idx) :
    i ∈ ((cfg6.win 5).blk t).view.set ↔ ∀ a : Fin 2, win6_5.index t a * S10000x64.size a ≤ (i a).val
      ∧ (i a).val < win6_5.index t a * S10000x64.size a + S10000x64.size a := by
  show i ∈ ((View.whole main_v88).slice (win6_5.rect t)).set ↔ _
  rw [View.set_slice_whole, Rect.mem_set_unit]
  exact Iff.rfl

/-- Every node row is in some point's block: row `n` in point `n / 10000`. -/
theorem cover6 (i : S100000x64.Idx) :
    ∃ t : Fin cfg6.N, (cfg6.win 5).flush t = true ∧ i ∈ ((cfg6.win 5).blk t).view.set := by
  have hi0 : (i 0).val < 100000 := (i 0).isLt
  have hi1 : (i 1).val < 64 := (i 1).isLt
  have hN : cfg6.N = 10 := N_6
  refine ⟨⟨(i 0).val / 10000, by omega⟩, flush6_5 _, ?_⟩
  obtain ⟨-, -, -, -, -, -, -, -, -, -, h50, h51⟩ := idx6 ⟨(i 0).val / 10000, by omega⟩
  rw [mem_blk6]
  intro a
  match a with
  | ⟨0, _⟩ =>
    show win6_5.index _ (0 : Fin 2) * 10000 ≤ (i 0).val ∧ (i 0).val < win6_5.index _ (0 : Fin 2) * 10000 + 10000
    rw [h50]; show (i 0).val / 10000 * 10000 ≤ (i 0).val ∧ (i 0).val < (i 0).val / 10000 * 10000 + 10000; omega
  | ⟨1, _⟩ =>
    show win6_5.index _ (1 : Fin 2) * 64 ≤ (i 1).val ∧ (i 1).val < win6_5.index _ (1 : Fin 2) * 64 + 64
    rw [h51]; omega

end Region6

/-- Region 2 leaves the normalised positive part of `agg + hw · sn + b`. -/
theorem region2_value (V : Entry) (c : Dev nD) :
    (dat2 (F := Ideal) V c).arrAt 5 cfg2.N = Spec.fLn (Spec.fOut (V c main_v48) (V c main_v41) (V c main_v53) (V c main_v52)) :=
  (dat2 (F := Ideal) V c).arrAt_eq_of_cover 5 (G2 V c) (fun t _ => flushed2_eq V c t) cover2

/-- Region 4 leaves the same of its operands, plus the layer's input. -/
theorem region4_value (V : Entry) (c : Dev nD) :
    (dat4 (F := Ideal) V c).arrAt 5 cfg4.N
      = addf (Spec.fLn (Spec.fOut (V c main_v66) (V c main_v59) (V c main_v70) (V c main_v69))) (V c main_v54 : Spec.TF S100000x64) :=
  (dat4 (F := Ideal) V c).arrAt_eq_of_cover 5 (G4 V c) (fun t _ => flushed4_eq V c t) cover4

/-- Region 6 leaves the same of its operands, plus the layer's input. -/
theorem region6_value (V : Entry) (c : Dev nD) :
    (dat6 (F := Ideal) V c).arrAt 5 cfg6.N
      = addf (Spec.fLn (Spec.fOut (V c main_v83) (V c main_v76) (V c main_v87) (V c main_v86))) (V c main_v71 : Spec.TF S100000x64) :=
  (dat6 (F := Ideal) V c).arrAt_eq_of_cover 5 (G6 V c) (fun t _ => flushed6_eq V c t) cover6

end Cert.KCombine

end
-- ==== Proof.Take.lean ====
/-
  The kernel program reads the rows `hw (src e)` with a guarded gather: the wrapped index is tested against `[0, 99999]`
  and an entry whose test fails is filled with a fixed pattern instead. Where every source is a node the test holds on
  every edge, so the guarded gather is the plain gather of the reference.
-/
import proofs.«403540_j78005196030173_1_alg».proof.Proof.KLive
import Idealize.ShloMosaic.Lib.StableHlo.Predicate

noncomputable section

namespace Cert.KTake

open Idealize.ShloMosaic Idealize.SL.Sem Cert.KernelIdeal
open Cert.KernelIdeal.Facts₀ Cert.KernelIdeal.Facts

/-- The wrapped source index as the gather's index column. -/
def kIdx (src : Spec.TI S1600000) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- The test `0 ≤ index ≤ 99999`, one truth value per edge. -/
def kMask (idx : IVec S1600000x1 32) : IVec S1600000 1 :=
  Host.reduce IntOp.andi
    (andi (cmpi .sge idx (broadcastInDim S1600000x1 ![] bcast_S_S1600000x1 (constantI S_ 32 0#32)))
      (cmpi .sle idx (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

/-- The guarded gather of the rows of `hw` at the edges' sources. -/
def kTake (hw : Spec.TF S100000x64) (src : Spec.TI S1600000) : Spec.TF S1600000x64 :=
  select (broadcastInDim S1600000x64 ![0] bcast_S1600000_S1600000x64_0 (kMask (kIdx src)))
    (Host.gather gather_S100000x64_S1600000x1_S1600000x64_1_0_n_n_0_1_164 hw (kIdx src))
    (broadcastInDim S1600000x64 ![] bcast_S_S1600000x64 (constant (F := Ideal) S_ .f32 0x7FC00000#32))

/-- A left fold by `and` from 1 over words that are all 1 is 1. -/
theorem foldl_andi_one {ι : Type} (f : ι → BitVec 1) (hf : ∀ i, f i = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

/-- A non-negative signed word is not below zero: the wrap's test fails. -/
theorem slt_zero_of_nonneg {a : BitVec 32} (ha : (0 : Int) ≤ a.toInt) : IntOp.cmpi .slt a 0#32 = 0#1 := by
  have h0 : (0#32 : BitVec 32).toInt = 0 := by decide
  have : a.slt 0#32 = false := by
    simp only [BitVec.slt, h0, decide_eq_false_iff_not]; omega
  simp only [IntOp.cmpi, this]; rfl

/-- A signed word in `[0, 100000)` passes both bounds of the test. -/
theorem test_of_range {a : BitVec 32} (ha : (0 : Int) ≤ a.toInt ∧ a.toInt < 100000) :
    IntOp.andi (IntOp.cmpi .sge a 0#32) (IntOp.cmpi .sle a 99999#32) = 1#1 := by
  have h0 : (0#32 : BitVec 32).toInt = 0 := by decide
  have h9 : (99999#32 : BitVec 32).toInt = 99999 := by decide
  have h1 : (0#32 : BitVec 32).sle a = true := by
    simp only [BitVec.sle, h0, decide_eq_true_eq]; exact ha.1
  have h2 : a.sle 99999#32 = true := by
    simp only [BitVec.sle, h9, decide_eq_true_eq]; omega
  simp only [IntOp.cmpi, h1, h2]; decide

/-- Where every source is a node the wrap leaves the sources as they are. -/
theorem fWrap_eq (src : Spec.TI S1600000) (h : KLive.InRange src) : Spec.fWrap src = src := by
  funext e
  show Scalar.select (IntOp.cmpi .slt (src e) 0#32) (IntOp.addi (src e) 100000#32) (src e) = src e
  rw [slt_zero_of_nonneg (h e).1]
  rfl

/-- The index column is the wrapped sources laid as a column. -/
theorem kIdx_eq (src : Spec.TI S1600000) :
    kIdx src = broadcastInDim S1600000x1 ![0] bcast_S1600000_S1600000x1_0 (Spec.fWrap src) := rfl

/-- Where every entry of the index column is a node, the test holds on every edge. -/
theorem kMask_eq_one (idx : IVec S1600000x1 32) (h : ∀ i, (0 : Int) ≤ (idx i).toInt ∧ (idx i).toInt < 100000) (e : S1600000.Idx) :
    kMask idx e = 1#1 := by
  unfold kMask
  rw [Host.reduce_eq_foldl]
  exact foldl_andi_one _ (fun i => test_of_range (h i)) _

/-- Where every source is a node, the guarded gather is the reference's gather. -/
theorem kTake_eq (hw : Spec.TF S100000x64) (src : Spec.TI S1600000) (h : KLive.InRange src) :
    kTake hw src = Spec.fRows hw src := by
  have hm : kMask (kIdx src) = fun _ => 1#1 := by
    funext e
    refine kMask_eq_one _ (fun i => ?_) e
    rw [kIdx_eq, fWrap_eq src h]
    exact h _
  funext j
  unfold kTake
  rw [hm]
  rfl

end Cert.KTake

end
-- ==== Proof.KTakeOps.lean ====
/-
  The guarded gather as the kernel program's host stretch computes it: the twenty-three operations of each layer's
  `take` leave, in its result buffer, the guarded gather (Take.lean) of the layer's linear map at the edges' sources.
-/
import proofs.«403540_j78005196030173_1_alg».proof.Proof.KLive
import proofs.«403540_j78005196030173_1_alg».proof.Proof.Take

set_option maxRecDepth 16384

noncomputable section

namespace Cert.KTakeOps

open Idealize.ShloMosaic Idealize.ShloMosaic.TcCoe Idealize.SL.Sem Idealize.ShloMosaic.StableHlo Cert.KernelIdeal Cert.KernelIdeal.Gen Cert.KLive

/-- Contents moved to a buffer's own type and back are the contents. -/
theorem ofBuf_toBuf_of {Val : EltTy → Type} {T : BufTy} (b : Ref sig .tc) (h h' : b.ty = T) (d d' : b.space ≠ .host)
    (u u' : b.isScoped = false) (v : T.Contents Val) :
    (TRef.of b h d u).ofBuf ((TRef.of b h' d' u').toBuf v) = v := by
  subst h; rfl

/-- Contents moved to a buffer's own type are what reads back as them. -/
theorem toBuf_of_eq {Val : EltTy → Type} {T : BufTy} (b : Ref sig .tc) (h : b.ty = T) (d : b.space ≠ .host)
    (u : b.isScoped = false) (v : T.Contents Val) (w : b.ty.Contents Val)
    (e : v = (TRef.of b h d u).ofBuf w) : (TRef.of b h d u).toBuf v = w := by
  subst h; subst e; rfl

/-! Each stretch's result, read operation by operation, is the guarded gather's term once the moves between a buffer's
    own type and its value's type cancel: pairwise inside, and at the two operands and the result by computation. -/

/-- The first layer's stretch. -/
theorem take2 (V : Val) :
    after (hostOps2 (F := Ideal)) V (r main_v42) = Cert.KTake.kTake (V (r main_v41)) (V (r main_v1)) := by
  have e1 : (TRef.of main_v1 : TRef sig ⟨S1600000, .i32⟩).ofBuf (V (r main_v1)) = V (r main_v1) := rfl
  have e2 : (TRef.of main_v41 : TRef sig ⟨S100000x64, .f32⟩).ofBuf (V (r main_v41)) = V (r main_v41) := rfl
  have e3 : ∀ w : (⟨S1600000x64, .f32⟩ : BufTy).Contents (Elt Ideal),
      (TRef.of main_v42 : TRef sig ⟨S1600000x64, .f32⟩).ofBuf w = w := fun _ => rfl
  after_results_simp
  simp only [ofBuf_toBuf_of]
  rw [e1, e2]
  refine toBuf_of_eq _ _ _ _ _ _ ?_
  rw [e3]
  unfold Cert.KTake.kTake Cert.KTake.kMask Cert.KTake.kIdx
  rfl

/-- The second layer's stretch. -/
theorem take4 (V : Val) :
    after (hostOps4 (F := Ideal)) V (r main_v60) = Cert.KTake.kTake (V (r main_v59)) (V (r main_v1)) := by
  have e1 : (TRef.of main_v1 : TRef sig ⟨S1600000, .i32⟩).ofBuf (V (r main_v1)) = V (r main_v1) := rfl
  have e2 : (TRef.of main_v59 : TRef sig ⟨S100000x64, .f32⟩).ofBuf (V (r main_v59)) = V (r main_v59) := rfl
  have e3 : ∀ w : (⟨S1600000x64, .f32⟩ : BufTy).Contents (Elt Ideal),
      (TRef.of main_v60 : TRef sig ⟨S1600000x64, .f32⟩).ofBuf w = w := fun _ => rfl
  after_results_simp
  simp only [ofBuf_toBuf_of]
  rw [e1, e2]
  refine toBuf_of_eq _ _ _ _ _ _ ?_
  rw [e3]
  unfold Cert.KTake.kTake Cert.KTake.kMask Cert.KTake.kIdx
  rfl

/-- The third layer's stretch. -/
theorem take6 (V : Val) :
    after (hostOps6 (F := Ideal)) V (r main_v77) = Cert.KTake.kTake (V (r main_v76)) (V (r main_v1)) := by
  have e1 : (TRef.of main_v1 : TRef sig ⟨S1600000, .i32⟩).ofBuf (V (r main_v1)) = V (r main_v1) := rfl
  have e2 : (TRef.of main_v76 : TRef sig ⟨S100000x64, .f32⟩).ofBuf (V (r main_v76)) = V (r main_v76) := rfl
  have e3 : ∀ w : (⟨S1600000x64, .f32⟩ : BufTy).Contents (Elt Ideal),
      (TRef.of main_v77 : TRef sig ⟨S1600000x64, .f32⟩).ofBuf w = w := fun _ => rfl
  after_results_simp
  simp only [ofBuf_toBuf_of]
  rw [e1, e2]
  refine toBuf_of_eq _ _ _ _ _ _ ?_
  rw [e3]
  unfold Cert.KTake.kTake Cert.KTake.kMask Cert.KTake.kIdx
  rfl

end Cert.KTakeOps

end
-- ==== Proof.KLayer0.lean ====
/-
  The first layer in the kernel program: region 1 is the linear map hw = h·W; the host gathers hw's rows at the edges'
  sources (a guarded gather, the plain one where the sources are nodes), scales them by the edges' normalisation and sums them
  into their destinations; region 2 adds the self term and the bias, normalises each row and takes the positive part; the
  host then slices the next layer's matrix beside a zero bias row.
-/
import proofs.«403540_j78005196030173_1_alg».proof.Proof.KLive
import proofs.«403540_j78005196030173_1_alg».proof.Proof.KAffine
import proofs.«403540_j78005196030173_1_alg».proof.Proof.KCombine
import proofs.«403540_j78005196030173_1_alg».proof.Proof.Take
import proofs.«403540_j78005196030173_1_alg».proof.Proof.KTakeOps
import proofs.«403540_j78005196030173_1_alg».proof.Proof.Layout
import Idealize.ShloMosaic.Lib.Pipeline.Value
import Idealize.ShloMosaic.Lib.ValueIdx
import Idealize.ShloMosaic.Lib.ValueLayout

set_option maxRecDepth 16384

noncomputable section

namespace Cert.KLayer0

open Idealize.ShloMosaic Idealize.ShloMosaic.TcCoe Idealize.SL.Sem Idealize.ShloMosaic.StableHlo Cert.KernelIdeal Cert.KernelIdeal.Gen Cert.KLive

-- the gather, the segment sum and the reduction stay folded: no equation below looks inside one
attribute [local irreducible] Host.gather Host.scatterAdd Host.reduce

/-! ## The buffers every layer carries -/

/-- The references of the later arguments and of the edge data. -/
def live : List (Ref sig .tc) :=
  [main_arg7, main_arg8, main_arg9, main_arg10, main_arg11, main_arg12, main_arg13, main_arg14, main_arg15, main_arg16,
    main_v1, main_v3, main_v35, main_v36]

/-- Contents that agree on the carried buffers satisfy the same two invariants. -/
theorem carry {V V' : Val} {I : Spec.Inputs} (e : ∀ b ∈ live, V' (r b) = V (r b)) (ha : Args V I) (he : Edges V I) :
    Args V' I ∧ Edges V' I := by
  unfold Args at ha ⊢
  unfold Edges at he ⊢
  obtain ⟨a7, a8, a9, a10, a11, a12, a13, a14, a15, a16⟩ := ha
  obtain ⟨e1, e3, e35, e36⟩ := he
  exact ⟨⟨(e main_arg7 (by decide)).trans a7, (e main_arg8 (by decide)).trans a8, (e main_arg9 (by decide)).trans a9,
      (e main_arg10 (by decide)).trans a10, (e main_arg11 (by decide)).trans a11, (e main_arg12 (by decide)).trans a12,
      (e main_arg13 (by decide)).trans a13, (e main_arg14 (by decide)).trans a14, (e main_arg15 (by decide)).trans a15,
      (e main_arg16 (by decide)).trans a16⟩,
    ⟨(e main_v1 (by decide)).trans e1, (e main_v3 (by decide)).trans e3, (e main_v35 (by decide)).trans e35,
      (e main_v36 (by decide)).trans e36⟩⟩

/-! ## The guarded gather (the host's first stretch after region 1) -/

/-- The references the stretch writes. -/
def wrTake : List (Ref sig .tc) :=
  [main_call1_c, main_call1_v0, main_call1_v1, main_call1_c_0, main_call1_v2, main_call1_v3, main_call1_v4, main_call1_v5,
    main_call1_c_1, main_call1_c_2, main_call1_v6, main_call1_v7, main_call1_v8, main_call1_v9, main_call1_v10, main_call1_v11,
    main_call1_c_3, main_call1_v12, main_call1_v13, main_call1_v14, main_call1_cst, main_call1_v15, main_v42]

theorem writesTake : (hostOps2 (F := Ideal)).Forall fun op => op.writes ⊆ (wrTake.map (Proc.devRef (τ := τ) .tc)).toFinset := by
  simp only [hostOps2, List.Forall, nullary_writes, unary_writes, binary_writes, ternary_writes, reshape_writes,
    Finset.singleton_subset_iff, List.mem_toFinset]
  repeat' apply And.intro
  all_goals exact List.mem_map.mpr ⟨_, by decide, rfl⟩

/-- A buffer the stretch does not write keeps its contents. -/
theorem keepTake (V : Val) (b : Ref sig .tc) (hb : b ∉ wrTake) : after (hostOps2 (F := Ideal)) V (r b) = V (r b) :=
  after_of_writes_sub _ V writesTake hb

/-! ## Scaling, summing into the destinations, the bias row and the self-weight column (the host's second stretch) -/

/-- The references the stretch writes. -/
def wrAgg : List (Ref sig .tc) :=
  [main_v43, main_v44, main_v45, main_cst_7, main_v46, main_v47, main_v48, main_cst_8, main_v49, main_v50, main_v51, main_v52,
    main_v53]

theorem writesAgg : (hostOps2_1 (F := Ideal)).Forall fun op => op.writes ⊆ (wrAgg.map (Proc.devRef (τ := τ) .tc)).toFinset := by
  simp only [hostOps2_1, List.Forall, nullary_writes, unary_writes, binary_writes, ternary_writes, reshape_writes,
    Finset.singleton_subset_iff, List.mem_toFinset]
  repeat' apply And.intro
  all_goals exact List.mem_map.mpr ⟨_, by decide, rfl⟩

/-- A buffer the stretch does not write keeps its contents. -/
theorem keepAgg (V : Val) (b : Ref sig .tc) (hb : b ∉ wrAgg) : after (hostOps2_1 (F := Ideal)) V (r b) = V (r b) :=
  after_of_writes_sub _ V writesAgg hb

/-- The edge rows, each scaled by its edge's weight, summed into their destinations from the zero array. -/
theorem agg_v48 (V : Val) :
    after (hostOps2_1 (F := Ideal)) V (r main_v48) = Spec.fAggOf (V (r main_v42)) (V (r main_v35)) (V (r main_v3)) := by
  after_results_simp
  rfl

/-- The layer's bias, sliced and recast twice, is its row. -/
theorem agg_v52 (V : Val) :
    after (hostOps2_1 (F := Ideal)) V (r main_v52) = Spec.fAsRow64 (Spec.fBg0 (V (r main_arg8))) := by
  after_results_simp
  exact Cert.Layout.row64 (Spec.fBg0 (V (r main_arg8))) shapeCasts_S64_S1x64

/-- The self weights recast as a column. -/
theorem agg_v53 (V : Val) : after (hostOps2_1 (F := Ideal)) V (r main_v53) = Spec.fAsCol (V (r main_v36)) := by
  after_results_simp
  exact Cert.Layout.col (V (r main_v36)) shapeCasts_S100000_S100000x1

/-! ## The next layer's matrix beside a zero row (the host's stretch after region 2) -/

/-- The references the stretch writes. -/
def wrNext : List (Ref sig .tc) := [main_v55, main_v56, main_cst_9, main_v57, main_v58]

theorem writesNext : (hostOps3 (F := Ideal)).Forall fun op => op.writes ⊆ (wrNext.map (Proc.devRef (τ := τ) .tc)).toFinset := by
  simp only [hostOps3, List.Forall, nullary_writes, unary_writes, binary_writes, ternary_writes, reshape_writes,
    Finset.singleton_subset_iff, List.mem_toFinset]
  repeat' apply And.intro
  all_goals exact List.mem_map.mpr ⟨_, by decide, rfl⟩

/-- A buffer the stretch does not write keeps its contents. -/
theorem keepNext (V : Val) (b : Ref sig .tc) (hb : b ∉ wrNext) : after (hostOps3 (F := Ideal)) V (r b) = V (r b) :=
  after_of_writes_sub _ V writesNext hb

/-- Slice 1 of the three layer matrices. -/
theorem next_v56 (V : Val) : after (hostOps3 (F := Ideal)) V (r main_v56) = Spec.fWg1 (V (r main_arg7)) := by
  simp only [hostOps3, after_cons, after_nil]
  rfl

/-- The zero splat recast as a row is a zero row. -/
theorem next_v58 (V : Val) : ZeroRow (after (hostOps3 (F := Ideal)) V (r main_v58)) := by
  intro i
  simp only [hostOps3, after_cons, after_nil]
  exact Cert.Layout.zero_row bcast_S_S64 shapeCasts_S64_S1x64 i

/-! ## The two regions -/

/-- Neither region reads or writes a carried buffer through a window. -/
theorem live_ne1 : ∀ b ∈ live, ∀ w, Pipeline.arrRef spec1 w ≠ b := by decide
theorem live_ne2 : ∀ b ∈ live, ∀ w, Pipeline.arrRef spec2 w ≠ b := by decide
/-- No host stretch writes a carried buffer. -/
theorem live_wrTake : ∀ b ∈ live, b ∉ wrTake := by decide
theorem live_wrAgg : ∀ b ∈ live, b ∉ wrAgg := by decide
theorem live_wrNext : ∀ b ∈ live, b ∉ wrNext := by decide

variable (m : (ℓ : Loc nD τ sig) → Buf (Elt Ideal) ℓ) (ρ : Dev nD → PrngReg)

/-- Region 1 leaves the linear map of the layer's input. -/
theorem W6_v41 (c : Dev nD) (hz : ZeroRow (W5 (F := Ideal) m ρ c (r main_v40))) :
    W6 (F := Ideal) m ρ c (r main_v41)
      = Spec.fHw (W5 (F := Ideal) m ρ c (r main_v5)) (W5 (F := Ideal) m ρ c (r main_v38)) :=
  (W6_arr m ρ c 3).trans (Cert.KAffine.region1_value (V5 m ρ) c hz)

/-- Region 2 leaves the normalised positive part of the combination of its operands. -/
theorem W9_v54 (c : Dev nD) :
    W9 (F := Ideal) m ρ c (r main_v54)
      = Spec.fLn (Spec.fOut (W8 (F := Ideal) m ρ c (r main_v48)) (W8 (F := Ideal) m ρ c (r main_v41))
          (W8 (F := Ideal) m ρ c (r main_v53)) (W8 (F := Ideal) m ρ c (r main_v52))) :=
  (W9_arr m ρ c 5).trans (Cert.KCombine.region2_value (V8 m ρ) c)

/-- One layer: from its linear map's region to the entry of the next layer's. -/
theorem entry3 (c : Dev nD) (I : Spec.Inputs) (h : E1 (W5 (F := Ideal) m ρ c) I) (hr : InRange (Spec.vSrc I)) :
    E3 (W10 (F := Ideal) m ρ c) I := by
  obtain ⟨ha, he, h5, h38, h40⟩ := h
  -- the carried buffers, boundary by boundary
  obtain ⟨ha6, he6⟩ := carry (V' := W6 (F := Ideal) m ρ c) (fun b hb => W6_of_ne m ρ c b (live_ne1 b hb)) ha he
  obtain ⟨ha7, he7⟩ := carry (V' := W7 (F := Ideal) m ρ c) (fun b hb => keepTake _ b (live_wrTake b hb)) ha6 he6
  obtain ⟨ha8, he8⟩ := carry (V' := W8 (F := Ideal) m ρ c) (fun b hb => keepAgg _ b (live_wrAgg b hb)) ha7 he7
  obtain ⟨ha9, he9⟩ := carry (V' := W9 (F := Ideal) m ρ c) (fun b hb => W9_of_ne m ρ c b (live_ne2 b hb)) ha8 he8
  obtain ⟨ha10, he10⟩ := carry (V' := W10 (F := Ideal) m ρ c) (fun b hb => keepNext _ b (live_wrNext b hb)) ha9 he9
  -- hw = h·W out of region 1, kept to region 2's entry
  have e41 : W6 (F := Ideal) m ρ c (r main_v41) = Spec.fHw (Spec.vH0 I) (Spec.fWg0 I.Wg) := by
    rw [W6_v41 m ρ c h40, h5, h38]
  have e41_7 : W7 (F := Ideal) m ρ c (r main_v41) = Spec.fHw (Spec.vH0 I) (Spec.fWg0 I.Wg) :=
    (keepTake _ main_v41 (by decide)).trans e41
  have e41_8 : W8 (F := Ideal) m ρ c (r main_v41) = Spec.fHw (Spec.vH0 I) (Spec.fWg0 I.Wg) :=
    (keepAgg _ main_v41 (by decide)).trans e41_7
  -- its rows at the sources: the guarded gather is the plain one
  have e42 : W7 (F := Ideal) m ρ c (r main_v42) = Spec.fRows (Spec.fHw (Spec.vH0 I) (Spec.fWg0 I.Wg)) (Spec.vSrc I) := by
    refine (Cert.KTakeOps.take2 (W6 (F := Ideal) m ρ c)).trans ?_
    rw [e41, he6.1]
    exact Cert.KTake.kTake_eq _ _ hr
  -- the aggregation, the bias row, the self-weight column
  have e48 : W8 (F := Ideal) m ρ c (r main_v48)
      = Spec.fAggOf (Spec.fRows (Spec.fHw (Spec.vH0 I) (Spec.fWg0 I.Wg)) (Spec.vSrc I)) (Spec.vNrm I) (Spec.vDst I) := by
    refine (agg_v48 (W7 (F := Ideal) m ρ c)).trans ?_
    rw [e42, he7.2.2.1, he7.2.1]
  have e52 : W8 (F := Ideal) m ρ c (r main_v52) = Spec.fAsRow64 (Spec.fBg0 I.bg) := by
    refine (agg_v52 (W7 (F := Ideal) m ρ c)).trans ?_
    rw [ha7.2.1]
  have e53 : W8 (F := Ideal) m ρ c (r main_v53) = Spec.fAsCol (Spec.vSn I) := by
    refine (agg_v53 (W7 (F := Ideal) m ρ c)).trans ?_
    rw [he7.2.2.2]
  -- region 2: the layer's output
  have e54 : W9 (F := Ideal) m ρ c (r main_v54) = Spec.vH1 I := by
    rw [W9_v54 m ρ c, e48, e41_8, e53, e52]
    rfl
  exact ⟨ha10, he10, (keepNext _ main_v54 (by decide)).trans e54,
    (next_v56 (W9 (F := Ideal) m ρ c)).trans (by rw [ha9.1]), next_v58 (W9 (F := Ideal) m ρ c)⟩

end Cert.KLayer0

end
-- ==== Proof.KLayer1.lean ====
/-
  The second layer in the kernel program: region 3 is the linear map, the host gathers, scales and sums into the
  destinations, region 4 adds the self term and the bias, normalises, takes the positive part and adds the layer's input;
  the host then slices the last layer's matrix beside a zero bias row.
-/
import proofs.«403540_j78005196030173_1_alg».proof.Proof.KLive
import proofs.«403540_j78005196030173_1_alg».proof.Proof.KAffine
import proofs.«403540_j78005196030173_1_alg».proof.Proof.KCombine
import proofs.«403540_j78005196030173_1_alg».proof.Proof.Take
import proofs.«403540_j78005196030173_1_alg».proof.Proof.KTakeOps
import proofs.«403540_j78005196030173_1_alg».proof.Proof.Layout
import Idealize.ShloMosaic.Lib.Pipeline.Value
import Idealize.ShloMosaic.Lib.ValueIdx
import Idealize.ShloMosaic.Lib.ValueLayout

set_option maxRecDepth 16384

noncomputable section

namespace Cert.KLayer1

open Idealize.ShloMosaic Idealize.ShloMosaic.TcCoe Idealize.SL.Sem Idealize.ShloMosaic.StableHlo Cert.KernelIdeal Cert.KernelIdeal.Gen Cert.KLive

variable (m : (ℓ : Loc nD τ sig) → Buf (Elt Ideal) ℓ) (ρ : Dev nD → PrngReg)

/-! ## What each stretch leaves alone -/

/-- The gather's host stretch leaves every buffer it does not write as it was. -/
theorem carry4 (c : Dev nD) (b : Ref sig .tc)
    (hb : b ∉ [main_call2_c, main_call2_v0, main_call2_v1, main_call2_c_0, main_call2_v2, main_call2_v3, main_call2_v4, main_call2_v5,
      main_call2_c_1, main_call2_c_2, main_call2_v6, main_call2_v7, main_call2_v8, main_call2_v9, main_call2_v10, main_call2_v11,
      main_call2_c_3, main_call2_v12, main_call2_v13, main_call2_v14, main_call2_cst, main_call2_v15, main_v60]) :
    W12 (F := Ideal) m ρ c (r b) = W11 (F := Ideal) m ρ c (r b) :=
  StableHlo.after_of_forall_not_mem (b := Proc.devRef .tc b) _ _ (List.forall_iff_forall_mem.mp (by
    simp only [hostOps4, List.Forall, StableHlo.nullary_writes, StableHlo.unary_writes, StableHlo.binary_writes, StableHlo.ternary_writes,
      StableHlo.reshape_writes, Finset.mem_singleton]
    repeat' apply And.intro
    all_goals exact StableHlo.devRef_ne_of_ne (fun e => by subst e; exact hb (by decide))))

theorem carry4_1 (c : Dev nD) (b : Ref sig .tc)
    (hb : b ∉ [main_v61, main_v62, main_v63, main_cst_10, main_v64, main_v65, main_v66, main_v67, main_v68, main_v69, main_v70]) :
    W13 (F := Ideal) m ρ c (r b) = W12 (F := Ideal) m ρ c (r b) :=
  StableHlo.after_of_forall_not_mem (b := Proc.devRef .tc b) _ _ (List.forall_iff_forall_mem.mp (by
    simp only [hostOps4_1, List.Forall, StableHlo.nullary_writes, StableHlo.unary_writes, StableHlo.binary_writes, StableHlo.ternary_writes,
      StableHlo.reshape_writes, Finset.mem_singleton]
    repeat' apply And.intro
    all_goals exact StableHlo.devRef_ne_of_ne (fun e => by subst e; exact hb (by decide))))

theorem carry5 (c : Dev nD) (b : Ref sig .tc)
    (hb : b ∉ [main_v72, main_v73, main_cst_11, main_v74, main_v75]) :
    W15 (F := Ideal) m ρ c (r b) = W14 (F := Ideal) m ρ c (r b) :=
  StableHlo.after_of_forall_not_mem (b := Proc.devRef .tc b) _ _ (List.forall_iff_forall_mem.mp (by
    simp only [hostOps5, List.Forall, StableHlo.nullary_writes, StableHlo.unary_writes, StableHlo.binary_writes, StableHlo.ternary_writes,
      StableHlo.reshape_writes, Finset.mem_singleton]
    repeat' apply And.intro
    all_goals exact StableHlo.devRef_ne_of_ne (fun e => by subst e; exact hb (by decide))))

/-- A buffer neither region touches and no host stretch writes is carried through the layer. -/
theorem carry_all (c : Dev nD) (b : Ref sig .tc)
    (h3 : ∀ w, Pipeline.arrRef spec3 w ≠ b) (h4 : ∀ w, Pipeline.arrRef spec4 w ≠ b)
    (hb4 : b ∉ [main_call2_c, main_call2_v0, main_call2_v1, main_call2_c_0, main_call2_v2, main_call2_v3, main_call2_v4, main_call2_v5,
      main_call2_c_1, main_call2_c_2, main_call2_v6, main_call2_v7, main_call2_v8, main_call2_v9, main_call2_v10, main_call2_v11,
      main_call2_c_3, main_call2_v12, main_call2_v13, main_call2_v14, main_call2_cst, main_call2_v15, main_v60])
    (hb41 : b ∉ [main_v61, main_v62, main_v63, main_cst_10, main_v64, main_v65, main_v66, main_v67, main_v68, main_v69, main_v70])
    (hb5 : b ∉ [main_v72, main_v73, main_cst_11, main_v74, main_v75]) :
    W15 (F := Ideal) m ρ c (r b) = W10 (F := Ideal) m ρ c (r b) :=
  (carry5 m ρ c b hb5).trans ((W14_of_ne m ρ c b h4).trans ((carry4_1 m ρ c b hb41).trans ((carry4 m ρ c b hb4).trans (W11_of_ne m ρ c b h3))))

/-- Region 3's input features stay as entered. -/
theorem v54_11 (c : Dev nD) : W11 (F := Ideal) m ρ c (r main_v54) = W10 (F := Ideal) m ρ c (r main_v54) :=
  (W11_arr m ρ c 0).trans (((dat3 (V10 m ρ) c).arrAt_in 0 rfl _).trans (A_eq3 (V10 m ρ) c 0))

/-- Region 3 leaves the linear map of its entry contents. -/
theorem v59_11 (c : Dev nD) (hz : ZeroRow (W10 (F := Ideal) m ρ c (r main_v58))) :
    W11 (F := Ideal) m ρ c (r main_v59) = Spec.fHw (W10 (F := Ideal) m ρ c (r main_v54)) (W10 (F := Ideal) m ρ c (r main_v56)) :=
  (W11_arr m ρ c 3).trans (Cert.KAffine.region3_value (V10 m ρ) c hz)

/-! ## The host stretches, over any contents -/

/-- The scaled rows summed into their destinations. -/
theorem agg_of (V : Val) :
    StableHlo.after (hostOps4_1 (F := Ideal)) V (r main_v66) = Spec.fAggOf (V (r main_v60)) (V (r main_v35)) (V (r main_v3)) := by
  after_results
  rfl

/-- The layer's bias as a row. -/
theorem bias_of (V : Val) :
    StableHlo.after (hostOps4_1 (F := Ideal)) V (r main_v69) = Spec.fAsRow64 (Spec.fBg1 (V (r main_arg8))) := by
  after_results
  exact Cert.Layout.row64 _ _

/-- The self weights as a column. -/
theorem self_of (V : Val) :
    StableHlo.after (hostOps4_1 (F := Ideal)) V (r main_v70) = Spec.fAsCol (V (r main_v36)) := by
  after_results
  exact Cert.Layout.col _ _

/-- The last layer's matrix, sliced. -/
theorem mat_of (V : Val) : StableHlo.after (hostOps5 (F := Ideal)) V (r main_v73) = Spec.fWg2 (V (r main_arg7)) := by
  after_results
  rfl

/-- The last layer's bias row of zeros. -/
theorem zero_of (V : Val) : ZeroRow (StableHlo.after (hostOps5 (F := Ideal)) V (r main_v75)) := by
  intro i
  have e : StableHlo.after (hostOps5 (F := Ideal)) V (r main_v75)
      = shapeCast S1x64 (broadcastInDim S64 ![] Facts₀.bcast_S_S64 (constant (F := Ideal) S_ .f32 0x00000000#32)) Facts₀.shapeCasts_S64_S1x64 := by
    after_results
    rfl
  rw [e]
  exact Cert.Layout.zero_row _ _ i

/-- Region 4 leaves the normalised positive part of its combination, plus the layer's input. -/
theorem v71_14 (c : Dev nD) :
    W14 (F := Ideal) m ρ c (r main_v71)
      = addf (Spec.fLn (Spec.fOut (W13 (F := Ideal) m ρ c (r main_v66)) (W13 (F := Ideal) m ρ c (r main_v59))
          (W13 (F := Ideal) m ρ c (r main_v70)) (W13 (F := Ideal) m ρ c (r main_v69)))) (W13 (F := Ideal) m ρ c (r main_v54) : Spec.TF S100000x64) :=
  (W14_arr m ρ c 5).trans (Cert.KCombine.region4_value (V13 m ρ) c)

/-- One layer: from its linear map's region to the entry of the next layer's. -/
theorem entry5 (c : Dev nD) (I : Spec.Inputs) (h : E3 (W10 (F := Ideal) m ρ c) I) (hr : InRange (Spec.vSrc I)) :
    E5 (W15 (F := Ideal) m ρ c) I := by
  obtain ⟨⟨a7, a8, a9, a10, a11, a12, a13, a14, a15, a16⟩, ⟨e1, e3, e35, e36⟩, h54, h56, h58⟩ := h
  -- region 3: the linear map of the layer's input; the sources beside it
  have s11 : W11 (F := Ideal) m ρ c (r main_v1) = Spec.vSrc I := (W11_of_ne m ρ c main_v1 (by decide)).trans e1
  have hw11 : W11 (F := Ideal) m ρ c (r main_v59) = Spec.fHw (Spec.vH1 I) (Spec.fWg1 I.Wg) := by
    rw [v59_11 m ρ c h58, h54, h56]
  have x11 : W11 (F := Ideal) m ρ c (r main_v54) = Spec.vH1 I := (v54_11 m ρ c).trans h54
  -- the gather
  have g12 : W12 (F := Ideal) m ρ c (r main_v60) = Spec.fRows (Spec.fHw (Spec.vH1 I) (Spec.fWg1 I.Wg)) (Spec.vSrc I) := by
    refine (Cert.KTakeOps.take4 (W11 (F := Ideal) m ρ c)).trans ?_
    rw [hw11, s11]
    exact Cert.KTake.kTake_eq _ _ hr
  have n12 : W12 (F := Ideal) m ρ c (r main_v35) = Spec.vNrm I :=
    (carry4 m ρ c main_v35 (by decide)).trans ((W11_of_ne m ρ c main_v35 (by decide)).trans e35)
  have d12 : W12 (F := Ideal) m ρ c (r main_v3) = Spec.vDst I :=
    (carry4 m ρ c main_v3 (by decide)).trans ((W11_of_ne m ρ c main_v3 (by decide)).trans e3)
  have sn12 : W12 (F := Ideal) m ρ c (r main_v36) = Spec.vSn I :=
    (carry4 m ρ c main_v36 (by decide)).trans ((W11_of_ne m ρ c main_v36 (by decide)).trans e36)
  have b12 : W12 (F := Ideal) m ρ c (r main_arg8) = I.bg :=
    (carry4 m ρ c main_arg8 (by decide)).trans ((W11_of_ne m ρ c main_arg8 (by decide)).trans a8)
  -- region 4's operands
  have agg13 : W13 (F := Ideal) m ρ c (r main_v66)
      = Spec.fAggOf (Spec.fRows (Spec.fHw (Spec.vH1 I) (Spec.fWg1 I.Wg)) (Spec.vSrc I)) (Spec.vNrm I) (Spec.vDst I) := by
    refine (agg_of (W12 (F := Ideal) m ρ c)).trans ?_
    rw [g12, n12, d12]
  have bias13 : W13 (F := Ideal) m ρ c (r main_v69) = Spec.fAsRow64 (Spec.fBg1 I.bg) := by
    refine (bias_of (W12 (F := Ideal) m ρ c)).trans ?_
    rw [b12]
  have self13 : W13 (F := Ideal) m ρ c (r main_v70) = Spec.fAsCol (Spec.vSn I) := by
    refine (self_of (W12 (F := Ideal) m ρ c)).trans ?_
    rw [sn12]
  have hw13 : W13 (F := Ideal) m ρ c (r main_v59) = Spec.fHw (Spec.vH1 I) (Spec.fWg1 I.Wg) :=
    (carry4_1 m ρ c main_v59 (by decide)).trans ((carry4 m ρ c main_v59 (by decide)).trans hw11)
  have x13 : W13 (F := Ideal) m ρ c (r main_v54) = Spec.vH1 I :=
    (carry4_1 m ρ c main_v54 (by decide)).trans ((carry4 m ρ c main_v54 (by decide)).trans x11)
  -- region 4
  have h71 : W15 (F := Ideal) m ρ c (r main_v71) = Spec.vH2 I := by
    refine (carry5 m ρ c main_v71 (by decide)).trans ((v71_14 m ρ c).trans ?_)
    rw [agg13, hw13, self13, bias13, x13]
    rfl
  have h73 : W15 (F := Ideal) m ρ c (r main_v73) = Spec.fWg2 I.Wg := by
    refine (mat_of (W14 (F := Ideal) m ρ c)).trans ?_
    rw [(W14_of_ne m ρ c main_arg7 (by decide)).trans ((carry4_1 m ρ c main_arg7 (by decide)).trans
      ((carry4 m ρ c main_arg7 (by decide)).trans ((W11_of_ne m ρ c main_arg7 (by decide)).trans a7)))]
  exact ⟨⟨(carry_all m ρ c main_arg7 (by decide) (by decide) (by decide) (by decide) (by decide)).trans a7,
      (carry_all m ρ c main_arg8 (by decide) (by decide) (by decide) (by decide) (by decide)).trans a8,
      (carry_all m ρ c main_arg9 (by decide) (by decide) (by decide) (by decide) (by decide)).trans a9,
      (carry_all m ρ c main_arg10 (by decide) (by decide) (by decide) (by decide) (by decide)).trans a10,
      (carry_all m ρ c main_arg11 (by decide) (by decide) (by decide) (by decide) (by decide)).trans a11,
      (carry_all m ρ c main_arg12 (by decide) (by decide) (by decide) (by decide) (by decide)).trans a12,
      (carry_all m ρ c main_arg13 (by decide) (by decide) (by decide) (by decide) (by decide)).trans a13,
      (carry_all m ρ c main_arg14 (by decide) (by decide) (by decide) (by decide) (by decide)).trans a14,
      (carry_all m ρ c main_arg15 (by decide) (by decide) (by decide) (by decide) (by decide)).trans a15,
      (carry_all m ρ c main_arg16 (by decide) (by decide) (by decide) (by decide) (by decide)).trans a16⟩,
    ⟨(carry_all m ρ c main_v1 (by decide) (by decide) (by decide) (by decide) (by decide)).trans e1,
      (carry_all m ρ c main_v3 (by decide) (by decide) (by decide) (by decide) (by decide)).trans e3,
      (carry_all m ρ c main_v35 (by decide) (by decide) (by decide) (by decide) (by decide)).trans e35,
      (carry_all m ρ c main_v36 (by decide) (by decide) (by decide) (by decide) (by decide)).trans e36⟩,
    h71, h73, zero_of (W14 (F := Ideal) m ρ c)⟩

end Cert.KLayer1

end
-- ==== Proof.KHead.lean ====
/-
  The head region: the gate logistic (max (h·Wa1 + ba1) 0 · Wa2 + ba2), which on the extended reals is the host's
  1 / (1 + exp (-·)), and the classifier on the gated rows; two outputs, each written block by block over the node rows.
-/
import proofs.«403540_j78005196030173_1_alg».proof.Proof.Gen.KernelIdeal.Frame
import proofs.«403540_j78005196030173_1_alg».proof.Proof.Gen.ReferenceIdeal
import proofs.«403540_j78005196030173_1_alg».proof.Proof.Spec
import proofs.«403540_j78005196030173_1_alg».proof.Proof.KLive
import Idealize.ShloMosaic.Lib.Pipeline.Value
import Idealize.ShloMosaic.Lib.ValueIdx
import Idealize.ShloMosaic.Lib.ValueLayout
import Idealize.ShloMosaic.Lib.IdealHost
import Idealize.ShloMosaic.Lib.KernelVsHost
import Idealize.ShloMosaic.PureOps.Ideal.Laws

set_option maxRecDepth 16384

noncomputable section

namespace Cert.KHead

open Idealize.ShloMosaic Idealize.ShloMosaic.TcCoe Idealize.SL.Sem Cert.KernelIdeal Cert.KernelIdeal.Gen
open Idealize.ShloMosaic.ValueIdx

/-- The TensorCore's buffer contents when a region is entered. -/
abbrev Entry := (c : Dev nD) → (b : Ref sig .tc) → Buf (Elt Ideal) ((c : Thread nD τ).loc b)

/-! ## A rows-by-columns product read at an entry -/

/-- The left operand's entry at row `r` and contraction position `i`. -/
theorem plain_lhs (M K N : Nat) (r : Fin M) (c : Fin N) (i : Fin K) :
    (DotDims.plain M K N).lhsIdx (ix2 r c) ((contrEquiv1 (DotDims.plain M K N) K rfl rfl).symm i) = ix2 r i := by
  funext a
  match a with
  | ⟨0, _⟩ => rfl
  | ⟨1, _⟩ =>
    exact Fin.ext (((DotDims.plain M K N).lhsIdx_val_of_single (cl := 1) rfl (ix2 r c) _).trans
      (contrEquiv1_symm_val (DotDims.plain M K N) K rfl rfl i))

/-- The right operand's entry at contraction position `i` and column `c`. -/
theorem plain_rhs (M K N : Nat) (r : Fin M) (c : Fin N) (i : Fin K) :
    (DotDims.plain M K N).rhsIdx (ix2 r c) ((contrEquiv1 (DotDims.plain M K N) K rfl rfl).symm i) = ix2 i c := by
  funext a
  match a with
  | ⟨0, _⟩ =>
    exact Fin.ext (((DotDims.plain M K N).rhsIdx_val_of_single (cr := 0) rfl (ix2 r c) _).trans
      (contrEquiv1_symm_val (DotDims.plain M K N) K rfl rfl i))
  | ⟨1, _⟩ => rfl

/-- The contraction's sum is the sum over the shared axis: entry (r, c) of A·B is Σ_i A(r, i) · B(i, c). -/
theorem plain_sum (M K N : Nat) (A : FVec Ideal ⟨2, ![M, K]⟩ .f32) (B : FVec Ideal ⟨2, ![K, N]⟩ .f32) (r : Fin M) (c : Fin N) :
    ∑ k : (DotDims.plain M K N).contr.Idx, A ((DotDims.plain M K N).lhsIdx (ix2 r c) k) * B ((DotDims.plain M K N).rhsIdx (ix2 r c) k)
      = ∑ i : Fin K, A (ix2 r i) * B (ix2 i c) := by
  rw [← Equiv.sum_comp (contrEquiv1 (DotDims.plain M K N) K rfl rfl).symm]
  exact Finset.sum_congr rfl fun i _ => by rw [plain_lhs, plain_rhs]

/-! ## Blocks of node rows

Every stage of the head acts row by row: row `p` of a stage's result depends on row `p` of its row-blocked operand and on the
whole small operands only. So a block of 10000 consecutive rows goes through the kernel's operations to the same block of rows
of the host's operations. -/

/-- `B` holds rows `10000·t … 10000·t + 9999` of `A`. -/
def IsRows (t : Nat) {n : Nat} (B : FVec Ideal ⟨2, ![10000, n]⟩ .f32) (A : FVec Ideal ⟨2, ![100000, n]⟩ .f32) : Prop :=
  ∀ (r : Fin 10000) (p : Fin 100000) (q : Fin n), p.val = 10000 * t + r.val → B (ix2 r q) = A (ix2 p q)

namespace IsRows
variable {t n : Nat} {B B' : FVec Ideal ⟨2, ![10000, n]⟩ .f32} {A A' : FVec Ideal ⟨2, ![100000, n]⟩ .f32}

/-- Sums of row blocks. -/
theorem addf (h : IsRows t B A) (h' : IsRows t B' A') : IsRows t (addf B B') (addf A A') := fun r p q hp => by
  show B (ix2 r q) + B' (ix2 r q) = A (ix2 p q) + A' (ix2 p q)
  rw [h r p q hp, h' r p q hp]

/-- Products of row blocks. -/
theorem mulf (h : IsRows t B A) (h' : IsRows t B' A') : IsRows t (mulf B B') (mulf A A') := fun r p q hp => by
  show B (ix2 r q) * B' (ix2 r q) = A (ix2 p q) * A' (ix2 p q)
  rw [h r p q hp, h' r p q hp]

/-- Maxima of row blocks. -/
theorem maximumf (h : IsRows t B A) (h' : IsRows t B' A') : IsRows t (maximumf B B') (maximumf A A') := fun r p q hp => by
  show max (B (ix2 r q)) (B' (ix2 r q)) = max (A (ix2 p q)) (A' (ix2 p q))
  rw [h r p q hp, h' r p q hp]

/-- The kernel's product of a row block with a matrix, accumulated into zero, is the block of the host's product:
    both are Σ_i A(p, i) · W(i, q). -/
theorem matmul {K N : Nat} {B : FVec Ideal ⟨2, ![10000, K]⟩ .f32} {A : FVec Ideal ⟨2, ![100000, K]⟩ .f32} (h : IsRows t B A)
    (W : FVec Ideal ⟨2, ![K, N]⟩ .f32)
    (d' : DotDims ⟨2, ![10000, K]⟩ ⟨2, ![K, N]⟩ ⟨2, ![10000, N]⟩) (hd' : d' = DotDims.plain 10000 K N)
    (d : DotDims ⟨2, ![100000, K]⟩ ⟨2, ![K, N]⟩ ⟨2, ![100000, N]⟩) (hd : d = DotDims.plain 100000 K N) :
    IsRows t (Idealize.ShloMosaic.matmul d' none B W (constant ⟨2, ![10000, N]⟩ .f32 0x00000000#32)) (Host.dotGeneral d none A W) := by
  subst hd' hd
  intro r p q hp
  show FloatOps.matmul _ none B W (constant _ .f32 0x00000000#32) (ix2 r q) = FloatOps.dotGeneral _ none _ A W (ix2 p q)
  rw [Ideal.matmul_constant_zero_apply, Ideal.dotGeneral_apply, plain_sum, plain_sum]
  exact Finset.sum_congr rfl fun i _ => by rw [h r p i hp]

/-- The kernel's logistic of a row block is the block of the host's 1 / (1 + exp (−·)): one function on the extended reals. -/
theorem logistic (h : IsRows t B A) (hd : (⟨0, ![]⟩ : Shape).BroadcastsInDim ⟨2, ![100000, n]⟩ ![]) :
    IsRows t (logistic B)
      (Host.divf (broadcastInDim ⟨2, ![100000, n]⟩ ![] hd (constant (F := Ideal) ⟨0, ![]⟩ .f32 0x3F800000#32))
        (Idealize.ShloMosaic.addf (broadcastInDim ⟨2, ![100000, n]⟩ ![] hd (constant (F := Ideal) ⟨0, ![]⟩ .f32 0x3F800000#32))
          (Host.exp (Host.negf A)))) := fun r p q hp => by
  show Ideal.logistic (B (ix2 r q))
    = Ideal.div (Ideal.ofBits .f32 0x3F800000#32) (Ideal.ofBits .f32 0x3F800000#32 + Ideal.exp (-(A (ix2 p q))))
  rw [Ideal.ofBits_one_f32, h r p q hp]
  rfl

end IsRows

/-- A row laid along every row: the kernel's broadcast of the one-row block against the host's. -/
theorem isRows_row {t n : Nat} (v : FVec Ideal ⟨2, ![1, n]⟩ .f32) (h1 : (⟨2, ![1, n]⟩ : Shape).ShapeCasts ⟨2, ![1, n]⟩)
    (hb : (⟨2, ![1, n]⟩ : Shape).Broadcasts ⟨2, ![10000, n]⟩)
    (hd : (⟨2, ![1, n]⟩ : Shape).BroadcastsInDim ⟨2, ![100000, n]⟩ ![0, 1]) :
    IsRows t (broadcastTo ⟨2, ![10000, n]⟩ (shapeCast ⟨2, ![1, n]⟩ v h1) hb) (broadcastInDim ⟨2, ![100000, n]⟩ ![0, 1] hd v) := by
  intro r p q hp
  rw [shapeCast_self]
  refine (broadcastTo_apply v hb (ix2 r q) (ix2 (0 : Fin 1) q) ?_).trans (broadcastInDim_oneRow_apply hd v p q).symm
  intro a
  match a with
  | ⟨0, _⟩ => rfl
  | ⟨1, _⟩ =>
    show q.val = if n = 1 then 0 else q.val
    split
    · have := q.isLt; omega
    · rfl

/-- The zero splat against the host's broadcast zero. -/
theorem isRows_zero {t n : Nat} (hd : (⟨0, ![]⟩ : Shape).BroadcastsInDim ⟨2, ![100000, n]⟩ ![]) :
    IsRows t (broadcast ⟨2, ![10000, n]⟩ (Scalar.ofBits (F := Ideal) .f32 0x00000000#32))
      (broadcastInDim ⟨2, ![100000, n]⟩ ![] hd (constant (F := Ideal) ⟨0, ![]⟩ .f32 0x00000000#32)) := fun r p q hp => rfl

/-- A column spread over `n` channels: the kernel's broadcast of the column block against the host's. -/
theorem isRows_col {t n : Nat} {B : FVec Ideal ⟨2, ![10000, 1]⟩ .f32} {A : FVec Ideal ⟨2, ![100000, 1]⟩ .f32} (h : IsRows t B A)
    (hb : (⟨2, ![10000, 1]⟩ : Shape).Broadcasts ⟨2, ![10000, n]⟩)
    (hd : (⟨2, ![100000, 1]⟩ : Shape).BroadcastsInDim ⟨2, ![100000, n]⟩ ![0, 1]) :
    IsRows t (broadcastTo ⟨2, ![10000, n]⟩ B hb) (broadcastInDim ⟨2, ![100000, n]⟩ ![0, 1] hd A) := by
  intro r p q hp
  refine (broadcastTo_apply B hb (ix2 r q) (ix2 r (0 : Fin 1)) ?_).trans
    ((h r p 0 hp).trans (broadcastInDim_apply ![0, 1] hd A (ix2 p q) (ix2 p (0 : Fin 1)) ?_).symm)
  · intro a
    match a with
    | ⟨0, _⟩ => rfl
    | ⟨1, _⟩ => rfl
  · intro a
    match a with
    | ⟨0, _⟩ => rfl
    | ⟨1, _⟩ => rfl

/-! ## The head's two payloads, row block by row block -/

/-- The gate of a block of rows is the block of the gate: logistic (max (h·Wa1 + ba1) 0 · Wa2 + ba2), operation by operation. -/
theorem gate_rows (t : Nat) (x0 : Vec Ideal S10000x64 .f32) (h : Spec.TF Cert.ReferenceIdeal.S100000x64) (hx : IsRows t x0 h)
    (Wa1 : Vec Ideal S64x32 .f32) (ba1 : Vec Ideal S1x32 .f32) (Wa2 : Vec Ideal S32x1 .f32) (ba2 : Vec Ideal S1x1 .f32) :
    IsRows t (k7_pay2 (F := Ideal) x0 Wa1 ba1 Wa2 ba2) (Spec.fAttn h Wa1 ba1 Wa2 ba2) := by
  unfold k7_pay2 k7_pay1 Spec.fAttn Spec.fRelu32 Spec.fRow32 Spec.fOne
  rw [shapeCast_self]
  exact (((((hx.matmul Wa1 _ rfl _ rfl).addf (isRows_row ba1 _ _ _)).maximumf (isRows_zero _)).matmul Wa2 _ rfl _ rfl).addf
    (isRows_row ba2 _ _ _)).logistic _

/-- The logits of a block of rows are the block of the logits: max ((h · attn)·Wc1 + bc1) 0 · Wc2 + bc2 on the gated rows. -/
theorem logits_rows (t : Nat) (x0 : Vec Ideal S10000x64 .f32) (h : Spec.TF Cert.ReferenceIdeal.S100000x64) (hx : IsRows t x0 h)
    (Wa1 : Vec Ideal S64x32 .f32) (ba1 : Vec Ideal S1x32 .f32) (Wa2 : Vec Ideal S32x1 .f32) (ba2 : Vec Ideal S1x1 .f32)
    (Wc1 : Vec Ideal S64x32 .f32) (bc1 : Vec Ideal S1x32 .f32) (Wc2 : Vec Ideal S32x4 .f32) (bc2 : Vec Ideal S1x4 .f32) :
    IsRows t (k7_pay3 (F := Ideal) x0 Wa1 ba1 Wa2 ba2 Wc1 bc1 Wc2 bc2)
      (Spec.fLogits h (Spec.fAttn h Wa1 ba1 Wa2 ba2) Wc1 bc1 Wc2 bc2) := by
  have hg := gate_rows t x0 h hx Wa1 ba1 Wa2 ba2
  unfold k7_pay3 k7_pay1 Spec.fLogits Spec.fRelu32 Spec.fRow32 Spec.fCol64
  rw [shapeCast_self]
  exact ((((hx.mulf (isRows_col hg _ _)).matmul Wc1 _ rfl _ rfl).addf (isRows_row bc1 _ _ _)).maximumf (isRows_zero _)).matmul Wc2 _ rfl _ rfl
    |>.addf (isRows_row bc2 _ _ _)

/-! ## From the blocks to the arrays

Each of the ten points holds 10000 whole node rows: point `t` reads rows `10000·t … 10000·t + 9999` of `h` and the whole of every
small operand, and writes the same rows of the two results. -/

/-- A row block read at a block index against the array at the array's index. -/
theorem IsRows.apply {t n : Nat} {B : FVec Ideal ⟨2, ![10000, n]⟩ .f32} {A : FVec Ideal ⟨2, ![100000, n]⟩ .f32} (h : IsRows t B A)
    (y : (⟨2, ![10000, n]⟩ : Shape).Idx) (i : (⟨2, ![100000, n]⟩ : Shape).Idx)
    (h0 : (i 0).val = 10000 * t + (y 0).val) (h1 : (i 1).val = (y 1).val) : B y = A i := by
  obtain ⟨r, q, rfl⟩ : ∃ (r : Fin 10000) (q : Fin n), y = ix2 r q := ⟨y 0, y 1, eq_ix2 y⟩
  obtain ⟨p, q', rfl⟩ : ∃ (p : Fin 100000) (q' : Fin n), i = ix2 p q' := ⟨i 0, i 1, eq_ix2 i⟩
  obtain rfl : q' = q := Fin.ext h1
  exact h r p q' h0

theorem hz : (![0, 0] : Fin 2 → Nat) = fun _ => 0 := funext fun a => by fin_cases a <;> rfl

/-- The node-row windows' block index at point `t` is (t, 0). -/
theorem idx7_0 : ∀ t : Fin cfg7.N, win7_0.index t (0 : Fin 2) = t.val ∧ win7_0.index t (1 : Fin 2) = 0 :=
  (by decide +kernel : ∀ t : Fin grid7.N, _)
theorem idx7_9 : ∀ t : Fin cfg7.N, win7_9.index t (0 : Fin 2) = t.val ∧ win7_9.index t (1 : Fin 2) = 0 :=
  (by decide +kernel : ∀ t : Fin grid7.N, _)
theorem idx7_10 : ∀ t : Fin cfg7.N, win7_10.index t (0 : Fin 2) = t.val ∧ win7_10.index t (1 : Fin 2) = 0 :=
  (by decide +kernel : ∀ t : Fin grid7.N, _)

/-- Window 0's block at point `t` holds rows `10000·t …` of `h`. -/
theorem hblk_rows (V : Entry) (c : Dev nD) (t : Fin cfg7.N) :
    IsRows t.val (iblk7 (F := Ideal) V c 0 t : Vec Ideal S10000x64 .f32) (V c main_v88 : Vec Ideal S100000x64 .f32) := by
  intro r p q hp
  obtain ⟨e0, e1⟩ := idx7_0 t
  unfold iblk7
  rw [View.read_apply]
  show V c main_v88 _ = V c main_v88 _
  congr 1
  funext a
  apply Fin.ext
  match a with
  | ⟨0, _⟩ => show win7_0.index t (0 : Fin 2) * 10000 + 1 * r.val = p.val; rw [e0, hp]; omega
  | ⟨1, _⟩ => show win7_0.index t (1 : Fin 2) * 64 + 1 * q.val = q.val; rw [e1]; omega

theorem idx7_1 : ∀ t : Fin cfg7.N, win7_1.index t (0 : Fin 2) = 0 ∧ win7_1.index t (1 : Fin 2) = 0 :=
  (by decide +kernel : ∀ t : Fin grid7.N, _)

/-- Window 1's block is its whole array at every point. -/
theorem blk1_eq (V : Entry) (c : Dev nD) (t : Fin cfg7.N) :
    (iblk7 (F := Ideal) V c 1 t : Vec Ideal S64x32 .f32) = (V c main_arg9 : Vec Ideal S64x32 .f32) := by
  obtain ⟨e0, e1⟩ := idx7_1 t
  funext y
  unfold iblk7
  rw [View.read_apply]
  show V c main_arg9 _ = V c main_arg9 _
  congr 1
  funext a
  apply Fin.ext
  match a with
  | ⟨0, _⟩ => show win7_1.index t (0 : Fin 2) * 64 + 1 * (y 0).val = (y 0).val; rw [e0]; omega
  | ⟨1, _⟩ => show win7_1.index t (1 : Fin 2) * 32 + 1 * (y 1).val = (y 1).val; rw [e1]; omega

theorem idx7_2 : ∀ t : Fin cfg7.N, win7_2.index t (0 : Fin 2) = 0 ∧ win7_2.index t (1 : Fin 2) = 0 :=
  (by decide +kernel : ∀ t : Fin grid7.N, _)

/-- Window 2's block is its whole array at every point. -/
theorem blk2_eq (V : Entry) (c : Dev nD) (t : Fin cfg7.N) :
    (iblk7 (F := Ideal) V c 2 t : Vec Ideal S1x32 .f32) = (V c main_v89 : Vec Ideal S1x32 .f32) := by
  obtain ⟨e0, e1⟩ := idx7_2 t
  funext y
  unfold iblk7
  rw [View.read_apply]
  show V c main_v89 _ = V c main_v89 _
  congr 1
  funext a
  apply Fin.ext
  match a with
  | ⟨0, _⟩ => show win7_2.index t (0 : Fin 2) * 1 + 1 * (y 0).val = (y 0).val; rw [e0]; omega
  | ⟨1, _⟩ => show win7_2.index t (1 : Fin 2) * 32 + 1 * (y 1).val = (y 1).val; rw [e1]; omega

theorem idx7_3 : ∀ t : Fin cfg7.N, win7_3.index t (0 : Fin 2) = 0 ∧ win7_3.index t (1 : Fin 2) = 0 :=
  (by decide +kernel : ∀ t : Fin grid7.N, _)

/-- Window 3's block is its whole array at every point. -/
theorem blk3_eq (V : Entry) (c : Dev nD) (t : Fin cfg7.N) :
    (iblk7 (F := Ideal) V c 3 t : Vec Ideal S32x1 .f32) = (V c main_arg11 : Vec Ideal S32x1 .f32) := by
  obtain ⟨e0, e1⟩ := idx7_3 t
  funext y
  unfold iblk7
  rw [View.read_apply]
  show V c main_arg11 _ = V c main_arg11 _
  congr 1
  funext a
  apply Fin.ext
  match a with
  | ⟨0, _⟩ => show win7_3.index t (0 : Fin 2) * 32 + 1 * (y 0).val = (y 0).val; rw [e0]; omega
  | ⟨1, _⟩ => show win7_3.index t (1 : Fin 2) * 1 + 1 * (y 1).val = (y 1).val; rw [e1]; omega

theorem idx7_4 : ∀ t : Fin cfg7.N, win7_4.index t (0 : Fin 2) = 0 ∧ win7_4.index t (1 : Fin 2) = 0 :=
  (by decide +kernel : ∀ t : Fin grid7.N, _)

/-- Window 4's block is its whole array at every point. -/
theorem blk4_eq (V : Entry) (c : Dev nD) (t : Fin cfg7.N) :
    (iblk7 (F := Ideal) V c 4 t : Vec Ideal S1x1 .f32) = (V c main_v90 : Vec Ideal S1x1 .f32) := by
  obtain ⟨e0, e1⟩ := idx7_4 t
  funext y
  unfold iblk7
  rw [View.read_apply]
  show V c main_v90 _ = V c main_v90 _
  congr 1
  funext a
  apply Fin.ext
  match a with
  | ⟨0, _⟩ => show win7_4.index t (0 : Fin 2) * 1 + 1 * (y 0).val = (y 0).val; rw [e0]; omega
  | ⟨1, _⟩ => show win7_4.index t (1 : Fin 2) * 1 + 1 * (y 1).val = (y 1).val; rw [e1]; omega

theorem idx7_5 : ∀ t : Fin cfg7.N, win7_5.index t (0 : Fin 2) = 0 ∧ win7_5.index t (1 : Fin 2) = 0 :=
  (by decide +kernel : ∀ t : Fin grid7.N, _)

/-- Window 5's block is its whole array at every point. -/
theorem blk5_eq (V : Entry) (c : Dev nD) (t : Fin cfg7.N) :
    (iblk7 (F := Ideal) V c 5 t : Vec Ideal S64x32 .f32) = (V c main_arg13 : Vec Ideal S64x32 .f32) := by
  obtain ⟨e0, e1⟩ := idx7_5 t
  funext y
  unfold iblk7
  rw [View.read_apply]
  show V c main_arg13 _ = V c main_arg13 _
  congr 1
  funext a
  apply Fin.ext
  match a with
  | ⟨0, _⟩ => show win7_5.index t (0 : Fin 2) * 64 + 1 * (y 0).val = (y 0).val; rw [e0]; omega
  | ⟨1, _⟩ => show win7_5.index t (1 : Fin 2) * 32 + 1 * (y 1).val = (y 1).val; rw [e1]; omega

theorem idx7_6 : ∀ t : Fin cfg7.N, win7_6.index t (0 : Fin 2) = 0 ∧ win7_6.index t (1 : Fin 2) = 0 :=
  (by decide +kernel : ∀ t : Fin grid7.N, _)

/-- Window 6's block is its whole array at every point. -/
theorem blk6_eq (V : Entry) (c : Dev nD) (t : Fin cfg7.N) :
    (iblk7 (F := Ideal) V c 6 t : Vec Ideal S1x32 .f32) = (V c main_v91 : Vec Ideal S1x32 .f32) := by
  obtain ⟨e0, e1⟩ := idx7_6 t
  funext y
  unfold iblk7
  rw [View.read_apply]
  show V c main_v91 _ = V c main_v91 _
  congr 1
  funext a
  apply Fin.ext
  match a with
  | ⟨0, _⟩ => show win7_6.index t (0 : Fin 2) * 1 + 1 * (y 0).val = (y 0).val; rw [e0]; omega
  | ⟨1, _⟩ => show win7_6.index t (1 : Fin 2) * 32 + 1 * (y 1).val = (y 1).val; rw [e1]; omega

theorem idx7_7 : ∀ t : Fin cfg7.N, win7_7.index t (0 : Fin 2) = 0 ∧ win7_7.index t (1 : Fin 2) = 0 :=
  (by decide +kernel : ∀ t : Fin grid7.N, _)

/-- Window 7's block is its whole array at every point. -/
theorem blk7_eq (V : Entry) (c : Dev nD) (t : Fin cfg7.N) :
    (iblk7 (F := Ideal) V c 7 t : Vec Ideal S32x4 .f32) = (V c main_arg15 : Vec Ideal S32x4 .f32) := by
  obtain ⟨e0, e1⟩ := idx7_7 t
  funext y
  unfold iblk7
  rw [View.read_apply]
  show V c main_arg15 _ = V c main_arg15 _
  congr 1
  funext a
  apply Fin.ext
  match a with
  | ⟨0, _⟩ => show win7_7.index t (0 : Fin 2) * 32 + 1 * (y 0).val = (y 0).val; rw [e0]; omega
  | ⟨1, _⟩ => show win7_7.index t (1 : Fin 2) * 4 + 1 * (y 1).val = (y 1).val; rw [e1]; omega

theorem idx7_8 : ∀ t : Fin cfg7.N, win7_8.index t (0 : Fin 2) = 0 ∧ win7_8.index t (1 : Fin 2) = 0 :=
  (by decide +kernel : ∀ t : Fin grid7.N, _)

/-- Window 8's block is its whole array at every point. -/
theorem blk8_eq (V : Entry) (c : Dev nD) (t : Fin cfg7.N) :
    (iblk7 (F := Ideal) V c 8 t : Vec Ideal S1x4 .f32) = (V c main_v92 : Vec Ideal S1x4 .f32) := by
  obtain ⟨e0, e1⟩ := idx7_8 t
  funext y
  unfold iblk7
  rw [View.read_apply]
  show V c main_v92 _ = V c main_v92 _
  congr 1
  funext a
  apply Fin.ext
  match a with
  | ⟨0, _⟩ => show win7_8.index t (0 : Fin 2) * 1 + 1 * (y 0).val = (y 0).val; rw [e0]; omega
  | ⟨1, _⟩ => show win7_8.index t (1 : Fin 2) * 4 + 1 * (y 1).val = (y 1).val; rw [e1]; omega

/-! ## What each point writes back, and the two arrays -/

/-- Point `t` writes back block `t` of the gate. -/
theorem flushed_attn (V : Entry) (c : Dev nD) (t : Fin cfg7.N) :
    (dat7 (F := Ideal) V c).flushed 10 t = ((cfg7.win 10).blk t).view.read (Elt Ideal)
      (Spec.fAttn (V c main_v88) (V c main_arg9) (V c main_v89) (V c main_arg11) (V c main_v90)) := by
  show (cfg7.win 10).cut (grid7.coords t) ((dat7 (F := Ideal) V c).after 10 t) = _
  rw [after7_10]
  unfold out7_10
  rw [View.canon_unit_zero hz]
  simp only [View.ld_unit_zero (S := S10000x64) hz, View.ld_unit_zero (S := S64x32) hz, View.ld_unit_zero (S := S1x32) hz,
    View.ld_unit_zero (S := S32x1) hz, View.ld_unit_zero (S := S1x1) hz]
  rw [blk1_eq, blk2_eq, blk3_eq, blk4_eq]
  obtain ⟨e0, e1⟩ := idx7_10 t
  funext y
  rw [View.read_apply]
  refine (gate_rows t.val _ _ (hblk_rows V c t) _ _ _ _).apply y _ ?_ ?_
  · show win7_10.index t (0 : Fin 2) * 10000 + 1 * (y 0).val = 10000 * t.val + (y 0).val
    rw [e0]; omega
  · show win7_10.index t (1 : Fin 2) * 1 + 1 * (y 1).val = (y 1).val
    rw [e1]; omega

/-- Every row of the gate is in the block of the point `row / 10000`. -/
theorem cover_attn (i : S100000x1.Idx) :
    ∃ t : Fin cfg7.N, (cfg7.win 10).flush t = true ∧ i ∈ ((cfg7.win 10).blk t).view.set := by
  have h0 : (i 0).val < 100000 := (i 0).isLt
  have h1 : (i 1).val < 1 := (i 1).isLt
  have hN : cfg7.N = 10 := N_7
  obtain ⟨t, ht⟩ : ∃ t : Fin cfg7.N, t.val = (i 0).val / 10000 := ⟨⟨(i 0).val / 10000, by rw [hN]; omega⟩, rfl⟩
  obtain ⟨e0, e1⟩ := idx7_10 t
  refine ⟨t, flush7_10 t, ?_⟩
  show i ∈ ((View.whole main_v93_1).slice (win7_10.rect t)).set
  rw [View.set_slice_whole, Rect.mem_set_unit]
  intro a
  match a with
  | ⟨0, _⟩ =>
    show win7_10.index t (0 : Fin 2) * 10000 ≤ (i 0).val ∧ (i 0).val < win7_10.index t (0 : Fin 2) * 10000 + 10000
    rw [e0]; omega
  | ⟨1, _⟩ =>
    show win7_10.index t (1 : Fin 2) * 1 ≤ (i 1).val ∧ (i 1).val < win7_10.index t (1 : Fin 2) * 1 + 1
    rw [e1]; omega

/-- Region 7's second output: the gate. -/
theorem region7_attn (V : Entry) (c : Dev nD) :
    (dat7 (F := Ideal) V c).arrAt 10 cfg7.N = Spec.fAttn (V c main_v88) (V c main_arg9) (V c main_v89) (V c main_arg11) (V c main_v90) :=
  (dat7 (F := Ideal) V c).arrAt_eq_of_cover 10 _ (fun t _ => flushed_attn V c t) cover_attn

/-- Point `t` writes back block `t` of the logits. -/
theorem flushed_logits (V : Entry) (c : Dev nD) (t : Fin cfg7.N) :
    (dat7 (F := Ideal) V c).flushed 9 t = ((cfg7.win 9).blk t).view.read (Elt Ideal)
      (Spec.fLogits (V c main_v88) (Spec.fAttn (V c main_v88) (V c main_arg9) (V c main_v89) (V c main_arg11) (V c main_v90))
        (V c main_arg13) (V c main_v91) (V c main_arg15) (V c main_v92)) := by
  show (cfg7.win 9).cut (grid7.coords t) ((dat7 (F := Ideal) V c).after 9 t) = _
  rw [after7_9]
  unfold out7_9
  rw [View.canon_unit_zero hz]
  simp only [View.ld_unit_zero (S := S10000x64) hz, View.ld_unit_zero (S := S64x32) hz, View.ld_unit_zero (S := S1x32) hz,
    View.ld_unit_zero (S := S32x1) hz, View.ld_unit_zero (S := S1x1) hz, View.ld_unit_zero (S := S32x4) hz,
    View.ld_unit_zero (S := S1x4) hz]
  rw [blk1_eq, blk2_eq, blk3_eq, blk4_eq, blk5_eq, blk6_eq, blk7_eq, blk8_eq]
  obtain ⟨e0, e1⟩ := idx7_9 t
  funext y
  rw [View.read_apply]
  refine (logits_rows t.val _ _ (hblk_rows V c t) _ _ _ _ _ _ _ _).apply y _ ?_ ?_
  · show win7_9.index t (0 : Fin 2) * 10000 + 1 * (y 0).val = 10000 * t.val + (y 0).val
    rw [e0]; omega
  · show win7_9.index t (1 : Fin 2) * 4 + 1 * (y 1).val = (y 1).val
    rw [e1]; omega

/-- Every row of the logits is in the block of the point `row / 10000`. -/
theorem cover_logits (i : S100000x4.Idx) :
    ∃ t : Fin cfg7.N, (cfg7.win 9).flush t = true ∧ i ∈ ((cfg7.win 9).blk t).view.set := by
  have h0 : (i 0).val < 100000 := (i 0).isLt
  have h1 : (i 1).val < 4 := (i 1).isLt
  have hN : cfg7.N = 10 := N_7
  obtain ⟨t, ht⟩ : ∃ t : Fin cfg7.N, t.val = (i 0).val / 10000 := ⟨⟨(i 0).val / 10000, by rw [hN]; omega⟩, rfl⟩
  obtain ⟨e0, e1⟩ := idx7_9 t
  refine ⟨t, flush7_9 t, ?_⟩
  show i ∈ ((View.whole main_v93_0).slice (win7_9.rect t)).set
  rw [View.set_slice_whole, Rect.mem_set_unit]
  intro a
  match a with
  | ⟨0, _⟩ =>
    show win7_9.index t (0 : Fin 2) * 10000 ≤ (i 0).val ∧ (i 0).val < win7_9.index t (0 : Fin 2) * 10000 + 10000
    rw [e0]; omega
  | ⟨1, _⟩ =>
    show win7_9.index t (1 : Fin 2) * 4 ≤ (i 1).val ∧ (i 1).val < win7_9.index t (1 : Fin 2) * 4 + 4
    rw [e1]; omega

/-- Region 7's first output: the logits. -/
theorem region7_logits (V : Entry) (c : Dev nD) :
    (dat7 (F := Ideal) V c).arrAt 9 cfg7.N
      = Spec.fLogits (V c main_v88) (Spec.fAttn (V c main_v88) (V c main_arg9) (V c main_v89) (V c main_arg11) (V c main_v90))
          (V c main_arg13) (V c main_v91) (V c main_arg15) (V c main_v92) :=
  (dat7 (F := Ideal) V c).arrAt_eq_of_cover 9 _ (fun t _ => flushed_logits V c t) cover_logits

end Cert.KHead

end
-- ==== Proof.KLayer2.lean ====
/-
  The third layer and the head in the kernel program: region 5 is the linear map, the host gathers, scales and sums into
  the destinations, region 6 adds the self term and the bias, normalises, takes the positive part and adds the layer's input;
  the host reshapes the head's biases into rows and region 7 computes the gate and the logits.
-/
import proofs.«403540_j78005196030173_1_alg».proof.Proof.KLive
import proofs.«403540_j78005196030173_1_alg».proof.Proof.KAffine
import proofs.«403540_j78005196030173_1_alg».proof.Proof.KCombine
import proofs.«403540_j78005196030173_1_alg».proof.Proof.KHead
import proofs.«403540_j78005196030173_1_alg».proof.Proof.Take
import proofs.«403540_j78005196030173_1_alg».proof.Proof.KTakeOps
import proofs.«403540_j78005196030173_1_alg».proof.Proof.Layout
import Idealize.ShloMosaic.Lib.Pipeline.Value
import Idealize.ShloMosaic.Lib.ValueIdx
import Idealize.ShloMosaic.Lib.ValueLayout

set_option maxRecDepth 16384

noncomputable section

namespace Cert.KLayer2

open Idealize.ShloMosaic Idealize.ShloMosaic.TcCoe Idealize.SL.Sem Idealize.ShloMosaic.StableHlo Cert.KernelIdeal Cert.KernelIdeal.Gen Cert.KLive

variable (m : (ℓ : Loc nD τ sig) → Buf (Elt Ideal) ℓ) (ρ : Dev nD → PrngReg)

/-! ## The buffers a host stretch leaves alone -/

/-- The buffers the guarded gather's operations write. -/
def wr6 : List (Ref sig .tc) :=
  [main_call3_c, main_call3_v0, main_call3_v1, main_call3_c_0, main_call3_v2, main_call3_v3, main_call3_v4, main_call3_v5,
   main_call3_c_1, main_call3_c_2, main_call3_v6, main_call3_v7, main_call3_v8, main_call3_v9, main_call3_v10, main_call3_v11,
   main_call3_c_3, main_call3_v12, main_call3_v13, main_call3_v14, main_call3_cst, main_call3_v15, main_v77]
/-- The buffers the aggregation's operations write. -/
def wr61 : List (Ref sig .tc) :=
  [main_v78, main_v79, main_v80, main_cst_12, main_v81, main_v82, main_v83, main_v84, main_v85, main_v86, main_v87]
/-- The buffers the head's reshapes write. -/
def wr7 : List (Ref sig .tc) := [main_v89, main_v90, main_v91, main_v92]

/-- A buffer the guarded gather does not write keeps its contents. -/
theorem keep6 (V : Val) (b : Ref sig .tc) (hb : b ∉ wr6) : StableHlo.after hostOps6 V (r b) = V (r b) := by
  simp only [wr6, List.mem_cons, List.not_mem_nil, or_false, not_or] at hb
  refine StableHlo.after_of_forall_not_mem (b := Proc.devRef .tc b) _ _ (List.forall_iff_forall_mem.mp ?_)
  simp only [hostOps6, List.Forall, StableHlo.nullary_writes, StableHlo.unary_writes, StableHlo.binary_writes,
    StableHlo.ternary_writes, StableHlo.reshape_writes, Finset.mem_singleton]
  repeat' apply And.intro
  all_goals exact StableHlo.devRef_ne_of_ne (by simp only [ne_eq, hb, not_false_eq_true])

/-- A buffer the aggregation does not write keeps its contents. -/
theorem keep61 (V : Val) (b : Ref sig .tc) (hb : b ∉ wr61) : StableHlo.after hostOps6_1 V (r b) = V (r b) := by
  simp only [wr61, List.mem_cons, List.not_mem_nil, or_false, not_or] at hb
  refine StableHlo.after_of_forall_not_mem (b := Proc.devRef .tc b) _ _ (List.forall_iff_forall_mem.mp ?_)
  simp only [hostOps6_1, List.Forall, StableHlo.nullary_writes, StableHlo.unary_writes, StableHlo.binary_writes,
    StableHlo.ternary_writes, StableHlo.reshape_writes, Finset.mem_singleton]
  repeat' apply And.intro
  all_goals exact StableHlo.devRef_ne_of_ne (by simp only [ne_eq, hb, not_false_eq_true])

/-- A buffer the head's reshapes do not write keeps its contents. -/
theorem keep7 (V : Val) (b : Ref sig .tc) (hb : b ∉ wr7) : StableHlo.after hostOps7 V (r b) = V (r b) := by
  simp only [wr7, List.mem_cons, List.not_mem_nil, or_false, not_or] at hb
  refine StableHlo.after_of_forall_not_mem (b := Proc.devRef .tc b) _ _ (List.forall_iff_forall_mem.mp ?_)
  simp only [hostOps7, List.Forall, StableHlo.nullary_writes, StableHlo.unary_writes, StableHlo.binary_writes,
    StableHlo.ternary_writes, StableHlo.reshape_writes, Finset.mem_singleton]
  repeat' apply And.intro
  all_goals exact StableHlo.devRef_ne_of_ne (by simp only [ne_eq, hb, not_false_eq_true])

section Steps

variable (c : Dev nD)

/-! ## A buffer carried from the layer's entry, boundary by boundary -/

theorem at16 (b : Ref sig .tc) (h5 : ∀ w, Pipeline.arrRef spec5 w ≠ b) :
    W16 (F := Ideal) m ρ c (r b) = W15 (F := Ideal) m ρ c (r b) := W16_of_ne m ρ c b h5
theorem at17 (b : Ref sig .tc) (h5 : ∀ w, Pipeline.arrRef spec5 w ≠ b) (h6 : b ∉ wr6) :
    W17 (F := Ideal) m ρ c (r b) = W15 (F := Ideal) m ρ c (r b) := (keep6 _ b h6).trans (at16 m ρ c b h5)
theorem at18 (b : Ref sig .tc) (h5 : ∀ w, Pipeline.arrRef spec5 w ≠ b) (h6 : b ∉ wr6) (h61 : b ∉ wr61) :
    W18 (F := Ideal) m ρ c (r b) = W15 (F := Ideal) m ρ c (r b) := (keep61 _ b h61).trans (at17 m ρ c b h5 h6)
theorem at19 (b : Ref sig .tc) (h5 : ∀ w, Pipeline.arrRef spec5 w ≠ b) (h6 : b ∉ wr6) (h61 : b ∉ wr61)
    (h6r : ∀ w, Pipeline.arrRef spec6 w ≠ b) :
    W19 (F := Ideal) m ρ c (r b) = W15 (F := Ideal) m ρ c (r b) := (W19_of_ne m ρ c b h6r).trans (at18 m ρ c b h5 h6 h61)
theorem at20 (b : Ref sig .tc) (h5 : ∀ w, Pipeline.arrRef spec5 w ≠ b) (h6 : b ∉ wr6) (h61 : b ∉ wr61)
    (h6r : ∀ w, Pipeline.arrRef spec6 w ≠ b) (h7 : b ∉ wr7) :
    W20 (F := Ideal) m ρ c (r b) = W15 (F := Ideal) m ρ c (r b) := (keep7 _ b h7).trans (at19 m ρ c b h5 h6 h61 h6r)

/-! ## What the host stretches compute -/

/-- The aggregation: the gathered rows scaled by the edges' normalisation, summed into the destinations. -/
theorem agg61 (V : Val) :
    StableHlo.after hostOps6_1 V (r main_v83) = Spec.fAggOf (V (r main_v77)) (V (r main_v35)) (V (r main_v3)) := by
  after_results
  rfl

/-- The third layer's bias as a row. -/
theorem bias61 (V : Val) :
    StableHlo.after hostOps6_1 V (r main_v86) = Spec.fAsRow64 (Spec.fBg2 (V (r main_arg8))) := by
  refine Eq.trans ?_ (Cert.Layout.row64 _ Gen.shapeCasts_S64_S1x64)
  after_results
  rfl

/-- The self weights as a column. -/
theorem col61 (V : Val) : StableHlo.after hostOps6_1 V (r main_v87) = Spec.fAsCol (V (r main_v36)) := by
  refine Eq.trans ?_ (Cert.Layout.col _ Gen.shapeCasts_S100000_S100000x1)
  after_results
  rfl

/-- The head's four biases as rows. -/
theorem row89 (V : Val) : StableHlo.after hostOps7 V (r main_v89) = Spec.fAsRow32 (V (r main_arg10)) := by
  refine Eq.trans ?_ (Cert.Layout.row32 _ Gen.shapeCasts_S32_S1x32)
  after_results
  rfl
theorem row90 (V : Val) : StableHlo.after hostOps7 V (r main_v90) = Spec.fAsRow1 (V (r main_arg12)) := by
  refine Eq.trans ?_ (Cert.Layout.row1 _ Gen.shapeCasts_S1_S1x1)
  after_results
  rfl
theorem row91 (V : Val) : StableHlo.after hostOps7 V (r main_v91) = Spec.fAsRow32 (V (r main_arg14)) := by
  refine Eq.trans ?_ (Cert.Layout.row32 _ Gen.shapeCasts_S32_S1x32)
  after_results
  rfl
theorem row92 (V : Val) : StableHlo.after hostOps7 V (r main_v92) = Spec.fAsRow4 (V (r main_arg16)) := by
  refine Eq.trans ?_ (Cert.Layout.row4 _ Gen.shapeCasts_S4_S1x4)
  after_results
  rfl

/-! ## What the regions leave -/

/-- Region 5 leaves the linear map of its entry's features. -/
theorem v76 (hb : ZeroRow (W15 (F := Ideal) m ρ c (r main_v75))) :
    W16 (F := Ideal) m ρ c (r main_v76)
      = Spec.fHw (W15 (F := Ideal) m ρ c (r main_v71)) (W15 (F := Ideal) m ρ c (r main_v73)) :=
  (W16_arr m ρ c 3).trans (Cert.KAffine.region5_value (V15 m ρ) c hb)

/-- Region 5 reads the layer's input through an input window: the array is left as entered. -/
theorem in16 : W16 (F := Ideal) m ρ c (r main_v71) = W15 (F := Ideal) m ρ c (r main_v71) :=
  (W16_arr m ρ c 0).trans (((dat5 (V15 m ρ) c).arrAt_in 0 rfl _).trans (A_eq5 (V15 m ρ) c 0))

/-- Region 6 leaves the normalised layer of its entry's operands plus the layer's input. -/
theorem v88 :
    W19 (F := Ideal) m ρ c (r main_v88)
      = addf (Spec.fLn (Spec.fOut (W18 (F := Ideal) m ρ c (r main_v83)) (W18 (F := Ideal) m ρ c (r main_v76))
          (W18 (F := Ideal) m ρ c (r main_v87)) (W18 (F := Ideal) m ρ c (r main_v86))))
        (W18 (F := Ideal) m ρ c (r main_v71) : Spec.TF S100000x64) :=
  (W19_arr m ρ c 5).trans (Cert.KCombine.region6_value (V18 m ρ) c)

/-- Region 7 leaves the gate. -/
theorem v93_1 :
    W21 (F := Ideal) m ρ c (r main_v93_1)
      = Spec.fAttn (W20 (F := Ideal) m ρ c (r main_v88)) (W20 (F := Ideal) m ρ c (r main_arg9)) (W20 (F := Ideal) m ρ c (r main_v89))
          (W20 (F := Ideal) m ρ c (r main_arg11)) (W20 (F := Ideal) m ρ c (r main_v90)) :=
  (W21_arr m ρ c 10).trans (Cert.KHead.region7_attn (V20 m ρ) c)

/-- Region 7 leaves the logits. -/
theorem v93_0 :
    W21 (F := Ideal) m ρ c (r main_v93_0)
      = Spec.fLogits (W20 (F := Ideal) m ρ c (r main_v88))
          (Spec.fAttn (W20 (F := Ideal) m ρ c (r main_v88)) (W20 (F := Ideal) m ρ c (r main_arg9)) (W20 (F := Ideal) m ρ c (r main_v89))
            (W20 (F := Ideal) m ρ c (r main_arg11)) (W20 (F := Ideal) m ρ c (r main_v90)))
          (W20 (F := Ideal) m ρ c (r main_arg13)) (W20 (F := Ideal) m ρ c (r main_v91))
          (W20 (F := Ideal) m ρ c (r main_arg15)) (W20 (F := Ideal) m ρ c (r main_v92)) :=
  (W21_arr m ρ c 9).trans (Cert.KHead.region7_logits (V20 m ρ) c)

end Steps

/-- From the third layer's entry to the program's two results. -/
theorem final (c : Dev nD) (I : Spec.Inputs) (h : E5 (W15 (F := Ideal) m ρ c) I) (hr : InRange (Spec.vSrc I)) :
    W21 (F := Ideal) m ρ c (r main_v93_0) = Spec.vLogits I ∧ W21 (F := Ideal) m ρ c (r main_v93_1) = Spec.vAttn I := by
  obtain ⟨⟨-, a8, a9, a10, a11, a12, a13, a14, a15, a16⟩, ⟨e1, e3, e35, e36⟩, h71, h73, h75⟩ := h
  -- the linear map hw = h·W
  have hw : W16 (F := Ideal) m ρ c (r main_v76) = Spec.fHw (Spec.vH2 I) (Spec.fWg2 I.Wg) := by
    rw [v76 m ρ c h75, h71, h73]
  -- its rows at the edges' sources: the guarded gather is the plain one, every source being a node
  have rows : W17 (F := Ideal) m ρ c (r main_v77)
      = Spec.fRows (Spec.fHw (Spec.vH2 I) (Spec.fWg2 I.Wg)) (Spec.vSrc I) := by
    rw [show W17 (F := Ideal) m ρ c (r main_v77) = _ from Cert.KTakeOps.take6 (W16 m ρ c), hw,
      at16 m ρ c main_v1 (by decide), e1]
    exact Cert.KTake.kTake_eq _ _ hr
  -- region 6's operands: the aggregation, hw, the self weights as a column, the bias as a row, the layer's input
  have agg : W18 (F := Ideal) m ρ c (r main_v83)
      = Spec.fAggOf (Spec.fRows (Spec.fHw (Spec.vH2 I) (Spec.fWg2 I.Wg)) (Spec.vSrc I)) (Spec.vNrm I) (Spec.vDst I) := by
    rw [show W18 (F := Ideal) m ρ c (r main_v83) = _ from agg61 (W17 m ρ c), rows,
      at17 m ρ c main_v35 (by decide) (by decide), at17 m ρ c main_v3 (by decide) (by decide), e35, e3]
  have hw18 : W18 (F := Ideal) m ρ c (r main_v76) = Spec.fHw (Spec.vH2 I) (Spec.fWg2 I.Wg) := by
    rw [show W18 (F := Ideal) m ρ c (r main_v76) = _ from keep61 (W17 m ρ c) main_v76 (by decide),
      show W17 (F := Ideal) m ρ c (r main_v76) = _ from keep6 (W16 m ρ c) main_v76 (by decide), hw]
  have sn : W18 (F := Ideal) m ρ c (r main_v87) = Spec.fAsCol (Spec.vSn I) := by
    rw [show W18 (F := Ideal) m ρ c (r main_v87) = _ from col61 (W17 m ρ c),
      at17 m ρ c main_v36 (by decide) (by decide), e36]
  have bg : W18 (F := Ideal) m ρ c (r main_v86) = Spec.fAsRow64 (Spec.fBg2 I.bg) := by
    rw [show W18 (F := Ideal) m ρ c (r main_v86) = _ from bias61 (W17 m ρ c),
      at17 m ρ c main_arg8 (by decide) (by decide), a8]
  have h2 : W18 (F := Ideal) m ρ c (r main_v71) = Spec.vH2 I := by
    rw [show W18 (F := Ideal) m ρ c (r main_v71) = _ from keep61 (W17 m ρ c) main_v71 (by decide),
      show W17 (F := Ideal) m ρ c (r main_v71) = _ from keep6 (W16 m ρ c) main_v71 (by decide), in16 m ρ c, h71]
  -- the third layer's output
  have h3 : W19 (F := Ideal) m ρ c (r main_v88) = Spec.vH3 I := by
    rw [v88 m ρ c, agg, hw18, sn, bg, h2]
    rfl
  -- region 7's operands: the features, the four matrices as launched, the four biases as rows
  have h88 : W20 (F := Ideal) m ρ c (r main_v88) = Spec.vH3 I := by
    rw [show W20 (F := Ideal) m ρ c (r main_v88) = _ from keep7 (W19 m ρ c) main_v88 (by decide), h3]
  have b1 : W20 (F := Ideal) m ρ c (r main_v89) = Spec.fAsRow32 I.ba1 := by
    rw [show W20 (F := Ideal) m ρ c (r main_v89) = _ from row89 (W19 m ρ c),
      at19 m ρ c main_arg10 (by decide) (by decide) (by decide) (by decide), a10]
  have b2 : W20 (F := Ideal) m ρ c (r main_v90) = Spec.fAsRow1 I.ba2 := by
    rw [show W20 (F := Ideal) m ρ c (r main_v90) = _ from row90 (W19 m ρ c),
      at19 m ρ c main_arg12 (by decide) (by decide) (by decide) (by decide), a12]
  have b3 : W20 (F := Ideal) m ρ c (r main_v91) = Spec.fAsRow32 I.bc1 := by
    rw [show W20 (F := Ideal) m ρ c (r main_v91) = _ from row91 (W19 m ρ c),
      at19 m ρ c main_arg14 (by decide) (by decide) (by decide) (by decide), a14]
  have b4 : W20 (F := Ideal) m ρ c (r main_v92) = Spec.fAsRow4 I.bc2 := by
    rw [show W20 (F := Ideal) m ρ c (r main_v92) = _ from row92 (W19 m ρ c),
      at19 m ρ c main_arg16 (by decide) (by decide) (by decide) (by decide), a16]
  have w9 : W20 (F := Ideal) m ρ c (r main_arg9) = I.Wa1 :=
    (at20 m ρ c main_arg9 (by decide) (by decide) (by decide) (by decide) (by decide)).trans a9
  have w11 : W20 (F := Ideal) m ρ c (r main_arg11) = I.Wa2 :=
    (at20 m ρ c main_arg11 (by decide) (by decide) (by decide) (by decide) (by decide)).trans a11
  have w13 : W20 (F := Ideal) m ρ c (r main_arg13) = I.Wc1 :=
    (at20 m ρ c main_arg13 (by decide) (by decide) (by decide) (by decide) (by decide)).trans a13
  have w15 : W20 (F := Ideal) m ρ c (r main_arg15) = I.Wc2 :=
    (at20 m ρ c main_arg15 (by decide) (by decide) (by decide) (by decide) (by decide)).trans a15
  -- the gate, then the logits on the gated features
  have attn : W21 (F := Ideal) m ρ c (r main_v93_1) = Spec.vAttn I := by
    rw [v93_1 m ρ c, h88, w9, b1, w11, b2]
    rfl
  refine ⟨?_, attn⟩
  rw [v93_0 m ρ c, h88, w9, b1, w11, b2, w13, b3, w15, b4]
  rfl

end Cert.KLayer2

end
-- ==== Proof.PreDecode.lean ====
/-
  The precondition's last conjunct says every entry of row 0 of the edge list lies in `[0, 100000)`: read out of the
  printed predicate, that is the range fact the guarded gather needs.
-/
import proofs.«403540_j78005196030173_1_alg».proof.Defs
import proofs.«403540_j78005196030173_1_alg».proof.Proof.Gen.Pre_finite_inputs
import proofs.«403540_j78005196030173_1_alg».proof.Proof.KLive
import Idealize.ShloMosaic.Lib.ReduceAll
import Idealize.ShloMosaic.Lib.StableHlo.Predicate

noncomputable section

namespace Cert.PreDecode

open Idealize.ShloMosaic Idealize.ShloMosaic.TcCoe Idealize.SL.Sem Cert.KernelIdeal

/-- A rank-0 array has one index. -/
instance : Subsingleton Cert.Pre_finite_inputs.S_.Idx := ⟨fun a b => funext fun d => d.elim0⟩

/-- The printed predicate ends in a conjunction whose last conjunct is `all (0 ≤ src ∧ src < 100000)` over row 0 of
    the edge list. -/
theorem fn_tail (a0 : Spec.TF Cert.Pre_finite_inputs.S100000x128) (a1 : Spec.TF Cert.Pre_finite_inputs.S1600000x1)
    (a2 : Spec.TI Cert.Pre_finite_inputs.S2x1600000) (a3 : Spec.TF Cert.Pre_finite_inputs.S1x1) (a4 : Spec.TF Cert.Pre_finite_inputs.S1)
    (a5 : Spec.TF Cert.Pre_finite_inputs.S128x64) (a6 : Spec.TF Cert.Pre_finite_inputs.S64) (a7 : Spec.TF Cert.Pre_finite_inputs.S3x64x64)
    (a8 : Spec.TF Cert.Pre_finite_inputs.S3x64) (a9 : Spec.TF Cert.Pre_finite_inputs.S64x32) (a10 : Spec.TF Cert.Pre_finite_inputs.S32)
    (a11 : Spec.TF Cert.Pre_finite_inputs.S32x1) (a12 : Spec.TF Cert.Pre_finite_inputs.S1) (a13 : Spec.TF Cert.Pre_finite_inputs.S64x32)
    (a14 : Spec.TF Cert.Pre_finite_inputs.S32) (a15 : Spec.TF Cert.Pre_finite_inputs.S32x4) (a16 : Spec.TF Cert.Pre_finite_inputs.S4) :
    ∃ a : IVec Cert.Pre_finite_inputs.S_ 1,
      Cert.Pre_finite_inputs.fn (F := Ideal) a0 a1 a2 a3 a4 a5 a6 a7 a8 a9 a10 a11 a12 a13 a14 a15 a16
        = andi a (Host.reduce IntOp.andi
            (andi (cmpi .sge (Spec.fSrc a2) (fun _ => 0#32)) (cmpi .slt (Spec.fSrc a2) (fun _ => 100000#32)))
            (constantI Cert.Pre_finite_inputs.S_ 1 1#1)
            Cert.Pre_finite_inputs.Facts.reducesTo_S1600000_S_d0 Cert.Pre_finite_inputs.Facts.h_S_) :=
  ⟨_, rfl⟩

/-- A signed comparison that came out 1, read back on the integers. -/
theorem of_sge_one {a b : BitVec 32} (h : IntOp.cmpi .sge a b = 1#1) : b.toInt ≤ a.toInt := by
  simp only [IntOp.cmpi, StableHlo.Predicate.ofBool_eq_one_iff, BitVec.sle, decide_eq_true_eq] at h
  exact h

theorem of_slt_one {a b : BitVec 32} (h : IntOp.cmpi .slt a b = 1#1) : a.toInt < b.toInt := by
  simp only [IntOp.cmpi, StableHlo.Predicate.ofBool_eq_one_iff, BitVec.slt, decide_eq_true_eq] at h
  exact h

/-- Under the precondition every edge's source is a node. -/
theorem src_in_range (m : (ℓ : Loc nD τ sig) → Buf (Elt Ideal) ℓ) (hpre : Cert.Pre_KernelIdeal m) (c : Dev nD) :
    KLive.InRange (Spec.vSrc (KLive.inputsOf m c)) := by
  intro e
  obtain ⟨a, ha⟩ := fn_tail (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11)) (m ((c : Thread nD τ).loc main_arg12)) (m ((c : Thread nD τ).loc main_arg13))
    (m ((c : Thread nD τ).loc main_arg14)) (m ((c : Thread nD τ).loc main_arg15)) (m ((c : Thread nD τ).loc main_arg16))
  have h0 := congrFun ((hpre c).symm.trans ha) (fun d => d.elim0 : Cert.Pre_finite_inputs.S_.Idx)
  have h1 := (IntOp.andi_eq_one.1 h0.symm).2
  have h2 := Host.reduce_andi_all _ _ _ _ _ h1 e
  obtain ⟨hge, hlt⟩ := IntOp.andi_eq_one.1 h2
  have h0' : (0#32 : BitVec 32).toInt = 0 := by decide
  have h1' : (100000#32 : BitVec 32).toInt = 100000 := by decide
  have hge' := of_sge_one hge
  have hlt' := of_slt_one hlt
  rw [h0'] at hge'
  rw [h1'] at hlt'
  exact ⟨hge', hlt'⟩

end Cert.PreDecode

end
-- ==== Proof.RefOps.lean ====
/- GENERATED by `python3 scratch/mk_refops.py proof/ReferenceIdeal.lean proof/Proof/RefOps.lean` (run in the unit directory), a table and no argument:
   the host reference's @main, its module-local functions written out at their calls over each call's buffers, as fourteen
   consecutive lists of operations. List k ends with the operation whose result a later stage reads more than once: the edge
   weights, the inverse root degrees, the edge and self normalisations, then per layer the linear map, the value before the
   normalisation and the layer's output, and last the gate and the logits. -/
import proofs.«403540_j78005196030173_1_alg».proof.ReferenceIdeal
import Idealize.ShloMosaic.Lib.StableHlo.Run

noncomputable section

namespace Cert.RefOps

open Idealize.ShloMosaic Idealize.SL.Sem Cert.ReferenceIdeal

variable {F : FTy → Type} [FloatOps F] [Cert.ReferenceIdeal.Facts]
open Cert.ReferenceIdeal.Facts₀ Cert.ReferenceIdeal.Facts

/-- List 0: 16 operations, ending with the statement that makes %13. -/
abbrev w0 : List (HloOp τ sig (Elt F)) :=
  [ StableHlo.unary main_arg2 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg2 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.binary main_arg0 main_arg5 main_v4 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg6 main_v5 (broadcastInDim S1x64 ![1] bcast_S64_S1x64_1 : (⟨S64, .f32⟩ : BufTy).Contents (Elt F) → (⟨S1x64, .f32⟩ : BufTy).Contents (Elt F)),
    StableHlo.unary main_v5 main_v6 (broadcastInDim S100000x64 ![0, 1] bcast_S1x64_S100000x64_0_1 : (⟨S1x64, .f32⟩ : BufTy).Contents (Elt F) → (⟨S100000x64, .f32⟩ : BufTy).Contents (Elt F)),
    StableHlo.binary main_v4 main_v6 main_v7 (addf : (⟨S100000x64, .f32⟩ : BufTy).Contents (Elt F) → (⟨S100000x64, .f32⟩ : BufTy).Contents (Elt F) → (⟨S100000x64, .f32⟩ : BufTy).Contents (Elt F)),
    StableHlo.TRef.nullary main_call0.cst (constant S_ .f32 0x00000000#32),
    StableHlo.TRef.unary main_call0.cst main_call0.v0 (broadcastInDim S100000x64 ![] bcast_S_S100000x64),
    StableHlo.TRef.binary (.of main_v7) main_call0.v0 main_call0.v1 maximumf,
    StableHlo.binary main_arg1 main_arg3 main_v9 ((fun l r => Host.dotGeneral dot_S1600000x1_S1x1_S1600000x1_1_0_0_1_n_n none l r) : (⟨S1600000x1, .f32⟩ : BufTy).Contents (Elt F) → (⟨S1x1, .f32⟩ : BufTy).Contents (Elt F) → (⟨S1600000x1, .f32⟩ : BufTy).Contents (Elt F)),
    StableHlo.unary main_arg4 main_v10 (broadcastInDim S1x1 ![1] bcast_S1_S1x1_1 : (⟨S1, .f32⟩ : BufTy).Contents (Elt F) → (⟨S1x1, .f32⟩ : BufTy).Contents (Elt F)),
    StableHlo.unary main_v10 main_v11 (broadcastInDim S1600000x1 ![0, 1] bcast_S1x1_S1600000x1_0_1 : (⟨S1x1, .f32⟩ : BufTy).Contents (Elt F) → (⟨S1600000x1, .f32⟩ : BufTy).Contents (Elt F)),
    StableHlo.binary main_v9 main_v11 main_v12 (addf : (⟨S1600000x1, .f32⟩ : BufTy).Contents (Elt F) → (⟨S1600000x1, .f32⟩ : BufTy).Contents (Elt F) → (⟨S1600000x1, .f32⟩ : BufTy).Contents (Elt F)),
    StableHlo.reshape main_v12 main_v13 rfl shapeCasts_S1600000x1_S1600000 ]
/-- Each operation of list 0 touches TensorCore references only. -/
theorem w0_sub : (w0 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.reshape_bufs_sub ..⟩

/-- List 1: 15 operations, ending with the statement that makes %22. -/
abbrev w1 : List (HloOp τ sig (Elt F)) :=
  [ StableHlo.nullary main_cst (constant S_ .f32 0x00000000#32),
    StableHlo.unary main_cst main_v14 (broadcastInDim S100000 ![] bcast_S_S100000 : (⟨S_, .f32⟩ : BufTy).Contents (Elt F) → (⟨S100000, .f32⟩ : BufTy).Contents (Elt F)),
    StableHlo.unary main_v3 main_v15 (broadcastInDim S1600000x1 ![0] bcast_S1600000_S1600000x1_0 : (⟨S1600000, .i32⟩ : BufTy).Contents (Elt F) → (⟨S1600000x1, .i32⟩ : BufTy).Contents (Elt F)),
    StableHlo.ternary main_v14 main_v15 main_v13 main_v16 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_0 (constant S_ .f32 0x3F800000#32),
    StableHlo.unary main_cst_0 main_v17 (broadcastInDim S100000 ![] bcast_S_S100000 : (⟨S_, .f32⟩ : BufTy).Contents (Elt F) → (⟨S100000, .f32⟩ : BufTy).Contents (Elt F)),
    StableHlo.binary main_v16 main_v17 main_v18 (addf : (⟨S100000, .f32⟩ : BufTy).Contents (Elt F) → (⟨S100000, .f32⟩ : BufTy).Contents (Elt F) → (⟨S100000, .f32⟩ : BufTy).Contents (Elt F)),
    StableHlo.nullary main_cst_1 (constant S_ .f32 0x00000000#32),
    StableHlo.unary main_cst_1 main_v19 (broadcastInDim S100000 ![] bcast_S_S100000 : (⟨S_, .f32⟩ : BufTy).Contents (Elt F) → (⟨S100000, .f32⟩ : BufTy).Contents (Elt F)),
    StableHlo.binary main_v18 main_v19 main_v20 (cmpf .ogt : (⟨S100000, .f32⟩ : BufTy).Contents (Elt F) → (⟨S100000, .f32⟩ : BufTy).Contents (Elt F) → (⟨S100000, .i1⟩ : BufTy).Contents (Elt F)),
    StableHlo.unary main_v18 main_v21 (Host.rsqrt : (⟨S100000, .f32⟩ : BufTy).Contents (Elt F) → (⟨S100000, .f32⟩ : BufTy).Contents (Elt F)),
    StableHlo.nullary main_cst_2 (constant S_ .f32 0x00000000#32),
    StableHlo.TRef.unary (.of main_cst_2) main_call1.v0 id,
    StableHlo.TRef.unary main_call1.v0 main_call1.v1 (broadcastInDim S100000 ![] bcast_S_S100000),
    StableHlo.TRef.ternary (.of main_v20) (.of main_v21) main_call1.v1 main_call1.v2 select ]
/-- Each operation of list 1 touches TensorCore references only. -/
theorem w1_sub : (w1 : List (HloOp τ sig (Elt F))).Forall fun op => op.bufs ⊆ StableHlo.tcRefs τ sig :=
  ⟨StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub ..⟩

/-- List 2: 21 operations, ending with the statement that makes %39. -/
abbrev w2 : List (HloOp τ sig (Elt F)) :=
  [ StableHlo.nullary main_c (constantI S_ 32 0#32),
    StableHlo.unary main_c main_v23 (broadcastInDim S1600000 ![] bcast_S_S1600000 : (⟨S_, .i32⟩ : BufTy).Contents (Elt F) → (⟨S1600000, .i32⟩ : BufTy).Contents (Elt F)),
    StableHlo.binary main_v1 main_v23 main_v24 (cmpi .slt : (⟨S1600000, .i32⟩ : BufTy).Contents (Elt F) → (⟨S1600000, .i32⟩ : BufTy).Contents (Elt F) → (⟨S1600000, .i1⟩ : BufTy).Contents (Elt F)),
    StableHlo.nullary main_c_3 (constantI S_ 32 100000#32),
    StableHlo.unary main_c_3 main_v25 (broadcastInDim S1600000 ![] bcast_S_S1600000 : (⟨S_, .i32⟩ : BufTy).Contents (Elt F) → (⟨S1600000, .i32⟩ : BufTy).Contents (Elt F)),
    StableHlo.binary main_v1 main_v25 main_v26 (addi : (⟨S1600000, .i32⟩ : BufTy).Contents (Elt F) → (⟨S1600000, .i32⟩ : BufTy).Contents (Elt F) → (⟨S1600000, .i32⟩ : BufTy).Contents (Elt F)),
    StableHlo.ternary main_v24 main_v26 main_v1 main_v27 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v27 main_v28 (broadcastInDim S1600000x1 ![0] bcast_S1600000_S1600000x1_0 : (⟨S1600000, .i32⟩ : BufTy).Contents (Elt F) → (⟨S1600000x1, .i32⟩ : BufTy).Contents (Elt F)),
    StableHlo.binary main_v22 main_v28 main_v29 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v29 main_v13 main_v30 (mulf : (⟨S1600000, .f32⟩ : BufTy).Contents (Elt F) → (⟨S1600000, .f32⟩ : BufTy).Contents (Elt F) → (⟨S1600000, .f32⟩ : BufTy).Contents (Elt F)),
    StableHlo.nullary main_c_4 (constantI S_ 32 0#32),
    StableHlo.unary main_c_4 main_v31 (broadcastInDim S1600000 ![] bcast_S_S1600000 : (⟨S_, .i32⟩ : BufTy).Contents (Elt F) → (⟨S1600000, .i32⟩ : BufTy).Contents (Elt F)),
    StableHlo.binary main_v3 main_v31 main_v32 (cmpi .slt : (⟨S1600000, .i32⟩ : BufTy).Contents (Elt F) → (⟨S1600000, .i32⟩ : BufTy).Contents (Elt F) → (⟨S1600000, .i1⟩ : BufTy).Contents (Elt F)),
    StableHlo.nullary main_c_5 (constantI S_ 32 100000#32),
    StableHlo.unary main_c_5 main_v33 (broadcastInDim S1600000 ![] bcast_S_S1600000 : (⟨S_, .i32⟩ : BufTy).Contents (Elt F) → (⟨S1600000, .i32⟩ : BufTy).Contents (Elt F)),
    StableHlo.binary main_v3 main_v33 main_v34 (addi : (⟨S1600000, .i32⟩ : BufTy).Contents (Elt F) → (⟨S1600000, .i32⟩ : BufTy).Contents (Elt F) → (⟨S1600000, .i32⟩ : BufTy).Contents (Elt F)),
    StableHlo.ternary main_v32 main_v34 main_v3 main_v35 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v35 main_v36 (broadcastInDim S1600000x1 ![0] bcast_S1600000_S1600000x1_0 : (⟨S1600000, .i32⟩ : BufTy).Contents (Elt F) → (⟨S1600000x1, .i32⟩ : BufTy).Contents (Elt F)),
    StableHlo.binary main_v22 main_v36 main_v37 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v30 main_v37 main_v38 (mulf : (⟨S1600000, .f32⟩ : BufTy).Contents (Elt F) → (⟨S1600000, .f32⟩ : BufTy).Contents (Elt F) → (⟨S1600000, .f32⟩ : BufTy).Contents (Elt F)),
    StableHlo.binary main_v22 main_v22 main_v39 (mulf : (⟨S100000, .f32⟩ : BufTy).Contents (Elt F) → (⟨S100000, .f32⟩ : BufTy).Contents (Elt F) → (⟨S100000, .f32⟩ : BufTy).Contents (Elt F)) ]
/-- Each operation of list 2 touches TensorCore references only. -/
theorem w2_sub : (w2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.binary_bufs_sub ..⟩

/-- List 3: 3 operations, ending with the statement that makes %42. -/
abbrev w3 : List (HloOp τ sig (Elt F)) :=
  [ StableHlo.unary main_arg7 main_v40 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v40 main_v41 rfl shapeCasts_S1x64x64_S64x64,
    StableHlo.binary main_v8 main_v41 main_v42 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) ]
/-- Each operation of list 3 touches TensorCore references only. -/
theorem w3_sub : (w3 : List (HloOp τ sig (Elt F))).Forall fun op => op.bufs ⊆ StableHlo.tcRefs τ sig :=
  ⟨StableHlo.unary_bufs_sub .., StableHlo.reshape_bufs_sub .., StableHlo.binary_bufs_sub ..⟩

/-- List 4: 25 operations, ending with the statement that makes %64. -/
abbrev w4 : List (HloOp τ sig (Elt F)) :=
  [ StableHlo.nullary main_c_6 (constantI S_ 32 0#32),
    StableHlo.unary main_c_6 main_v43 (broadcastInDim S1600000 ![] bcast_S_S1600000 : (⟨S_, .i32⟩ : BufTy).Contents (Elt F) → (⟨S1600000, .i32⟩ : BufTy).Contents (Elt F)),
    StableHlo.binary main_v1 main_v43 main_v44 (cmpi .slt : (⟨S1600000, .i32⟩ : BufTy).Contents (Elt F) → (⟨S1600000, .i32⟩ : BufTy).Contents (Elt F) → (⟨S1600000, .i1⟩ : BufTy).Contents (Elt F)),
    StableHlo.nullary main_c_7 (constantI S_ 32 100000#32),
    StableHlo.unary main_c_7 main_v45 (broadcastInDim S1600000 ![] bcast_S_S1600000 : (⟨S_, .i32⟩ : BufTy).Contents (Elt F) → (⟨S1600000, .i32⟩ : BufTy).Contents (Elt F)),
    StableHlo.binary main_v1 main_v45 main_v46 (addi : (⟨S1600000, .i32⟩ : BufTy).Contents (Elt F) → (⟨S1600000, .i32⟩ : BufTy).Contents (Elt F) → (⟨S1600000, .i32⟩ : BufTy).Contents (Elt F)),
    StableHlo.ternary main_v44 main_v46 main_v1 main_v47 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v47 main_v48 (broadcastInDim S1600000x1 ![0] bcast_S1600000_S1600000x1_0 : (⟨S1600000, .i32⟩ : BufTy).Contents (Elt F) → (⟨S1600000x1, .i32⟩ : BufTy).Contents (Elt F)),
    StableHlo.binary main_v42 main_v48 main_v49 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_v38 main_v50 (broadcastInDim S1600000x1 ![0] bcast_S1600000_S1600000x1_0 : (⟨S1600000, .f32⟩ : BufTy).Contents (Elt F) → (⟨S1600000x1, .f32⟩ : BufTy).Contents (Elt F)),
    StableHlo.unary main_v50 main_v51 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v49 main_v51 main_v52 (mulf : (⟨S1600000x64, .f32⟩ : BufTy).Contents (Elt F) → (⟨S1600000x64, .f32⟩ : BufTy).Contents (Elt F) → (⟨S1600000x64, .f32⟩ : BufTy).Contents (Elt F)),
    StableHlo.nullary main_cst_8 (constant S_ .f32 0x00000000#32),
    StableHlo.unary main_cst_8 main_v53 (broadcastInDim S100000x64 ![] bcast_S_S100000x64 : (⟨S_, .f32⟩ : BufTy).Contents (Elt F) → (⟨S100000x64, .f32⟩ : BufTy).Contents (Elt F)),
    StableHlo.unary main_v3 main_v54 (broadcastInDim S1600000x1 ![0] bcast_S1600000_S1600000x1_0 : (⟨S1600000, .i32⟩ : BufTy).Contents (Elt F) → (⟨S1600000x1, .i32⟩ : BufTy).Contents (Elt F)),
    StableHlo.ternary main_v53 main_v54 main_v52 main_v55 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_v39 main_v56 (broadcastInDim S100000x1 ![0] bcast_S100000_S100000x1_0 : (⟨S100000, .f32⟩ : BufTy).Contents (Elt F) → (⟨S100000x1, .f32⟩ : BufTy).Contents (Elt F)),
    StableHlo.unary main_v56 main_v57 (broadcastInDim S100000x64 ![0, 1] bcast_S100000x1_S100000x64_0_1 : (⟨S100000x1, .f32⟩ : BufTy).Contents (Elt F) → (⟨S100000x64, .f32⟩ : BufTy).Contents (Elt F)),
    StableHlo.binary main_v42 main_v57 main_v58 (mulf : (⟨S100000x64, .f32⟩ : BufTy).Contents (Elt F) → (⟨S100000x64, .f32⟩ : BufTy).Contents (Elt F) → (⟨S100000x64, .f32⟩ : BufTy).Contents (Elt F)),
    StableHlo.binary main_v55 main_v58 main_v59 (addf : (⟨S100000x64, .f32⟩ : BufTy).Contents (Elt F) → (⟨S100000x64, .f32⟩ : BufTy).Contents (Elt F) → (⟨S100000x64, .f32⟩ : BufTy).Contents (Elt F)),
    StableHlo.unary main_arg8 main_v60 ((extractStridedSlice S1x64 ![0, 0] · slices_S3x64_S1x64_0_0) : (⟨S3x64, .f32⟩ : BufTy).Contents (Elt F) → (⟨S1x64, .f32⟩ : BufTy).Contents (Elt F)),
    StableHlo.reshape main_v60 main_v61 rfl shapeCasts_S1x64_S64,
    StableHlo.unary main_v61 main_v62 (broadcastInDim S1x64 ![1] bcast_S64_S1x64_1 : (⟨S64, .f32⟩ : BufTy).Contents (Elt F) → (⟨S1x64, .f32⟩ : BufTy).Contents (Elt F)),
    StableHlo.unary main_v62 main_v63 (broadcastInDim S100000x64 ![0, 1] bcast_S1x64_S100000x64_0_1 : (⟨S1x64, .f32⟩ : BufTy).Contents (Elt F) → (⟨S100000x64, .f32⟩ : BufTy).Contents (Elt F)),
    StableHlo.binary main_v59 main_v63 main_v64 (addf : (⟨S100000x64, .f32⟩ : BufTy).Contents (Elt F) → (⟨S100000x64, .f32⟩ : BufTy).Contents (Elt F) → (⟨S100000x64, .f32⟩ : BufTy).Contents (Elt F)) ]
/-- Each operation of list 4 touches TensorCore references only. -/
theorem w4_sub : (w4 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.binary_bufs_sub .., StableHlo.unary_bufs_sub .., StableHlo.reshape_bufs_sub .., StableHlo.unary_bufs_sub .., StableHlo.unary_bufs_sub .., StableHlo.binary_bufs_sub ..⟩

/-- List 5: 41 operations, ending with the statement that makes %77. -/
abbrev w5 : List (HloOp τ sig (Elt F)) :=
  [ StableHlo.nullary main_cst_9 (constant S_ .f32 0x00000000#32),
    StableHlo.binary main_v64 main_cst_9 main_v65 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    StableHlo.unary main_v65 main_v66 (broadcastInDim S100000x1 ![0] bcast_S100000_S100000x1_0 : (⟨S100000, .f32⟩ : BufTy).Contents (Elt F) → (⟨S100000x1, .f32⟩ : BufTy).Contents (Elt F)),
    StableHlo.nullary main_cst_10 (constant S_ .f32 0x42800000#32),
    StableHlo.unary main_cst_10 main_v67 (broadcastInDim S100000x1 ![] bcast_S_S100000x1 : (⟨S_, .f32⟩ : BufTy).Contents (Elt F) → (⟨S100000x1, .f32⟩ : BufTy).Contents (Elt F)),
    StableHlo.binary main_v66 main_v67 main_v68 (Host.divf : (⟨S100000x1, .f32⟩ : BufTy).Contents (Elt F) → (⟨S100000x1, .f32⟩ : BufTy).Contents (Elt F) → (⟨S100000x1, .f32⟩ : BufTy).Contents (Elt F)),
    StableHlo.nullary main_c_11 (constantI S_ 32 0#32),
    StableHlo.TRef.nullary main_call2.cst (constant S_ .f32 0x00000000#32),
    StableHlo.TRef.binary (.of main_v64) main_call2.cst main_call2.v0 (fun x v => Host.reduceAdd x v reducesTo_S100000x64_S100000_d1 h_S_),
    StableHlo.TRef.unary main_call2.v0 main_call2.v1 (broadcastInDim S100000x1 ![0] bcast_S100000_S100000x1_0),
    StableHlo.TRef.nullary main_call2.cst_0 (constant S_ .f32 0x42800000#32),
    StableHlo.TRef.unary main_call2.cst_0 main_call2.v2 (broadcastInDim S100000x1 ![] bcast_S_S100000x1),
    StableHlo.TRef.binary main_call2.v1 main_call2.v2 main_call2.v3 Host.divf,
    StableHlo.TRef.unary main_call2.v3 main_call2.v4 (broadcastInDim S100000x64 ![0, 1] bcast_S100000x1_S100000x64_0_1),
    StableHlo.TRef.binary (.of main_v64) main_call2.v4 main_call2.v5 subf,
    StableHlo.TRef.binary main_call2.v5 main_call2.v5 main_call2.v6 mulf,
    StableHlo.TRef.unary (.of main_c_11) main_call2.v7 (sitofp .f32),
    StableHlo.TRef.nullary main_call2.cst_1 (constant S_ .f32 0x42800000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x64_S100000_d1 h_S_),
    StableHlo.TRef.unary main_call2.v9 main_call2.v10 (broadcastInDim S100000x1 ![0] bcast_S100000_S100000x1_0),
    StableHlo.TRef.unary main_call2.v8 main_call2.v11 (broadcastInDim S100000x1 ![] bcast_S_S100000x1),
    StableHlo.TRef.binary main_call2.v10 main_call2.v11 main_call2.v12 Host.divf,
    StableHlo.TRef.nullary main_call2.cst_3 (constant S_ .f32 0x00000000#32),
    StableHlo.TRef.binary main_call2.v8 main_call2.cst_3 main_call2.v13 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S100000x1 ![] bcast_S_S100000x1),
    StableHlo.TRef.ternary main_call2.v13 main_call2.v12 main_call2.call0.v1 main_call2.call0.v2 (fun p a b => select (broadcastInDim S100000x1 ![] bcast_S_S100000x1 p) a b),
    StableHlo.unary main_v68 main_v70 (broadcastInDim S100000x64 ![0, 1] bcast_S100000x1_S100000x64_0_1 : (⟨S100000x1, .f32⟩ : BufTy).Contents (Elt F) → (⟨S100000x64, .f32⟩ : BufTy).Contents (Elt F)),
    StableHlo.binary main_v64 main_v70 main_v71 (subf : (⟨S100000x64, .f32⟩ : BufTy).Contents (Elt F) → (⟨S100000x64, .f32⟩ : BufTy).Contents (Elt F) → (⟨S100000x64, .f32⟩ : BufTy).Contents (Elt F)),
    StableHlo.nullary main_cst_12 (constant S_ .f32 0x3727C5AC#32),
    StableHlo.unary main_cst_12 main_v72 (broadcastInDim S100000x1 ![] bcast_S_S100000x1 : (⟨S_, .f32⟩ : BufTy).Contents (Elt F) → (⟨S100000x1, .f32⟩ : BufTy).Contents (Elt F)),
    StableHlo.binary main_v69 main_v72 main_v73 (addf : (⟨S100000x1, .f32⟩ : BufTy).Contents (Elt F) → (⟨S100000x1, .f32⟩ : BufTy).Contents (Elt F) → (⟨S100000x1, .f32⟩ : BufTy).Contents (Elt F)),
    StableHlo.unary main_v73 main_v74 (Host.rsqrt : (⟨S100000x1, .f32⟩ : BufTy).Contents (Elt F) → (⟨S100000x1, .f32⟩ : BufTy).Contents (Elt F)),
    StableHlo.unary main_v74 main_v75 (broadcastInDim S100000x64 ![0, 1] bcast_S100000x1_S100000x64_0_1 : (⟨S100000x1, .f32⟩ : BufTy).Contents (Elt F) → (⟨S100000x64, .f32⟩ : BufTy).Contents (Elt F)),
    StableHlo.binary main_v71 main_v75 main_v76 (mulf : (⟨S100000x64, .f32⟩ : BufTy).Contents (Elt F) → (⟨S100000x64, .f32⟩ : BufTy).Contents (Elt F) → (⟨S100000x64, .f32⟩ : BufTy).Contents (Elt F)),
    StableHlo.TRef.nullary main_call3.cst (constant S_ .f32 0x00000000#32),
    StableHlo.TRef.unary main_call3.cst main_call3.v0 (broadcastInDim S100000x64 ![] bcast_S_S100000x64),
    StableHlo.TRef.binary (.of main_v76) main_call3.v0 main_call3.v1 maximumf ]
/-- Each operation of list 5 touches TensorCore references only. -/
theorem w5_sub : (w5 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub ..⟩

/-- List 6: 3 operations, ending with the statement that makes %80. -/
abbrev w6 : List (HloOp τ sig (Elt F)) :=
  [ StableHlo.unary main_arg7 main_v78 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v78 main_v79 rfl shapeCasts_S1x64x64_S64x64,
    StableHlo.binary main_v77 main_v79 main_v80 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) ]
/-- Each operation of list 6 touches TensorCore references only. -/
theorem w6_sub : (w6 : List (HloOp τ sig (Elt F))).Forall fun op => op.bufs ⊆ StableHlo.tcRefs τ sig :=
  ⟨StableHlo.unary_bufs_sub .., StableHlo.reshape_bufs_sub .., StableHlo.binary_bufs_sub ..⟩

/-- List 7: 25 operations, ending with the statement that makes %102. -/
abbrev w7 : List (HloOp τ sig (Elt F)) :=
  [ StableHlo.nullary main_c_13 (constantI S_ 32 0#32),
    StableHlo.unary main_c_13 main_v81 (broadcastInDim S1600000 ![] bcast_S_S1600000 : (⟨S_, .i32⟩ : BufTy).Contents (Elt F) → (⟨S1600000, .i32⟩ : BufTy).Contents (Elt F)),
    StableHlo.binary main_v1 main_v81 main_v82 (cmpi .slt : (⟨S1600000, .i32⟩ : BufTy).Contents (Elt F) → (⟨S1600000, .i32⟩ : BufTy).Contents (Elt F) → (⟨S1600000, .i1⟩ : BufTy).Contents (Elt F)),
    StableHlo.nullary main_c_14 (constantI S_ 32 100000#32),
    StableHlo.unary main_c_14 main_v83 (broadcastInDim S1600000 ![] bcast_S_S1600000 : (⟨S_, .i32⟩ : BufTy).Contents (Elt F) → (⟨S1600000, .i32⟩ : BufTy).Contents (Elt F)),
    StableHlo.binary main_v1 main_v83 main_v84 (addi : (⟨S1600000, .i32⟩ : BufTy).Contents (Elt F) → (⟨S1600000, .i32⟩ : BufTy).Contents (Elt F) → (⟨S1600000, .i32⟩ : BufTy).Contents (Elt F)),
    StableHlo.ternary main_v82 main_v84 main_v1 main_v85 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v85 main_v86 (broadcastInDim S1600000x1 ![0] bcast_S1600000_S1600000x1_0 : (⟨S1600000, .i32⟩ : BufTy).Contents (Elt F) → (⟨S1600000x1, .i32⟩ : BufTy).Contents (Elt F)),
    StableHlo.binary main_v80 main_v86 main_v87 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_v38 main_v88 (broadcastInDim S1600000x1 ![0] bcast_S1600000_S1600000x1_0 : (⟨S1600000, .f32⟩ : BufTy).Contents (Elt F) → (⟨S1600000x1, .f32⟩ : BufTy).Contents (Elt F)),
    StableHlo.unary main_v88 main_v89 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v87 main_v89 main_v90 (mulf : (⟨S1600000x64, .f32⟩ : BufTy).Contents (Elt F) → (⟨S1600000x64, .f32⟩ : BufTy).Contents (Elt F) → (⟨S1600000x64, .f32⟩ : BufTy).Contents (Elt F)),
    StableHlo.nullary main_cst_15 (constant S_ .f32 0x00000000#32),
    StableHlo.unary main_cst_15 main_v91 (broadcastInDim S100000x64 ![] bcast_S_S100000x64 : (⟨S_, .f32⟩ : BufTy).Contents (Elt F) → (⟨S100000x64, .f32⟩ : BufTy).Contents (Elt F)),
    StableHlo.unary main_v3 main_v92 (broadcastInDim S1600000x1 ![0] bcast_S1600000_S1600000x1_0 : (⟨S1600000, .i32⟩ : BufTy).Contents (Elt F) → (⟨S1600000x1, .i32⟩ : BufTy).Contents (Elt F)),
    StableHlo.ternary main_v91 main_v92 main_v90 main_v93 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_v39 main_v94 (broadcastInDim S100000x1 ![0] bcast_S100000_S100000x1_0 : (⟨S100000, .f32⟩ : BufTy).Contents (Elt F) → (⟨S100000x1, .f32⟩ : BufTy).Contents (Elt F)),
    StableHlo.unary main_v94 main_v95 (broadcastInDim S100000x64 ![0, 1] bcast_S100000x1_S100000x64_0_1 : (⟨S100000x1, .f32⟩ : BufTy).Contents (Elt F) → (⟨S100000x64, .f32⟩ : BufTy).Contents (Elt F)),
    StableHlo.binary main_v80 main_v95 main_v96 (mulf : (⟨S100000x64, .f32⟩ : BufTy).Contents (Elt F) → (⟨S100000x64, .f32⟩ : BufTy).Contents (Elt F) → (⟨S100000x64, .f32⟩ : BufTy).Contents (Elt F)),
    StableHlo.binary main_v93 main_v96 main_v97 (addf : (⟨S100000x64, .f32⟩ : BufTy).Contents (Elt F) → (⟨S100000x64, .f32⟩ : BufTy).Contents (Elt F) → (⟨S100000x64, .f32⟩ : BufTy).Contents (Elt F)),
    StableHlo.unary main_arg8 main_v98 ((extractStridedSlice S1x64 ![1, 0] · slices_S3x64_S1x64_1_0) : (⟨S3x64, .f32⟩ : BufTy).Contents (Elt F) → (⟨S1x64, .f32⟩ : BufTy).Contents (Elt F)),
    StableHlo.reshape main_v98 main_v99 rfl shapeCasts_S1x64_S64,
    StableHlo.unary main_v99 main_v100 (broadcastInDim S1x64 ![1] bcast_S64_S1x64_1 : (⟨S64, .f32⟩ : BufTy).Contents (Elt F) → (⟨S1x64, .f32⟩ : BufTy).Contents (Elt F)),
    StableHlo.unary main_v100 main_v101 (broadcastInDim S100000x64 ![0, 1] bcast_S1x64_S100000x64_0_1 : (⟨S1x64, .f32⟩ : BufTy).Contents (Elt F) → (⟨S100000x64, .f32⟩ : BufTy).Contents (Elt F)),
    StableHlo.binary main_v97 main_v101 main_v102 (addf : (⟨S100000x64, .f32⟩ : BufTy).Contents (Elt F) → (⟨S100000x64, .f32⟩ : BufTy).Contents (Elt F) → (⟨S100000x64, .f32⟩ : BufTy).Contents (Elt F)) ]
/-- Each operation of list 7 touches TensorCore references only. -/
theorem w7_sub : (w7 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.binary_bufs_sub .., StableHlo.unary_bufs_sub .., StableHlo.reshape_bufs_sub .., StableHlo.unary_bufs_sub .., StableHlo.unary_bufs_sub .., StableHlo.binary_bufs_sub ..⟩

/-- List 8: 42 operations, ending with the statement that makes %116. -/
abbrev w8 : List (HloOp τ sig (Elt F)) :=
  [ StableHlo.nullary main_cst_16 (constant S_ .f32 0x00000000#32),
    StableHlo.binary main_v102 main_cst_16 main_v103 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    StableHlo.unary main_v103 main_v104 (broadcastInDim S100000x1 ![0] bcast_S100000_S100000x1_0 : (⟨S100000, .f32⟩ : BufTy).Contents (Elt F) → (⟨S100000x1, .f32⟩ : BufTy).Contents (Elt F)),
    StableHlo.nullary main_cst_17 (constant S_ .f32 0x42800000#32),
    StableHlo.unary main_cst_17 main_v105 (broadcastInDim S100000x1 ![] bcast_S_S100000x1 : (⟨S_, .f32⟩ : BufTy).Contents (Elt F) → (⟨S100000x1, .f32⟩ : BufTy).Contents (Elt F)),
    StableHlo.binary main_v104 main_v105 main_v106 (Host.divf : (⟨S100000x1, .f32⟩ : BufTy).Contents (Elt F) → (⟨S100000x1, .f32⟩ : BufTy).Contents (Elt F) → (⟨S100000x1, .f32⟩ : BufTy).Contents (Elt F)),
    StableHlo.nullary main_c_18 (constantI S_ 32 0#32),
    StableHlo.TRef.nullary main_call4.cst (constant S_ .f32 0x00000000#32),
    StableHlo.TRef.binary (.of main_v102) main_call4.cst main_call4.v0 (fun x v => Host.reduceAdd x v reducesTo_S100000x64_S100000_d1 h_S_),
    StableHlo.TRef.unary main_call4.v0 main_call4.v1 (broadcastInDim S100000x1 ![0] bcast_S100000_S100000x1_0),
    StableHlo.TRef.nullary main_call4.cst_0 (constant S_ .f32 0x42800000#32),
    StableHlo.TRef.unary main_call4.cst_0 main_call4.v2 (broadcastInDim S100000x1 ![] bcast_S_S100000x1),
    StableHlo.TRef.binary main_call4.v1 main_call4.v2 main_call4.v3 Host.divf,
    StableHlo.TRef.unary main_call4.v3 main_call4.v4 (broadcastInDim S100000x64 ![0, 1] bcast_S100000x1_S100000x64_0_1),
    StableHlo.TRef.binary (.of main_v102) main_call4.v4 main_call4.v5 subf,
    StableHlo.TRef.binary main_call4.v5 main_call4.v5 main_call4.v6 mulf,
    StableHlo.TRef.unary (.of main_c_18) main_call4.v7 (sitofp .f32),
    StableHlo.TRef.nullary main_call4.cst_1 (constant S_ .f32 0x42800000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S100000x64_S100000_d1 h_S_),
    StableHlo.TRef.unary main_call4.v9 main_call4.v10 (broadcastInDim S100000x1 ![0] bcast_S100000_S100000x1_0),
    StableHlo.TRef.unary main_call4.v8 main_call4.v11 (broadcastInDim S100000x1 ![] bcast_S_S100000x1),
    StableHlo.TRef.binary main_call4.v10 main_call4.v11 main_call4.v12 Host.divf,
    StableHlo.TRef.nullary main_call4.cst_3 (constant S_ .f32 0x00000000#32),
    StableHlo.TRef.binary main_call4.v8 main_call4.cst_3 main_call4.v13 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S100000x1 ![] bcast_S_S100000x1),
    StableHlo.TRef.ternary main_call4.v13 main_call4.v12 main_call4.call0.v1 main_call4.call0.v2 (fun p a b => select (broadcastInDim S100000x1 ![] bcast_S_S100000x1 p) a b),
    StableHlo.unary main_v106 main_v108 (broadcastInDim S100000x64 ![0, 1] bcast_S100000x1_S100000x64_0_1 : (⟨S100000x1, .f32⟩ : BufTy).Contents (Elt F) → (⟨S100000x64, .f32⟩ : BufTy).Contents (Elt F)),
    StableHlo.binary main_v102 main_v108 main_v109 (subf : (⟨S100000x64, .f32⟩ : BufTy).Contents (Elt F) → (⟨S100000x64, .f32⟩ : BufTy).Contents (Elt F) → (⟨S100000x64, .f32⟩ : BufTy).Contents (Elt F)),
    StableHlo.nullary main_cst_19 (constant S_ .f32 0x3727C5AC#32),
    StableHlo.unary main_cst_19 main_v110 (broadcastInDim S100000x1 ![] bcast_S_S100000x1 : (⟨S_, .f32⟩ : BufTy).Contents (Elt F) → (⟨S100000x1, .f32⟩ : BufTy).Contents (Elt F)),
    StableHlo.binary main_v107 main_v110 main_v111 (addf : (⟨S100000x1, .f32⟩ : BufTy).Contents (Elt F) → (⟨S100000x1, .f32⟩ : BufTy).Contents (Elt F) → (⟨S100000x1, .f32⟩ : BufTy).Contents (Elt F)),
    StableHlo.unary main_v111 main_v112 (Host.rsqrt : (⟨S100000x1, .f32⟩ : BufTy).Contents (Elt F) → (⟨S100000x1, .f32⟩ : BufTy).Contents (Elt F)),
    StableHlo.unary main_v112 main_v113 (broadcastInDim S100000x64 ![0, 1] bcast_S100000x1_S100000x64_0_1 : (⟨S100000x1, .f32⟩ : BufTy).Contents (Elt F) → (⟨S100000x64, .f32⟩ : BufTy).Contents (Elt F)),
    StableHlo.binary main_v109 main_v113 main_v114 (mulf : (⟨S100000x64, .f32⟩ : BufTy).Contents (Elt F) → (⟨S100000x64, .f32⟩ : BufTy).Contents (Elt F) → (⟨S100000x64, .f32⟩ : BufTy).Contents (Elt F)),
    StableHlo.TRef.nullary main_call5.cst (constant S_ .f32 0x00000000#32),
    StableHlo.TRef.unary main_call5.cst main_call5.v0 (broadcastInDim S100000x64 ![] bcast_S_S100000x64),
    StableHlo.TRef.binary (.of main_v114) main_call5.v0 main_call5.v1 maximumf,
    StableHlo.binary main_v115 main_v77 main_v116 (addf : (⟨S100000x64, .f32⟩ : BufTy).Contents (Elt F) → (⟨S100000x64, .f32⟩ : BufTy).Contents (Elt F) → (⟨S100000x64, .f32⟩ : BufTy).Contents (Elt F)) ]
/-- Each operation of list 8 touches TensorCore references only. -/
theorem w8_sub : (w8 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub ..⟩

/-- List 9: 3 operations, ending with the statement that makes %119. -/
abbrev w9 : List (HloOp τ sig (Elt F)) :=
  [ StableHlo.unary main_arg7 main_v117 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v117 main_v118 rfl shapeCasts_S1x64x64_S64x64,
    StableHlo.binary main_v116 main_v118 main_v119 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) ]
/-- Each operation of list 9 touches TensorCore references only. -/
theorem w9_sub : (w9 : List (HloOp τ sig (Elt F))).Forall fun op => op.bufs ⊆ StableHlo.tcRefs τ sig :=
  ⟨StableHlo.unary_bufs_sub .., StableHlo.reshape_bufs_sub .., StableHlo.binary_bufs_sub ..⟩

/-- List 10: 25 operations, ending with the statement that makes %141. -/
abbrev w10 : List (HloOp τ sig (Elt F)) :=
  [ StableHlo.nullary main_c_20 (constantI S_ 32 0#32),
    StableHlo.unary main_c_20 main_v120 (broadcastInDim S1600000 ![] bcast_S_S1600000 : (⟨S_, .i32⟩ : BufTy).Contents (Elt F) → (⟨S1600000, .i32⟩ : BufTy).Contents (Elt F)),
    StableHlo.binary main_v1 main_v120 main_v121 (cmpi .slt : (⟨S1600000, .i32⟩ : BufTy).Contents (Elt F) → (⟨S1600000, .i32⟩ : BufTy).Contents (Elt F) → (⟨S1600000, .i1⟩ : BufTy).Contents (Elt F)),
    StableHlo.nullary main_c_21 (constantI S_ 32 100000#32),
    StableHlo.unary main_c_21 main_v122 (broadcastInDim S1600000 ![] bcast_S_S1600000 : (⟨S_, .i32⟩ : BufTy).Contents (Elt F) → (⟨S1600000, .i32⟩ : BufTy).Contents (Elt F)),
    StableHlo.binary main_v1 main_v122 main_v123 (addi : (⟨S1600000, .i32⟩ : BufTy).Contents (Elt F) → (⟨S1600000, .i32⟩ : BufTy).Contents (Elt F) → (⟨S1600000, .i32⟩ : BufTy).Contents (Elt F)),
    StableHlo.ternary main_v121 main_v123 main_v1 main_v124 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v124 main_v125 (broadcastInDim S1600000x1 ![0] bcast_S1600000_S1600000x1_0 : (⟨S1600000, .i32⟩ : BufTy).Contents (Elt F) → (⟨S1600000x1, .i32⟩ : BufTy).Contents (Elt F)),
    StableHlo.binary main_v119 main_v125 main_v126 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_v38 main_v127 (broadcastInDim S1600000x1 ![0] bcast_S1600000_S1600000x1_0 : (⟨S1600000, .f32⟩ : BufTy).Contents (Elt F) → (⟨S1600000x1, .f32⟩ : BufTy).Contents (Elt F)),
    StableHlo.unary main_v127 main_v128 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v126 main_v128 main_v129 (mulf : (⟨S1600000x64, .f32⟩ : BufTy).Contents (Elt F) → (⟨S1600000x64, .f32⟩ : BufTy).Contents (Elt F) → (⟨S1600000x64, .f32⟩ : BufTy).Contents (Elt F)),
    StableHlo.nullary main_cst_22 (constant S_ .f32 0x00000000#32),
    StableHlo.unary main_cst_22 main_v130 (broadcastInDim S100000x64 ![] bcast_S_S100000x64 : (⟨S_, .f32⟩ : BufTy).Contents (Elt F) → (⟨S100000x64, .f32⟩ : BufTy).Contents (Elt F)),
    StableHlo.unary main_v3 main_v131 (broadcastInDim S1600000x1 ![0] bcast_S1600000_S1600000x1_0 : (⟨S1600000, .i32⟩ : BufTy).Contents (Elt F) → (⟨S1600000x1, .i32⟩ : BufTy).Contents (Elt F)),
    StableHlo.ternary main_v130 main_v131 main_v129 main_v132 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_v39 main_v133 (broadcastInDim S100000x1 ![0] bcast_S100000_S100000x1_0 : (⟨S100000, .f32⟩ : BufTy).Contents (Elt F) → (⟨S100000x1, .f32⟩ : BufTy).Contents (Elt F)),
    StableHlo.unary main_v133 main_v134 (broadcastInDim S100000x64 ![0, 1] bcast_S100000x1_S100000x64_0_1 : (⟨S100000x1, .f32⟩ : BufTy).Contents (Elt F) → (⟨S100000x64, .f32⟩ : BufTy).Contents (Elt F)),
    StableHlo.binary main_v119 main_v134 main_v135 (mulf : (⟨S100000x64, .f32⟩ : BufTy).Contents (Elt F) → (⟨S100000x64, .f32⟩ : BufTy).Contents (Elt F) → (⟨S100000x64, .f32⟩ : BufTy).Contents (Elt F)),
    StableHlo.binary main_v132 main_v135 main_v136 (addf : (⟨S100000x64, .f32⟩ : BufTy).Contents (Elt F) → (⟨S100000x64, .f32⟩ : BufTy).Contents (Elt F) → (⟨S100000x64, .f32⟩ : BufTy).Contents (Elt F)),
    StableHlo.unary main_arg8 main_v137 ((extractStridedSlice S1x64 ![2, 0] · slices_S3x64_S1x64_2_0) : (⟨S3x64, .f32⟩ : BufTy).Contents (Elt F) → (⟨S1x64, .f32⟩ : BufTy).Contents (Elt F)),
    StableHlo.reshape main_v137 main_v138 rfl shapeCasts_S1x64_S64,
    StableHlo.unary main_v138 main_v139 (broadcastInDim S1x64 ![1] bcast_S64_S1x64_1 : (⟨S64, .f32⟩ : BufTy).Contents (Elt F) → (⟨S1x64, .f32⟩ : BufTy).Contents (Elt F)),
    StableHlo.unary main_v139 main_v140 (broadcastInDim S100000x64 ![0, 1] bcast_S1x64_S100000x64_0_1 : (⟨S1x64, .f32⟩ : BufTy).Contents (Elt F) → (⟨S100000x64, .f32⟩ : BufTy).Contents (Elt F)),
    StableHlo.binary main_v136 main_v140 main_v141 (addf : (⟨S100000x64, .f32⟩ : BufTy).Contents (Elt F) → (⟨S100000x64, .f32⟩ : BufTy).Contents (Elt F) → (⟨S100000x64, .f32⟩ : BufTy).Contents (Elt F)) ]
/-- Each operation of list 10 touches TensorCore references only. -/
theorem w10_sub : (w10 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.binary_bufs_sub .., StableHlo.unary_bufs_sub .., StableHlo.reshape_bufs_sub .., StableHlo.unary_bufs_sub .., StableHlo.unary_bufs_sub .., StableHlo.binary_bufs_sub ..⟩

/-- List 11: 42 operations, ending with the statement that makes %155. -/
abbrev w11 : List (HloOp τ sig (Elt F)) :=
  [ StableHlo.nullary main_cst_23 (constant S_ .f32 0x00000000#32),
    StableHlo.binary main_v141 main_cst_23 main_v142 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    StableHlo.unary main_v142 main_v143 (broadcastInDim S100000x1 ![0] bcast_S100000_S100000x1_0 : (⟨S100000, .f32⟩ : BufTy).Contents (Elt F) → (⟨S100000x1, .f32⟩ : BufTy).Contents (Elt F)),
    StableHlo.nullary main_cst_24 (constant S_ .f32 0x42800000#32),
    StableHlo.unary main_cst_24 main_v144 (broadcastInDim S100000x1 ![] bcast_S_S100000x1 : (⟨S_, .f32⟩ : BufTy).Contents (Elt F) → (⟨S100000x1, .f32⟩ : BufTy).Contents (Elt F)),
    StableHlo.binary main_v143 main_v144 main_v145 (Host.divf : (⟨S100000x1, .f32⟩ : BufTy).Contents (Elt F) → (⟨S100000x1, .f32⟩ : BufTy).Contents (Elt F) → (⟨S100000x1, .f32⟩ : BufTy).Contents (Elt F)),
    StableHlo.nullary main_c_25 (constantI S_ 32 0#32),
    StableHlo.TRef.nullary main_call6.cst (constant S_ .f32 0x00000000#32),
    StableHlo.TRef.binary (.of main_v141) main_call6.cst main_call6.v0 (fun x v => Host.reduceAdd x v reducesTo_S100000x64_S100000_d1 h_S_),
    StableHlo.TRef.unary main_call6.v0 main_call6.v1 (broadcastInDim S100000x1 ![0] bcast_S100000_S100000x1_0),
    StableHlo.TRef.nullary main_call6.cst_0 (constant S_ .f32 0x42800000#32),
    StableHlo.TRef.unary main_call6.cst_0 main_call6.v2 (broadcastInDim S100000x1 ![] bcast_S_S100000x1),
    StableHlo.TRef.binary main_call6.v1 main_call6.v2 main_call6.v3 Host.divf,
    StableHlo.TRef.unary main_call6.v3 main_call6.v4 (broadcastInDim S100000x64 ![0, 1] bcast_S100000x1_S100000x64_0_1),
    StableHlo.TRef.binary (.of main_v141) main_call6.v4 main_call6.v5 subf,
    StableHlo.TRef.binary main_call6.v5 main_call6.v5 main_call6.v6 mulf,
    StableHlo.TRef.unary (.of main_c_25) main_call6.v7 (sitofp .f32),
    StableHlo.TRef.nullary main_call6.cst_1 (constant S_ .f32 0x42800000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S100000x64_S100000_d1 h_S_),
    StableHlo.TRef.unary main_call6.v9 main_call6.v10 (broadcastInDim S100000x1 ![0] bcast_S100000_S100000x1_0),
    StableHlo.TRef.unary main_call6.v8 main_call6.v11 (broadcastInDim S100000x1 ![] bcast_S_S100000x1),
    StableHlo.TRef.binary main_call6.v10 main_call6.v11 main_call6.v12 Host.divf,
    StableHlo.TRef.nullary main_call6.cst_3 (constant S_ .f32 0x00000000#32),
    StableHlo.TRef.binary main_call6.v8 main_call6.cst_3 main_call6.v13 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S100000x1 ![] bcast_S_S100000x1),
    StableHlo.TRef.ternary main_call6.v13 main_call6.v12 main_call6.call0.v1 main_call6.call0.v2 (fun p a b => select (broadcastInDim S100000x1 ![] bcast_S_S100000x1 p) a b),
    StableHlo.unary main_v145 main_v147 (broadcastInDim S100000x64 ![0, 1] bcast_S100000x1_S100000x64_0_1 : (⟨S100000x1, .f32⟩ : BufTy).Contents (Elt F) → (⟨S100000x64, .f32⟩ : BufTy).Contents (Elt F)),
    StableHlo.binary main_v141 main_v147 main_v148 (subf : (⟨S100000x64, .f32⟩ : BufTy).Contents (Elt F) → (⟨S100000x64, .f32⟩ : BufTy).Contents (Elt F) → (⟨S100000x64, .f32⟩ : BufTy).Contents (Elt F)),
    StableHlo.nullary main_cst_26 (constant S_ .f32 0x3727C5AC#32),
    StableHlo.unary main_cst_26 main_v149 (broadcastInDim S100000x1 ![] bcast_S_S100000x1 : (⟨S_, .f32⟩ : BufTy).Contents (Elt F) → (⟨S100000x1, .f32⟩ : BufTy).Contents (Elt F)),
    StableHlo.binary main_v146 main_v149 main_v150 (addf : (⟨S100000x1, .f32⟩ : BufTy).Contents (Elt F) → (⟨S100000x1, .f32⟩ : BufTy).Contents (Elt F) → (⟨S100000x1, .f32⟩ : BufTy).Contents (Elt F)),
    StableHlo.unary main_v150 main_v151 (Host.rsqrt : (⟨S100000x1, .f32⟩ : BufTy).Contents (Elt F) → (⟨S100000x1, .f32⟩ : BufTy).Contents (Elt F)),
    StableHlo.unary main_v151 main_v152 (broadcastInDim S100000x64 ![0, 1] bcast_S100000x1_S100000x64_0_1 : (⟨S100000x1, .f32⟩ : BufTy).Contents (Elt F) → (⟨S100000x64, .f32⟩ : BufTy).Contents (Elt F)),
    StableHlo.binary main_v148 main_v152 main_v153 (mulf : (⟨S100000x64, .f32⟩ : BufTy).Contents (Elt F) → (⟨S100000x64, .f32⟩ : BufTy).Contents (Elt F) → (⟨S100000x64, .f32⟩ : BufTy).Contents (Elt F)),
    StableHlo.TRef.nullary main_call7.cst (constant S_ .f32 0x00000000#32),
    StableHlo.TRef.unary main_call7.cst main_call7.v0 (broadcastInDim S100000x64 ![] bcast_S_S100000x64),
    StableHlo.TRef.binary (.of main_v153) main_call7.v0 main_call7.v1 maximumf,
    StableHlo.binary main_v154 main_v116 main_v155 (addf : (⟨S100000x64, .f32⟩ : BufTy).Contents (Elt F) → (⟨S100000x64, .f32⟩ : BufTy).Contents (Elt F) → (⟨S100000x64, .f32⟩ : BufTy).Contents (Elt F)) ]
/-- Each operation of list 11 touches TensorCore references only. -/
theorem w11_sub : (w11 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub ..⟩

/-- List 12: 19 operations, ending with the statement that makes %170. -/
abbrev w12 : List (HloOp τ sig (Elt F)) :=
  [ StableHlo.binary main_v155 main_arg9 main_v156 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    StableHlo.unary main_arg10 main_v157 (broadcastInDim S1x32 ![1] bcast_S32_S1x32_1 : (⟨S32, .f32⟩ : BufTy).Contents (Elt F) → (⟨S1x32, .f32⟩ : BufTy).Contents (Elt F)),
    StableHlo.unary main_v157 main_v158 (broadcastInDim S100000x32 ![0, 1] bcast_S1x32_S100000x32_0_1 : (⟨S1x32, .f32⟩ : BufTy).Contents (Elt F) → (⟨S100000x32, .f32⟩ : BufTy).Contents (Elt F)),
    StableHlo.binary main_v156 main_v158 main_v159 (addf : (⟨S100000x32, .f32⟩ : BufTy).Contents (Elt F) → (⟨S100000x32, .f32⟩ : BufTy).Contents (Elt F) → (⟨S100000x32, .f32⟩ : BufTy).Contents (Elt F)),
    StableHlo.TRef.nullary main_call8.cst (constant S_ .f32 0x00000000#32),
    StableHlo.TRef.unary main_call8.cst main_call8.v0 (broadcastInDim S100000x32 ![] bcast_S_S100000x32),
    StableHlo.TRef.binary (.of main_v159) main_call8.v0 main_call8.v1 maximumf,
    StableHlo.binary main_v160 main_arg11 main_v161 ((fun l r => Host.dotGeneral dot_S100000x32_S32x1_S100000x1_1_0_0_1_n_n none l r) : (⟨S100000x32, .f32⟩ : BufTy).Contents (Elt F) → (⟨S32x1, .f32⟩ : BufTy).Contents (Elt F) → (⟨S100000x1, .f32⟩ : BufTy).Contents (Elt F)),
    StableHlo.unary main_arg12 main_v162 (broadcastInDim S1x1 ![1] bcast_S1_S1x1_1 : (⟨S1, .f32⟩ : BufTy).Contents (Elt F) → (⟨S1x1, .f32⟩ : BufTy).Contents (Elt F)),
    StableHlo.unary main_v162 main_v163 (broadcastInDim S100000x1 ![0, 1] bcast_S1x1_S100000x1_0_1 : (⟨S1x1, .f32⟩ : BufTy).Contents (Elt F) → (⟨S100000x1, .f32⟩ : BufTy).Contents (Elt F)),
    StableHlo.binary main_v161 main_v163 main_v164 (addf : (⟨S100000x1, .f32⟩ : BufTy).Contents (Elt F) → (⟨S100000x1, .f32⟩ : BufTy).Contents (Elt F) → (⟨S100000x1, .f32⟩ : BufTy).Contents (Elt F)),
    StableHlo.unary main_v164 main_v165 (Host.negf : (⟨S100000x1, .f32⟩ : BufTy).Contents (Elt F) → (⟨S100000x1, .f32⟩ : BufTy).Contents (Elt F)),
    StableHlo.unary main_v165 main_v166 (Host.exp : (⟨S100000x1, .f32⟩ : BufTy).Contents (Elt F) → (⟨S100000x1, .f32⟩ : BufTy).Contents (Elt F)),
    StableHlo.nullary main_cst_27 (constant S_ .f32 0x3F800000#32),
    StableHlo.unary main_cst_27 main_v167 (broadcastInDim S100000x1 ![] bcast_S_S100000x1 : (⟨S_, .f32⟩ : BufTy).Contents (Elt F) → (⟨S100000x1, .f32⟩ : BufTy).Contents (Elt F)),
    StableHlo.binary main_v167 main_v166 main_v168 (addf : (⟨S100000x1, .f32⟩ : BufTy).Contents (Elt F) → (⟨S100000x1, .f32⟩ : BufTy).Contents (Elt F) → (⟨S100000x1, .f32⟩ : BufTy).Contents (Elt F)),
    StableHlo.nullary main_cst_28 (constant S_ .f32 0x3F800000#32),
    StableHlo.unary main_cst_28 main_v169 (broadcastInDim S100000x1 ![] bcast_S_S100000x1 : (⟨S_, .f32⟩ : BufTy).Contents (Elt F) → (⟨S100000x1, .f32⟩ : BufTy).Contents (Elt F)),
    StableHlo.binary main_v169 main_v168 main_v170 (Host.divf : (⟨S100000x1, .f32⟩ : BufTy).Contents (Elt F) → (⟨S100000x1, .f32⟩ : BufTy).Contents (Elt F) → (⟨S100000x1, .f32⟩ : BufTy).Contents (Elt F)) ]
/-- Each operation of list 12 touches TensorCore references only. -/
theorem w12_sub : (w12 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub ..⟩

/-- List 13: 13 operations, ending with the statement that makes %181. -/
abbrev w13 : List (HloOp τ sig (Elt F)) :=
  [ StableHlo.unary main_v170 main_v171 (broadcastInDim S100000x64 ![0, 1] bcast_S100000x1_S100000x64_0_1 : (⟨S100000x1, .f32⟩ : BufTy).Contents (Elt F) → (⟨S100000x64, .f32⟩ : BufTy).Contents (Elt F)),
    StableHlo.binary main_v155 main_v171 main_v172 (mulf : (⟨S100000x64, .f32⟩ : BufTy).Contents (Elt F) → (⟨S100000x64, .f32⟩ : BufTy).Contents (Elt F) → (⟨S100000x64, .f32⟩ : BufTy).Contents (Elt F)),
    StableHlo.binary main_v172 main_arg13 main_v173 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    StableHlo.unary main_arg14 main_v174 (broadcastInDim S1x32 ![1] bcast_S32_S1x32_1 : (⟨S32, .f32⟩ : BufTy).Contents (Elt F) → (⟨S1x32, .f32⟩ : BufTy).Contents (Elt F)),
    StableHlo.unary main_v174 main_v175 (broadcastInDim S100000x32 ![0, 1] bcast_S1x32_S100000x32_0_1 : (⟨S1x32, .f32⟩ : BufTy).Contents (Elt F) → (⟨S100000x32, .f32⟩ : BufTy).Contents (Elt F)),
    StableHlo.binary main_v173 main_v175 main_v176 (addf : (⟨S100000x32, .f32⟩ : BufTy).Contents (Elt F) → (⟨S100000x32, .f32⟩ : BufTy).Contents (Elt F) → (⟨S100000x32, .f32⟩ : BufTy).Contents (Elt F)),
    StableHlo.TRef.nullary main_call9.cst (constant S_ .f32 0x00000000#32),
    StableHlo.TRef.unary main_call9.cst main_call9.v0 (broadcastInDim S100000x32 ![] bcast_S_S100000x32),
    StableHlo.TRef.binary (.of main_v176) main_call9.v0 main_call9.v1 maximumf,
    StableHlo.binary main_v177 main_arg15 main_v178 ((fun l r => Host.dotGeneral dot_S100000x32_S32x4_S100000x4_1_0_0_1_n_n none l r) : (⟨S100000x32, .f32⟩ : BufTy).Contents (Elt F) → (⟨S32x4, .f32⟩ : BufTy).Contents (Elt F) → (⟨S100000x4, .f32⟩ : BufTy).Contents (Elt F)),
    StableHlo.unary main_arg16 main_v179 (broadcastInDim S1x4 ![1] bcast_S4_S1x4_1 : (⟨S4, .f32⟩ : BufTy).Contents (Elt F) → (⟨S1x4, .f32⟩ : BufTy).Contents (Elt F)),
    StableHlo.unary main_v179 main_v180 (broadcastInDim S100000x4 ![0, 1] bcast_S1x4_S100000x4_0_1 : (⟨S1x4, .f32⟩ : BufTy).Contents (Elt F) → (⟨S100000x4, .f32⟩ : BufTy).Contents (Elt F)),
    StableHlo.binary main_v178 main_v180 main_v181 (addf : (⟨S100000x4, .f32⟩ : BufTy).Contents (Elt F) → (⟨S100000x4, .f32⟩ : BufTy).Contents (Elt F) → (⟨S100000x4, .f32⟩ : BufTy).Contents (Elt F)) ]
/-- Each operation of list 13 touches TensorCore references only. -/
theorem w13_sub : (w13 : List (HloOp τ sig (Elt F))).Forall fun op => op.bufs ⊆ StableHlo.tcRefs τ sig :=
  ⟨StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub ..⟩

/-- The fourteen lists, in order. -/
abbrev wins : List (List (HloOp τ sig (Elt F))) := [w0, w1, w2, w3, w4, w5, w6, w7, w8, w9, w10, w11, w12, w13]

end Cert.RefOps

end
-- ==== Proof.RefRun.lean ====
/-
  The reference's run: its @main is one straight line of host operations (the fourteen lists of RefOps.lean in order),
  so every weakly fair execution terminates with each TensorCore buffer at the fold of the operations' results over the
  launch contents.
-/
import proofs.«403540_j78005196030173_1_alg».proof.Proof.RefOps

noncomputable section

namespace Cert.RefRun

open Idealize.ShloMosaic Idealize.ShloMosaic.TcCoe Idealize.SL.Sem Idealize.ShloMosaic.StableHlo Cert.ReferenceIdeal Cert.RefOps

variable {F : FTy → Type} [FloatOps F] [Cert.ReferenceIdeal.Facts]

/-- All the operations of @main, in order. -/
abbrev ops : List (HloOp τ sig (Elt F)) :=
  w0 ++ w1 ++ w2 ++ w3 ++ w4 ++ w5 ++ w6 ++ w7 ++ w8 ++ w9 ++ w10 ++ w11 ++ w12 ++ w13

-- some three hundred binds re-associated
set_option maxRecDepth 8192 in
set_option maxHeartbeats 4000000 in
/-- @main is that straight line: the module-local functions unfolded at their calls, the sequencing re-associated. -/
theorem main_eq (c : Dev nD) : main (F := F) c = seq ops := by
  simp only [main, main_part0, main_part1, main_part2, main_part3, fn_relu.body, fn_where.body, fn_where_0.body, fn_var.body,
    fn_relu_1.body, ops, w0, w1, w2, w3, w4, w5, w6, w7, w8, w9, w10, w11, w12, w13, List.cons_append, List.nil_append, seq,
    bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- A property of every operation of two lists holds of every operation of their concatenation. -/
theorem forall_append {α : Type} {p : α → Prop} {l₁ l₂ : List α} (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

theorem ops_sub : (ops : List (HloOp τ sig (Elt F))).Forall fun op => op.bufs ⊆ tcRefs τ sig :=
  forall_append (forall_append (forall_append (forall_append (forall_append (forall_append (forall_append (forall_append
    (forall_append (forall_append (forall_append (forall_append (forall_append w0_sub w1_sub) w2_sub) w3_sub) w4_sub) w5_sub)
    w6_sub) w7_sub) w8_sub) w9_sub) w10_sub) w11_sub) w12_sub) w13_sub

/-- No operation allocates a buffer. -/
theorem ops_fresh : ∀ op ∈ (ops : List (HloOp τ sig (Elt F))), op.fresh = ∅ := by
  intro op h
  simp only [ops, w0, w1, w2, w3, w4, w5, w6, w7, w8, w9, w10, w11, w12, w13, List.cons_append, List.nil_append] at h
  repeat (cases h with | head => rfl | tail _ h => ?_)
  exact nomatch h

/-- The fold over a concatenation is the fold over the second list of the fold over the first. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- The fold of the fourteen lists in order is the fold of the lists one after the other. -/
theorem after_ops (V : Valuation τ sig (Elt F)) :
    after ops V = after w13 (after w12 (after w11 (after w10 (after w9 (after w8 (after w7 (after w6 (after w5 (after w4
      (after w3 (after w2 (after w1 (after w0 V))))))))))))) := by
  simp only [ops, after_app]

/-- On every device, from any memory with zero counters: every weakly fair execution of the reference's @main terminates,
    each TensorCore buffer at the fold of the operations over its launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.RefRun

end
-- ==== Proof.RefLive.lean ====
/-
  What the reference's buffers hold after each of its fourteen stretches of host operations, as the network's named
  values (Spec.lean) of the inputs: the chain of invariants the reference's run is read through.
-/
import proofs.«403540_j78005196030173_1_alg».proof.Proof.Spec
import proofs.«403540_j78005196030173_1_alg».proof.Proof.RefOps

noncomputable section

namespace Cert.RefLive

open Idealize.ShloMosaic Idealize.SL.Sem Cert.ReferenceIdeal Cert.Spec

variable [Cert.ReferenceIdeal.Facts]

/-- The contents of the reference's TensorCore buffers, on the extended reals. -/
abbrev Val := Valuation τ sig (Elt Ideal)
/-- A reference of the program as a device buffer. -/
abbrev r (b : Ref sig .tc) : DevRef τ sig := Proc.devRef .tc b

/-- The inputs a valuation holds in the argument buffers. -/
def inputsOf (V : Val) : Inputs where
  x := V (r main_arg0)
  ea := V (r main_arg1)
  ei := V (r main_arg2)
  We := V (r main_arg3)
  be := V (r main_arg4)
  Win := V (r main_arg5)
  bin := V (r main_arg6)
  Wg := V (r main_arg7)
  bg := V (r main_arg8)
  Wa1 := V (r main_arg9)
  ba1 := V (r main_arg10)
  Wa2 := V (r main_arg11)
  ba2 := V (r main_arg12)
  Wc1 := V (r main_arg13)
  bc1 := V (r main_arg14)
  Wc2 := V (r main_arg15)
  bc2 := V (r main_arg16)

/-- The argument buffers hold the inputs `I`. -/
def Args (V : Val) (I : Inputs) : Prop :=
  V (r main_arg0) = I.x ∧ V (r main_arg1) = I.ea ∧ V (r main_arg2) = I.ei ∧ V (r main_arg3) = I.We ∧ V (r main_arg4) = I.be
  ∧ V (r main_arg5) = I.Win ∧ V (r main_arg6) = I.bin ∧ V (r main_arg7) = I.Wg ∧ V (r main_arg8) = I.bg ∧ V (r main_arg9) = I.Wa1
  ∧ V (r main_arg10) = I.ba1 ∧ V (r main_arg11) = I.Wa2 ∧ V (r main_arg12) = I.ba2 ∧ V (r main_arg13) = I.Wc1
  ∧ V (r main_arg14) = I.bc1 ∧ V (r main_arg15) = I.Wc2 ∧ V (r main_arg16) = I.bc2

/-- The edge data every layer reads: sources, destinations, the edges' and the nodes' normalisations. -/
def Edges (V : Val) (I : Inputs) : Prop :=
  V (r main_v1) = vSrc I ∧ V (r main_v3) = vDst I ∧ V (r main_v38) = vNrm I ∧ V (r main_v39) = vSn I

/-- After list 0: sources, destinations, the projected features and the edge weights. -/
def L0 (V : Val) (I : Inputs) : Prop :=
  Args V I ∧ V (r main_v1) = vSrc I ∧ V (r main_v3) = vDst I ∧ V (r main_v8) = vH0 I ∧ V (r main_v13) = vEw I
/-- After list 1: also the inverse root degrees. -/
def L1 (V : Val) (I : Inputs) : Prop := L0 V I ∧ V (r main_v22) = vDinv I
/-- After list 2: the edge data and the projected features. -/
def L2 (V : Val) (I : Inputs) : Prop := Args V I ∧ Edges V I ∧ V (r main_v8) = vH0 I
/-- After list 3: also the first layer's linear map. -/
def L3 (V : Val) (I : Inputs) : Prop := L2 V I ∧ V (r main_v42) = fHw (vH0 I) (fWg0 I.Wg)
/-- After list 4: the first layer's value before the normalisation. -/
def L4 (V : Val) (I : Inputs) : Prop := Args V I ∧ Edges V I ∧ V (r main_v64) = vOutOf I (vH0 I) (fWg0 I.Wg) (fBg0 I.bg)
/-- After list 5: the first layer's output. -/
def L5 (V : Val) (I : Inputs) : Prop := Args V I ∧ Edges V I ∧ V (r main_v77) = vH1 I
def L6 (V : Val) (I : Inputs) : Prop := L5 V I ∧ V (r main_v80) = fHw (vH1 I) (fWg1 I.Wg)
def L7 (V : Val) (I : Inputs) : Prop :=
  Args V I ∧ Edges V I ∧ V (r main_v77) = vH1 I ∧ V (r main_v102) = vOutOf I (vH1 I) (fWg1 I.Wg) (fBg1 I.bg)
/-- After list 8: the second layer's output. -/
def L8 (V : Val) (I : Inputs) : Prop := Args V I ∧ Edges V I ∧ V (r main_v116) = vH2 I
def L9 (V : Val) (I : Inputs) : Prop := L8 V I ∧ V (r main_v119) = fHw (vH2 I) (fWg2 I.Wg)
def L10 (V : Val) (I : Inputs) : Prop :=
  Args V I ∧ Edges V I ∧ V (r main_v116) = vH2 I ∧ V (r main_v141) = vOutOf I (vH2 I) (fWg2 I.Wg) (fBg2 I.bg)
/-- After list 11: the third layer's output. -/
def L11 (V : Val) (I : Inputs) : Prop := Args V I ∧ V (r main_v155) = vH3 I
/-- After list 12: also the gate. -/
def L12 (V : Val) (I : Inputs) : Prop := L11 V I ∧ V (r main_v170) = vAttn I
/-- After list 13: the gate and the logits, the arguments as they were. -/
def L13 (V : Val) (I : Inputs) : Prop := Args V I ∧ V (r main_v170) = vAttn I ∧ V (r main_v181) = vLogits I

end Cert.RefLive

end
-- ==== Proof.RefSteps0.lean ====
/-
  Three of the reference's stretches of host operations, read through the network's named values: the edge lists,
  the input projection and the edge weights (list 0); the degrees and their inverse roots (list 1); the first layer's
  linear map (list 3).

  Each stretch is a literal list of operations, so what a buffer holds after it is the fold of the operations'
  results from the contents before: at a buffer the list writes, the stage function of the contents the list reads
  (the stage functions are these very operations composed); at a buffer it does not write, the contents before.
-/
import proofs.«403540_j78005196030173_1_alg».proof.Proof.RefLive

noncomputable section

namespace Cert.RefSteps

open Idealize.ShloMosaic Idealize.SL.Sem Cert.ReferenceIdeal Cert.RefOps Cert.RefLive

variable [Cert.ReferenceIdeal.Facts]

-- the gathers, segment sums and row sums are read as wholes: no equation below looks inside one
attribute [local irreducible] Host.gather Host.scatterAdd Host.reduceAdd

/-! ## List 0: the edge lists, the input projection, the edge weights -/

/-- Row 0 of the edge list, as a vector. -/
theorem w0_v1 (V : Val) : StableHlo.after (w0 (F := Ideal)) V (r main_v1) = Spec.fSrc (V (r main_arg2)) := by
  simp only [w0, StableHlo.after_cons, StableHlo.after_nil]
  rfl
/-- Row 1 of the edge list, as a vector. -/
theorem w0_v3 (V : Val) : StableHlo.after (w0 (F := Ideal)) V (r main_v3) = Spec.fDst (V (r main_arg2)) := by
  simp only [w0, StableHlo.after_cons, StableHlo.after_nil]
  rfl
/-- The positive part of `x·W_in + b_in`, the bias spread as a row over the nodes. -/
theorem w0_v8 (V : Val) : StableHlo.after (w0 (F := Ideal)) V (r main_v8)
    = Spec.fH0 (V (r main_arg0)) (V (r main_arg5)) (Spec.fAsRow64 (V (r main_arg6))) := by
  simp only [w0, StableHlo.after_cons, StableHlo.after_nil]
  rfl
/-- `edge_attr · We + be`, as a vector over the edges. -/
theorem w0_v13 (V : Val) : StableHlo.after (w0 (F := Ideal)) V (r main_v13)
    = Spec.fEw (V (r main_arg1)) (V (r main_arg3)) (V (r main_arg4)) := by
  simp only [w0, StableHlo.after_cons, StableHlo.after_nil]
  rfl
/-- List 0 writes none of the seventeen argument buffers. -/
theorem w0_args (V : Val) (I : Spec.Inputs) (h : Args V I) : Args (StableHlo.after (w0 (F := Ideal)) V) I := by
  unfold Args at h ⊢
  obtain ⟨h0, h1, h2, h3, h4, h5, h6, h7, h8, h9, h10, h11, h12, h13, h14, h15, h16⟩ := h
  refine ⟨Eq.trans ?_ h0, Eq.trans ?_ h1, Eq.trans ?_ h2, Eq.trans ?_ h3, Eq.trans ?_ h4, Eq.trans ?_ h5, Eq.trans ?_ h6, Eq.trans ?_ h7, Eq.trans ?_ h8, Eq.trans ?_ h9, Eq.trans ?_ h10, Eq.trans ?_ h11, Eq.trans ?_ h12, Eq.trans ?_ h13, Eq.trans ?_ h14, Eq.trans ?_ h15, Eq.trans ?_ h16⟩ <;>
    (simp only [w0, StableHlo.after_cons, StableHlo.after_nil]; rfl)

theorem step0 (V : Val) (I : Spec.Inputs) (h : Args V I) : L0 (StableHlo.after (w0 (F := Ideal)) V) I := by
  have ha := w0_args V I h
  unfold Args at h
  obtain ⟨h0, h1, h2, h3, h4, h5, h6, -⟩ := h
  unfold L0
  refine ⟨ha, ?_, ?_, ?_, ?_⟩
  · rw [w0_v1, h2]; rfl
  · rw [w0_v3, h2]; rfl
  · rw [w0_v8, h0, h5, h6]; rfl
  · rw [w0_v13, h1, h3, h4]; rfl

/-! ## List 1: the degrees and their inverse roots -/

/-- Reading back what was stored at a typed reference: the two transports along the reference's type equation cancel. -/
theorem ofBuf_toBuf {T : BufTy} (x : StableHlo.TRef sig T) (v : T.Contents (Elt Ideal)) : x.ofBuf (x.toBuf v) = v := by
  obtain ⟨b, rfl, _, _⟩ := x; rfl
/-- At the literal references of the inverse root's selection the transports along the type equations are the identity. -/
theorem cast_v22 (v : Spec.TF S100000) : (StableHlo.TRef.of (T := ⟨S100000, .f32⟩) main_v22).toBuf (Val := Elt Ideal) v = v := rfl
theorem cast_cst_2 (v : Spec.TF S_) : (StableHlo.TRef.of (T := ⟨S_, .f32⟩) main_cst_2).ofBuf (Val := Elt Ideal) v = v := rfl

/-- The inverse root of `1 + Σ_{dst e = n} ew e` where that is positive, `0` elsewhere: the operations' results composed,
    the transports removed one by one, are the stage functions' term as it stands. -/
theorem w1_v22 (V : Val) : StableHlo.after (w1 (F := Ideal)) V (r main_v22)
    = Spec.fDinv (Spec.fDeg (V (r main_v3)) (V (r main_v13))) := by
  simp only [w1]
  after_results_simp
  simp only [Spec.fDinv, Spec.fDeg, ofBuf_toBuf, cast_v22, cast_cst_2, id]
  rfl
theorem w1_v1 (V : Val) : StableHlo.after (w1 (F := Ideal)) V (r main_v1) = V (r main_v1) := by
  simp only [w1, StableHlo.after_cons, StableHlo.after_nil]
  rfl
theorem w1_v3 (V : Val) : StableHlo.after (w1 (F := Ideal)) V (r main_v3) = V (r main_v3) := by
  simp only [w1, StableHlo.after_cons, StableHlo.after_nil]
  rfl
theorem w1_v8 (V : Val) : StableHlo.after (w1 (F := Ideal)) V (r main_v8) = V (r main_v8) := by
  simp only [w1, StableHlo.after_cons, StableHlo.after_nil]
  rfl
theorem w1_v13 (V : Val) : StableHlo.after (w1 (F := Ideal)) V (r main_v13) = V (r main_v13) := by
  simp only [w1, StableHlo.after_cons, StableHlo.after_nil]
  rfl
/-- List 1 writes none of the seventeen argument buffers. -/
theorem w1_args (V : Val) (I : Spec.Inputs) (h : Args V I) : Args (StableHlo.after (w1 (F := Ideal)) V) I := by
  unfold Args at h ⊢
  obtain ⟨h0, h1, h2, h3, h4, h5, h6, h7, h8, h9, h10, h11, h12, h13, h14, h15, h16⟩ := h
  refine ⟨Eq.trans ?_ h0, Eq.trans ?_ h1, Eq.trans ?_ h2, Eq.trans ?_ h3, Eq.trans ?_ h4, Eq.trans ?_ h5, Eq.trans ?_ h6, Eq.trans ?_ h7, Eq.trans ?_ h8, Eq.trans ?_ h9, Eq.trans ?_ h10, Eq.trans ?_ h11, Eq.trans ?_ h12, Eq.trans ?_ h13, Eq.trans ?_ h14, Eq.trans ?_ h15, Eq.trans ?_ h16⟩ <;>
    (simp only [w1, StableHlo.after_cons, StableHlo.after_nil]; rfl)

theorem step1 (V : Val) (I : Spec.Inputs) (h : L0 V I) : L1 (StableHlo.after (w1 (F := Ideal)) V) I := by
  unfold L0 at h
  obtain ⟨ha, h1, h3, h8, h13⟩ := h
  unfold L1 L0
  refine ⟨⟨w1_args V I ha, (w1_v1 V).trans h1, (w1_v3 V).trans h3, (w1_v8 V).trans h8, (w1_v13 V).trans h13⟩, ?_⟩
  rw [w1_v22, h3, h13]; rfl

/-! ## List 3: the first layer's linear map -/

/-- `h0 · W_g[0]`, the matrix being slice 0 of the three. -/
theorem w3_v42 (V : Val) : StableHlo.after (w3 (F := Ideal)) V (r main_v42)
    = Spec.fHw (V (r main_v8)) (Spec.fWg0 (V (r main_arg7))) := by
  simp only [w3, StableHlo.after_cons, StableHlo.after_nil]
  rfl
theorem w3_v1 (V : Val) : StableHlo.after (w3 (F := Ideal)) V (r main_v1) = V (r main_v1) := by
  simp only [w3, StableHlo.after_cons, StableHlo.after_nil]
  rfl
theorem w3_v3 (V : Val) : StableHlo.after (w3 (F := Ideal)) V (r main_v3) = V (r main_v3) := by
  simp only [w3, StableHlo.after_cons, StableHlo.after_nil]
  rfl
theorem w3_v38 (V : Val) : StableHlo.after (w3 (F := Ideal)) V (r main_v38) = V (r main_v38) := by
  simp only [w3, StableHlo.after_cons, StableHlo.after_nil]
  rfl
theorem w3_v39 (V : Val) : StableHlo.after (w3 (F := Ideal)) V (r main_v39) = V (r main_v39) := by
  simp only [w3, StableHlo.after_cons, StableHlo.after_nil]
  rfl
theorem w3_v8 (V : Val) : StableHlo.after (w3 (F := Ideal)) V (r main_v8) = V (r main_v8) := by
  simp only [w3, StableHlo.after_cons, StableHlo.after_nil]
  rfl
/-- List 3 writes none of the seventeen argument buffers. -/
theorem w3_args (V : Val) (I : Spec.Inputs) (h : Args V I) : Args (StableHlo.after (w3 (F := Ideal)) V) I := by
  unfold Args at h ⊢
  obtain ⟨h0, h1, h2, h3, h4, h5, h6, h7, h8, h9, h10, h11, h12, h13, h14, h15, h16⟩ := h
  refine ⟨Eq.trans ?_ h0, Eq.trans ?_ h1, Eq.trans ?_ h2, Eq.trans ?_ h3, Eq.trans ?_ h4, Eq.trans ?_ h5, Eq.trans ?_ h6, Eq.trans ?_ h7, Eq.trans ?_ h8, Eq.trans ?_ h9, Eq.trans ?_ h10, Eq.trans ?_ h11, Eq.trans ?_ h12, Eq.trans ?_ h13, Eq.trans ?_ h14, Eq.trans ?_ h15, Eq.trans ?_ h16⟩ <;>
    (simp only [w3, StableHlo.after_cons, StableHlo.after_nil]; rfl)

theorem step3 (V : Val) (I : Spec.Inputs) (h : L2 V I) : L3 (StableHlo.after (w3 (F := Ideal)) V) I := by
  unfold L2 Edges at h
  obtain ⟨ha, ⟨h1, h3, h38, h39⟩, h8⟩ := h
  have h7 : V (r main_arg7) = I.Wg := by unfold Args at ha; exact ha.2.2.2.2.2.2.2.1
  unfold L3 L2 Edges
  refine ⟨⟨w3_args V I ha, ⟨(w3_v1 V).trans h1, (w3_v3 V).trans h3, (w3_v38 V).trans h38, (w3_v39 V).trans h39⟩,
    (w3_v8 V).trans h8⟩, ?_⟩
  rw [w3_v42, h8, h7]

end Cert.RefSteps

end
-- ==== Proof.RefSteps1.lean ====
/-
  The reference's stretches 5 to 13 of host operations, read as the network's stages: each of the three row-wise
  normalisations (mean, centred mean square over the divisor 64, inverse root, positive part, and from the second layer
  on the residual sum), the second and third layers' linear maps and aggregations, the gate and the logits. For each
  stretch: the value it leaves in the buffer the next stage reads, as a stage function of the buffers it reads; that it
  leaves the arguments, the edge data and the earlier layer outputs alone; and from these the step of the invariant chain.
-/
import proofs.«403540_j78005196030173_1_alg».proof.Proof.RefLive

set_option maxRecDepth 8192
set_option maxHeartbeats 400000

noncomputable section

namespace Cert.RefSteps

open Idealize.ShloMosaic Idealize.SL.Sem Cert.ReferenceIdeal Cert.RefOps Cert.RefLive

variable [Cert.ReferenceIdeal.Facts]

/- Row sums, gathers, scattered sums and matrix products stay closed throughout: both sides of every equation below
   carry them applied to the same operands, and no equation looks inside them. -/
attribute [local irreducible] Host.reduceAdd Host.gather Host.scatterAdd Ideal.matmul

/-! ## The first layer's normalisation (list 5) -/

/-- List 5 writes none of the seventeen argument buffers. -/
theorem w5_args (V : Val) (I : Spec.Inputs) (h : Args V I) : Args (StableHlo.after (w5 (F := Ideal)) V) I := by
  obtain ⟨h0, h1, h2, h3, h4, h5, h6, h7, h8, h9, h10, h11, h12, h13, h14, h15, h16⟩ := h
  simp only [w5, StableHlo.after_cons, StableHlo.after_nil]
  exact ⟨h0, h1, h2, h3, h4, h5, h6, h7, h8, h9, h10, h11, h12, h13, h14, h15, h16⟩

/-- List 5 writes none of the four edge buffers. -/
theorem w5_edges (V : Val) (I : Spec.Inputs) (h : Edges V I) : Edges (StableHlo.after (w5 (F := Ideal)) V) I := by
  obtain ⟨h0, h1, h2, h3⟩ := h
  simp only [w5, StableHlo.after_cons, StableHlo.after_nil]
  exact ⟨h0, h1, h2, h3⟩

/-- The mean is the row sum over 64; the variance is the row sum of the centred squares over `64 - 0`, kept where that divisor is positive; the output is the positive part of the centred row times `(var + ε)^(-1/2)`: the normalisation of the buffer read. -/
theorem w5_v77 (V : Val) :
    StableHlo.after (w5 (F := Ideal)) V (r main_v77) = Spec.fLn (V (r main_v64)) := by
  simp only [w5, StableHlo.after_cons, StableHlo.after_nil]
  rfl

/-- The first layer's output. -/
theorem step5 (V : Val) (I : Spec.Inputs) (h : L4 V I) : L5 (StableHlo.after (w5 (F := Ideal)) V) I := by
  obtain ⟨ha, he, hv⟩ := h
  exact ⟨w5_args V I ha, w5_edges V I he, (w5_v77 V).trans (by rw [hv]; rfl)⟩

/-! ## The second layer (lists 6, 7, 8) -/

/-- List 6 writes none of the seventeen argument buffers. -/
theorem w6_args (V : Val) (I : Spec.Inputs) (h : Args V I) : Args (StableHlo.after (w6 (F := Ideal)) V) I := by
  obtain ⟨h0, h1, h2, h3, h4, h5, h6, h7, h8, h9, h10, h11, h12, h13, h14, h15, h16⟩ := h
  simp only [w6, StableHlo.after_cons, StableHlo.after_nil]
  exact ⟨h0, h1, h2, h3, h4, h5, h6, h7, h8, h9, h10, h11, h12, h13, h14, h15, h16⟩

/-- List 6 writes none of the four edge buffers. -/
theorem w6_edges (V : Val) (I : Spec.Inputs) (h : Edges V I) : Edges (StableHlo.after (w6 (F := Ideal)) V) I := by
  obtain ⟨h0, h1, h2, h3⟩ := h
  simp only [w6, StableHlo.after_cons, StableHlo.after_nil]
  exact ⟨h0, h1, h2, h3⟩

/-- List 6 does not write the first layer's output. -/
theorem w6_v77 (V : Val) : StableHlo.after (w6 (F := Ideal)) V (r main_v77) = V (r main_v77) := by
  simp only [w6, StableHlo.after_cons, StableHlo.after_nil]
  rfl

/-- The product of the first layer's output with slice 1 of the layer matrices. -/
theorem w6_v80 (V : Val) :
    StableHlo.after (w6 (F := Ideal)) V (r main_v80) = Spec.fHw (V (r main_v77)) (Spec.fWg1 (V (r main_arg7))) := by
  simp only [w6, StableHlo.after_cons, StableHlo.after_nil]
  rfl

/-- The second layer's linear map. -/
theorem step6 (V : Val) (I : Spec.Inputs) (h : L5 V I) : L6 (StableHlo.after (w6 (F := Ideal)) V) I := by
  obtain ⟨ha, he, hv⟩ := h
  have h7 := ha.2.2.2.2.2.2.2.1
  exact ⟨⟨w6_args V I ha, w6_edges V I he, (w6_v77 V).trans hv⟩, (w6_v80 V).trans (by rw [hv, h7])⟩

/-- List 7 writes none of the seventeen argument buffers. -/
theorem w7_args (V : Val) (I : Spec.Inputs) (h : Args V I) : Args (StableHlo.after (w7 (F := Ideal)) V) I := by
  obtain ⟨h0, h1, h2, h3, h4, h5, h6, h7, h8, h9, h10, h11, h12, h13, h14, h15, h16⟩ := h
  simp only [w7, StableHlo.after_cons, StableHlo.after_nil]
  exact ⟨h0, h1, h2, h3, h4, h5, h6, h7, h8, h9, h10, h11, h12, h13, h14, h15, h16⟩

/-- List 7 writes none of the four edge buffers. -/
theorem w7_edges (V : Val) (I : Spec.Inputs) (h : Edges V I) : Edges (StableHlo.after (w7 (F := Ideal)) V) I := by
  obtain ⟨h0, h1, h2, h3⟩ := h
  simp only [w7, StableHlo.after_cons, StableHlo.after_nil]
  exact ⟨h0, h1, h2, h3⟩

/-- List 7 does not write the first layer's output. -/
theorem w7_v77 (V : Val) : StableHlo.after (w7 (F := Ideal)) V (r main_v77) = V (r main_v77) := by
  simp only [w7, StableHlo.after_cons, StableHlo.after_nil]
  rfl

/-- The rows of the linear map at the edges' sources, scaled by the edges' weights and summed into their destinations, plus the map scaled by the self weight, plus row 1 of the layer biases. -/
theorem w7_v102 (V : Val) :
    StableHlo.after (w7 (F := Ideal)) V (r main_v102) = Spec.fOut (Spec.fAggOf (Spec.fRows (V (r main_v80)) (V (r main_v1))) (V (r main_v38)) (V (r main_v3)))
        (V (r main_v80)) (Spec.fAsCol (V (r main_v39))) (Spec.fAsRow64 (Spec.fBg1 (V (r main_arg8)))) := by
  simp only [w7]
  after_results_simp
  simp only [Spec.fOut, Spec.fAggOf, Spec.fRows, Spec.fAsCol, Spec.fAsRow64, Spec.fBg1, Spec.fCol64, Spec.fRow64, Spec.fZero64, Spec.fWrap]
  rfl

/-- The second layer's value before the normalisation. -/
theorem step7 (V : Val) (I : Spec.Inputs) (h : L6 V I) : L7 (StableHlo.after (w7 (F := Ideal)) V) I := by
  obtain ⟨⟨ha, he, hv⟩, hw⟩ := h
  have h8 := ha.2.2.2.2.2.2.2.2.1
  obtain ⟨e1, e3, e38, e39⟩ := he
  exact ⟨w7_args V I ha, w7_edges V I ⟨e1, e3, e38, e39⟩, (w7_v77 V).trans hv,
    (w7_v102 V).trans (by rw [hw, e1, e3, e38, e39, h8]; rfl)⟩

/-- List 8 writes none of the seventeen argument buffers. -/
theorem w8_args (V : Val) (I : Spec.Inputs) (h : Args V I) : Args (StableHlo.after (w8 (F := Ideal)) V) I := by
  obtain ⟨h0, h1, h2, h3, h4, h5, h6, h7, h8, h9, h10, h11, h12, h13, h14, h15, h16⟩ := h
  simp only [w8, StableHlo.after_cons, StableHlo.after_nil]
  exact ⟨h0, h1, h2, h3, h4, h5, h6, h7, h8, h9, h10, h11, h12, h13, h14, h15, h16⟩

/-- List 8 writes none of the four edge buffers. -/
theorem w8_edges (V : Val) (I : Spec.Inputs) (h : Edges V I) : Edges (StableHlo.after (w8 (F := Ideal)) V) I := by
  obtain ⟨h0, h1, h2, h3⟩ := h
  simp only [w8, StableHlo.after_cons, StableHlo.after_nil]
  exact ⟨h0, h1, h2, h3⟩

/-- The normalisation of the buffer read, plus the first layer's output. -/
theorem w8_v116 (V : Val) :
    StableHlo.after (w8 (F := Ideal)) V (r main_v116) = addf (Spec.fLn (V (r main_v102))) (V (r main_v77)) := by
  simp only [w8, StableHlo.after_cons, StableHlo.after_nil]
  rfl

/-- The second layer's output. -/
theorem step8 (V : Val) (I : Spec.Inputs) (h : L7 V I) : L8 (StableHlo.after (w8 (F := Ideal)) V) I := by
  obtain ⟨ha, he, hv, ho⟩ := h
  exact ⟨w8_args V I ha, w8_edges V I he, (w8_v116 V).trans (by rw [ho, hv]; rfl)⟩

/-! ## The third layer (lists 9, 10, 11) -/

/-- List 9 writes none of the seventeen argument buffers. -/
theorem w9_args (V : Val) (I : Spec.Inputs) (h : Args V I) : Args (StableHlo.after (w9 (F := Ideal)) V) I := by
  obtain ⟨h0, h1, h2, h3, h4, h5, h6, h7, h8, h9, h10, h11, h12, h13, h14, h15, h16⟩ := h
  simp only [w9, StableHlo.after_cons, StableHlo.after_nil]
  exact ⟨h0, h1, h2, h3, h4, h5, h6, h7, h8, h9, h10, h11, h12, h13, h14, h15, h16⟩

/-- List 9 writes none of the four edge buffers. -/
theorem w9_edges (V : Val) (I : Spec.Inputs) (h : Edges V I) : Edges (StableHlo.after (w9 (F := Ideal)) V) I := by
  obtain ⟨h0, h1, h2, h3⟩ := h
  simp only [w9, StableHlo.after_cons, StableHlo.after_nil]
  exact ⟨h0, h1, h2, h3⟩

/-- List 9 does not write the second layer's output. -/
theorem w9_v116 (V : Val) : StableHlo.after (w9 (F := Ideal)) V (r main_v116) = V (r main_v116) := by
  simp only [w9, StableHlo.after_cons, StableHlo.after_nil]
  rfl

/-- The product of the second layer's output with slice 2 of the layer matrices. -/
theorem w9_v119 (V : Val) :
    StableHlo.after (w9 (F := Ideal)) V (r main_v119) = Spec.fHw (V (r main_v116)) (Spec.fWg2 (V (r main_arg7))) := by
  simp only [w9, StableHlo.after_cons, StableHlo.after_nil]
  rfl

/-- The third layer's linear map. -/
theorem step9 (V : Val) (I : Spec.Inputs) (h : L8 V I) : L9 (StableHlo.after (w9 (F := Ideal)) V) I := by
  obtain ⟨ha, he, hv⟩ := h
  have h7 := ha.2.2.2.2.2.2.2.1
  exact ⟨⟨w9_args V I ha, w9_edges V I he, (w9_v116 V).trans hv⟩, (w9_v119 V).trans (by rw [hv, h7])⟩

/-- List 10 writes none of the seventeen argument buffers. -/
theorem w10_args (V : Val) (I : Spec.Inputs) (h : Args V I) : Args (StableHlo.after (w10 (F := Ideal)) V) I := by
  obtain ⟨h0, h1, h2, h3, h4, h5, h6, h7, h8, h9, h10, h11, h12, h13, h14, h15, h16⟩ := h
  simp only [w10, StableHlo.after_cons, StableHlo.after_nil]
  exact ⟨h0, h1, h2, h3, h4, h5, h6, h7, h8, h9, h10, h11, h12, h13, h14, h15, h16⟩

/-- List 10 writes none of the four edge buffers. -/
theorem w10_edges (V : Val) (I : Spec.Inputs) (h : Edges V I) : Edges (StableHlo.after (w10 (F := Ideal)) V) I := by
  obtain ⟨h0, h1, h2, h3⟩ := h
  simp only [w10, StableHlo.after_cons, StableHlo.after_nil]
  exact ⟨h0, h1, h2, h3⟩

/-- List 10 does not write the second layer's output. -/
theorem w10_v116 (V : Val) : StableHlo.after (w10 (F := Ideal)) V (r main_v116) = V (r main_v116) := by
  simp only [w10, StableHlo.after_cons, StableHlo.after_nil]
  rfl

/-- The rows of the linear map at the edges' sources, scaled by the edges' weights and summed into their destinations, plus the map scaled by the self weight, plus row 2 of the layer biases. -/
theorem w10_v141 (V : Val) :
    StableHlo.after (w10 (F := Ideal)) V (r main_v141) = Spec.fOut (Spec.fAggOf (Spec.fRows (V (r main_v119)) (V (r main_v1))) (V (r main_v38)) (V (r main_v3)))
        (V (r main_v119)) (Spec.fAsCol (V (r main_v39))) (Spec.fAsRow64 (Spec.fBg2 (V (r main_arg8)))) := by
  simp only [w10]
  after_results_simp
  simp only [Spec.fOut, Spec.fAggOf, Spec.fRows, Spec.fAsCol, Spec.fAsRow64, Spec.fBg2, Spec.fCol64, Spec.fRow64, Spec.fZero64, Spec.fWrap]
  rfl

/-- The third layer's value before the normalisation. -/
theorem step10 (V : Val) (I : Spec.Inputs) (h : L9 V I) : L10 (StableHlo.after (w10 (F := Ideal)) V) I := by
  obtain ⟨⟨ha, he, hv⟩, hw⟩ := h
  have h8 := ha.2.2.2.2.2.2.2.2.1
  obtain ⟨e1, e3, e38, e39⟩ := he
  exact ⟨w10_args V I ha, w10_edges V I ⟨e1, e3, e38, e39⟩, (w10_v116 V).trans hv,
    (w10_v141 V).trans (by rw [hw, e1, e3, e38, e39, h8]; rfl)⟩

/-- List 11 writes none of the seventeen argument buffers. -/
theorem w11_args (V : Val) (I : Spec.Inputs) (h : Args V I) : Args (StableHlo.after (w11 (F := Ideal)) V) I := by
  obtain ⟨h0, h1, h2, h3, h4, h5, h6, h7, h8, h9, h10, h11, h12, h13, h14, h15, h16⟩ := h
  simp only [w11, StableHlo.after_cons, StableHlo.after_nil]
  exact ⟨h0, h1, h2, h3, h4, h5, h6, h7, h8, h9, h10, h11, h12, h13, h14, h15, h16⟩

/-- The normalisation of the buffer read, plus the second layer's output. -/
theorem w11_v155 (V : Val) :
    StableHlo.after (w11 (F := Ideal)) V (r main_v155) = addf (Spec.fLn (V (r main_v141))) (V (r main_v116)) := by
  simp only [w11, StableHlo.after_cons, StableHlo.after_nil]
  rfl

/-- The third layer's output. -/
theorem step11 (V : Val) (I : Spec.Inputs) (h : L10 V I) : L11 (StableHlo.after (w11 (F := Ideal)) V) I := by
  obtain ⟨ha, he, hv, ho⟩ := h
  exact ⟨w11_args V I ha, (w11_v155 V).trans (by rw [ho, hv]; rfl)⟩

/-! ## The head (lists 12, 13) -/

/-- List 12 writes none of the seventeen argument buffers. -/
theorem w12_args (V : Val) (I : Spec.Inputs) (h : Args V I) : Args (StableHlo.after (w12 (F := Ideal)) V) I := by
  obtain ⟨h0, h1, h2, h3, h4, h5, h6, h7, h8, h9, h10, h11, h12, h13, h14, h15, h16⟩ := h
  simp only [w12, StableHlo.after_cons, StableHlo.after_nil]
  exact ⟨h0, h1, h2, h3, h4, h5, h6, h7, h8, h9, h10, h11, h12, h13, h14, h15, h16⟩

/-- List 12 does not write the third layer's output. -/
theorem w12_v155 (V : Val) : StableHlo.after (w12 (F := Ideal)) V (r main_v155) = V (r main_v155) := by
  simp only [w12, StableHlo.after_cons, StableHlo.after_nil]
  rfl

/-- The logistic function of the two-layer gate on the third layer's output: `1 / (1 + exp (-·))`. -/
theorem w12_v170 (V : Val) :
    StableHlo.after (w12 (F := Ideal)) V (r main_v170) = Spec.fAttn (V (r main_v155)) (V (r main_arg9)) (Spec.fAsRow32 (V (r main_arg10))) (V (r main_arg11)) (Spec.fAsRow1 (V (r main_arg12))) := by
  simp only [w12, StableHlo.after_cons, StableHlo.after_nil]
  rfl

/-- The gate. -/
theorem step12 (V : Val) (I : Spec.Inputs) (h : L11 V I) : L12 (StableHlo.after (w12 (F := Ideal)) V) I := by
  obtain ⟨ha, hv⟩ := h
  obtain ⟨a0, a1, a2, a3, a4, a5, a6, a7, a8, a9, a10, a11, a12, a13, a14, a15, a16⟩ := ha
  exact ⟨⟨w12_args V I ⟨a0, a1, a2, a3, a4, a5, a6, a7, a8, a9, a10, a11, a12, a13, a14, a15, a16⟩, (w12_v155 V).trans hv⟩,
    (w12_v170 V).trans (by rw [hv, a9, a10, a11, a12]; rfl)⟩

/-- List 13 writes none of the seventeen argument buffers. -/
theorem w13_args (V : Val) (I : Spec.Inputs) (h : Args V I) : Args (StableHlo.after (w13 (F := Ideal)) V) I := by
  obtain ⟨h0, h1, h2, h3, h4, h5, h6, h7, h8, h9, h10, h11, h12, h13, h14, h15, h16⟩ := h
  simp only [w13, StableHlo.after_cons, StableHlo.after_nil]
  exact ⟨h0, h1, h2, h3, h4, h5, h6, h7, h8, h9, h10, h11, h12, h13, h14, h15, h16⟩

/-- List 13 does not write the gate. -/
theorem w13_v170 (V : Val) : StableHlo.after (w13 (F := Ideal)) V (r main_v170) = V (r main_v170) := by
  simp only [w13, StableHlo.after_cons, StableHlo.after_nil]
  rfl

/-- The two-layer classifier on the third layer's output scaled by the gate. -/
theorem w13_v181 (V : Val) :
    StableHlo.after (w13 (F := Ideal)) V (r main_v181) = Spec.fLogits (V (r main_v155)) (V (r main_v170)) (V (r main_arg13)) (Spec.fAsRow32 (V (r main_arg14))) (V (r main_arg15)) (Spec.fAsRow4 (V (r main_arg16))) := by
  simp only [w13, StableHlo.after_cons, StableHlo.after_nil]
  rfl

/-- The logits. -/
theorem step13 (V : Val) (I : Spec.Inputs) (h : L12 V I) : L13 (StableHlo.after (w13 (F := Ideal)) V) I := by
  obtain ⟨⟨ha, hv⟩, hg⟩ := h
  obtain ⟨a0, a1, a2, a3, a4, a5, a6, a7, a8, a9, a10, a11, a12, a13, a14, a15, a16⟩ := ha
  exact ⟨w13_args V I ⟨a0, a1, a2, a3, a4, a5, a6, a7, a8, a9, a10, a11, a12, a13, a14, a15, a16⟩, (w13_v170 V).trans hg,
    (w13_v181 V).trans (by rw [hv, hg, a13, a14, a15, a16]; rfl)⟩

end Cert.RefSteps

end
-- ==== Proof.RefSteps0b.lean ====
/-
  The reference's stretches 2 and 4 of host operations, read as the network's stages: the edges' symmetric
  normalisation and the nodes' self weights from the inverse root degrees (each node index read with the wrap-around),
  and the first layer's aggregation, self term and bias. For each stretch: the values it leaves in the buffers later
  stages read, as stage functions of the buffers it reads; that it leaves the arguments and the earlier values alone;
  and from these the step of the invariant chain.
-/
import proofs.«403540_j78005196030173_1_alg».proof.Proof.RefLive

set_option maxRecDepth 8192
set_option maxHeartbeats 400000

noncomputable section

namespace Cert.RefStepsB

open Idealize.ShloMosaic Idealize.SL.Sem Cert.ReferenceIdeal Cert.RefOps Cert.RefLive

variable [Cert.ReferenceIdeal.Facts]

/- Row sums, gathers, scattered sums and matrix products stay closed throughout: both sides of every equation below
   carry them applied to the same operands, and no equation looks inside them. -/
attribute [local irreducible] Host.reduceAdd Host.gather Host.scatterAdd Ideal.matmul

/-! ## The edges' and the nodes' normalisations (list 2) -/

/-- List 2 writes none of the seventeen argument buffers. -/
theorem w2_args (V : Val) (I : Spec.Inputs) (h : Args V I) : Args (StableHlo.after (w2 (F := Ideal)) V) I := by
  obtain ⟨h0, h1, h2, h3, h4, h5, h6, h7, h8, h9, h10, h11, h12, h13, h14, h15, h16⟩ := h
  simp only [w2, StableHlo.after_cons, StableHlo.after_nil]
  exact ⟨h0, h1, h2, h3, h4, h5, h6, h7, h8, h9, h10, h11, h12, h13, h14, h15, h16⟩

/-- List 2 does not write the edges' sources. -/
theorem w2_v1 (V : Val) : StableHlo.after (w2 (F := Ideal)) V (r main_v1) = V (r main_v1) := by
  simp only [w2, StableHlo.after_cons, StableHlo.after_nil]
  rfl

/-- List 2 does not write the edges' destinations. -/
theorem w2_v3 (V : Val) : StableHlo.after (w2 (F := Ideal)) V (r main_v3) = V (r main_v3) := by
  simp only [w2, StableHlo.after_cons, StableHlo.after_nil]
  rfl

/-- List 2 does not write the projected features. -/
theorem w2_v8 (V : Val) : StableHlo.after (w2 (F := Ideal)) V (r main_v8) = V (r main_v8) := by
  simp only [w2, StableHlo.after_cons, StableHlo.after_nil]
  rfl

/-- The inverse root degree at each edge's wrapped source, times the edge's weight, times the inverse root degree at its
    wrapped destination. -/
theorem w2_v38 (V : Val) :
    StableHlo.after (w2 (F := Ideal)) V (r main_v38)
      = Spec.fNrm (V (r main_v1)) (V (r main_v3)) (V (r main_v13)) (V (r main_v22)) := by
  simp only [w2]
  after_results_simp
  simp only [Spec.fNrm, Spec.fAt, Spec.fWrap]

/-- The inverse root degree times itself. -/
theorem w2_v39 (V : Val) :
    StableHlo.after (w2 (F := Ideal)) V (r main_v39) = Spec.fSn (V (r main_v22)) := by
  simp only [w2]
  after_results_simp
  simp only [Spec.fSn]

/-- The edge data. -/
theorem step2 (V : Val) (I : Spec.Inputs) (h : L1 V I) : L2 (StableHlo.after (w2 (F := Ideal)) V) I := by
  obtain ⟨⟨ha, e1, e3, e8, e13⟩, e22⟩ := h
  exact ⟨w2_args V I ha,
    ⟨(w2_v1 V).trans e1, (w2_v3 V).trans e3, (w2_v38 V).trans (by rw [e1, e3, e13, e22]; rfl),
      (w2_v39 V).trans (by rw [e22]; rfl)⟩,
    (w2_v8 V).trans e8⟩

/-! ## The first layer's linear map (list 3) -/

/-- List 3 writes none of the seventeen argument buffers. -/
theorem w3_args (V : Val) (I : Spec.Inputs) (h : Args V I) : Args (StableHlo.after (w3 (F := Ideal)) V) I := by
  obtain ⟨h0, h1, h2, h3, h4, h5, h6, h7, h8, h9, h10, h11, h12, h13, h14, h15, h16⟩ := h
  simp only [w3, StableHlo.after_cons, StableHlo.after_nil]
  exact ⟨h0, h1, h2, h3, h4, h5, h6, h7, h8, h9, h10, h11, h12, h13, h14, h15, h16⟩

/-- List 3 writes none of the four edge buffers. -/
theorem w3_edges (V : Val) (I : Spec.Inputs) (h : Edges V I) : Edges (StableHlo.after (w3 (F := Ideal)) V) I := by
  obtain ⟨h0, h1, h2, h3⟩ := h
  simp only [w3, StableHlo.after_cons, StableHlo.after_nil]
  exact ⟨h0, h1, h2, h3⟩

/-- List 3 does not write the projected features. -/
theorem w3_v8 (V : Val) : StableHlo.after (w3 (F := Ideal)) V (r main_v8) = V (r main_v8) := by
  simp only [w3, StableHlo.after_cons, StableHlo.after_nil]
  rfl

/-- The product of the projected features with slice 0 of the layer matrices. -/
theorem w3_v42 (V : Val) :
    StableHlo.after (w3 (F := Ideal)) V (r main_v42) = Spec.fHw (V (r main_v8)) (Spec.fWg0 (V (r main_arg7))) := by
  simp only [w3, StableHlo.after_cons, StableHlo.after_nil]
  rfl

/-- The first layer's linear map. -/
theorem step3 (V : Val) (I : Spec.Inputs) (h : L2 V I) : L3 (StableHlo.after (w3 (F := Ideal)) V) I := by
  obtain ⟨ha, he, hv⟩ := h
  have h7 := ha.2.2.2.2.2.2.2.1
  exact ⟨⟨w3_args V I ha, w3_edges V I he, (w3_v8 V).trans hv⟩, (w3_v42 V).trans (by rw [hv, h7])⟩

/-! ## The first layer's value before the normalisation (list 4) -/

/-- List 4 writes none of the seventeen argument buffers. -/
theorem w4_args (V : Val) (I : Spec.Inputs) (h : Args V I) : Args (StableHlo.after (w4 (F := Ideal)) V) I := by
  obtain ⟨h0, h1, h2, h3, h4, h5, h6, h7, h8, h9, h10, h11, h12, h13, h14, h15, h16⟩ := h
  simp only [w4, StableHlo.after_cons, StableHlo.after_nil]
  exact ⟨h0, h1, h2, h3, h4, h5, h6, h7, h8, h9, h10, h11, h12, h13, h14, h15, h16⟩

/-- List 4 writes none of the four edge buffers. -/
theorem w4_edges (V : Val) (I : Spec.Inputs) (h : Edges V I) : Edges (StableHlo.after (w4 (F := Ideal)) V) I := by
  obtain ⟨h0, h1, h2, h3⟩ := h
  simp only [w4, StableHlo.after_cons, StableHlo.after_nil]
  exact ⟨h0, h1, h2, h3⟩

/-- The rows of the linear map at the edges' sources, scaled by the edges' weights and summed into their destinations, plus
    the map scaled by the self weight, plus row 0 of the layer biases. -/
theorem w4_v64 (V : Val) :
    StableHlo.after (w4 (F := Ideal)) V (r main_v64)
      = Spec.fOut (Spec.fAggOf (Spec.fRows (V (r main_v42)) (V (r main_v1))) (V (r main_v38)) (V (r main_v3)))
        (V (r main_v42)) (Spec.fAsCol (V (r main_v39))) (Spec.fAsRow64 (Spec.fBg0 (V (r main_arg8)))) := by
  simp only [w4]
  after_results_simp
  simp only [Spec.fOut, Spec.fAggOf, Spec.fRows, Spec.fAsCol, Spec.fAsRow64, Spec.fBg0, Spec.fCol64, Spec.fRow64, Spec.fZero64, Spec.fWrap]
  rfl

/-- The first layer's value before the normalisation. -/
theorem step4 (V : Val) (I : Spec.Inputs) (h : L3 V I) : L4 (StableHlo.after (w4 (F := Ideal)) V) I := by
  obtain ⟨⟨ha, he, hv⟩, hw⟩ := h
  have h8 := ha.2.2.2.2.2.2.2.2.1
  obtain ⟨e1, e3, e38, e39⟩ := he
  exact ⟨w4_args V I ha, w4_edges V I ⟨e1, e3, e38, e39⟩,
    (w4_v64 V).trans (by rw [hw, e1, e3, e38, e39, h8]; rfl)⟩

end Cert.RefStepsB

end
-- ==== Proof.RefAll.lean ====
/-
  The reference's run read as values: the fourteen steps composed from the launch contents, so that its two results are
  the network's logits and gate of the inputs in its argument buffers, and the arguments end as launched.
-/
import proofs.«403540_j78005196030173_1_alg».proof.Proof.RefRun
import proofs.«403540_j78005196030173_1_alg».proof.Proof.RefSteps0
import proofs.«403540_j78005196030173_1_alg».proof.Proof.RefSteps1
import proofs.«403540_j78005196030173_1_alg».proof.Proof.RefSteps0b
import proofs.«403540_j78005196030173_1_alg».proof.Proof.Gen.ReferenceIdeal

noncomputable section

namespace Cert.RefAll

open Idealize.ShloMosaic Idealize.ShloMosaic.TcCoe Idealize.SL.Sem Idealize.ShloMosaic.StableHlo Cert.ReferenceIdeal Cert.RefOps Cert.RefLive

/-- A valuation's argument buffers hold its own inputs. -/
theorem args_self (V : Val) : Args V (inputsOf V) :=
  ⟨rfl, rfl, rfl, rfl, rfl, rfl, rfl, rfl, rfl, rfl, rfl, rfl, rfl, rfl, rfl, rfl, rfl⟩

/-- After all fourteen lists the buffers hold the gate and the logits of the starting contents' inputs. -/
theorem all_steps (V : Val) : L13 (after (RefRun.ops (F := Ideal)) V) (inputsOf V) := by
  rw [RefRun.after_ops]
  exact RefSteps.step13 _ _ (RefSteps.step12 _ _ (RefSteps.step11 _ _ (RefSteps.step10 _ _ (RefSteps.step9 _ _ (RefSteps.step8 _ _
    (RefSteps.step7 _ _ (RefSteps.step6 _ _ (RefSteps.step5 _ _ (RefStepsB.step4 _ _ (RefSteps.step3 _ _ (RefStepsB.step2 _ _
    (RefSteps.step1 _ _ (RefSteps.step0 V _ (args_self V))))))))))))))

/-- The inputs the reference's launch memory holds on core `c`. -/
abbrev inputsAt (m : (ℓ : Loc nD τ sig) → Buf (Elt Ideal) ℓ) (c : Dev nD) : Spec.Inputs := inputsOf (launchContents m c)

/-- Every weakly fair execution of the reference terminates with its two results at the network's logits and gate of the
    launch's inputs, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v181) = Spec.vLogits (inputsAt m c)
      ∧ r.2.mem ((c.tc : Thread nD τ).loc main_v170) = Spec.vAttn (inputsAt m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun r h c => by
      obtain ⟨⟨a0, a1, a2, a3, a4, a5, a6, a7, a8, a9, a10, a11, a12, a13, a14, a15, a16⟩, hat, hlg⟩ := all_steps (launchContents m c)
      exact ⟨(h c main_v181).trans hlg, (h c main_v170).trans hat,
        (h c main_arg0).trans a0, (h c main_arg1).trans a1, (h c main_arg2).trans a2, (h c main_arg3).trans a3,
        (h c main_arg4).trans a4, (h c main_arg5).trans a5, (h c main_arg6).trans a6, (h c main_arg7).trans a7,
        (h c main_arg8).trans a8, (h c main_arg9).trans a9, (h c main_arg10).trans a10, (h c main_arg11).trans a11,
        (h c main_arg12).trans a12, (h c main_arg13).trans a13, (h c main_arg14).trans a14, (h c main_arg15).trans a15,
        (h c main_arg16).trans a16⟩)
    (RefRun.run m ρ)

end Cert.RefAll

end
-- ==== Proof.lean ====
/-
  A graph network — an input projection, three normalised graph-convolution layers (the second and third with a residual),
  a logistic gate and a small classifier — written once with eight blocked TensorCore regions among the host's gathers and
  segment sums, and once on the host alone. On the extended reals both compute the same named values (Proof/Spec.lean) of
  the inputs, stage by stage: a blocked matmul into a zero accumulator is the host's contraction; multiplying a row sum by
  the pattern 1/64 is dividing it by 64; the logistic is 1 / (1 + exp (-·)); adding a zero bias row changes nothing. The
  one place the two programs part is the gather of a layer's rows at the edges' sources, which the kernel program guards
  (an entry whose source is not a node is filled with a fixed pattern) and the host does not: under the precondition's
  range conjunct, 0 ≤ source < 100000, the guard never fires and the two gathers are one.
  The kernel program's frames are the launch of its eight regions (generated); its values are read off the same launch's
  boundary contents, layer by layer (Proof/KEntry1, KLayer0, KLayer1, KLayer2 over the regions' values in KAffine,
  KCombine, KHead); the reference's run is one straight line of host operations, read in fourteen stretches (Proof/RefRun,
  RefSteps0, RefSteps1, RefAll).
-/
import proofs.«403540_j78005196030173_1_alg».proof.Defs
import proofs.«403540_j78005196030173_1_alg».proof.Proof.Gen.Kernel
import proofs.«403540_j78005196030173_1_alg».proof.Proof.Gen.Kernel.Skeleton
import proofs.«403540_j78005196030173_1_alg».proof.Proof.Gen.Kernel.Launch
import proofs.«403540_j78005196030173_1_alg».proof.Proof.Gen.Kernel.Points
import proofs.«403540_j78005196030173_1_alg».proof.Proof.Gen.Kernel.Frame
import proofs.«403540_j78005196030173_1_alg».proof.Proof.Gen.KernelIdeal
import proofs.«403540_j78005196030173_1_alg».proof.Proof.Gen.KernelIdeal.Skeleton
import proofs.«403540_j78005196030173_1_alg».proof.Proof.Gen.KernelIdeal.Launch
import proofs.«403540_j78005196030173_1_alg».proof.Proof.Gen.KernelIdeal.Points
import proofs.«403540_j78005196030173_1_alg».proof.Proof.Gen.KernelIdeal.Frame
import proofs.«403540_j78005196030173_1_alg».proof.Proof.Gen.ReferenceIdeal
import proofs.«403540_j78005196030173_1_alg».proof.Proof.Gen.Pre_finite_inputs
import proofs.«403540_j78005196030173_1_alg».proof.Proof.KRun
import proofs.«403540_j78005196030173_1_alg».proof.Proof.KEntry1
import proofs.«403540_j78005196030173_1_alg».proof.Proof.KLayer0
import proofs.«403540_j78005196030173_1_alg».proof.Proof.KLayer1
import proofs.«403540_j78005196030173_1_alg».proof.Proof.KLayer2
import proofs.«403540_j78005196030173_1_alg».proof.Proof.PreDecode
import proofs.«403540_j78005196030173_1_alg».proof.Proof.RefAll
import Idealize.ShloMosaic.Adequacy
import Idealize.ShloMosaic.Init

noncomputable section

namespace Cert.Proof

open Idealize.ShloMosaic Idealize.ShloMosaic.TcCoe Idealize.SL.Sem

/-- The kernel program's run as values: under the precondition its two results are the network's logits and gate of the
    launch's inputs (the range conjunct feeds the three guarded gathers), the arguments unchanged. -/
theorem kernel_run (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v93_0) = Spec.vLogits (KLive.inputsOf m c)
        ∧ r.2.mem ((c.tc : Thread Cert.KernelIdeal.nD Cert.KernelIdeal.τ).loc Cert.KernelIdeal.main_v93_1) = Spec.vAttn (KLive.inputsOf m c)
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
        ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
        ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
        ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
        ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
        ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
        ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
        ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)) :=
  (θ_run (Cert.KernelIdeal.defs (F := Ideal)) _ _).mono (fun r h c => by
      have hr := Cert.PreDecode.src_in_range m hpre c
      have hf := Cert.KLayer2.final m ρ c _ (Cert.KLayer1.entry5 m ρ c _ (Cert.KLayer0.entry3 m ρ c _ (Cert.KEntry1.entry1 m ρ c) hr) hr) hr
      exact ⟨(h c).1.trans hf.1, (h c).2.1.trans hf.2, (h c).2.2⟩)
    (Cert.KernelIdeal.GenRun.run_values (F := Ideal) m ρ)

/-- Memories that agree on the seventeen arguments hold the same inputs. -/
theorem inputs_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) :
    RefAll.inputsAt m' c = KLive.inputsOf m c := by
  obtain ⟨h0, h1, h2, h3, h4, h5, h6, h7, h8, h9, h10, h11, h12, h13, h14, h15, h16⟩ := h
  simp only [RefAll.inputsAt, RefLive.inputsOf, KLive.inputsOf, Spec.Inputs.mk.injEq]
  exact ⟨h0, h1, h2, h3, h4, h5, h6, h7, h8, h9, h10, h11, h12, h13, h14, h15, h16⟩

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run (Cert.ReferenceIdeal.defs (F := Ideal)) _ _).mono (fun _ h c => (h c).2.2) (Cert.RefAll.run m ρ),
  trivial,
  fun m ρ m' ρ' hpre hagree =>
    ⟨fun c => Spec.vLogits (KLive.inputsOf m c), fun c => Spec.vAttn (KLive.inputsOf m c), kernel_run m ρ hpre,
      (θ_run (Cert.ReferenceIdeal.defs (F := Ideal)) _ _).mono (fun _ h c => by
          have e := inputs_agree m m' c (hagree c)
          exact ⟨(h c).1.trans (congrArg Spec.vLogits e), (h c).2.1.trans (congrArg Spec.vAttn e), (h c).2.2⟩)
        (Cert.RefAll.run m' ρ')⟩⟩

end Cert.Proof

end
